-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v398)) (v1 : (c : Dev Cert.KernelIdeal.nD) → Buf (Elt Ideal) ((c.tc : Thread Cert.KernelIdeal.nD Cert.KernelIdeal.τ).loc Cert.KernelIdeal.main_v395)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v398) = v0 c
          ∧ r.2.mem ((c.tc : Thread Cert.KernelIdeal.nD Cert.KernelIdeal.τ).loc Cert.KernelIdeal.main_v395) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v397) = v0 c
          ∧ r.2.mem ((c.tc : Thread Cert.ReferenceIdeal.nD Cert.ReferenceIdeal.τ).loc Cert.ReferenceIdeal.main_v395) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256x64 : Shape := ⟨2, ![256, 64]⟩
abbrev S64x64 : Shape := ⟨2, ![64, 64]⟩
abbrev S64x32 : Shape := ⟨2, ![64, 32]⟩
abbrev S32x10 : Shape := ⟨2, ![32, 10]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32x10 : S_.BroadcastsInDim S32x10 (![] : Fin 0 → Fin S32x10.rank)
  reducesTo_S32x10_S_d0_1 : S32x10.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S64x64 .f32) (main_arg16 : FVec F S64x32 .f32) (main_arg17 : FVec F S32x10 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x32 .f32 := Host.absf main_arg16
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32x10 .f32 := Host.absf main_arg17
  let main_cst_24 : FVec F S_ .f32 := constant S_ .f32 0x7F800000#32
  let main_v65 : FVec F S32x10 .f32 := broadcastInDim S32x10 ![] bcast_S_S32x10 main_cst_24
  let main_v66 : IVec S32x10 1 := cmpf .olt main_v64 main_v65
  let main_c_25 : IVec S_ 1 := constantI S_ 1 1#1
  let main_v67 : IVec S_ 1 := (fun x v => Host.reduce IntOp.andi x v reducesTo_S32x10_S_d0_1 h_S_) main_v66 main_c_25
  fn_part4 (F := F) main_v63 main_v67

def fn_part2 {F : FTy → Type} [FloatOps F] (main_arg11 : FVec F S512x256 .f32) (main_arg12 : FVec F S256x64 .f32) (main_arg13 : FVec F S64x64 .f32) (main_arg14 : FVec F S64x64 .f32) (main_arg15 : FVec F S64x64 .f32) (main_arg16 : FVec F S64x32 .f32) (main_arg17 : FVec F S32x10 .f32) (main_v33 : IVec S_ 1) : IVec S_ 1 :=
  let main_v34 : FVec F S512x256 .f32 := Host.absf main_arg11
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256x64 .f32 := Host.absf main_arg12
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_v48 main_v49 main_v50

def fn_part1 {F : FTy → Type} [FloatOps F] (main_arg8 : FVec F S256x64 .f32) (main_arg9 : FVec F S512x256 .f32) (main_arg10 : FVec F S256x64 .f32) (main_arg11 : FVec F S512x256 .f32) (main_arg12 : FVec F S256x64 .f32) (main_arg13 : FVec F S64x64 .f32) (main_arg14 : FVec F S64x64 .f32) (main_arg15 : FVec F S64x64 .f32) (main_arg16 : FVec F S64x32 .f32) (main_arg17 : FVec F S32x10 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x64 .f32 := Host.absf main_arg8
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S512x256 .f32 := Host.absf main_arg9
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256x64 .f32 := Host.absf main_arg10
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S10000x512 .f32) (main_arg1 : FVec F S10000x512 .f32) (main_arg2 : FVec F S10000x512 .f32) (main_arg3 : IVec S2x320000 32) (main_arg4 : IVec S2x320000 32) (main_arg5 : IVec S2x320000 32) (main_arg6 : IVec S2x320000 32) (main_arg7 : FVec F S512x256 .f32) (main_arg8 : FVec F S256x64 .f32) (main_arg9 : FVec F S512x256 .f32) (main_arg10 : FVec F S256x64 .f32) (main_arg11 : FVec F S512x256 .f32) (main_arg12 : FVec F S256x64 .f32) (main_arg13 : FVec F S64x64 .f32) (main_arg14 : FVec F S64x64 .f32) (main_arg15 : FVec F S64x64 .f32) (main_arg16 : FVec F S64x32 .f32) (main_arg17 : FVec F S32x10 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S10000x512 .f32 := Host.absf main_arg2
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S512x256 .f32 := Host.absf main_arg7
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg8 main_arg9 main_arg10 main_arg11 main_arg12 main_arg13 main_arg14 main_arg15 main_arg16 main_arg17 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256x64 : Shape := ⟨2, ![256, 64]⟩
abbrev S64x64 : Shape := ⟨2, ![64, 64]⟩
abbrev S64x32 : Shape := ⟨2, ![64, 32]⟩
abbrev S32x10 : Shape := ⟨2, ![32, 10]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x256 : Shape := ⟨2, ![10000, 256]⟩
abbrev S320000x256 : Shape := ⟨2, ![320000, 256]⟩
abbrev S10000x1 : Shape := ⟨2, ![10000, 1]⟩
abbrev S10000x64 : Shape := ⟨2, ![10000, 64]⟩
abbrev S320000x64 : Shape := ⟨2, ![320000, 64]⟩
abbrev S330000 : Shape := ⟨1, ![330000]⟩
abbrev S330000x1 : Shape := ⟨2, ![330000, 1]⟩
abbrev S10000x32 : Shape := ⟨2, ![10000, 32]⟩
abbrev S330000x32 : Shape := ⟨2, ![330000, 32]⟩
abbrev S10000x10 : Shape := ⟨2, ![10000, 10]⟩
abbrev S330000x10 : Shape := ⟨2, ![330000, 10]⟩
abbrev S10240x10 : Shape := ⟨2, ![10240, 10]⟩
abbrev S10240x10240 : Shape := ⟨2, ![10240, 10240]⟩
abbrev S2048x10 : Shape := ⟨2, ![2048, 10]⟩
abbrev S1024x10 : Shape := ⟨2, ![1024, 10]⟩
abbrev S2048x1024 : Shape := ⟨2, ![2048, 1024]⟩
abbrev S10000x10000 : Shape := ⟨2, ![10000, 10000]⟩

abbrev nBuf : Space → Nat
  | .hbm => 576
  | .vmem => 6
  | .smem => 0
  | _ => 0

abbrev hbmTy0_0 (i : Nat) : BufTy := match i % 128 with
  | 0 => ⟨S10000x512, .f32⟩
  | 1 => ⟨S10000x512, .f32⟩
  | 2 => ⟨S10000x512, .f32⟩
  | 3 => ⟨S2x320000, .i32⟩
  | 4 => ⟨S2x320000, .i32⟩
  | 5 => ⟨S2x320000, .i32⟩
  | 6 => ⟨S2x320000, .i32⟩
  | 7 => ⟨S512x256, .f32⟩
  | 8 => ⟨S256x64, .f32⟩
  | 9 => ⟨S512x256, .f32⟩
  | 10 => ⟨S256x64, .f32⟩
  | 11 => ⟨S512x256, .f32⟩
  | 12 => ⟨S256x64, .f32⟩
  | 13 => ⟨S64x64, .f32⟩
  | 14 => ⟨S64x64, .f32⟩
  | 15 => ⟨S64x64, .f32⟩
  | 16 => ⟨S64x32, .f32⟩
  | 17 => ⟨S32x10, .f32⟩
  | 18 => ⟨S1x320000, .i32⟩
  | 19 => ⟨S320000, .i32⟩
  | 20 => ⟨S1x320000, .i32⟩
  | 21 => ⟨S320000, .i32⟩
  | 22 => ⟨S_, .f32⟩
  | 23 => ⟨S320000, .f32⟩
  | 24 => ⟨S_, .f32⟩
  | 25 => ⟨S10000, .f32⟩
  | 26 => ⟨S320000x1, .i32⟩
  | 27 => ⟨S10000, .f32⟩
  | 28 => ⟨S_, .f32⟩
  | 29 => ⟨S10000, .f32⟩
  | 30 => ⟨S320000x1, .i32⟩
  | 31 => ⟨S10000, .f32⟩
  | 32 => ⟨S_, .f32⟩
  | 33 => ⟨S10000, .f32⟩
  | 34 => ⟨S10000, .i1⟩
  | 35 => ⟨S_, .f32⟩
  | 36 => ⟨S10000, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S_, .f32⟩
  | 44 => ⟨S10000, .f32⟩
  | 45 => ⟨S10000, .i1⟩
  | 46 => ⟨S_, .f32⟩
  | 47 => ⟨S10000, .f32⟩
  | 48 => ⟨S10000, .f32⟩
  | 49 => ⟨S10000, .f32⟩
  | 50 => ⟨S_, .f32⟩
  | 51 => ⟨S_, .f32⟩
  | 52 => ⟨S10000, .f32⟩
  | 53 => ⟨S10000, .f32⟩
  | 54 => ⟨S10000x256, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000, .f32⟩
  | 73 => ⟨S320000x1, .f32⟩
  | 74 => ⟨S320000x256, .f32⟩
  | 75 => ⟨S320000x256, .f32⟩
  | 76 => ⟨S_, .f32⟩
  | 77 => ⟨S10000x256, .f32⟩
  | 78 => ⟨S320000x1, .i32⟩
  | 79 => ⟨S10000x256, .f32⟩
  | 80 => ⟨S10000x1, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S1x320000, .i32⟩
  | 87 => ⟨S320000, .i32⟩
  | 88 => ⟨S1x320000, .i32⟩
  | 89 => ⟨S320000, .i32⟩
  | 90 => ⟨S_, .f32⟩
  | 91 => ⟨S320000, .f32⟩
  | 92 => ⟨S_, .f32⟩
  | 93 => ⟨S10000, .f32⟩
  | 94 => ⟨S320000x1, .i32⟩
  | 95 => ⟨S10000, .f32⟩
  | 96 => ⟨S_, .f32⟩
  | 97 => ⟨S10000, .f32⟩
  | 98 => ⟨S320000x1, .i32⟩
  | 99 => ⟨S10000, .f32⟩
  | 100 => ⟨S_, .f32⟩
  | 101 => ⟨S10000, .f32⟩
  | 102 => ⟨S10000, .i1⟩
  | 103 => ⟨S_, .f32⟩
  | 104 => ⟨S10000, .f32⟩
  | 105 => ⟨S10000, .f32⟩
  | 106 => ⟨S10000, .f32⟩
  | 107 => ⟨S_, .f32⟩
  | 108 => ⟨S_, .f32⟩
  | 109 => ⟨S10000, .f32⟩
  | 110 => ⟨S10000, .f32⟩
  | 111 => ⟨S_, .f32⟩
  | 112 => ⟨S10000, .f32⟩
  | 113 => ⟨S10000, .i1⟩
  | 114 => ⟨S_, .f32⟩
  | 115 => ⟨S10000, .f32⟩
  | 116 => ⟨S10000, .f32⟩
  | 117 => ⟨S10000, .f32⟩
  | 118 => ⟨S_, .f32⟩
  | 119 => ⟨S_, .f32⟩
  | 120 => ⟨S10000, .f32⟩
  | 121 => ⟨S10000, .f32⟩
  | 122 => ⟨S10000x64, .f32⟩
  | 123 => ⟨S_, .i32⟩
  | 124 => ⟨S320000, .i32⟩
  | 125 => ⟨S320000, .i1⟩
  | 126 => ⟨S_, .i32⟩
  | 127 => ⟨S320000, .i32⟩
  | _ => ⟨S10000x512, .f32⟩

abbrev hbmTy0_1 (i : Nat) : BufTy := match i % 128 with
  | 0 => ⟨S320000, .i32⟩
  | 1 => ⟨S320000, .i32⟩
  | 2 => ⟨S320000x1, .i32⟩
  | 3 => ⟨S320000x64, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000, .f32⟩
  | 13 => ⟨S320000x1, .f32⟩
  | 14 => ⟨S320000x64, .f32⟩
  | 15 => ⟨S320000x64, .f32⟩
  | 16 => ⟨S_, .f32⟩
  | 17 => ⟨S10000x64, .f32⟩
  | 18 => ⟨S320000x1, .i32⟩
  | 19 => ⟨S10000x64, .f32⟩
  | 20 => ⟨S10000x1, .f32⟩
  | 21 => ⟨S10000x64, .f32⟩
  | 22 => ⟨S10000x64, .f32⟩
  | 23 => ⟨S1x320000, .i32⟩
  | 24 => ⟨S320000, .i32⟩
  | 25 => ⟨S1x320000, .i32⟩
  | 26 => ⟨S320000, .i32⟩
  | 27 => ⟨S_, .f32⟩
  | 28 => ⟨S320000, .f32⟩
  | 29 => ⟨S_, .f32⟩
  | 30 => ⟨S10000, .f32⟩
  | 31 => ⟨S320000x1, .i32⟩
  | 32 => ⟨S10000, .f32⟩
  | 33 => ⟨S_, .f32⟩
  | 34 => ⟨S10000, .f32⟩
  | 35 => ⟨S320000x1, .i32⟩
  | 36 => ⟨S10000, .f32⟩
  | 37 => ⟨S_, .f32⟩
  | 38 => ⟨S10000, .f32⟩
  | 39 => ⟨S10000, .i1⟩
  | 40 => ⟨S_, .f32⟩
  | 41 => ⟨S10000, .f32⟩
  | 42 => ⟨S10000, .f32⟩
  | 43 => ⟨S10000, .f32⟩
  | 44 => ⟨S_, .f32⟩
  | 45 => ⟨S_, .f32⟩
  | 46 => ⟨S10000, .f32⟩
  | 47 => ⟨S10000, .f32⟩
  | 48 => ⟨S_, .f32⟩
  | 49 => ⟨S10000, .f32⟩
  | 50 => ⟨S10000, .i1⟩
  | 51 => ⟨S_, .f32⟩
  | 52 => ⟨S10000, .f32⟩
  | 53 => ⟨S10000, .f32⟩
  | 54 => ⟨S10000, .f32⟩
  | 55 => ⟨S_, .f32⟩
  | 56 => ⟨S_, .f32⟩
  | 57 => ⟨S10000, .f32⟩
  | 58 => ⟨S10000, .f32⟩
  | 59 => ⟨S10000x256, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x256, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000, .f32⟩
  | 78 => ⟨S320000x1, .f32⟩
  | 79 => ⟨S320000x256, .f32⟩
  | 80 => ⟨S320000x256, .f32⟩
  | 81 => ⟨S_, .f32⟩
  | 82 => ⟨S10000x256, .f32⟩
  | 83 => ⟨S320000x1, .i32⟩
  | 84 => ⟨S10000x256, .f32⟩
  | 85 => ⟨S10000x1, .f32⟩
  | 86 => ⟨S10000x256, .f32⟩
  | 87 => ⟨S10000x256, .f32⟩
  | 88 => ⟨S_, .f32⟩
  | 89 => ⟨S10000x256, .f32⟩
  | 90 => ⟨S10000x256, .f32⟩
  | 91 => ⟨S1x320000, .i32⟩
  | 92 => ⟨S320000, .i32⟩
  | 93 => ⟨S1x320000, .i32⟩
  | 94 => ⟨S320000, .i32⟩
  | 95 => ⟨S_, .f32⟩
  | 96 => ⟨S320000, .f32⟩
  | 97 => ⟨S_, .f32⟩
  | 98 => ⟨S10000, .f32⟩
  | 99 => ⟨S320000x1, .i32⟩
  | 100 => ⟨S10000, .f32⟩
  | 101 => ⟨S_, .f32⟩
  | 102 => ⟨S10000, .f32⟩
  | 103 => ⟨S320000x1, .i32⟩
  | 104 => ⟨S10000, .f32⟩
  | 105 => ⟨S_, .f32⟩
  | 106 => ⟨S10000, .f32⟩
  | 107 => ⟨S10000, .i1⟩
  | 108 => ⟨S_, .f32⟩
  | 109 => ⟨S10000, .f32⟩
  | 110 => ⟨S10000, .f32⟩
  | 111 => ⟨S10000, .f32⟩
  | 112 => ⟨S_, .f32⟩
  | 113 => ⟨S_, .f32⟩
  | 114 => ⟨S10000, .f32⟩
  | 115 => ⟨S10000, .f32⟩
  | 116 => ⟨S_, .f32⟩
  | 117 => ⟨S10000, .f32⟩
  | 118 => ⟨S10000, .i1⟩
  | 119 => ⟨S_, .f32⟩
  | 120 => ⟨S10000, .f32⟩
  | 121 => ⟨S10000, .f32⟩
  | 122 => ⟨S10000, .f32⟩
  | 123 => ⟨S_, .f32⟩
  | 124 => ⟨S_, .f32⟩
  | 125 => ⟨S10000, .f32⟩
  | 126 => ⟨S10000, .f32⟩
  | 127 => ⟨S10000x64, .f32⟩
  | _ => ⟨S10000x512, .f32⟩

abbrev hbmTy0_2 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000, .f32⟩
  | 18 => ⟨S320000x1, .f32⟩
  | 19 => ⟨S320000x64, .f32⟩
  | 20 => ⟨S320000x64, .f32⟩
  | 21 => ⟨S_, .f32⟩
  | 22 => ⟨S10000x64, .f32⟩
  | 23 => ⟨S320000x1, .i32⟩
  | 24 => ⟨S10000x64, .f32⟩
  | 25 => ⟨S10000x1, .f32⟩
  | 26 => ⟨S10000x64, .f32⟩
  | 27 => ⟨S10000x64, .f32⟩
  | 28 => ⟨S1x320000, .i32⟩
  | 29 => ⟨S320000, .i32⟩
  | 30 => ⟨S1x320000, .i32⟩
  | 31 => ⟨S320000, .i32⟩
  | 32 => ⟨S_, .f32⟩
  | 33 => ⟨S320000, .f32⟩
  | 34 => ⟨S_, .f32⟩
  | 35 => ⟨S10000, .f32⟩
  | 36 => ⟨S320000x1, .i32⟩
  | 37 => ⟨S10000, .f32⟩
  | 38 => ⟨S_, .f32⟩
  | 39 => ⟨S10000, .f32⟩
  | 40 => ⟨S320000x1, .i32⟩
  | 41 => ⟨S10000, .f32⟩
  | 42 => ⟨S_, .f32⟩
  | 43 => ⟨S10000, .f32⟩
  | 44 => ⟨S10000, .i1⟩
  | 45 => ⟨S_, .f32⟩
  | 46 => ⟨S10000, .f32⟩
  | 47 => ⟨S10000, .f32⟩
  | 48 => ⟨S10000, .f32⟩
  | 49 => ⟨S_, .f32⟩
  | 50 => ⟨S_, .f32⟩
  | 51 => ⟨S10000, .f32⟩
  | 52 => ⟨S10000, .f32⟩
  | 53 => ⟨S_, .f32⟩
  | 54 => ⟨S10000, .f32⟩
  | 55 => ⟨S10000, .i1⟩
  | 56 => ⟨S_, .f32⟩
  | 57 => ⟨S10000, .f32⟩
  | 58 => ⟨S10000, .f32⟩
  | 59 => ⟨S10000, .f32⟩
  | 60 => ⟨S_, .f32⟩
  | 61 => ⟨S_, .f32⟩
  | 62 => ⟨S10000, .f32⟩
  | 63 => ⟨S10000, .f32⟩
  | 64 => ⟨S10000x256, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x256, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000, .f32⟩
  | 83 => ⟨S320000x1, .f32⟩
  | 84 => ⟨S320000x256, .f32⟩
  | 85 => ⟨S320000x256, .f32⟩
  | 86 => ⟨S_, .f32⟩
  | 87 => ⟨S10000x256, .f32⟩
  | 88 => ⟨S320000x1, .i32⟩
  | 89 => ⟨S10000x256, .f32⟩
  | 90 => ⟨S10000x1, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S1x320000, .i32⟩
  | 97 => ⟨S320000, .i32⟩
  | 98 => ⟨S1x320000, .i32⟩
  | 99 => ⟨S320000, .i32⟩
  | 100 => ⟨S_, .f32⟩
  | 101 => ⟨S320000, .f32⟩
  | 102 => ⟨S_, .f32⟩
  | 103 => ⟨S10000, .f32⟩
  | 104 => ⟨S320000x1, .i32⟩
  | 105 => ⟨S10000, .f32⟩
  | 106 => ⟨S_, .f32⟩
  | 107 => ⟨S10000, .f32⟩
  | 108 => ⟨S320000x1, .i32⟩
  | 109 => ⟨S10000, .f32⟩
  | 110 => ⟨S_, .f32⟩
  | 111 => ⟨S10000, .f32⟩
  | 112 => ⟨S10000, .i1⟩
  | 113 => ⟨S_, .f32⟩
  | 114 => ⟨S10000, .f32⟩
  | 115 => ⟨S10000, .f32⟩
  | 116 => ⟨S10000, .f32⟩
  | 117 => ⟨S_, .f32⟩
  | 118 => ⟨S_, .f32⟩
  | 119 => ⟨S10000, .f32⟩
  | 120 => ⟨S10000, .f32⟩
  | 121 => ⟨S_, .f32⟩
  | 122 => ⟨S10000, .f32⟩
  | 123 => ⟨S10000, .i1⟩
  | 124 => ⟨S_, .f32⟩
  | 125 => ⟨S10000, .f32⟩
  | 126 => ⟨S10000, .f32⟩
  | 127 => ⟨S10000, .f32⟩
  | _ => ⟨S10000x512, .f32⟩

abbrev hbmTy0_3 (i : Nat) : BufTy := match i % 128 with
  | 0 => ⟨S_, .f32⟩
  | 1 => ⟨S_, .f32⟩
  | 2 => ⟨S10000, .f32⟩
  | 3 => ⟨S10000, .f32⟩
  | 4 => ⟨S10000x64, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x64, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000, .f32⟩
  | 23 => ⟨S320000x1, .f32⟩
  | 24 => ⟨S320000x64, .f32⟩
  | 25 => ⟨S320000x64, .f32⟩
  | 26 => ⟨S_, .f32⟩
  | 27 => ⟨S10000x64, .f32⟩
  | 28 => ⟨S320000x1, .i32⟩
  | 29 => ⟨S10000x64, .f32⟩
  | 30 => ⟨S10000x1, .f32⟩
  | 31 => ⟨S10000x64, .f32⟩
  | 32 => ⟨S10000x64, .f32⟩
  | 33 => ⟨S10000x64, .f32⟩
  | 34 => ⟨S10000x64, .f32⟩
  | 35 => ⟨S10000x64, .f32⟩
  | 36 => ⟨S10000x64, .f32⟩
  | 37 => ⟨S10000x64, .f32⟩
  | 38 => ⟨S_, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000x64, .f32⟩
  | 45 => ⟨S10000x64, .f32⟩
  | 46 => ⟨S10000x64, .f32⟩
  | 47 => ⟨S_, .f32⟩
  | 48 => ⟨S10000, .f32⟩
  | 49 => ⟨S10000x1, .f32⟩
  | 50 => ⟨S10000x64, .f32⟩
  | 51 => ⟨S10000x64, .f32⟩
  | 52 => ⟨S_, .f32⟩
  | 53 => ⟨S10000x64, .f32⟩
  | 54 => ⟨S10000x64, .f32⟩
  | 55 => ⟨S10000, .i32⟩
  | 56 => ⟨S1x320000, .i32⟩
  | 57 => ⟨S320000, .i32⟩
  | 58 => ⟨S330000, .i32⟩
  | 59 => ⟨S1x320000, .i32⟩
  | 60 => ⟨S320000, .i32⟩
  | 61 => ⟨S330000, .i32⟩
  | 62 => ⟨S_, .f32⟩
  | 63 => ⟨S330000, .f32⟩
  | 64 => ⟨S_, .f32⟩
  | 65 => ⟨S10000, .f32⟩
  | 66 => ⟨S330000x1, .i32⟩
  | 67 => ⟨S10000, .f32⟩
  | 68 => ⟨S_, .f32⟩
  | 69 => ⟨S10000, .f32⟩
  | 70 => ⟨S330000x1, .i32⟩
  | 71 => ⟨S10000, .f32⟩
  | 72 => ⟨S_, .f32⟩
  | 73 => ⟨S10000, .f32⟩
  | 74 => ⟨S10000, .i1⟩
  | 75 => ⟨S_, .f32⟩
  | 76 => ⟨S10000, .f32⟩
  | 77 => ⟨S10000, .f32⟩
  | 78 => ⟨S10000, .f32⟩
  | 79 => ⟨S_, .f32⟩
  | 80 => ⟨S_, .f32⟩
  | 81 => ⟨S10000, .f32⟩
  | 82 => ⟨S10000, .f32⟩
  | 83 => ⟨S_, .f32⟩
  | 84 => ⟨S10000, .f32⟩
  | 85 => ⟨S10000, .i1⟩
  | 86 => ⟨S_, .f32⟩
  | 87 => ⟨S10000, .f32⟩
  | 88 => ⟨S10000, .f32⟩
  | 89 => ⟨S10000, .f32⟩
  | 90 => ⟨S_, .f32⟩
  | 91 => ⟨S_, .f32⟩
  | 92 => ⟨S10000, .f32⟩
  | 93 => ⟨S10000, .f32⟩
  | 94 => ⟨S10000x32, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000x32, .f32⟩
  | 104 => ⟨S_, .i32⟩
  | 105 => ⟨S330000, .i32⟩
  | 106 => ⟨S330000, .i1⟩
  | 107 => ⟨S_, .i32⟩
  | 108 => ⟨S330000, .i32⟩
  | 109 => ⟨S330000, .i32⟩
  | 110 => ⟨S330000, .i32⟩
  | 111 => ⟨S330000x1, .i32⟩
  | 112 => ⟨S330000, .f32⟩
  | 113 => ⟨S330000x1, .f32⟩
  | 114 => ⟨S330000x32, .f32⟩
  | 115 => ⟨S330000x32, .f32⟩
  | 116 => ⟨S_, .f32⟩
  | 117 => ⟨S10000x32, .f32⟩
  | 118 => ⟨S330000x1, .i32⟩
  | 119 => ⟨S10000x32, .f32⟩
  | 120 => ⟨S10000x1, .f32⟩
  | 121 => ⟨S10000x32, .f32⟩
  | 122 => ⟨S10000x32, .f32⟩
  | 123 => ⟨S_, .f32⟩
  | 124 => ⟨S10000x32, .f32⟩
  | 125 => ⟨S10000x32, .f32⟩
  | 126 => ⟨S_, .f32⟩
  | 127 => ⟨S330000, .f32⟩
  | _ => ⟨S10000x512, .f32⟩

abbrev hbmTy0_4 (i : Nat) : BufTy := match i % 128 with
  | 0 => ⟨S_, .f32⟩
  | 1 => ⟨S10000, .f32⟩
  | 2 => ⟨S330000x1, .i32⟩
  | 3 => ⟨S10000, .f32⟩
  | 4 => ⟨S_, .f32⟩
  | 5 => ⟨S10000, .f32⟩
  | 6 => ⟨S330000x1, .i32⟩
  | 7 => ⟨S10000, .f32⟩
  | 8 => ⟨S_, .f32⟩
  | 9 => ⟨S10000, .f32⟩
  | 10 => ⟨S10000, .i1⟩
  | 11 => ⟨S_, .f32⟩
  | 12 => ⟨S10000, .f32⟩
  | 13 => ⟨S10000, .f32⟩
  | 14 => ⟨S10000, .f32⟩
  | 15 => ⟨S_, .f32⟩
  | 16 => ⟨S_, .f32⟩
  | 17 => ⟨S10000, .f32⟩
  | 18 => ⟨S10000, .f32⟩
  | 19 => ⟨S_, .f32⟩
  | 20 => ⟨S10000, .f32⟩
  | 21 => ⟨S10000, .i1⟩
  | 22 => ⟨S_, .f32⟩
  | 23 => ⟨S10000, .f32⟩
  | 24 => ⟨S10000, .f32⟩
  | 25 => ⟨S10000, .f32⟩
  | 26 => ⟨S_, .f32⟩
  | 27 => ⟨S_, .f32⟩
  | 28 => ⟨S10000, .f32⟩
  | 29 => ⟨S10000, .f32⟩
  | 30 => ⟨S10000x10, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000x10, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S330000x1, .f32⟩
  | 50 => ⟨S330000x10, .f32⟩
  | 51 => ⟨S330000x10, .f32⟩
  | 52 => ⟨S_, .f32⟩
  | 53 => ⟨S10000x10, .f32⟩
  | 54 => ⟨S330000x1, .i32⟩
  | 55 => ⟨S10000x10, .f32⟩
  | 56 => ⟨S10000x1, .f32⟩
  | 57 => ⟨S10000x10, .f32⟩
  | 58 => ⟨S10000x10, .f32⟩
  | 59 => ⟨S_, .i32⟩
  | 60 => ⟨S_, .f32⟩
  | 61 => ⟨S10240x10, .f32⟩
  | 62 => ⟨S10240x10240, .f32⟩
  | 63 => ⟨S10000x10000, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x512, .f32⟩

abbrev bufTy : (tb : Table) → Fin (tcTables nBuf tb) → BufTy
  | .hbm, ⟨i, _⟩ => hbmTy i
  | .local _ .vmem, ⟨0, _⟩ => ⟨S2048x10, .f32⟩
  | .local _ .vmem, ⟨1, _⟩ => ⟨S2048x10, .f32⟩
  | .local _ .vmem, ⟨2, _⟩ => ⟨S1024x10, .f32⟩
  | .local _ .vmem, ⟨3, _⟩ => ⟨S1024x10, .f32⟩
  | .local _ .vmem, ⟨4, _⟩ => ⟨S2048x1024, .f32⟩
  | .local _ .vmem, ⟨5, _⟩ => ⟨S2048x1024, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_9 : Ref sig .tc := ⟨.hbm, 64, rfl⟩
abbrev main_v31 : Ref sig .tc := ⟨.hbm, 65, rfl⟩
abbrev main_v32 : Ref sig .tc := ⟨.hbm, 66, rfl⟩
abbrev main_c_10 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call2_cst : Ref sig .tc := ⟨.hbm, 83, rfl⟩
abbrev main_call2_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_12 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_14 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_15 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_17 : Ref sig .tc := ⟨.hbm, 107, rfl⟩
abbrev main_call3_v0 : Ref sig .tc := ⟨.hbm, 108, rfl⟩
abbrev main_call3_v1 : Ref sig .tc := ⟨.hbm, 109, rfl⟩
abbrev main_v64 : Ref sig .tc := ⟨.hbm, 110, rfl⟩
abbrev main_cst_18 : Ref sig .tc := ⟨.hbm, 111, rfl⟩
abbrev main_v65 : Ref sig .tc := ⟨.hbm, 112, rfl⟩
abbrev main_v66 : Ref sig .tc := ⟨.hbm, 113, rfl⟩
abbrev main_cst_19 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_20 : Ref sig .tc := ⟨.hbm, 118, rfl⟩
abbrev main_call4_v0 : Ref sig .tc := ⟨.hbm, 119, rfl⟩
abbrev main_call4_v1 : Ref sig .tc := ⟨.hbm, 120, rfl⟩
abbrev main_v70 : Ref sig .tc := ⟨.hbm, 121, rfl⟩
abbrev main_v71 : Ref sig .tc := ⟨.hbm, 122, rfl⟩
abbrev main_c_21 : Ref sig .tc := ⟨.hbm, 123, rfl⟩
abbrev main_v72 : Ref sig .tc := ⟨.hbm, 124, rfl⟩
abbrev main_v73 : Ref sig .tc := ⟨.hbm, 125, rfl⟩
abbrev main_c_22 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_c_23 : Ref sig .tc := ⟨.hbm, 132, rfl⟩
abbrev main_v79 : Ref sig .tc := ⟨.hbm, 133, rfl⟩
abbrev main_v80 : Ref sig .tc := ⟨.hbm, 134, rfl⟩
abbrev main_c_24 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_25 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_26 : Ref sig .tc := ⟨.hbm, 155, rfl⟩
abbrev main_v99 : Ref sig .tc := ⟨.hbm, 156, rfl⟩
abbrev main_cst_27 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_28 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_29 : Ref sig .tc := ⟨.hbm, 165, rfl⟩
abbrev main_v106 : Ref sig .tc := ⟨.hbm, 166, rfl⟩
abbrev main_v107 : Ref sig .tc := ⟨.hbm, 167, rfl⟩
abbrev main_cst_30 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_31 : Ref sig .tc := ⟨.hbm, 172, rfl⟩
abbrev main_call5_v0 : Ref sig .tc := ⟨.hbm, 173, rfl⟩
abbrev main_call5_v1 : Ref sig .tc := ⟨.hbm, 174, rfl⟩
abbrev main_v111 : Ref sig .tc := ⟨.hbm, 175, rfl⟩
abbrev main_cst_32 : Ref sig .tc := ⟨.hbm, 176, rfl⟩
abbrev main_v112 : Ref sig .tc := ⟨.hbm, 177, rfl⟩
abbrev main_v113 : Ref sig .tc := ⟨.hbm, 178, rfl⟩
abbrev main_cst_33 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_34 : Ref sig .tc := ⟨.hbm, 183, rfl⟩
abbrev main_call6_v0 : Ref sig .tc := ⟨.hbm, 184, rfl⟩
abbrev main_call6_v1 : Ref sig .tc := ⟨.hbm, 185, rfl⟩
abbrev main_v117 : Ref sig .tc := ⟨.hbm, 186, rfl⟩
abbrev main_v118 : Ref sig .tc := ⟨.hbm, 187, rfl⟩
abbrev main_c_35 : Ref sig .tc := ⟨.hbm, 188, rfl⟩
abbrev main_v119 : Ref sig .tc := ⟨.hbm, 189, rfl⟩
abbrev main_v120 : Ref sig .tc := ⟨.hbm, 190, rfl⟩
abbrev main_c_36 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_c_37 : Ref sig .tc := ⟨.hbm, 197, rfl⟩
abbrev main_v126 : Ref sig .tc := ⟨.hbm, 198, rfl⟩
abbrev main_v127 : Ref sig .tc := ⟨.hbm, 199, rfl⟩
abbrev main_c_38 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_39 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_call7_cst : Ref sig .tc := ⟨.hbm, 216, rfl⟩
abbrev main_call7_v0 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_40 : Ref sig .tc := ⟨.hbm, 223, rfl⟩
abbrev main_v147 : Ref sig .tc := ⟨.hbm, 224, rfl⟩
abbrev main_cst_41 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_42 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_cst_43 : Ref sig .tc := ⟨.hbm, 233, rfl⟩
abbrev main_v154 : Ref sig .tc := ⟨.hbm, 234, rfl⟩
abbrev main_v155 : Ref sig .tc := ⟨.hbm, 235, rfl⟩
abbrev main_cst_44 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_cst_45 : Ref sig .tc := ⟨.hbm, 240, rfl⟩
abbrev main_call8_v0 : Ref sig .tc := ⟨.hbm, 241, rfl⟩
abbrev main_call8_v1 : Ref sig .tc := ⟨.hbm, 242, rfl⟩
abbrev main_v159 : Ref sig .tc := ⟨.hbm, 243, rfl⟩
abbrev main_cst_46 : Ref sig .tc := ⟨.hbm, 244, rfl⟩
abbrev main_v160 : Ref sig .tc := ⟨.hbm, 245, rfl⟩
abbrev main_v161 : Ref sig .tc := ⟨.hbm, 246, rfl⟩
abbrev main_cst_47 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_48 : Ref sig .tc := ⟨.hbm, 251, rfl⟩
abbrev main_call9_v0 : Ref sig .tc := ⟨.hbm, 252, rfl⟩
abbrev main_call9_v1 : Ref sig .tc := ⟨.hbm, 253, rfl⟩
abbrev main_v165 : Ref sig .tc := ⟨.hbm, 254, rfl⟩
abbrev main_v166 : Ref sig .tc := ⟨.hbm, 255, rfl⟩
abbrev main_c_49 : Ref sig .tc := ⟨.hbm, 256, rfl⟩
abbrev main_v167 : Ref sig .tc := ⟨.hbm, 257, rfl⟩
abbrev main_v168 : Ref sig .tc := ⟨.hbm, 258, rfl⟩
abbrev main_c_50 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_c_51 : Ref sig .tc := ⟨.hbm, 265, rfl⟩
abbrev main_v174 : Ref sig .tc := ⟨.hbm, 266, rfl⟩
abbrev main_v175 : Ref sig .tc := ⟨.hbm, 267, rfl⟩
abbrev main_c_52 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_53 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_cst_54 : Ref sig .tc := ⟨.hbm, 288, rfl⟩
abbrev main_v194 : Ref sig .tc := ⟨.hbm, 289, rfl⟩
abbrev main_cst_55 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_cst_56 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_cst_57 : Ref sig .tc := ⟨.hbm, 298, rfl⟩
abbrev main_v201 : Ref sig .tc := ⟨.hbm, 299, rfl⟩
abbrev main_v202 : Ref sig .tc := ⟨.hbm, 300, rfl⟩
abbrev main_cst_58 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_cst_59 : Ref sig .tc := ⟨.hbm, 305, rfl⟩
abbrev main_call10_v0 : Ref sig .tc := ⟨.hbm, 306, rfl⟩
abbrev main_call10_v1 : Ref sig .tc := ⟨.hbm, 307, rfl⟩
abbrev main_v206 : Ref sig .tc := ⟨.hbm, 308, rfl⟩
abbrev main_cst_60 : Ref sig .tc := ⟨.hbm, 309, rfl⟩
abbrev main_v207 : Ref sig .tc := ⟨.hbm, 310, rfl⟩
abbrev main_v208 : Ref sig .tc := ⟨.hbm, 311, rfl⟩
abbrev main_cst_61 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_cst_62 : Ref sig .tc := ⟨.hbm, 316, rfl⟩
abbrev main_call11_v0 : Ref sig .tc := ⟨.hbm, 317, rfl⟩
abbrev main_call11_v1 : Ref sig .tc := ⟨.hbm, 318, rfl⟩
abbrev main_v212 : Ref sig .tc := ⟨.hbm, 319, rfl⟩
abbrev main_v213 : Ref sig .tc := ⟨.hbm, 320, rfl⟩
abbrev main_c_63 : Ref sig .tc := ⟨.hbm, 321, rfl⟩
abbrev main_v214 : Ref sig .tc := ⟨.hbm, 322, rfl⟩
abbrev main_v215 : Ref sig .tc := ⟨.hbm, 323, rfl⟩
abbrev main_c_64 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_c_65 : Ref sig .tc := ⟨.hbm, 330, rfl⟩
abbrev main_v221 : Ref sig .tc := ⟨.hbm, 331, rfl⟩
abbrev main_v222 : Ref sig .tc := ⟨.hbm, 332, rfl⟩
abbrev main_c_66 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_cst_67 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_call12_cst : Ref sig .tc := ⟨.hbm, 349, rfl⟩
abbrev main_call12_v0 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_cst_68 : Ref sig .tc := ⟨.hbm, 356, rfl⟩
abbrev main_v242 : Ref sig .tc := ⟨.hbm, 357, rfl⟩
abbrev main_cst_69 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_cst_70 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_cst_71 : Ref sig .tc := ⟨.hbm, 366, rfl⟩
abbrev main_v249 : Ref sig .tc := ⟨.hbm, 367, rfl⟩
abbrev main_v250 : Ref sig .tc := ⟨.hbm, 368, rfl⟩
abbrev main_cst_72 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_cst_73 : Ref sig .tc := ⟨.hbm, 373, rfl⟩
abbrev main_call13_v0 : Ref sig .tc := ⟨.hbm, 374, rfl⟩
abbrev main_call13_v1 : Ref sig .tc := ⟨.hbm, 375, rfl⟩
abbrev main_v254 : Ref sig .tc := ⟨.hbm, 376, rfl⟩
abbrev main_cst_74 : Ref sig .tc := ⟨.hbm, 377, rfl⟩
abbrev main_v255 : Ref sig .tc := ⟨.hbm, 378, rfl⟩
abbrev main_v256 : Ref sig .tc := ⟨.hbm, 379, rfl⟩
abbrev main_cst_75 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_cst_76 : Ref sig .tc := ⟨.hbm, 384, rfl⟩
abbrev main_call14_v0 : Ref sig .tc := ⟨.hbm, 385, rfl⟩
abbrev main_call14_v1 : Ref sig .tc := ⟨.hbm, 386, rfl⟩
abbrev main_v260 : Ref sig .tc := ⟨.hbm, 387, rfl⟩
abbrev main_v261 : Ref sig .tc := ⟨.hbm, 388, rfl⟩
abbrev main_c_77 : Ref sig .tc := ⟨.hbm, 389, rfl⟩
abbrev main_v262 : Ref sig .tc := ⟨.hbm, 390, rfl⟩
abbrev main_v263 : Ref sig .tc := ⟨.hbm, 391, rfl⟩
abbrev main_c_78 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_c_79 : Ref sig .tc := ⟨.hbm, 398, rfl⟩
abbrev main_v269 : Ref sig .tc := ⟨.hbm, 399, rfl⟩
abbrev main_v270 : Ref sig .tc := ⟨.hbm, 400, rfl⟩
abbrev main_c_80 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_cst_81 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_cst_82 : Ref sig .tc := ⟨.hbm, 422, rfl⟩
abbrev main_v290 : Ref sig .tc := ⟨.hbm, 423, rfl⟩
abbrev main_cst_83 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_cst_84 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_call15_cst : Ref sig .tc := ⟨.hbm, 436, rfl⟩
abbrev main_call15_v0 : Ref sig .tc := ⟨.hbm, 437, rfl⟩
abbrev main_v301 : Ref sig .tc := ⟨.hbm, 438, rfl⟩
abbrev main_v302 : Ref sig .tc := ⟨.hbm, 439, rfl⟩
abbrev main_v303 : Ref sig .tc := ⟨.hbm, 440, rfl⟩
abbrev main_v304 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_cst_85 : Ref sig .tc := ⟨.hbm, 446, rfl⟩
abbrev main_v309 : Ref sig .tc := ⟨.hbm, 447, rfl⟩
abbrev main_cst_86 : Ref sig .tc := ⟨.hbm, 448, rfl⟩
abbrev main_v310 : Ref sig .tc := ⟨.hbm, 449, rfl⟩
abbrev main_v311 : Ref sig .tc := ⟨.hbm, 450, rfl⟩
abbrev main_v312 : Ref sig .tc := ⟨.hbm, 451, rfl⟩
abbrev main_cst_87 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_cst_88 : Ref sig .tc := ⟨.hbm, 456, rfl⟩
abbrev main_v316 : Ref sig .tc := ⟨.hbm, 457, rfl⟩
abbrev main_v317 : Ref sig .tc := ⟨.hbm, 458, rfl⟩
abbrev main_cst_89 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_cst_90 : Ref sig .tc := ⟨.hbm, 463, rfl⟩
abbrev main_call16_v0 : Ref sig .tc := ⟨.hbm, 464, rfl⟩
abbrev main_call16_v1 : Ref sig .tc := ⟨.hbm, 465, rfl⟩
abbrev main_v321 : Ref sig .tc := ⟨.hbm, 466, rfl⟩
abbrev main_cst_91 : Ref sig .tc := ⟨.hbm, 467, rfl⟩
abbrev main_v322 : Ref sig .tc := ⟨.hbm, 468, rfl⟩
abbrev main_v323 : Ref sig .tc := ⟨.hbm, 469, rfl⟩
abbrev main_cst_92 : Ref sig .tc := ⟨.hbm, 470, rfl⟩
abbrev main_v324 : Ref sig .tc := ⟨.hbm, 471, rfl⟩
abbrev main_v325 : Ref sig .tc := ⟨.hbm, 472, rfl⟩
abbrev main_v326 : Ref sig .tc := ⟨.hbm, 473, rfl⟩
abbrev main_cst_93 : Ref sig .tc := ⟨.hbm, 474, rfl⟩
abbrev main_call17_v0 : Ref sig .tc := ⟨.hbm, 475, rfl⟩
abbrev main_call17_v1 : Ref sig .tc := ⟨.hbm, 476, rfl⟩
abbrev main_v327 : Ref sig .tc := ⟨.hbm, 477, rfl⟩
abbrev main_v328 : Ref sig .tc := ⟨.hbm, 478, rfl⟩
abbrev main_c_94 : Ref sig .tc := ⟨.hbm, 479, rfl⟩
abbrev main_v329 : Ref sig .tc := ⟨.hbm, 480, rfl⟩
abbrev main_v330 : Ref sig .tc := ⟨.hbm, 481, rfl⟩
abbrev main_c_95 : Ref sig .tc := ⟨.hbm, 482, rfl⟩
abbrev main_v331 : Ref sig .tc := ⟨.hbm, 483, rfl⟩
abbrev main_v332 : Ref sig .tc := ⟨.hbm, 484, rfl⟩
abbrev main_v333 : Ref sig .tc := ⟨.hbm, 485, rfl⟩
abbrev main_v334 : Ref sig .tc := ⟨.hbm, 486, rfl⟩
abbrev main_v335 : Ref sig .tc := ⟨.hbm, 487, rfl⟩
abbrev main_c_96 : Ref sig .tc := ⟨.hbm, 488, rfl⟩
abbrev main_v336 : Ref sig .tc := ⟨.hbm, 489, rfl⟩
abbrev main_v337 : Ref sig .tc := ⟨.hbm, 490, rfl⟩
abbrev main_c_97 : Ref sig .tc := ⟨.hbm, 491, rfl⟩
abbrev main_v338 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_v344 : Ref sig .tc := ⟨.hbm, 498, rfl⟩
abbrev main_v345 : Ref sig .tc := ⟨.hbm, 499, rfl⟩
abbrev main_cst_98 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_v349 : Ref sig .tc := ⟨.hbm, 504, rfl⟩
abbrev main_v350 : Ref sig .tc := ⟨.hbm, 505, rfl⟩
abbrev main_v351 : Ref sig .tc := ⟨.hbm, 506, rfl⟩
abbrev main_call18_cst : Ref sig .tc := ⟨.hbm, 507, rfl⟩
abbrev main_call18_v0 : Ref sig .tc := ⟨.hbm, 508, rfl⟩
abbrev main_v352 : Ref sig .tc := ⟨.hbm, 509, rfl⟩
abbrev main_cst_99 : Ref sig .tc := ⟨.hbm, 510, rfl⟩
abbrev main_v353 : Ref sig .tc := ⟨.hbm, 511, rfl⟩
abbrev main_cst_100 : Ref sig .tc := ⟨.hbm, 512, rfl⟩
abbrev main_v354 : Ref sig .tc := ⟨.hbm, 513, rfl⟩
abbrev main_v355 : Ref sig .tc := ⟨.hbm, 514, rfl⟩
abbrev main_v356 : Ref sig .tc := ⟨.hbm, 515, rfl⟩
abbrev main_cst_101 : Ref sig .tc := ⟨.hbm, 516, rfl⟩
abbrev main_v357 : Ref sig .tc := ⟨.hbm, 517, rfl⟩
abbrev main_v358 : Ref sig .tc := ⟨.hbm, 518, rfl⟩
abbrev main_v359 : Ref sig .tc := ⟨.hbm, 519, rfl⟩
abbrev main_cst_102 : Ref sig .tc := ⟨.hbm, 520, rfl⟩
abbrev main_v360 : Ref sig .tc := ⟨.hbm, 521, rfl⟩
abbrev main_v361 : Ref sig .tc := ⟨.hbm, 522, rfl⟩
abbrev main_cst_103 : Ref sig .tc := ⟨.hbm, 523, rfl⟩
abbrev main_v362 : Ref sig .tc := ⟨.hbm, 524, rfl⟩
abbrev main_v363 : Ref sig .tc := ⟨.hbm, 525, rfl⟩
abbrev main_v364 : Ref sig .tc := ⟨.hbm, 526, rfl⟩
abbrev main_cst_104 : Ref sig .tc := ⟨.hbm, 527, rfl⟩
abbrev main_call19_v0 : Ref sig .tc := ⟨.hbm, 528, rfl⟩
abbrev main_call19_v1 : Ref sig .tc := ⟨.hbm, 529, rfl⟩
abbrev main_v365 : Ref sig .tc := ⟨.hbm, 530, rfl⟩
abbrev main_cst_105 : Ref sig .tc := ⟨.hbm, 531, rfl⟩
abbrev main_v366 : Ref sig .tc := ⟨.hbm, 532, rfl⟩
abbrev main_v367 : Ref sig .tc := ⟨.hbm, 533, rfl⟩
abbrev main_cst_106 : Ref sig .tc := ⟨.hbm, 534, rfl⟩
abbrev main_v368 : Ref sig .tc := ⟨.hbm, 535, rfl⟩
abbrev main_v369 : Ref sig .tc := ⟨.hbm, 536, rfl⟩
abbrev main_v370 : Ref sig .tc := ⟨.hbm, 537, rfl⟩
abbrev main_cst_107 : Ref sig .tc := ⟨.hbm, 538, rfl⟩
abbrev main_call20_v0 : Ref sig .tc := ⟨.hbm, 539, rfl⟩
abbrev main_call20_v1 : Ref sig .tc := ⟨.hbm, 540, rfl⟩
abbrev main_v371 : Ref sig .tc := ⟨.hbm, 541, rfl⟩
abbrev main_v372 : Ref sig .tc := ⟨.hbm, 542, rfl⟩
abbrev main_c_108 : Ref sig .tc := ⟨.hbm, 543, rfl⟩
abbrev main_v373 : Ref sig .tc := ⟨.hbm, 544, rfl⟩
abbrev main_v374 : Ref sig .tc := ⟨.hbm, 545, rfl⟩
abbrev main_c_109 : Ref sig .tc := ⟨.hbm, 546, rfl⟩
abbrev main_v375 : Ref sig .tc := ⟨.hbm, 547, rfl⟩
abbrev main_v376 : Ref sig .tc := ⟨.hbm, 548, rfl⟩
abbrev main_v377 : Ref sig .tc := ⟨.hbm, 549, rfl⟩
abbrev main_v378 : Ref sig .tc := ⟨.hbm, 550, rfl⟩
abbrev main_v379 : Ref sig .tc := ⟨.hbm, 551, rfl⟩
abbrev main_c_110 : Ref sig .tc := ⟨.hbm, 552, rfl⟩
abbrev main_v380 : Ref sig .tc := ⟨.hbm, 553, rfl⟩
abbrev main_v381 : Ref sig .tc := ⟨.hbm, 554, rfl⟩
abbrev main_c_111 : Ref sig .tc := ⟨.hbm, 555, rfl⟩
abbrev main_v382 : Ref sig .tc := ⟨.hbm, 556, rfl⟩
abbrev main_v383 : Ref sig .tc := ⟨.hbm, 557, rfl⟩
abbrev main_v384 : Ref sig .tc := ⟨.hbm, 558, rfl⟩
abbrev main_v385 : Ref sig .tc := ⟨.hbm, 559, rfl⟩
abbrev main_v386 : Ref sig .tc := ⟨.hbm, 560, rfl⟩
abbrev main_v387 : Ref sig .tc := ⟨.hbm, 561, rfl⟩
abbrev main_v388 : Ref sig .tc := ⟨.hbm, 562, rfl⟩
abbrev main_v389 : Ref sig .tc := ⟨.hbm, 563, rfl⟩
abbrev main_cst_112 : Ref sig .tc := ⟨.hbm, 564, rfl⟩
abbrev main_v390 : Ref sig .tc := ⟨.hbm, 565, rfl⟩
abbrev main_v391 : Ref sig .tc := ⟨.hbm, 566, rfl⟩
abbrev main_v392 : Ref sig .tc := ⟨.hbm, 567, rfl⟩
abbrev main_v393 : Ref sig .tc := ⟨.hbm, 568, rfl⟩
abbrev main_v394 : Ref sig .tc := ⟨.hbm, 569, rfl⟩
abbrev main_v395 : Ref sig .tc := ⟨.hbm, 570, rfl⟩
abbrev main_c_113 : Ref sig .tc := ⟨.hbm, 571, rfl⟩
abbrev main_call21_v0 : Ref sig .tc := ⟨.hbm, 572, rfl⟩
abbrev main_v396 : Ref sig .tc := ⟨.hbm, 573, rfl⟩
abbrev main_v397 : Ref sig .tc := ⟨.hbm, 574, rfl⟩
abbrev main_v398 : Ref sig .tc := ⟨.hbm, 575, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  reducesTo_S10000x64_S10000_d1 : S10000x64.ReducesTo [1] S10000
  h_S_ : 0 < S_.numel
  concatenates_S320000_S10000_S330000_d0 : Shape.Concatenates [S320000, S10000] S330000 0
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  bcast_S330000x1_S330000x10_0_1 : S330000x1.BroadcastsInDim S330000x10 (![0, 1] : Fin 2 → Fin S330000x10.rank)
  bcast_S_S10000x10 : S_.BroadcastsInDim S10000x10 (![] : Fin 0 → Fin S10000x10.rank)
  bcast_S10000x1_S10000x10_0_1 : S10000x1.BroadcastsInDim S10000x10 (![0, 1] : Fin 2 → Fin S10000x10.rank)
  pads_S10000x10_S10240x10_02400_000 : S10000x10.Pads (![0, 0] : Fin 2 → Nat) ![240, 0] ![0, 0] S10240x10
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  bitsLt_bf16_f32 : FTy.bits .bf16 < FTy.bits .f32
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S2048x1024_S2048x1024_0_0 : ∀ a, (![0, 0] : Fin 2 → Nat) a + S2048x1024.size a ≤ S2048x1024.size a
  h_S2048x1024 : 0 < S2048x1024.numel
  slices_S10240x10240_S10000x10000_0_0 : S10240x10240.Slices ![0, 0] S10000x10000
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  gather_S10000_S320000x1_S320000_n_0_n_n_0_1_1_wf : GatherDims.WF S10000 S320000x1 S320000 [] [0] [] [0] [] 1 ![1]
  scatter_S10000x256_S320000x1_S320000x256_1_0_0_1_wf : ScatterDims.WF S10000x256 S320000x1 S320000x256 [1] [0] [0] 1
  dot_S10000x256_S256x64_S10000x64_1_0_0_1_n_n_wf : DotDims.WF S10000x256 S256x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x64_S10000x64_1_0_0_1_n_n_wf : DotDims.WF S10000x64 S64x64 S10000x64 [1] [0] [0] [1] [] []
  scatter_S10000_S330000x1_S330000_n_0_0_1_wf : ScatterDims.WF S10000 S330000x1 S330000 [] [0] [0] 1
  dot_S10000x64_S64x32_S10000x32_1_0_0_1_n_n_wf : DotDims.WF S10000x64 S64x32 S10000x32 [1] [0] [0] [1] [] []
  gather_S10000x32_S330000x1_S330000x32_1_0_n_n_0_1_132_wf : GatherDims.WF S10000x32 S330000x1 S330000x32 [1] [0] [] [0] [] 1 ![1, 32]
  gather_S10000_S330000x1_S330000_n_0_n_n_0_1_1_wf : GatherDims.WF S10000 S330000x1 S330000 [] [0] [] [0] [] 1 ![1]
  scatter_S10000x32_S330000x1_S330000x32_1_0_0_1_wf : ScatterDims.WF S10000x32 S330000x1 S330000x32 [1] [0] [0] 1
  dot_S10000x32_S32x10_S10000x10_1_0_0_1_n_n_wf : DotDims.WF S10000x32 S32x10 S10000x10 [1] [0] [0] [1] [] []
  gather_S10000x10_S330000x1_S330000x10_1_0_n_n_0_1_110_wf : GatherDims.WF S10000x10 S330000x1 S330000x10 [1] [0] [] [0] [] 1 ![1, 10]
  scatter_S10000x10_S330000x1_S330000x10_1_0_0_1_wf : ScatterDims.WF S10000x10 S330000x1 S330000x10 [1] [0] [0] 1
  dot_S2048x10_S1024x10_S2048x1024_1_1_0_0_n_n_wf : DotDims.WF S2048x10 S1024x10 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x10.size a ≤ S10240x10.size a
  hwx0_0 : ∀ i : grid0.Coords, EltTy.bits .f32 = 32 ∨ (Rect.block (s := S10240x10) S2048x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S10240x10.size a
  hwx0_1 : ∀ i : grid0.Coords, EltTy.bits .f32 = 32 ∨ (Rect.block (s := S10240x10) S1024x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S10240x10240.size a
  hwx0_2 : ∀ i : grid0.Coords, EltTy.bits .f32 = 32 ∨ (Rect.block (s := S10240x10240) S2048x1024.size (cc0_transform_2 i) (hinb0_2 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf
def gather_S10000x10_S330000x1_S330000x10_1_0_n_n_0_1_110 : GatherDims S10000x10 S330000x1 S330000x10 where
  offsetDims := [1]
  collapsedSliceDims := [0]
  operandBatchingDims := []
  startIndicesBatchingDims := []
  startIndexMap := [0]
  indexVectorDim := 1
  sliceSizes := ![1, 10]
  wf := gather_S10000x10_S330000x1_S330000x10_1_0_n_n_0_1_110_wf
def scatter_S10000x10_S330000x1_S330000x10_1_0_0_1 : ScatterDims S10000x10 S330000x1 S330000x10 where
  updateWindowDims := [1]
  insertedWindowDims := [0]
  scatterDimsToOperandDims := [0]
  indexVectorDim := 1
  wf := scatter_S10000x10_S330000x1_S330000x10_1_0_0_1_wf
def dot_S2048x10_S1024x10_S2048x1024_1_1_0_0_n_n : DotDims S2048x10 S1024x10 S2048x1024 where
  lhsContracting := [1]
  rhsContracting := [1]
  lhsNonContracting := [0]
  rhsNonContracting := [0]
  lhsBatch := []
  rhsBatch := []
  wf := dot_S2048x10_S1024x10_S2048x1024_1_1_0_0_n_n_wf

abbrev win0_0 : Pipeline.Window sig grid0 :=
  Pipeline.Window.ofSpec (Memref.whole main_v396) S2048x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v396) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v397) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256x64 : Shape := ⟨2, ![256, 64]⟩
abbrev S64x64 : Shape := ⟨2, ![64, 64]⟩
abbrev S64x32 : Shape := ⟨2, ![64, 32]⟩
abbrev S32x10 : Shape := ⟨2, ![32, 10]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x256 : Shape := ⟨2, ![10000, 256]⟩
abbrev S320000x256 : Shape := ⟨2, ![320000, 256]⟩
abbrev S10000x1 : Shape := ⟨2, ![10000, 1]⟩
abbrev S10000x64 : Shape := ⟨2, ![10000, 64]⟩
abbrev S320000x64 : Shape := ⟨2, ![320000, 64]⟩
abbrev S330000 : Shape := ⟨1, ![330000]⟩
abbrev S330000x1 : Shape := ⟨2, ![330000, 1]⟩
abbrev S10000x32 : Shape := ⟨2, ![10000, 32]⟩
abbrev S330000x32 : Shape := ⟨2, ![330000, 32]⟩
abbrev S10000x10 : Shape := ⟨2, ![10000, 10]⟩
abbrev S330000x10 : Shape := ⟨2, ![330000, 10]⟩
abbrev S10x10000 : Shape := ⟨2, ![10, 10000]⟩
abbrev S10000x10000 : Shape := ⟨2, ![10000, 10000]⟩

abbrev nBuf : Space → Nat
  | .hbm => 573
  | .vmem => 0
  | .smem => 0
  | _ => 0

abbrev hbmTy0_0 (i : Nat) : BufTy := match i % 128 with
  | 0 => ⟨S10000x512, .f32⟩
  | 1 => ⟨S10000x512, .f32⟩
  | 2 => ⟨S10000x512, .f32⟩
  | 3 => ⟨S2x320000, .i32⟩
  | 4 => ⟨S2x320000, .i32⟩
  | 5 => ⟨S2x320000, .i32⟩
  | 6 => ⟨S2x320000, .i32⟩
  | 7 => ⟨S512x256, .f32⟩
  | 8 => ⟨S256x64, .f32⟩
  | 9 => ⟨S512x256, .f32⟩
  | 10 => ⟨S256x64, .f32⟩
  | 11 => ⟨S512x256, .f32⟩
  | 12 => ⟨S256x64, .f32⟩
  | 13 => ⟨S64x64, .f32⟩
  | 14 => ⟨S64x64, .f32⟩
  | 15 => ⟨S64x64, .f32⟩
  | 16 => ⟨S64x32, .f32⟩
  | 17 => ⟨S32x10, .f32⟩
  | 18 => ⟨S1x320000, .i32⟩
  | 19 => ⟨S320000, .i32⟩
  | 20 => ⟨S1x320000, .i32⟩
  | 21 => ⟨S320000, .i32⟩
  | 22 => ⟨S_, .f32⟩
  | 23 => ⟨S320000, .f32⟩
  | 24 => ⟨S_, .f32⟩
  | 25 => ⟨S10000, .f32⟩
  | 26 => ⟨S320000x1, .i32⟩
  | 27 => ⟨S10000, .f32⟩
  | 28 => ⟨S_, .f32⟩
  | 29 => ⟨S10000, .f32⟩
  | 30 => ⟨S320000x1, .i32⟩
  | 31 => ⟨S10000, .f32⟩
  | 32 => ⟨S_, .f32⟩
  | 33 => ⟨S10000, .f32⟩
  | 34 => ⟨S10000, .i1⟩
  | 35 => ⟨S_, .f32⟩
  | 36 => ⟨S10000, .f32⟩
  | 37 => ⟨S10000, .f32⟩
  | 38 => ⟨S10000, .f32⟩
  | 39 => ⟨S_, .f32⟩
  | 40 => ⟨S_, .f32⟩
  | 41 => ⟨S10000, .f32⟩
  | 42 => ⟨S10000, .f32⟩
  | 43 => ⟨S_, .f32⟩
  | 44 => ⟨S10000, .f32⟩
  | 45 => ⟨S10000, .i1⟩
  | 46 => ⟨S_, .f32⟩
  | 47 => ⟨S10000, .f32⟩
  | 48 => ⟨S10000, .f32⟩
  | 49 => ⟨S10000, .f32⟩
  | 50 => ⟨S_, .f32⟩
  | 51 => ⟨S_, .f32⟩
  | 52 => ⟨S10000, .f32⟩
  | 53 => ⟨S10000, .f32⟩
  | 54 => ⟨S10000x256, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000, .f32⟩
  | 73 => ⟨S320000x1, .f32⟩
  | 74 => ⟨S320000x256, .f32⟩
  | 75 => ⟨S320000x256, .f32⟩
  | 76 => ⟨S_, .f32⟩
  | 77 => ⟨S10000x256, .f32⟩
  | 78 => ⟨S320000x1, .i32⟩
  | 79 => ⟨S10000x256, .f32⟩
  | 80 => ⟨S10000x1, .f32⟩
  | 81 => ⟨S10000x256, .f32⟩
  | 82 => ⟨S10000x256, .f32⟩
  | 83 => ⟨S_, .f32⟩
  | 84 => ⟨S10000x256, .f32⟩
  | 85 => ⟨S10000x256, .f32⟩
  | 86 => ⟨S1x320000, .i32⟩
  | 87 => ⟨S320000, .i32⟩
  | 88 => ⟨S1x320000, .i32⟩
  | 89 => ⟨S320000, .i32⟩
  | 90 => ⟨S_, .f32⟩
  | 91 => ⟨S320000, .f32⟩
  | 92 => ⟨S_, .f32⟩
  | 93 => ⟨S10000, .f32⟩
  | 94 => ⟨S320000x1, .i32⟩
  | 95 => ⟨S10000, .f32⟩
  | 96 => ⟨S_, .f32⟩
  | 97 => ⟨S10000, .f32⟩
  | 98 => ⟨S320000x1, .i32⟩
  | 99 => ⟨S10000, .f32⟩
  | 100 => ⟨S_, .f32⟩
  | 101 => ⟨S10000, .f32⟩
  | 102 => ⟨S10000, .i1⟩
  | 103 => ⟨S_, .f32⟩
  | 104 => ⟨S10000, .f32⟩
  | 105 => ⟨S10000, .f32⟩
  | 106 => ⟨S10000, .f32⟩
  | 107 => ⟨S_, .f32⟩
  | 108 => ⟨S_, .f32⟩
  | 109 => ⟨S10000, .f32⟩
  | 110 => ⟨S10000, .f32⟩
  | 111 => ⟨S_, .f32⟩
  | 112 => ⟨S10000, .f32⟩
  | 113 => ⟨S10000, .i1⟩
  | 114 => ⟨S_, .f32⟩
  | 115 => ⟨S10000, .f32⟩
  | 116 => ⟨S10000, .f32⟩
  | 117 => ⟨S10000, .f32⟩
  | 118 => ⟨S_, .f32⟩
  | 119 => ⟨S_, .f32⟩
  | 120 => ⟨S10000, .f32⟩
  | 121 => ⟨S10000, .f32⟩
  | 122 => ⟨S10000x64, .f32⟩
  | 123 => ⟨S_, .i32⟩
  | 124 => ⟨S320000, .i32⟩
  | 125 => ⟨S320000, .i1⟩
  | 126 => ⟨S_, .i32⟩
  | 127 => ⟨S320000, .i32⟩
  | _ => ⟨S10000x512, .f32⟩

abbrev hbmTy0_1 (i : Nat) : BufTy := match i % 128 with
  | 0 => ⟨S320000, .i32⟩
  | 1 => ⟨S320000, .i32⟩
  | 2 => ⟨S320000x1, .i32⟩
  | 3 => ⟨S320000x64, .f32⟩
  | 4 => ⟨S_, .i32⟩
  | 5 => ⟨S320000, .i32⟩
  | 6 => ⟨S320000, .i1⟩
  | 7 => ⟨S_, .i32⟩
  | 8 => ⟨S320000, .i32⟩
  | 9 => ⟨S320000, .i32⟩
  | 10 => ⟨S320000, .i32⟩
  | 11 => ⟨S320000x1, .i32⟩
  | 12 => ⟨S320000, .f32⟩
  | 13 => ⟨S320000x1, .f32⟩
  | 14 => ⟨S320000x64, .f32⟩
  | 15 => ⟨S320000x64, .f32⟩
  | 16 => ⟨S_, .f32⟩
  | 17 => ⟨S10000x64, .f32⟩
  | 18 => ⟨S320000x1, .i32⟩
  | 19 => ⟨S10000x64, .f32⟩
  | 20 => ⟨S10000x1, .f32⟩
  | 21 => ⟨S10000x64, .f32⟩
  | 22 => ⟨S10000x64, .f32⟩
  | 23 => ⟨S1x320000, .i32⟩
  | 24 => ⟨S320000, .i32⟩
  | 25 => ⟨S1x320000, .i32⟩
  | 26 => ⟨S320000, .i32⟩
  | 27 => ⟨S_, .f32⟩
  | 28 => ⟨S320000, .f32⟩
  | 29 => ⟨S_, .f32⟩
  | 30 => ⟨S10000, .f32⟩
  | 31 => ⟨S320000x1, .i32⟩
  | 32 => ⟨S10000, .f32⟩
  | 33 => ⟨S_, .f32⟩
  | 34 => ⟨S10000, .f32⟩
  | 35 => ⟨S320000x1, .i32⟩
  | 36 => ⟨S10000, .f32⟩
  | 37 => ⟨S_, .f32⟩
  | 38 => ⟨S10000, .f32⟩
  | 39 => ⟨S10000, .i1⟩
  | 40 => ⟨S_, .f32⟩
  | 41 => ⟨S10000, .f32⟩
  | 42 => ⟨S10000, .f32⟩
  | 43 => ⟨S10000, .f32⟩
  | 44 => ⟨S_, .f32⟩
  | 45 => ⟨S_, .f32⟩
  | 46 => ⟨S10000, .f32⟩
  | 47 => ⟨S10000, .f32⟩
  | 48 => ⟨S_, .f32⟩
  | 49 => ⟨S10000, .f32⟩
  | 50 => ⟨S10000, .i1⟩
  | 51 => ⟨S_, .f32⟩
  | 52 => ⟨S10000, .f32⟩
  | 53 => ⟨S10000, .f32⟩
  | 54 => ⟨S10000, .f32⟩
  | 55 => ⟨S_, .f32⟩
  | 56 => ⟨S_, .f32⟩
  | 57 => ⟨S10000, .f32⟩
  | 58 => ⟨S10000, .f32⟩
  | 59 => ⟨S10000x256, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x256, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000, .f32⟩
  | 78 => ⟨S320000x1, .f32⟩
  | 79 => ⟨S320000x256, .f32⟩
  | 80 => ⟨S320000x256, .f32⟩
  | 81 => ⟨S_, .f32⟩
  | 82 => ⟨S10000x256, .f32⟩
  | 83 => ⟨S320000x1, .i32⟩
  | 84 => ⟨S10000x256, .f32⟩
  | 85 => ⟨S10000x1, .f32⟩
  | 86 => ⟨S10000x256, .f32⟩
  | 87 => ⟨S10000x256, .f32⟩
  | 88 => ⟨S_, .f32⟩
  | 89 => ⟨S10000x256, .f32⟩
  | 90 => ⟨S10000x256, .f32⟩
  | 91 => ⟨S1x320000, .i32⟩
  | 92 => ⟨S320000, .i32⟩
  | 93 => ⟨S1x320000, .i32⟩
  | 94 => ⟨S320000, .i32⟩
  | 95 => ⟨S_, .f32⟩
  | 96 => ⟨S320000, .f32⟩
  | 97 => ⟨S_, .f32⟩
  | 98 => ⟨S10000, .f32⟩
  | 99 => ⟨S320000x1, .i32⟩
  | 100 => ⟨S10000, .f32⟩
  | 101 => ⟨S_, .f32⟩
  | 102 => ⟨S10000, .f32⟩
  | 103 => ⟨S320000x1, .i32⟩
  | 104 => ⟨S10000, .f32⟩
  | 105 => ⟨S_, .f32⟩
  | 106 => ⟨S10000, .f32⟩
  | 107 => ⟨S10000, .i1⟩
  | 108 => ⟨S_, .f32⟩
  | 109 => ⟨S10000, .f32⟩
  | 110 => ⟨S10000, .f32⟩
  | 111 => ⟨S10000, .f32⟩
  | 112 => ⟨S_, .f32⟩
  | 113 => ⟨S_, .f32⟩
  | 114 => ⟨S10000, .f32⟩
  | 115 => ⟨S10000, .f32⟩
  | 116 => ⟨S_, .f32⟩
  | 117 => ⟨S10000, .f32⟩
  | 118 => ⟨S10000, .i1⟩
  | 119 => ⟨S_, .f32⟩
  | 120 => ⟨S10000, .f32⟩
  | 121 => ⟨S10000, .f32⟩
  | 122 => ⟨S10000, .f32⟩
  | 123 => ⟨S_, .f32⟩
  | 124 => ⟨S_, .f32⟩
  | 125 => ⟨S10000, .f32⟩
  | 126 => ⟨S10000, .f32⟩
  | 127 => ⟨S10000x64, .f32⟩
  | _ => ⟨S10000x512, .f32⟩

abbrev hbmTy0_2 (i : Nat) : BufTy := match i % 128 with
  | 0 => ⟨S_, .i32⟩
  | 1 => ⟨S320000, .i32⟩
  | 2 => ⟨S320000, .i1⟩
  | 3 => ⟨S_, .i32⟩
  | 4 => ⟨S320000, .i32⟩
  | 5 => ⟨S320000, .i32⟩
  | 6 => ⟨S320000, .i32⟩
  | 7 => ⟨S320000x1, .i32⟩
  | 8 => ⟨S320000x64, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000, .f32⟩
  | 18 => ⟨S320000x1, .f32⟩
  | 19 => ⟨S320000x64, .f32⟩
  | 20 => ⟨S320000x64, .f32⟩
  | 21 => ⟨S_, .f32⟩
  | 22 => ⟨S10000x64, .f32⟩
  | 23 => ⟨S320000x1, .i32⟩
  | 24 => ⟨S10000x64, .f32⟩
  | 25 => ⟨S10000x1, .f32⟩
  | 26 => ⟨S10000x64, .f32⟩
  | 27 => ⟨S10000x64, .f32⟩
  | 28 => ⟨S1x320000, .i32⟩
  | 29 => ⟨S320000, .i32⟩
  | 30 => ⟨S1x320000, .i32⟩
  | 31 => ⟨S320000, .i32⟩
  | 32 => ⟨S_, .f32⟩
  | 33 => ⟨S320000, .f32⟩
  | 34 => ⟨S_, .f32⟩
  | 35 => ⟨S10000, .f32⟩
  | 36 => ⟨S320000x1, .i32⟩
  | 37 => ⟨S10000, .f32⟩
  | 38 => ⟨S_, .f32⟩
  | 39 => ⟨S10000, .f32⟩
  | 40 => ⟨S320000x1, .i32⟩
  | 41 => ⟨S10000, .f32⟩
  | 42 => ⟨S_, .f32⟩
  | 43 => ⟨S10000, .f32⟩
  | 44 => ⟨S10000, .i1⟩
  | 45 => ⟨S_, .f32⟩
  | 46 => ⟨S10000, .f32⟩
  | 47 => ⟨S10000, .f32⟩
  | 48 => ⟨S10000, .f32⟩
  | 49 => ⟨S_, .f32⟩
  | 50 => ⟨S_, .f32⟩
  | 51 => ⟨S10000, .f32⟩
  | 52 => ⟨S10000, .f32⟩
  | 53 => ⟨S_, .f32⟩
  | 54 => ⟨S10000, .f32⟩
  | 55 => ⟨S10000, .i1⟩
  | 56 => ⟨S_, .f32⟩
  | 57 => ⟨S10000, .f32⟩
  | 58 => ⟨S10000, .f32⟩
  | 59 => ⟨S10000, .f32⟩
  | 60 => ⟨S_, .f32⟩
  | 61 => ⟨S_, .f32⟩
  | 62 => ⟨S10000, .f32⟩
  | 63 => ⟨S10000, .f32⟩
  | 64 => ⟨S10000x256, .f32⟩
  | 65 => ⟨S_, .i32⟩
  | 66 => ⟨S320000, .i32⟩
  | 67 => ⟨S320000, .i1⟩
  | 68 => ⟨S_, .i32⟩
  | 69 => ⟨S320000, .i32⟩
  | 70 => ⟨S320000, .i32⟩
  | 71 => ⟨S320000, .i32⟩
  | 72 => ⟨S320000x1, .i32⟩
  | 73 => ⟨S320000x256, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000, .f32⟩
  | 83 => ⟨S320000x1, .f32⟩
  | 84 => ⟨S320000x256, .f32⟩
  | 85 => ⟨S320000x256, .f32⟩
  | 86 => ⟨S_, .f32⟩
  | 87 => ⟨S10000x256, .f32⟩
  | 88 => ⟨S320000x1, .i32⟩
  | 89 => ⟨S10000x256, .f32⟩
  | 90 => ⟨S10000x1, .f32⟩
  | 91 => ⟨S10000x256, .f32⟩
  | 92 => ⟨S10000x256, .f32⟩
  | 93 => ⟨S_, .f32⟩
  | 94 => ⟨S10000x256, .f32⟩
  | 95 => ⟨S10000x256, .f32⟩
  | 96 => ⟨S1x320000, .i32⟩
  | 97 => ⟨S320000, .i32⟩
  | 98 => ⟨S1x320000, .i32⟩
  | 99 => ⟨S320000, .i32⟩
  | 100 => ⟨S_, .f32⟩
  | 101 => ⟨S320000, .f32⟩
  | 102 => ⟨S_, .f32⟩
  | 103 => ⟨S10000, .f32⟩
  | 104 => ⟨S320000x1, .i32⟩
  | 105 => ⟨S10000, .f32⟩
  | 106 => ⟨S_, .f32⟩
  | 107 => ⟨S10000, .f32⟩
  | 108 => ⟨S320000x1, .i32⟩
  | 109 => ⟨S10000, .f32⟩
  | 110 => ⟨S_, .f32⟩
  | 111 => ⟨S10000, .f32⟩
  | 112 => ⟨S10000, .i1⟩
  | 113 => ⟨S_, .f32⟩
  | 114 => ⟨S10000, .f32⟩
  | 115 => ⟨S10000, .f32⟩
  | 116 => ⟨S10000, .f32⟩
  | 117 => ⟨S_, .f32⟩
  | 118 => ⟨S_, .f32⟩
  | 119 => ⟨S10000, .f32⟩
  | 120 => ⟨S10000, .f32⟩
  | 121 => ⟨S_, .f32⟩
  | 122 => ⟨S10000, .f32⟩
  | 123 => ⟨S10000, .i1⟩
  | 124 => ⟨S_, .f32⟩
  | 125 => ⟨S10000, .f32⟩
  | 126 => ⟨S10000, .f32⟩
  | 127 => ⟨S10000, .f32⟩
  | _ => ⟨S10000x512, .f32⟩

abbrev hbmTy0_3 (i : Nat) : BufTy := match i % 128 with
  | 0 => ⟨S_, .f32⟩
  | 1 => ⟨S_, .f32⟩
  | 2 => ⟨S10000, .f32⟩
  | 3 => ⟨S10000, .f32⟩
  | 4 => ⟨S10000x64, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x64, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000, .f32⟩
  | 23 => ⟨S320000x1, .f32⟩
  | 24 => ⟨S320000x64, .f32⟩
  | 25 => ⟨S320000x64, .f32⟩
  | 26 => ⟨S_, .f32⟩
  | 27 => ⟨S10000x64, .f32⟩
  | 28 => ⟨S320000x1, .i32⟩
  | 29 => ⟨S10000x64, .f32⟩
  | 30 => ⟨S10000x1, .f32⟩
  | 31 => ⟨S10000x64, .f32⟩
  | 32 => ⟨S10000x64, .f32⟩
  | 33 => ⟨S10000x64, .f32⟩
  | 34 => ⟨S10000x64, .f32⟩
  | 35 => ⟨S10000x64, .f32⟩
  | 36 => ⟨S10000x64, .f32⟩
  | 37 => ⟨S10000x64, .f32⟩
  | 38 => ⟨S_, .f32⟩
  | 39 => ⟨S10000, .f32⟩
  | 40 => ⟨S_, .f32⟩
  | 41 => ⟨S10000, .f32⟩
  | 42 => ⟨S10000, .f32⟩
  | 43 => ⟨S10000x1, .f32⟩
  | 44 => ⟨S10000x64, .f32⟩
  | 45 => ⟨S10000x64, .f32⟩
  | 46 => ⟨S10000x64, .f32⟩
  | 47 => ⟨S_, .f32⟩
  | 48 => ⟨S10000, .f32⟩
  | 49 => ⟨S10000x1, .f32⟩
  | 50 => ⟨S10000x64, .f32⟩
  | 51 => ⟨S10000x64, .f32⟩
  | 52 => ⟨S_, .f32⟩
  | 53 => ⟨S10000x64, .f32⟩
  | 54 => ⟨S10000x64, .f32⟩
  | 55 => ⟨S10000, .i32⟩
  | 56 => ⟨S1x320000, .i32⟩
  | 57 => ⟨S320000, .i32⟩
  | 58 => ⟨S330000, .i32⟩
  | 59 => ⟨S1x320000, .i32⟩
  | 60 => ⟨S320000, .i32⟩
  | 61 => ⟨S330000, .i32⟩
  | 62 => ⟨S_, .f32⟩
  | 63 => ⟨S330000, .f32⟩
  | 64 => ⟨S_, .f32⟩
  | 65 => ⟨S10000, .f32⟩
  | 66 => ⟨S330000x1, .i32⟩
  | 67 => ⟨S10000, .f32⟩
  | 68 => ⟨S_, .f32⟩
  | 69 => ⟨S10000, .f32⟩
  | 70 => ⟨S330000x1, .i32⟩
  | 71 => ⟨S10000, .f32⟩
  | 72 => ⟨S_, .f32⟩
  | 73 => ⟨S10000, .f32⟩
  | 74 => ⟨S10000, .i1⟩
  | 75 => ⟨S_, .f32⟩
  | 76 => ⟨S10000, .f32⟩
  | 77 => ⟨S10000, .f32⟩
  | 78 => ⟨S10000, .f32⟩
  | 79 => ⟨S_, .f32⟩
  | 80 => ⟨S_, .f32⟩
  | 81 => ⟨S10000, .f32⟩
  | 82 => ⟨S10000, .f32⟩
  | 83 => ⟨S_, .f32⟩
  | 84 => ⟨S10000, .f32⟩
  | 85 => ⟨S10000, .i1⟩
  | 86 => ⟨S_, .f32⟩
  | 87 => ⟨S10000, .f32⟩
  | 88 => ⟨S10000, .f32⟩
  | 89 => ⟨S10000, .f32⟩
  | 90 => ⟨S_, .f32⟩
  | 91 => ⟨S_, .f32⟩
  | 92 => ⟨S10000, .f32⟩
  | 93 => ⟨S10000, .f32⟩
  | 94 => ⟨S10000x32, .f32⟩
  | 95 => ⟨S_, .i32⟩
  | 96 => ⟨S330000, .i32⟩
  | 97 => ⟨S330000, .i1⟩
  | 98 => ⟨S_, .i32⟩
  | 99 => ⟨S330000, .i32⟩
  | 100 => ⟨S330000, .i32⟩
  | 101 => ⟨S330000, .i32⟩
  | 102 => ⟨S330000x1, .i32⟩
  | 103 => ⟨S330000x32, .f32⟩
  | 104 => ⟨S_, .i32⟩
  | 105 => ⟨S330000, .i32⟩
  | 106 => ⟨S330000, .i1⟩
  | 107 => ⟨S_, .i32⟩
  | 108 => ⟨S330000, .i32⟩
  | 109 => ⟨S330000, .i32⟩
  | 110 => ⟨S330000, .i32⟩
  | 111 => ⟨S330000x1, .i32⟩
  | 112 => ⟨S330000, .f32⟩
  | 113 => ⟨S330000x1, .f32⟩
  | 114 => ⟨S330000x32, .f32⟩
  | 115 => ⟨S330000x32, .f32⟩
  | 116 => ⟨S_, .f32⟩
  | 117 => ⟨S10000x32, .f32⟩
  | 118 => ⟨S330000x1, .i32⟩
  | 119 => ⟨S10000x32, .f32⟩
  | 120 => ⟨S10000x1, .f32⟩
  | 121 => ⟨S10000x32, .f32⟩
  | 122 => ⟨S10000x32, .f32⟩
  | 123 => ⟨S_, .f32⟩
  | 124 => ⟨S10000x32, .f32⟩
  | 125 => ⟨S10000x32, .f32⟩
  | 126 => ⟨S_, .f32⟩
  | 127 => ⟨S330000, .f32⟩
  | _ => ⟨S10000x512, .f32⟩

abbrev hbmTy0_4 (i : Nat) : BufTy := match i % 128 with
  | 0 => ⟨S_, .f32⟩
  | 1 => ⟨S10000, .f32⟩
  | 2 => ⟨S330000x1, .i32⟩
  | 3 => ⟨S10000, .f32⟩
  | 4 => ⟨S_, .f32⟩
  | 5 => ⟨S10000, .f32⟩
  | 6 => ⟨S330000x1, .i32⟩
  | 7 => ⟨S10000, .f32⟩
  | 8 => ⟨S_, .f32⟩
  | 9 => ⟨S10000, .f32⟩
  | 10 => ⟨S10000, .i1⟩
  | 11 => ⟨S_, .f32⟩
  | 12 => ⟨S10000, .f32⟩
  | 13 => ⟨S10000, .f32⟩
  | 14 => ⟨S10000, .f32⟩
  | 15 => ⟨S_, .f32⟩
  | 16 => ⟨S_, .f32⟩
  | 17 => ⟨S10000, .f32⟩
  | 18 => ⟨S10000, .f32⟩
  | 19 => ⟨S_, .f32⟩
  | 20 => ⟨S10000, .f32⟩
  | 21 => ⟨S10000, .i1⟩
  | 22 => ⟨S_, .f32⟩
  | 23 => ⟨S10000, .f32⟩
  | 24 => ⟨S10000, .f32⟩
  | 25 => ⟨S10000, .f32⟩
  | 26 => ⟨S_, .f32⟩
  | 27 => ⟨S_, .f32⟩
  | 28 => ⟨S10000, .f32⟩
  | 29 => ⟨S10000, .f32⟩
  | 30 => ⟨S10000x10, .f32⟩
  | 31 => ⟨S_, .i32⟩
  | 32 => ⟨S330000, .i32⟩
  | 33 => ⟨S330000, .i1⟩
  | 34 => ⟨S_, .i32⟩
  | 35 => ⟨S330000, .i32⟩
  | 36 => ⟨S330000, .i32⟩
  | 37 => ⟨S330000, .i32⟩
  | 38 => ⟨S330000x1, .i32⟩
  | 39 => ⟨S330000x10, .f32⟩
  | 40 => ⟨S_, .i32⟩
  | 41 => ⟨S330000, .i32⟩
  | 42 => ⟨S330000, .i1⟩
  | 43 => ⟨S_, .i32⟩
  | 44 => ⟨S330000, .i32⟩
  | 45 => ⟨S330000, .i32⟩
  | 46 => ⟨S330000, .i32⟩
  | 47 => ⟨S330000x1, .i32⟩
  | 48 => ⟨S330000, .f32⟩
  | 49 => ⟨S330000x1, .f32⟩
  | 50 => ⟨S330000x10, .f32⟩
  | 51 => ⟨S330000x10, .f32⟩
  | 52 => ⟨S_, .f32⟩
  | 53 => ⟨S10000x10, .f32⟩
  | 54 => ⟨S330000x1, .i32⟩
  | 55 => ⟨S10000x10, .f32⟩
  | 56 => ⟨S10000x1, .f32⟩
  | 57 => ⟨S10000x10, .f32⟩
  | 58 => ⟨S10000x10, .f32⟩
  | 59 => ⟨S10x10000, .f32⟩
  | 60 => ⟨S10000x10000, .f32⟩
  | _ => ⟨S10000x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S10000x512, .f32⟩

abbrev bufTy : (tb : Table) → Fin (tcTables nBuf tb) → BufTy
  | .hbm, ⟨i, _⟩ => hbmTy i
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_cst_5 : Ref sig .tc := ⟨.hbm, 43, rfl⟩
abbrev main_v17 : Ref sig .tc := ⟨.hbm, 44, rfl⟩
abbrev main_v18 : Ref sig .tc := ⟨.hbm, 45, rfl⟩
abbrev main_cst_6 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_c : Ref sig .tc := ⟨.hbm, 55, rfl⟩
abbrev main_v24 : Ref sig .tc := ⟨.hbm, 56, rfl⟩
abbrev main_v25 : Ref sig .tc := ⟨.hbm, 57, rfl⟩
abbrev main_c_8 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_9 : Ref sig .tc := ⟨.hbm, 64, rfl⟩
abbrev main_v31 : Ref sig .tc := ⟨.hbm, 65, rfl⟩
abbrev main_v32 : Ref sig .tc := ⟨.hbm, 66, rfl⟩
abbrev main_c_10 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_11 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_call2_cst : Ref sig .tc := ⟨.hbm, 83, rfl⟩
abbrev main_call2_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_12 : Ref sig .tc := ⟨.hbm, 90, rfl⟩
abbrev main_v52 : Ref sig .tc := ⟨.hbm, 91, rfl⟩
abbrev main_cst_13 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_14 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_15 : Ref sig .tc := ⟨.hbm, 100, rfl⟩
abbrev main_v59 : Ref sig .tc := ⟨.hbm, 101, rfl⟩
abbrev main_v60 : Ref sig .tc := ⟨.hbm, 102, rfl⟩
abbrev main_cst_16 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_17 : Ref sig .tc := ⟨.hbm, 107, rfl⟩
abbrev main_call3_v0 : Ref sig .tc := ⟨.hbm, 108, rfl⟩
abbrev main_call3_v1 : Ref sig .tc := ⟨.hbm, 109, rfl⟩
abbrev main_v64 : Ref sig .tc := ⟨.hbm, 110, rfl⟩
abbrev main_cst_18 : Ref sig .tc := ⟨.hbm, 111, rfl⟩
abbrev main_v65 : Ref sig .tc := ⟨.hbm, 112, rfl⟩
abbrev main_v66 : Ref sig .tc := ⟨.hbm, 113, rfl⟩
abbrev main_cst_19 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_20 : Ref sig .tc := ⟨.hbm, 118, rfl⟩
abbrev main_call4_v0 : Ref sig .tc := ⟨.hbm, 119, rfl⟩
abbrev main_call4_v1 : Ref sig .tc := ⟨.hbm, 120, rfl⟩
abbrev main_v70 : Ref sig .tc := ⟨.hbm, 121, rfl⟩
abbrev main_v71 : Ref sig .tc := ⟨.hbm, 122, rfl⟩
abbrev main_c_21 : Ref sig .tc := ⟨.hbm, 123, rfl⟩
abbrev main_v72 : Ref sig .tc := ⟨.hbm, 124, rfl⟩
abbrev main_v73 : Ref sig .tc := ⟨.hbm, 125, rfl⟩
abbrev main_c_22 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_c_23 : Ref sig .tc := ⟨.hbm, 132, rfl⟩
abbrev main_v79 : Ref sig .tc := ⟨.hbm, 133, rfl⟩
abbrev main_v80 : Ref sig .tc := ⟨.hbm, 134, rfl⟩
abbrev main_c_24 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_25 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_26 : Ref sig .tc := ⟨.hbm, 155, rfl⟩
abbrev main_v99 : Ref sig .tc := ⟨.hbm, 156, rfl⟩
abbrev main_cst_27 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_28 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_cst_29 : Ref sig .tc := ⟨.hbm, 165, rfl⟩
abbrev main_v106 : Ref sig .tc := ⟨.hbm, 166, rfl⟩
abbrev main_v107 : Ref sig .tc := ⟨.hbm, 167, rfl⟩
abbrev main_cst_30 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_cst_31 : Ref sig .tc := ⟨.hbm, 172, rfl⟩
abbrev main_call5_v0 : Ref sig .tc := ⟨.hbm, 173, rfl⟩
abbrev main_call5_v1 : Ref sig .tc := ⟨.hbm, 174, rfl⟩
abbrev main_v111 : Ref sig .tc := ⟨.hbm, 175, rfl⟩
abbrev main_cst_32 : Ref sig .tc := ⟨.hbm, 176, rfl⟩
abbrev main_v112 : Ref sig .tc := ⟨.hbm, 177, rfl⟩
abbrev main_v113 : Ref sig .tc := ⟨.hbm, 178, rfl⟩
abbrev main_cst_33 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_cst_34 : Ref sig .tc := ⟨.hbm, 183, rfl⟩
abbrev main_call6_v0 : Ref sig .tc := ⟨.hbm, 184, rfl⟩
abbrev main_call6_v1 : Ref sig .tc := ⟨.hbm, 185, rfl⟩
abbrev main_v117 : Ref sig .tc := ⟨.hbm, 186, rfl⟩
abbrev main_v118 : Ref sig .tc := ⟨.hbm, 187, rfl⟩
abbrev main_c_35 : Ref sig .tc := ⟨.hbm, 188, rfl⟩
abbrev main_v119 : Ref sig .tc := ⟨.hbm, 189, rfl⟩
abbrev main_v120 : Ref sig .tc := ⟨.hbm, 190, rfl⟩
abbrev main_c_36 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_c_37 : Ref sig .tc := ⟨.hbm, 197, rfl⟩
abbrev main_v126 : Ref sig .tc := ⟨.hbm, 198, rfl⟩
abbrev main_v127 : Ref sig .tc := ⟨.hbm, 199, rfl⟩
abbrev main_c_38 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_cst_39 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_call7_cst : Ref sig .tc := ⟨.hbm, 216, rfl⟩
abbrev main_call7_v0 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_cst_40 : Ref sig .tc := ⟨.hbm, 223, rfl⟩
abbrev main_v147 : Ref sig .tc := ⟨.hbm, 224, rfl⟩
abbrev main_cst_41 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_42 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_cst_43 : Ref sig .tc := ⟨.hbm, 233, rfl⟩
abbrev main_v154 : Ref sig .tc := ⟨.hbm, 234, rfl⟩
abbrev main_v155 : Ref sig .tc := ⟨.hbm, 235, rfl⟩
abbrev main_cst_44 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_cst_45 : Ref sig .tc := ⟨.hbm, 240, rfl⟩
abbrev main_call8_v0 : Ref sig .tc := ⟨.hbm, 241, rfl⟩
abbrev main_call8_v1 : Ref sig .tc := ⟨.hbm, 242, rfl⟩
abbrev main_v159 : Ref sig .tc := ⟨.hbm, 243, rfl⟩
abbrev main_cst_46 : Ref sig .tc := ⟨.hbm, 244, rfl⟩
abbrev main_v160 : Ref sig .tc := ⟨.hbm, 245, rfl⟩
abbrev main_v161 : Ref sig .tc := ⟨.hbm, 246, rfl⟩
abbrev main_cst_47 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_48 : Ref sig .tc := ⟨.hbm, 251, rfl⟩
abbrev main_call9_v0 : Ref sig .tc := ⟨.hbm, 252, rfl⟩
abbrev main_call9_v1 : Ref sig .tc := ⟨.hbm, 253, rfl⟩
abbrev main_v165 : Ref sig .tc := ⟨.hbm, 254, rfl⟩
abbrev main_v166 : Ref sig .tc := ⟨.hbm, 255, rfl⟩
abbrev main_c_49 : Ref sig .tc := ⟨.hbm, 256, rfl⟩
abbrev main_v167 : Ref sig .tc := ⟨.hbm, 257, rfl⟩
abbrev main_v168 : Ref sig .tc := ⟨.hbm, 258, rfl⟩
abbrev main_c_50 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_c_51 : Ref sig .tc := ⟨.hbm, 265, rfl⟩
abbrev main_v174 : Ref sig .tc := ⟨.hbm, 266, rfl⟩
abbrev main_v175 : Ref sig .tc := ⟨.hbm, 267, rfl⟩
abbrev main_c_52 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_cst_53 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_cst_54 : Ref sig .tc := ⟨.hbm, 288, rfl⟩
abbrev main_v194 : Ref sig .tc := ⟨.hbm, 289, rfl⟩
abbrev main_cst_55 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_cst_56 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_cst_57 : Ref sig .tc := ⟨.hbm, 298, rfl⟩
abbrev main_v201 : Ref sig .tc := ⟨.hbm, 299, rfl⟩
abbrev main_v202 : Ref sig .tc := ⟨.hbm, 300, rfl⟩
abbrev main_cst_58 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_cst_59 : Ref sig .tc := ⟨.hbm, 305, rfl⟩
abbrev main_call10_v0 : Ref sig .tc := ⟨.hbm, 306, rfl⟩
abbrev main_call10_v1 : Ref sig .tc := ⟨.hbm, 307, rfl⟩
abbrev main_v206 : Ref sig .tc := ⟨.hbm, 308, rfl⟩
abbrev main_cst_60 : Ref sig .tc := ⟨.hbm, 309, rfl⟩
abbrev main_v207 : Ref sig .tc := ⟨.hbm, 310, rfl⟩
abbrev main_v208 : Ref sig .tc := ⟨.hbm, 311, rfl⟩
abbrev main_cst_61 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_cst_62 : Ref sig .tc := ⟨.hbm, 316, rfl⟩
abbrev main_call11_v0 : Ref sig .tc := ⟨.hbm, 317, rfl⟩
abbrev main_call11_v1 : Ref sig .tc := ⟨.hbm, 318, rfl⟩
abbrev main_v212 : Ref sig .tc := ⟨.hbm, 319, rfl⟩
abbrev main_v213 : Ref sig .tc := ⟨.hbm, 320, rfl⟩
abbrev main_c_63 : Ref sig .tc := ⟨.hbm, 321, rfl⟩
abbrev main_v214 : Ref sig .tc := ⟨.hbm, 322, rfl⟩
abbrev main_v215 : Ref sig .tc := ⟨.hbm, 323, rfl⟩
abbrev main_c_64 : Ref sig .tc := ⟨.hbm, 324, rfl⟩
abbrev main_v216 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_c_65 : Ref sig .tc := ⟨.hbm, 330, rfl⟩
abbrev main_v221 : Ref sig .tc := ⟨.hbm, 331, rfl⟩
abbrev main_v222 : Ref sig .tc := ⟨.hbm, 332, rfl⟩
abbrev main_c_66 : Ref sig .tc := ⟨.hbm, 333, rfl⟩
abbrev main_v223 : Ref sig .tc := ⟨.hbm, 334, rfl⟩
abbrev main_v224 : Ref sig .tc := ⟨.hbm, 335, rfl⟩
abbrev main_v225 : Ref sig .tc := ⟨.hbm, 336, rfl⟩
abbrev main_v226 : Ref sig .tc := ⟨.hbm, 337, rfl⟩
abbrev main_v227 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_cst_67 : Ref sig .tc := ⟨.hbm, 342, rfl⟩
abbrev main_v231 : Ref sig .tc := ⟨.hbm, 343, rfl⟩
abbrev main_v232 : Ref sig .tc := ⟨.hbm, 344, rfl⟩
abbrev main_v233 : Ref sig .tc := ⟨.hbm, 345, rfl⟩
abbrev main_v234 : Ref sig .tc := ⟨.hbm, 346, rfl⟩
abbrev main_v235 : Ref sig .tc := ⟨.hbm, 347, rfl⟩
abbrev main_v236 : Ref sig .tc := ⟨.hbm, 348, rfl⟩
abbrev main_call12_cst : Ref sig .tc := ⟨.hbm, 349, rfl⟩
abbrev main_call12_v0 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_cst_68 : Ref sig .tc := ⟨.hbm, 356, rfl⟩
abbrev main_v242 : Ref sig .tc := ⟨.hbm, 357, rfl⟩
abbrev main_cst_69 : Ref sig .tc := ⟨.hbm, 358, rfl⟩
abbrev main_v243 : Ref sig .tc := ⟨.hbm, 359, rfl⟩
abbrev main_v244 : Ref sig .tc := ⟨.hbm, 360, rfl⟩
abbrev main_v245 : Ref sig .tc := ⟨.hbm, 361, rfl⟩
abbrev main_cst_70 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_cst_71 : Ref sig .tc := ⟨.hbm, 366, rfl⟩
abbrev main_v249 : Ref sig .tc := ⟨.hbm, 367, rfl⟩
abbrev main_v250 : Ref sig .tc := ⟨.hbm, 368, rfl⟩
abbrev main_cst_72 : Ref sig .tc := ⟨.hbm, 369, rfl⟩
abbrev main_v251 : Ref sig .tc := ⟨.hbm, 370, rfl⟩
abbrev main_v252 : Ref sig .tc := ⟨.hbm, 371, rfl⟩
abbrev main_v253 : Ref sig .tc := ⟨.hbm, 372, rfl⟩
abbrev main_cst_73 : Ref sig .tc := ⟨.hbm, 373, rfl⟩
abbrev main_call13_v0 : Ref sig .tc := ⟨.hbm, 374, rfl⟩
abbrev main_call13_v1 : Ref sig .tc := ⟨.hbm, 375, rfl⟩
abbrev main_v254 : Ref sig .tc := ⟨.hbm, 376, rfl⟩
abbrev main_cst_74 : Ref sig .tc := ⟨.hbm, 377, rfl⟩
abbrev main_v255 : Ref sig .tc := ⟨.hbm, 378, rfl⟩
abbrev main_v256 : Ref sig .tc := ⟨.hbm, 379, rfl⟩
abbrev main_cst_75 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_cst_76 : Ref sig .tc := ⟨.hbm, 384, rfl⟩
abbrev main_call14_v0 : Ref sig .tc := ⟨.hbm, 385, rfl⟩
abbrev main_call14_v1 : Ref sig .tc := ⟨.hbm, 386, rfl⟩
abbrev main_v260 : Ref sig .tc := ⟨.hbm, 387, rfl⟩
abbrev main_v261 : Ref sig .tc := ⟨.hbm, 388, rfl⟩
abbrev main_c_77 : Ref sig .tc := ⟨.hbm, 389, rfl⟩
abbrev main_v262 : Ref sig .tc := ⟨.hbm, 390, rfl⟩
abbrev main_v263 : Ref sig .tc := ⟨.hbm, 391, rfl⟩
abbrev main_c_78 : Ref sig .tc := ⟨.hbm, 392, rfl⟩
abbrev main_v264 : Ref sig .tc := ⟨.hbm, 393, rfl⟩
abbrev main_v265 : Ref sig .tc := ⟨.hbm, 394, rfl⟩
abbrev main_v266 : Ref sig .tc := ⟨.hbm, 395, rfl⟩
abbrev main_v267 : Ref sig .tc := ⟨.hbm, 396, rfl⟩
abbrev main_v268 : Ref sig .tc := ⟨.hbm, 397, rfl⟩
abbrev main_c_79 : Ref sig .tc := ⟨.hbm, 398, rfl⟩
abbrev main_v269 : Ref sig .tc := ⟨.hbm, 399, rfl⟩
abbrev main_v270 : Ref sig .tc := ⟨.hbm, 400, rfl⟩
abbrev main_c_80 : Ref sig .tc := ⟨.hbm, 401, rfl⟩
abbrev main_v271 : Ref sig .tc := ⟨.hbm, 402, rfl⟩
abbrev main_v272 : Ref sig .tc := ⟨.hbm, 403, rfl⟩
abbrev main_v273 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_v277 : Ref sig .tc := ⟨.hbm, 408, rfl⟩
abbrev main_v278 : Ref sig .tc := ⟨.hbm, 409, rfl⟩
abbrev main_cst_81 : Ref sig .tc := ⟨.hbm, 410, rfl⟩
abbrev main_v279 : Ref sig .tc := ⟨.hbm, 411, rfl⟩
abbrev main_v280 : Ref sig .tc := ⟨.hbm, 412, rfl⟩
abbrev main_v281 : Ref sig .tc := ⟨.hbm, 413, rfl⟩
abbrev main_v282 : Ref sig .tc := ⟨.hbm, 414, rfl⟩
abbrev main_v283 : Ref sig .tc := ⟨.hbm, 415, rfl⟩
abbrev main_v284 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_cst_82 : Ref sig .tc := ⟨.hbm, 422, rfl⟩
abbrev main_v290 : Ref sig .tc := ⟨.hbm, 423, rfl⟩
abbrev main_cst_83 : Ref sig .tc := ⟨.hbm, 424, rfl⟩
abbrev main_v291 : Ref sig .tc := ⟨.hbm, 425, rfl⟩
abbrev main_v292 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_cst_84 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_call15_cst : Ref sig .tc := ⟨.hbm, 436, rfl⟩
abbrev main_call15_v0 : Ref sig .tc := ⟨.hbm, 437, rfl⟩
abbrev main_v301 : Ref sig .tc := ⟨.hbm, 438, rfl⟩
abbrev main_v302 : Ref sig .tc := ⟨.hbm, 439, rfl⟩
abbrev main_v303 : Ref sig .tc := ⟨.hbm, 440, rfl⟩
abbrev main_v304 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_v308 : Ref sig .tc := ⟨.hbm, 445, rfl⟩
abbrev main_cst_85 : Ref sig .tc := ⟨.hbm, 446, rfl⟩
abbrev main_v309 : Ref sig .tc := ⟨.hbm, 447, rfl⟩
abbrev main_cst_86 : Ref sig .tc := ⟨.hbm, 448, rfl⟩
abbrev main_v310 : Ref sig .tc := ⟨.hbm, 449, rfl⟩
abbrev main_v311 : Ref sig .tc := ⟨.hbm, 450, rfl⟩
abbrev main_v312 : Ref sig .tc := ⟨.hbm, 451, rfl⟩
abbrev main_cst_87 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_cst_88 : Ref sig .tc := ⟨.hbm, 456, rfl⟩
abbrev main_v316 : Ref sig .tc := ⟨.hbm, 457, rfl⟩
abbrev main_v317 : Ref sig .tc := ⟨.hbm, 458, rfl⟩
abbrev main_cst_89 : Ref sig .tc := ⟨.hbm, 459, rfl⟩
abbrev main_v318 : Ref sig .tc := ⟨.hbm, 460, rfl⟩
abbrev main_v319 : Ref sig .tc := ⟨.hbm, 461, rfl⟩
abbrev main_v320 : Ref sig .tc := ⟨.hbm, 462, rfl⟩
abbrev main_cst_90 : Ref sig .tc := ⟨.hbm, 463, rfl⟩
abbrev main_call16_v0 : Ref sig .tc := ⟨.hbm, 464, rfl⟩
abbrev main_call16_v1 : Ref sig .tc := ⟨.hbm, 465, rfl⟩
abbrev main_v321 : Ref sig .tc := ⟨.hbm, 466, rfl⟩
abbrev main_cst_91 : Ref sig .tc := ⟨.hbm, 467, rfl⟩
abbrev main_v322 : Ref sig .tc := ⟨.hbm, 468, rfl⟩
abbrev main_v323 : Ref sig .tc := ⟨.hbm, 469, rfl⟩
abbrev main_cst_92 : Ref sig .tc := ⟨.hbm, 470, rfl⟩
abbrev main_v324 : Ref sig .tc := ⟨.hbm, 471, rfl⟩
abbrev main_v325 : Ref sig .tc := ⟨.hbm, 472, rfl⟩
abbrev main_v326 : Ref sig .tc := ⟨.hbm, 473, rfl⟩
abbrev main_cst_93 : Ref sig .tc := ⟨.hbm, 474, rfl⟩
abbrev main_call17_v0 : Ref sig .tc := ⟨.hbm, 475, rfl⟩
abbrev main_call17_v1 : Ref sig .tc := ⟨.hbm, 476, rfl⟩
abbrev main_v327 : Ref sig .tc := ⟨.hbm, 477, rfl⟩
abbrev main_v328 : Ref sig .tc := ⟨.hbm, 478, rfl⟩
abbrev main_c_94 : Ref sig .tc := ⟨.hbm, 479, rfl⟩
abbrev main_v329 : Ref sig .tc := ⟨.hbm, 480, rfl⟩
abbrev main_v330 : Ref sig .tc := ⟨.hbm, 481, rfl⟩
abbrev main_c_95 : Ref sig .tc := ⟨.hbm, 482, rfl⟩
abbrev main_v331 : Ref sig .tc := ⟨.hbm, 483, rfl⟩
abbrev main_v332 : Ref sig .tc := ⟨.hbm, 484, rfl⟩
abbrev main_v333 : Ref sig .tc := ⟨.hbm, 485, rfl⟩
abbrev main_v334 : Ref sig .tc := ⟨.hbm, 486, rfl⟩
abbrev main_v335 : Ref sig .tc := ⟨.hbm, 487, rfl⟩
abbrev main_c_96 : Ref sig .tc := ⟨.hbm, 488, rfl⟩
abbrev main_v336 : Ref sig .tc := ⟨.hbm, 489, rfl⟩
abbrev main_v337 : Ref sig .tc := ⟨.hbm, 490, rfl⟩
abbrev main_c_97 : Ref sig .tc := ⟨.hbm, 491, rfl⟩
abbrev main_v338 : Ref sig .tc := ⟨.hbm, 492, rfl⟩
abbrev main_v339 : Ref sig .tc := ⟨.hbm, 493, rfl⟩
abbrev main_v340 : Ref sig .tc := ⟨.hbm, 494, rfl⟩
abbrev main_v341 : Ref sig .tc := ⟨.hbm, 495, rfl⟩
abbrev main_v342 : Ref sig .tc := ⟨.hbm, 496, rfl⟩
abbrev main_v343 : Ref sig .tc := ⟨.hbm, 497, rfl⟩
abbrev main_v344 : Ref sig .tc := ⟨.hbm, 498, rfl⟩
abbrev main_v345 : Ref sig .tc := ⟨.hbm, 499, rfl⟩
abbrev main_cst_98 : Ref sig .tc := ⟨.hbm, 500, rfl⟩
abbrev main_v346 : Ref sig .tc := ⟨.hbm, 501, rfl⟩
abbrev main_v347 : Ref sig .tc := ⟨.hbm, 502, rfl⟩
abbrev main_v348 : Ref sig .tc := ⟨.hbm, 503, rfl⟩
abbrev main_v349 : Ref sig .tc := ⟨.hbm, 504, rfl⟩
abbrev main_v350 : Ref sig .tc := ⟨.hbm, 505, rfl⟩
abbrev main_v351 : Ref sig .tc := ⟨.hbm, 506, rfl⟩
abbrev main_call18_cst : Ref sig .tc := ⟨.hbm, 507, rfl⟩
abbrev main_call18_v0 : Ref sig .tc := ⟨.hbm, 508, rfl⟩
abbrev main_v352 : Ref sig .tc := ⟨.hbm, 509, rfl⟩
abbrev main_cst_99 : Ref sig .tc := ⟨.hbm, 510, rfl⟩
abbrev main_v353 : Ref sig .tc := ⟨.hbm, 511, rfl⟩
abbrev main_cst_100 : Ref sig .tc := ⟨.hbm, 512, rfl⟩
abbrev main_v354 : Ref sig .tc := ⟨.hbm, 513, rfl⟩
abbrev main_v355 : Ref sig .tc := ⟨.hbm, 514, rfl⟩
abbrev main_v356 : Ref sig .tc := ⟨.hbm, 515, rfl⟩
abbrev main_cst_101 : Ref sig .tc := ⟨.hbm, 516, rfl⟩
abbrev main_v357 : Ref sig .tc := ⟨.hbm, 517, rfl⟩
abbrev main_v358 : Ref sig .tc := ⟨.hbm, 518, rfl⟩
abbrev main_v359 : Ref sig .tc := ⟨.hbm, 519, rfl⟩
abbrev main_cst_102 : Ref sig .tc := ⟨.hbm, 520, rfl⟩
abbrev main_v360 : Ref sig .tc := ⟨.hbm, 521, rfl⟩
abbrev main_v361 : Ref sig .tc := ⟨.hbm, 522, rfl⟩
abbrev main_cst_103 : Ref sig .tc := ⟨.hbm, 523, rfl⟩
abbrev main_v362 : Ref sig .tc := ⟨.hbm, 524, rfl⟩
abbrev main_v363 : Ref sig .tc := ⟨.hbm, 525, rfl⟩
abbrev main_v364 : Ref sig .tc := ⟨.hbm, 526, rfl⟩
abbrev main_cst_104 : Ref sig .tc := ⟨.hbm, 527, rfl⟩
abbrev main_call19_v0 : Ref sig .tc := ⟨.hbm, 528, rfl⟩
abbrev main_call19_v1 : Ref sig .tc := ⟨.hbm, 529, rfl⟩
abbrev main_v365 : Ref sig .tc := ⟨.hbm, 530, rfl⟩
abbrev main_cst_105 : Ref sig .tc := ⟨.hbm, 531, rfl⟩
abbrev main_v366 : Ref sig .tc := ⟨.hbm, 532, rfl⟩
abbrev main_v367 : Ref sig .tc := ⟨.hbm, 533, rfl⟩
abbrev main_cst_106 : Ref sig .tc := ⟨.hbm, 534, rfl⟩
abbrev main_v368 : Ref sig .tc := ⟨.hbm, 535, rfl⟩
abbrev main_v369 : Ref sig .tc := ⟨.hbm, 536, rfl⟩
abbrev main_v370 : Ref sig .tc := ⟨.hbm, 537, rfl⟩
abbrev main_cst_107 : Ref sig .tc := ⟨.hbm, 538, rfl⟩
abbrev main_call20_v0 : Ref sig .tc := ⟨.hbm, 539, rfl⟩
abbrev main_call20_v1 : Ref sig .tc := ⟨.hbm, 540, rfl⟩
abbrev main_v371 : Ref sig .tc := ⟨.hbm, 541, rfl⟩
abbrev main_v372 : Ref sig .tc := ⟨.hbm, 542, rfl⟩
abbrev main_c_108 : Ref sig .tc := ⟨.hbm, 543, rfl⟩
abbrev main_v373 : Ref sig .tc := ⟨.hbm, 544, rfl⟩
abbrev main_v374 : Ref sig .tc := ⟨.hbm, 545, rfl⟩
abbrev main_c_109 : Ref sig .tc := ⟨.hbm, 546, rfl⟩
abbrev main_v375 : Ref sig .tc := ⟨.hbm, 547, rfl⟩
abbrev main_v376 : Ref sig .tc := ⟨.hbm, 548, rfl⟩
abbrev main_v377 : Ref sig .tc := ⟨.hbm, 549, rfl⟩
abbrev main_v378 : Ref sig .tc := ⟨.hbm, 550, rfl⟩
abbrev main_v379 : Ref sig .tc := ⟨.hbm, 551, rfl⟩
abbrev main_c_110 : Ref sig .tc := ⟨.hbm, 552, rfl⟩
abbrev main_v380 : Ref sig .tc := ⟨.hbm, 553, rfl⟩
abbrev main_v381 : Ref sig .tc := ⟨.hbm, 554, rfl⟩
abbrev main_c_111 : Ref sig .tc := ⟨.hbm, 555, rfl⟩
abbrev main_v382 : Ref sig .tc := ⟨.hbm, 556, rfl⟩
abbrev main_v383 : Ref sig .tc := ⟨.hbm, 557, rfl⟩
abbrev main_v384 : Ref sig .tc := ⟨.hbm, 558, rfl⟩
abbrev main_v385 : Ref sig .tc := ⟨.hbm, 559, rfl⟩
abbrev main_v386 : Ref sig .tc := ⟨.hbm, 560, rfl⟩
abbrev main_v387 : Ref sig .tc := ⟨.hbm, 561, rfl⟩
abbrev main_v388 : Ref sig .tc := ⟨.hbm, 562, rfl⟩
abbrev main_v389 : Ref sig .tc := ⟨.hbm, 563, rfl⟩
abbrev main_cst_112 : Ref sig .tc := ⟨.hbm, 564, rfl⟩
abbrev main_v390 : Ref sig .tc := ⟨.hbm, 565, rfl⟩
abbrev main_v391 : Ref sig .tc := ⟨.hbm, 566, rfl⟩
abbrev main_v392 : Ref sig .tc := ⟨.hbm, 567, rfl⟩
abbrev main_v393 : Ref sig .tc := ⟨.hbm, 568, rfl⟩
abbrev main_v394 : Ref sig .tc := ⟨.hbm, 569, rfl⟩
abbrev main_v395 : Ref sig .tc := ⟨.hbm, 570, rfl⟩
abbrev main_v396 : Ref sig .tc := ⟨.hbm, 571, rfl⟩
abbrev main_v397 : Ref sig .tc := ⟨.hbm, 572, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  reducesTo_S10000x64_S10000_d1 : S10000x64.ReducesTo [1] S10000
  h_S_ : 0 < S_.numel
  concatenates_S320000_S10000_S330000_d0 : Shape.Concatenates [S320000, S10000] S330000 0
  bcast_S_S330000 : S_.BroadcastsInDim S330000 (![] : Fin 0 → Fin S330000.rank)
  bcast_S330000_S330000x1_0 : S330000.BroadcastsInDim S330000x1 (![0] : Fin 1 → Fin S330000x1.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S10000x1_S10000x32_0_1 : S10000x1.BroadcastsInDim S10000x32 (![0, 1] : Fin 2 → Fin S10000x32.rank)
  bcast_S330000x1_S330000x10_0_1 : S330000x1.BroadcastsInDim S330000x10 (![0, 1] : Fin 2 → Fin S330000x10.rank)
  bcast_S_S10000x10 : S_.BroadcastsInDim S10000x10 (![] : Fin 0 → Fin S10000x10.rank)
  bcast_S10000x1_S10000x10_0_1 : S10000x1.BroadcastsInDim S10000x10 (![0, 1] : Fin 2 → Fin S10000x10.rank)
  transposes_S10000x10_S10x10000_1_0 : S10000x10.Transposes [1, 0] S10x10000
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  gather_S10000_S320000x1_S320000_n_0_n_n_0_1_1_wf : GatherDims.WF S10000 S320000x1 S320000 [] [0] [] [0] [] 1 ![1]
  scatter_S10000x256_S320000x1_S320000x256_1_0_0_1_wf : ScatterDims.WF S10000x256 S320000x1 S320000x256 [1] [0] [0] 1
  dot_S10000x256_S256x64_S10000x64_1_0_0_1_n_n_wf : DotDims.WF S10000x256 S256x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x64_S10000x64_1_0_0_1_n_n_wf : DotDims.WF S10000x64 S64x64 S10000x64 [1] [0] [0] [1] [] []
  scatter_S10000_S330000x1_S330000_n_0_0_1_wf : ScatterDims.WF S10000 S330000x1 S330000 [] [0] [0] 1
  dot_S10000x64_S64x32_S10000x32_1_0_0_1_n_n_wf : DotDims.WF S10000x64 S64x32 S10000x32 [1] [0] [0] [1] [] []
  gather_S10000x32_S330000x1_S330000x32_1_0_n_n_0_1_132_wf : GatherDims.WF S10000x32 S330000x1 S330000x32 [1] [0] [] [0] [] 1 ![1, 32]
  gather_S10000_S330000x1_S330000_n_0_n_n_0_1_1_wf : GatherDims.WF S10000 S330000x1 S330000 [] [0] [] [0] [] 1 ![1]
  scatter_S10000x32_S330000x1_S330000x32_1_0_0_1_wf : ScatterDims.WF S10000x32 S330000x1 S330000x32 [1] [0] [0] 1
  dot_S10000x32_S32x10_S10000x10_1_0_0_1_n_n_wf : DotDims.WF S10000x32 S32x10 S10000x10 [1] [0] [0] [1] [] []
  gather_S10000x10_S330000x1_S330000x10_1_0_n_n_0_1_110_wf : GatherDims.WF S10000x10 S330000x1 S330000x10 [1] [0] [] [0] [] 1 ![1, 10]
  scatter_S10000x10_S330000x1_S330000x10_1_0_0_1_wf : ScatterDims.WF S10000x10 S330000x1 S330000x10 [1] [0] [0] 1
  dot_S10000x10_S10x10000_S10000x10000_1_0_0_1_n_n_wf : DotDims.WF S10000x10 S10x10000 S10000x10000 [1] [0] [0] [1] [] []

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf
def gather_S10000x10_S330000x1_S330000x10_1_0_n_n_0_1_110 : GatherDims S10000x10 S330000x1 S330000x10 where
  offsetDims := [1]
  collapsedSliceDims := [0]
  operandBatchingDims := []
  startIndicesBatchingDims := []
  startIndexMap := [0]
  indexVectorDim := 1
  sliceSizes := ![1, 10]
  wf := gather_S10000x10_S330000x1_S330000x10_1_0_n_n_0_1_110_wf
def scatter_S10000x10_S330000x1_S330000x10_1_0_0_1 : ScatterDims S10000x10 S330000x1 S330000x10 where
  updateWindowDims := [1]
  insertedWindowDims := [0]
  scatterDimsToOperandDims := [0]
  indexVectorDim := 1
  wf := scatter_S10000x10_S330000x1_S330000x10_1_0_0_1_wf
def dot_S10000x10_S10x10000_S10000x10000_1_0_0_1_n_n : DotDims S10000x10 S10x10000 S10000x10000 where
  lhsContracting := [1]
  rhsContracting := [0]
  lhsNonContracting := [0]
  rhsNonContracting := [1]
  lhsBatch := []
  rhsBatch := []
  wf := dot_S10000x10_S10x10000_S10000x10000_1_0_0_1_n_n_wf

class Facts : Prop extends Facts₀ where

variable [Facts]
-- ==== Proof.BDefs.lean ====
/-
  The one pallas_call of this program computes, tile by tile over a 5 × 10 grid, the product of the padded node
  embeddings with their own transpose: window 0 stages a 2048-row block of the padded array, window 1 a 1024-row
  block of THE SAME array, and window 2 receives the 2048 × 1024 tile of products.  This module fixes the objects the
  rest of the proof speaks of: the host lines before and after the call, the buffers' contents when the call is
  entered (the fold of the earlier lines over the launch memory), each window's block at a grid point, what the body
  leaves in the output tile as a function of the two input blocks, and the pipeline's proof data.  Because the two
  input windows read one array, that array's ownership is split in two halves, one per window; the output array is
  held whole.
-/
import proofs.«176114_j39599598469276_1_alg».proof.Proof.Gen.Kernel.Launch
import proofs.«176114_j39599598469276_1_alg».proof.Proof.Gen.Kernel.Skeleton
import proofs.«176114_j39599598469276_1_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines of @main before the pallas_call, stretch by stretch. -/
abbrev linesBefore : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43]

/-- The host lines of @main after the pallas_call: the slice of the padded product back to 10000 × 10000. -/
abbrev linesAfter : List (List (HloOp τ sig (Elt F))) := [hostOps1]

/-- Core `c`'s buffer contents when the pallas_call is entered: the earlier lines folded over the launch memory. -/
abbrev V0 (c : Dev nD) : Valuation τ sig (Elt F) :=
  StableHlo.after (linesBefore (F := F)).flatten (fun b => m (c, b))

/-- The same, read at a TensorCore reference. -/
abbrev V (c : Dev nD) (b : Ref sig .tc) : Buf (Elt F) ((c : Thread nD τ).loc b) := V0 m c (Proc.devRef .tc b)

/-- Window `w`'s block of its array at grid point `t`, read off the contents at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2048 × 10 row block, the whole 1024 × 10 row block and the whole 2048 × 1024 tile, as rectangles. -/
abbrev rRows : Rect S2048x10 := Rect.unit (s := S2048x10) ![0, 0] S2048x10.size inb_S2048x10_S2048x10_0_0
abbrev rCols : Rect S1024x10 := Rect.unit (s := S1024x10) ![0, 0] S1024x10.size inb_S1024x10_S1024x10_0_0
abbrev rTile : Rect S2048x1024 := Rect.unit (s := S2048x1024) ![0, 0] S2048x1024.size inb_S2048x1024_S2048x1024_0_0

/-- What the body leaves in the output tile: its one store, of the product of the two loaded blocks. -/
def outTile (x0 : Vec F S2048x10 .f32) (x1 : Vec F S1024x10 .f32) : Vec F S2048x1024 .f32 :=
  View.canon [⟨rTile, k0_pay1 (View.ld x0 rRows) (View.ld x1 rCols)⟩]

/-- The pipeline's proof data on core `c`: the arrays as the call finds them; after the body each input buffer still
    at its block and the output buffer at the tile of products; the class's invariant; nothing owed; the shared input
    array held in two halves, the output array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) :
    (dats m 0 c).after 2 t = outTile (iblk m c 0 t) (iblk m c 1 t) := by dsimp only [dats]

end Cert.Kernel.Hand

end
-- ==== Proof.BBody.lean ====
/-
  The body of the pallas_call at one grid point.  The body loads the whole 2048 × 10 row block and the whole
  1024 × 10 row block from the two input windows' current buffers, rounds both to bf16, multiplies them contracting
  the short axis of both, and stores the 2048 × 1024 product over the whole of the output window's current buffer.
  This module proves the body's triple on whole buffers, shows that each input window's current buffer holds its block
  at every grid point (whether or not a transfer happened at that point), and concludes the pipeline's body
  obligation for the proof data of the preceding module.
-/
import proofs.«176114_j39599598469276_1_alg».proof.Proof.BDefs
import Idealize.ShloMosaic.Lib.Ring
import Idealize.ShloMosaic.Lib.Tactic

-- membership of an index in a rectangle with axes of length 2048 and 1024 is checked coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The one store covers the output buffer -/

/-- The tile rectangle is the whole 2048 × 1024 buffer, so a single piece on it reaches every index. -/
theorem tile_covers (p : Vec F S2048x1024 .f32) (y : S2048x1024.Idx) :
    ∃ pc ∈ ([⟨rTile, p⟩] : List (View.Piece (Elt F) S2048x1024 .f32)), y ∈ pc.1.set :=
  View.cover_of_tiled [⟨rTile, p⟩] S2048x1024.size (by rfl) y

/-! ## The body's triple on whole buffers -/

set_option maxHeartbeats 1000000 in
/-- With the row buffer at `x0`, the column buffer at `x1` and the output buffer at anything, the body runs to a state
    with the two input buffers unchanged and the output buffer at `outTile x0 x1`. -/
theorem body_triple (c : Dev nD) (E : Set ℕ) (i : grid0.Coords)
    (arg2 : Memref sig .tc .vmem S2048x10 .f32) (harg2 : arg2.IsWhole)
    (arg3 : Memref sig .tc .vmem S1024x10 .f32) (harg3 : arg3.IsWhole)
    (arg4 : Memref sig .tc .vmem S2048x1024 .f32) (harg4 : arg4.IsWhole)
    (x0 : Vec F S2048x10 .f32) (x1 : Vec F S1024x10 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E
          (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The input buffers hold their blocks at every point -/

/-- The row window's current buffer holds its block at every point.  It is transferred only at the first point of
    each row of the grid; in between, its block index does not move, so the block left in place is still the block. -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window's current buffer holds its block at every point (it is transferred at every point). -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-! ## The body obligation at one point -/

/-- What the body is handed at point `t`, the three windows written out. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at point `t`: the input buffers hold their blocks, so the triple applies; the invariant and what the core
    owes are not touched. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact body_at_point m c t

end Cert.Kernel.Hand

end
-- ==== Proof.BBlocks.lean ====
import proofs.«176114_j39599598469276_1_alg».proof.Proof.BDefs
import Idealize.ShloMosaic.Lib.StableHlo.Run

set_option maxRecDepth 8192

noncomputable section

namespace Cert.Kernel.Hand

open Cert.Kernel Cert.Kernel.Gen Idealize.ShloMosaic Idealize.ShloMosaic.TcCoe Idealize.SL.Sem

variable {F : FTy → Type} [FloatOps F]

/-- Operations 0 … 67. -/
abbrev kblk00 : List (HloOp τ sig (Elt F)) :=
  [ StableHlo.unary main_arg3 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg3 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x3F800000#32),
    StableHlo.unary main_cst main_v4 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v5 (broadcastInDim S10000 ![] bcast_S_S10000 : (⟨S_, .f32⟩ : BufTy).Contents (Elt F) → (⟨S10000, .f32⟩ : BufTy).Contents (Elt F)),
    StableHlo.unary main_v1 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_1 (constant S_ .f32 0x00000000#32),
    StableHlo.unary main_cst_1 main_v8 (broadcastInDim S10000 ![] bcast_S_S10000 : (⟨S_, .f32⟩ : BufTy).Contents (Elt F) → (⟨S10000, .f32⟩ : BufTy).Contents (Elt F)),
    StableHlo.unary main_v3 main_v9 (broadcastInDim S320000x1 ![0] bcast_S320000_S320000x1_0 : (⟨S320000, .i32⟩ : BufTy).Contents (Elt F) → (⟨S320000x1, .i32⟩ : BufTy).Contents (Elt F)),
    StableHlo.ternary main_v8 main_v9 main_v4 main_v10 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_2 (constant S_ .f32 0x00000000#32),
    StableHlo.unary main_cst_2 main_v11 (broadcastInDim S10000 ![] bcast_S_S10000 : (⟨S_, .f32⟩ : BufTy).Contents (Elt F) → (⟨S10000, .f32⟩ : BufTy).Contents (Elt F)),
    StableHlo.binary main_v7 main_v11 main_v12 (cmpf .ogt : (⟨S10000, .f32⟩ : BufTy).Contents (Elt F) → (⟨S10000, .f32⟩ : BufTy).Contents (Elt F) → (⟨S10000, .i1⟩ : BufTy).Contents (Elt F)),
    StableHlo.nullary main_cst_3 (constant S_ .f32 0x3F800000#32),
    StableHlo.unary main_cst_3 main_v13 (broadcastInDim S10000 ![] bcast_S_S10000 : (⟨S_, .f32⟩ : BufTy).Contents (Elt F) → (⟨S10000, .f32⟩ : BufTy).Contents (Elt F)),
    StableHlo.binary main_v7 main_v13 main_v14 (maximumf : (⟨S10000, .f32⟩ : BufTy).Contents (Elt F) → (⟨S10000, .f32⟩ : BufTy).Contents (Elt F) → (⟨S10000, .f32⟩ : BufTy).Contents (Elt F)),
    StableHlo.unary main_v14 main_v15 (Host.rsqrt : (⟨S10000, .f32⟩ : BufTy).Contents (Elt F) → (⟨S10000, .f32⟩ : BufTy).Contents (Elt F)),
    StableHlo.nullary main_cst_4 (constant S_ .f32 0x00000000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S10000, .f32⟩) (broadcastInDim S10000 ![] bcast_S_S10000),
    StableHlo.TRef.ternary (.of main_v12 : StableHlo.TRef sig ⟨S10000, .i1⟩) (.of main_v15 : StableHlo.TRef sig ⟨S10000, .f32⟩) (.of main_call0_v1 : StableHlo.TRef sig ⟨S10000, .f32⟩) (.of main_v16 : StableHlo.TRef sig ⟨S10000, .f32⟩) select,
    StableHlo.nullary main_cst_5 (constant S_ .f32 0x00000000#32),
    StableHlo.unary main_cst_5 main_v17 (broadcastInDim S10000 ![] bcast_S_S10000 : (⟨S_, .f32⟩ : BufTy).Contents (Elt F) → (⟨S10000, .f32⟩ : BufTy).Contents (Elt F)),
    StableHlo.binary main_v10 main_v17 main_v18 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v19 (broadcastInDim S10000 ![] bcast_S_S10000 : (⟨S_, .f32⟩ : BufTy).Contents (Elt F) → (⟨S10000, .f32⟩ : BufTy).Contents (Elt F)),
    StableHlo.binary main_v10 main_v19 main_v20 (maximumf : (⟨S10000, .f32⟩ : BufTy).Contents (Elt F) → (⟨S10000, .f32⟩ : BufTy).Contents (Elt F) → (⟨S10000, .f32⟩ : BufTy).Contents (Elt F)),
    StableHlo.unary main_v20 main_v21 (Host.rsqrt : (⟨S10000, .f32⟩ : BufTy).Contents (Elt F) → (⟨S10000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S10000, .f32⟩) (broadcastInDim S10000 ![] bcast_S_S10000),
    StableHlo.TRef.ternary (.of main_v18 : StableHlo.TRef sig ⟨S10000, .i1⟩) (.of main_v21 : StableHlo.TRef sig ⟨S10000, .f32⟩) (.of main_call1_v1 : StableHlo.TRef sig ⟨S10000, .f32⟩) (.of main_v22 : StableHlo.TRef sig ⟨S10000, .f32⟩) select,
    StableHlo.binary main_arg0 main_arg7 main_v23 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c (constantI S_ 32 0#32),
    StableHlo.unary main_c main_v24 (broadcastInDim S320000 ![] bcast_S_S320000 : (⟨S_, .i32⟩ : BufTy).Contents (Elt F) → (⟨S320000, .i32⟩ : BufTy).Contents (Elt F)),
    StableHlo.binary main_v1 main_v24 main_v25 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v26 (broadcastInDim S320000 ![] bcast_S_S320000 : (⟨S_, .i32⟩ : BufTy).Contents (Elt F) → (⟨S320000, .i32⟩ : BufTy).Contents (Elt F)),
    StableHlo.binary main_v1 main_v26 main_v27 (addi : (⟨S320000, .i32⟩ : BufTy).Contents (Elt F) → (⟨S320000, .i32⟩ : BufTy).Contents (Elt F) → (⟨S320000, .i32⟩ : BufTy).Contents (Elt F)),
    StableHlo.ternary main_v25 main_v27 main_v1 main_v28 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v28 main_v29 (broadcastInDim S320000x1 ![0] bcast_S320000_S320000x1_0 : (⟨S320000, .i32⟩ : BufTy).Contents (Elt F) → (⟨S320000x1, .i32⟩ : BufTy).Contents (Elt F)),
    StableHlo.binary main_v23 main_v29 main_v30 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_9 (constantI S_ 32 0#32),
    StableHlo.unary main_c_9 main_v31 (broadcastInDim S320000 ![] bcast_S_S320000 : (⟨S_, .i32⟩ : BufTy).Contents (Elt F) → (⟨S320000, .i32⟩ : BufTy).Contents (Elt F)),
    StableHlo.binary main_v1 main_v31 main_v32 (cmpi .slt : (⟨S320000, .i32⟩ : BufTy).Contents (Elt F) → (⟨S320000, .i32⟩ : BufTy).Contents (Elt F) → (⟨S320000, .i1⟩ : BufTy).Contents (Elt F)),
    StableHlo.nullary main_c_10 (constantI S_ 32 10000#32),
    StableHlo.unary main_c_10 main_v33 (broadcastInDim S320000 ![] bcast_S_S320000 : (⟨S_, .i32⟩ : BufTy).Contents (Elt F) → (⟨S320000, .i32⟩ : BufTy).Contents (Elt F)),
    StableHlo.binary main_v1 main_v33 main_v34 (addi : (⟨S320000, .i32⟩ : BufTy).Contents (Elt F) → (⟨S320000, .i32⟩ : BufTy).Contents (Elt F) → (⟨S320000, .i32⟩ : BufTy).Contents (Elt F)),
    StableHlo.ternary main_v32 main_v34 main_v1 main_v35 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v35 main_v36 (broadcastInDim S320000x1 ![0] bcast_S320000_S320000x1_0 : (⟨S320000, .i32⟩ : BufTy).Contents (Elt F) → (⟨S320000x1, .i32⟩ : BufTy).Contents (Elt F)),
    StableHlo.binary main_v16 main_v36 main_v37 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v37 main_v38 (broadcastInDim S320000x1 ![0] bcast_S320000_S320000x1_0 : (⟨S320000, .f32⟩ : BufTy).Contents (Elt F) → (⟨S320000x1, .f32⟩ : BufTy).Contents (Elt F)),
    StableHlo.unary main_v38 main_v39 (broadcastInDim S320000x256 ![0, 1] bcast_S320000x1_S320000x256_0_1 : (⟨S320000x1, .f32⟩ : BufTy).Contents (Elt F) → (⟨S320000x256, .f32⟩ : BufTy).Contents (Elt F)),
    StableHlo.binary main_v30 main_v39 main_v40 (mulf : (⟨S320000x256, .f32⟩ : BufTy).Contents (Elt F) → (⟨S320000x256, .f32⟩ : BufTy).Contents (Elt F) → (⟨S320000x256, .f32⟩ : BufTy).Contents (Elt F)),
    StableHlo.nullary main_cst_11 (constant S_ .f32 0x00000000#32),
    StableHlo.unary main_cst_11 main_v41 (broadcastInDim S10000x256 ![] bcast_S_S10000x256 : (⟨S_, .f32⟩ : BufTy).Contents (Elt F) → (⟨S10000x256, .f32⟩ : BufTy).Contents (Elt F)),
    StableHlo.unary main_v3 main_v42 (broadcastInDim S320000x1 ![0] bcast_S320000_S320000x1_0 : (⟨S320000, .i32⟩ : BufTy).Contents (Elt F) → (⟨S320000x1, .i32⟩ : BufTy).Contents (Elt F)),
    StableHlo.ternary main_v41 main_v42 main_v40 main_v43 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v22 main_v44 (broadcastInDim S10000x1 ![0] bcast_S10000_S10000x1_0 : (⟨S10000, .f32⟩ : BufTy).Contents (Elt F) → (⟨S10000x1, .f32⟩ : BufTy).Contents (Elt F)),
    StableHlo.unary main_v44 main_v45 (broadcastInDim S10000x256 ![0, 1] bcast_S10000x1_S10000x256_0_1 : (⟨S10000x1, .f32⟩ : BufTy).Contents (Elt F) → (⟨S10000x256, .f32⟩ : BufTy).Contents (Elt F)),
    StableHlo.binary main_v43 main_v45 main_v46 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S10000x256, .f32⟩) (broadcastInDim S10000x256 ![] bcast_S_S10000x256),
    StableHlo.TRef.binary (.of main_v46 : StableHlo.TRef sig ⟨S10000x256, .f32⟩) (.of main_call2_v0 : StableHlo.TRef sig ⟨S10000x256, .f32⟩) (.of main_v47 : StableHlo.TRef sig ⟨S10000x256, .f32⟩) maximumf ]
abbrev kblk00_W : List (Ref sig .tc) := [main_v0, main_v1, main_v2, main_v3, main_cst, main_v4, main_cst_0, main_v5, main_v6, main_v7, main_cst_1, main_v8, main_v9, main_v10, main_cst_2, main_v11, main_v12, main_cst_3, main_v13, main_v14, main_v15, main_cst_4, main_call0_v0, main_call0_v1, main_v16, main_cst_5, main_v17, main_v18, main_cst_6, main_v19, main_v20, main_v21, main_cst_7, main_call1_v0, main_call1_v1, main_v22, main_v23, main_c, main_v24, main_v25, main_c_8, main_v26, main_v27, main_v28, main_v29, main_v30, main_c_9, main_v31, main_v32, main_c_10, main_v33, main_v34, main_v35, main_v36, main_v37, main_v38, main_v39, main_v40, main_cst_11, main_v41, main_v42, main_v43, main_v44, main_v45, main_v46, main_call2_cst, main_call2_v0, main_v47]
theorem kblk00_writes : (kblk00 : List (HloOp τ sig (Elt F))).Forall fun op => op.writes ⊆ (kblk00_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk00_sub : (kblk00 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk00_fresh : (kblk00 : List (HloOp τ sig (Elt F))).Forall fun op => op.fresh = ∅ := by
  simp only [List.Forall]; repeat' constructor
theorem kblk00_keep (W : Valuation τ sig (Elt F)) (r : Ref sig .tc) (h : r ∉ kblk00_W) :
    StableHlo.after (kblk00 : List (HloOp τ sig (Elt F))) W (Proc.devRef .tc r) = W (Proc.devRef .tc r) :=
  StableHlo.after_of_writes_sub kblk00 _ kblk00_writes h

/-- Operations 68 … 103. -/
abbrev kblk01 : List (HloOp τ sig (Elt F)) :=
  [ StableHlo.unary main_arg3 main_v48 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v48 main_v49 rfl shapeCasts_S1x320000_S320000,
    StableHlo.unary main_arg3 main_v50 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v50 main_v51 rfl shapeCasts_S1x320000_S320000,
    StableHlo.nullary main_cst_12 (constant S_ .f32 0x3F800000#32),
    StableHlo.unary main_cst_12 main_v52 (broadcastInDim S320000 ![] bcast_S_S320000 : (⟨S_, .f32⟩ : BufTy).Contents (Elt F) → (⟨S320000, .f32⟩ : BufTy).Contents (Elt F)),
    StableHlo.nullary main_cst_13 (constant S_ .f32 0x00000000#32),
    StableHlo.unary main_cst_13 main_v53 (broadcastInDim S10000 ![] bcast_S_S10000 : (⟨S_, .f32⟩ : BufTy).Contents (Elt F) → (⟨S10000, .f32⟩ : BufTy).Contents (Elt F)),
    StableHlo.unary main_v49 main_v54 (broadcastInDim S320000x1 ![0] bcast_S320000_S320000x1_0 : (⟨S320000, .i32⟩ : BufTy).Contents (Elt F) → (⟨S320000x1, .i32⟩ : BufTy).Contents (Elt F)),
    StableHlo.ternary main_v53 main_v54 main_v52 main_v55 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_14 (constant S_ .f32 0x00000000#32),
    StableHlo.unary main_cst_14 main_v56 (broadcastInDim S10000 ![] bcast_S_S10000 : (⟨S_, .f32⟩ : BufTy).Contents (Elt F) → (⟨S10000, .f32⟩ : BufTy).Contents (Elt F)),
    StableHlo.unary main_v51 main_v57 (broadcastInDim S320000x1 ![0] bcast_S320000_S320000x1_0 : (⟨S320000, .i32⟩ : BufTy).Contents (Elt F) → (⟨S320000x1, .i32⟩ : BufTy).Contents (Elt F)),
    StableHlo.ternary main_v56 main_v57 main_v52 main_v58 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_15 (constant S_ .f32 0x00000000#32),
    StableHlo.unary main_cst_15 main_v59 (broadcastInDim S10000 ![] bcast_S_S10000 : (⟨S_, .f32⟩ : BufTy).Contents (Elt F) → (⟨S10000, .f32⟩ : BufTy).Contents (Elt F)),
    StableHlo.binary main_v55 main_v59 main_v60 (cmpf .ogt : (⟨S10000, .f32⟩ : BufTy).Contents (Elt F) → (⟨S10000, .f32⟩ : BufTy).Contents (Elt F) → (⟨S10000, .i1⟩ : BufTy).Contents (Elt F)),
    StableHlo.nullary main_cst_16 (constant S_ .f32 0x3F800000#32),
    StableHlo.unary main_cst_16 main_v61 (broadcastInDim S10000 ![] bcast_S_S10000 : (⟨S_, .f32⟩ : BufTy).Contents (Elt F) → (⟨S10000, .f32⟩ : BufTy).Contents (Elt F)),
    StableHlo.binary main_v55 main_v61 main_v62 (maximumf : (⟨S10000, .f32⟩ : BufTy).Contents (Elt F) → (⟨S10000, .f32⟩ : BufTy).Contents (Elt F) → (⟨S10000, .f32⟩ : BufTy).Contents (Elt F)),
    StableHlo.unary main_v62 main_v63 (Host.rsqrt : (⟨S10000, .f32⟩ : BufTy).Contents (Elt F) → (⟨S10000, .f32⟩ : BufTy).Contents (Elt F)),
    StableHlo.nullary main_cst_17 (constant S_ .f32 0x00000000#32),
    StableHlo.TRef.unary (.of main_cst_17 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S10000, .f32⟩) (broadcastInDim S10000 ![] bcast_S_S10000),
    StableHlo.TRef.ternary (.of main_v60 : StableHlo.TRef sig ⟨S10000, .i1⟩) (.of main_v63 : StableHlo.TRef sig ⟨S10000, .f32⟩) (.of main_call3_v1 : StableHlo.TRef sig ⟨S10000, .f32⟩) (.of main_v64 : StableHlo.TRef sig ⟨S10000, .f32⟩) select,
    StableHlo.nullary main_cst_18 (constant S_ .f32 0x00000000#32),
    StableHlo.unary main_cst_18 main_v65 (broadcastInDim S10000 ![] bcast_S_S10000 : (⟨S_, .f32⟩ : BufTy).Contents (Elt F) → (⟨S10000, .f32⟩ : BufTy).Contents (Elt F)),
    StableHlo.binary main_v58 main_v65 main_v66 (cmpf .ogt : (⟨S10000, .f32⟩ : BufTy).Contents (Elt F) → (⟨S10000, .f32⟩ : BufTy).Contents (Elt F) → (⟨S10000, .i1⟩ : BufTy).Contents (Elt F)),
    StableHlo.nullary main_cst_19 (constant S_ .f32 0x3F800000#32),
    StableHlo.unary main_cst_19 main_v67 (broadcastInDim S10000 ![] bcast_S_S10000 : (⟨S_, .f32⟩ : BufTy).Contents (Elt F) → (⟨S10000, .f32⟩ : BufTy).Contents (Elt F)),
    StableHlo.binary main_v58 main_v67 main_v68 (maximumf : (⟨S10000, .f32⟩ : BufTy).Contents (Elt F) → (⟨S10000, .f32⟩ : BufTy).Contents (Elt F) → (⟨S10000, .f32⟩ : BufTy).Contents (Elt F)),
    StableHlo.unary main_v68 main_v69 (Host.rsqrt : (⟨S10000, .f32⟩ : BufTy).Contents (Elt F) → (⟨S10000, .f32⟩ : BufTy).Contents (Elt F)),
    StableHlo.nullary main_cst_20 (constant S_ .f32 0x00000000#32),
    StableHlo.TRef.unary (.of main_cst_20 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S10000, .f32⟩) (broadcastInDim S10000 ![] bcast_S_S10000),
    StableHlo.TRef.ternary (.of main_v66 : StableHlo.TRef sig ⟨S10000, .i1⟩) (.of main_v69 : StableHlo.TRef sig ⟨S10000, .f32⟩) (.of main_call4_v1 : StableHlo.TRef sig ⟨S10000, .f32⟩) (.of main_v70 : StableHlo.TRef sig ⟨S10000, .f32⟩) select ]
abbrev kblk01_W : List (Ref sig .tc) := [main_v48, main_v49, main_v50, main_v51, main_cst_12, main_v52, main_cst_13, main_v53, main_v54, main_v55, main_cst_14, main_v56, main_v57, main_v58, main_cst_15, main_v59, main_v60, main_cst_16, main_v61, main_v62, main_v63, main_cst_17, main_call3_v0, main_call3_v1, main_v64, main_cst_18, main_v65, main_v66, main_cst_19, main_v67, main_v68, main_v69, main_cst_20, main_call4_v0, main_call4_v1, main_v70]
theorem kblk01_writes : (kblk01 : List (HloOp τ sig (Elt F))).Forall fun op => op.writes ⊆ (kblk01_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk01_sub : (kblk01 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk01_fresh : (kblk01 : List (HloOp τ sig (Elt F))).Forall fun op => op.fresh = ∅ := by
  simp only [List.Forall]; repeat' constructor
theorem kblk01_keep (W : Valuation τ sig (Elt F)) (r : Ref sig .tc) (h : r ∉ kblk01_W) :
    StableHlo.after (kblk01 : List (HloOp τ sig (Elt F))) W (Proc.devRef .tc r) = W (Proc.devRef .tc r) :=
  StableHlo.after_of_writes_sub kblk01 _ kblk01_writes h

/-- Operations 104 … 168. -/
abbrev kblk02 : List (HloOp τ sig (Elt F)) :=
  [ StableHlo.binary main_v47 main_arg8 main_v71 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_21 (constantI S_ 32 0#32),
    StableHlo.unary main_c_21 main_v72 (broadcastInDim S320000 ![] bcast_S_S320000 : (⟨S_, .i32⟩ : BufTy).Contents (Elt F) → (⟨S320000, .i32⟩ : BufTy).Contents (Elt F)),
    StableHlo.binary main_v49 main_v72 main_v73 (cmpi .slt : (⟨S320000, .i32⟩ : BufTy).Contents (Elt F) → (⟨S320000, .i32⟩ : BufTy).Contents (Elt F) → (⟨S320000, .i1⟩ : BufTy).Contents (Elt F)),
    StableHlo.nullary main_c_22 (constantI S_ 32 10000#32),
    StableHlo.unary main_c_22 main_v74 (broadcastInDim S320000 ![] bcast_S_S320000 : (⟨S_, .i32⟩ : BufTy).Contents (Elt F) → (⟨S320000, .i32⟩ : BufTy).Contents (Elt F)),
    StableHlo.binary main_v49 main_v74 main_v75 (addi : (⟨S320000, .i32⟩ : BufTy).Contents (Elt F) → (⟨S320000, .i32⟩ : BufTy).Contents (Elt F) → (⟨S320000, .i32⟩ : BufTy).Contents (Elt F)),
    StableHlo.ternary main_v73 main_v75 main_v49 main_v76 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v76 main_v77 (broadcastInDim S320000x1 ![0] bcast_S320000_S320000x1_0 : (⟨S320000, .i32⟩ : BufTy).Contents (Elt F) → (⟨S320000x1, .i32⟩ : BufTy).Contents (Elt F)),
    StableHlo.binary main_v71 main_v77 main_v78 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_23 (constantI S_ 32 0#32),
    StableHlo.unary main_c_23 main_v79 (broadcastInDim S320000 ![] bcast_S_S320000 : (⟨S_, .i32⟩ : BufTy).Contents (Elt F) → (⟨S320000, .i32⟩ : BufTy).Contents (Elt F)),
    StableHlo.binary main_v49 main_v79 main_v80 (cmpi .slt : (⟨S320000, .i32⟩ : BufTy).Contents (Elt F) → (⟨S320000, .i32⟩ : BufTy).Contents (Elt F) → (⟨S320000, .i1⟩ : BufTy).Contents (Elt F)),
    StableHlo.nullary main_c_24 (constantI S_ 32 10000#32),
    StableHlo.unary main_c_24 main_v81 (broadcastInDim S320000 ![] bcast_S_S320000 : (⟨S_, .i32⟩ : BufTy).Contents (Elt F) → (⟨S320000, .i32⟩ : BufTy).Contents (Elt F)),
    StableHlo.binary main_v49 main_v81 main_v82 (addi : (⟨S320000, .i32⟩ : BufTy).Contents (Elt F) → (⟨S320000, .i32⟩ : BufTy).Contents (Elt F) → (⟨S320000, .i32⟩ : BufTy).Contents (Elt F)),
    StableHlo.ternary main_v80 main_v82 main_v49 main_v83 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v83 main_v84 (broadcastInDim S320000x1 ![0] bcast_S320000_S320000x1_0 : (⟨S320000, .i32⟩ : BufTy).Contents (Elt F) → (⟨S320000x1, .i32⟩ : BufTy).Contents (Elt F)),
    StableHlo.binary main_v64 main_v84 main_v85 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v85 main_v86 (broadcastInDim S320000x1 ![0] bcast_S320000_S320000x1_0 : (⟨S320000, .f32⟩ : BufTy).Contents (Elt F) → (⟨S320000x1, .f32⟩ : BufTy).Contents (Elt F)),
    StableHlo.unary main_v86 main_v87 (broadcastInDim S320000x64 ![0, 1] bcast_S320000x1_S320000x64_0_1 : (⟨S320000x1, .f32⟩ : BufTy).Contents (Elt F) → (⟨S320000x64, .f32⟩ : BufTy).Contents (Elt F)),
    StableHlo.binary main_v78 main_v87 main_v88 (mulf : (⟨S320000x64, .f32⟩ : BufTy).Contents (Elt F) → (⟨S320000x64, .f32⟩ : BufTy).Contents (Elt F) → (⟨S320000x64, .f32⟩ : BufTy).Contents (Elt F)),
    StableHlo.nullary main_cst_25 (constant S_ .f32 0x00000000#32),
    StableHlo.unary main_cst_25 main_v89 (broadcastInDim S10000x64 ![] bcast_S_S10000x64 : (⟨S_, .f32⟩ : BufTy).Contents (Elt F) → (⟨S10000x64, .f32⟩ : BufTy).Contents (Elt F)),
    StableHlo.unary main_v51 main_v90 (broadcastInDim S320000x1 ![0] bcast_S320000_S320000x1_0 : (⟨S320000, .i32⟩ : BufTy).Contents (Elt F) → (⟨S320000x1, .i32⟩ : BufTy).Contents (Elt F)),
    StableHlo.ternary main_v89 main_v90 main_v88 main_v91 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v70 main_v92 (broadcastInDim S10000x1 ![0] bcast_S10000_S10000x1_0 : (⟨S10000, .f32⟩ : BufTy).Contents (Elt F) → (⟨S10000x1, .f32⟩ : BufTy).Contents (Elt F)),
    StableHlo.unary main_v92 main_v93 (broadcastInDim S10000x64 ![0, 1] bcast_S10000x1_S10000x64_0_1 : (⟨S10000x1, .f32⟩ : BufTy).Contents (Elt F) → (⟨S10000x64, .f32⟩ : BufTy).Contents (Elt F)),
    StableHlo.binary main_v91 main_v93 main_v94 (mulf : (⟨S10000x64, .f32⟩ : BufTy).Contents (Elt F) → (⟨S10000x64, .f32⟩ : BufTy).Contents (Elt F) → (⟨S10000x64, .f32⟩ : BufTy).Contents (Elt F)),
    StableHlo.unary main_arg4 main_v95 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v95 main_v96 rfl shapeCasts_S1x320000_S320000,
    StableHlo.unary main_arg4 main_v97 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v97 main_v98 rfl shapeCasts_S1x320000_S320000,
    StableHlo.nullary main_cst_26 (constant S_ .f32 0x3F800000#32),
    StableHlo.unary main_cst_26 main_v99 (broadcastInDim S320000 ![] bcast_S_S320000 : (⟨S_, .f32⟩ : BufTy).Contents (Elt F) → (⟨S320000, .f32⟩ : BufTy).Contents (Elt F)),
    StableHlo.nullary main_cst_27 (constant S_ .f32 0x00000000#32),
    StableHlo.unary main_cst_27 main_v100 (broadcastInDim S10000 ![] bcast_S_S10000 : (⟨S_, .f32⟩ : BufTy).Contents (Elt F) → (⟨S10000, .f32⟩ : BufTy).Contents (Elt F)),
    StableHlo.unary main_v96 main_v101 (broadcastInDim S320000x1 ![0] bcast_S320000_S320000x1_0 : (⟨S320000, .i32⟩ : BufTy).Contents (Elt F) → (⟨S320000x1, .i32⟩ : BufTy).Contents (Elt F)),
    StableHlo.ternary main_v100 main_v101 main_v99 main_v102 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_28 (constant S_ .f32 0x00000000#32),
    StableHlo.unary main_cst_28 main_v103 (broadcastInDim S10000 ![] bcast_S_S10000 : (⟨S_, .f32⟩ : BufTy).Contents (Elt F) → (⟨S10000, .f32⟩ : BufTy).Contents (Elt F)),
    StableHlo.unary main_v98 main_v104 (broadcastInDim S320000x1 ![0] bcast_S320000_S320000x1_0 : (⟨S320000, .i32⟩ : BufTy).Contents (Elt F) → (⟨S320000x1, .i32⟩ : BufTy).Contents (Elt F)),
    StableHlo.ternary main_v103 main_v104 main_v99 main_v105 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_29 (constant S_ .f32 0x00000000#32),
    StableHlo.unary main_cst_29 main_v106 (broadcastInDim S10000 ![] bcast_S_S10000 : (⟨S_, .f32⟩ : BufTy).Contents (Elt F) → (⟨S10000, .f32⟩ : BufTy).Contents (Elt F)),
    StableHlo.binary main_v102 main_v106 main_v107 (cmpf .ogt : (⟨S10000, .f32⟩ : BufTy).Contents (Elt F) → (⟨S10000, .f32⟩ : BufTy).Contents (Elt F) → (⟨S10000, .i1⟩ : BufTy).Contents (Elt F)),
    StableHlo.nullary main_cst_30 (constant S_ .f32 0x3F800000#32),
    StableHlo.unary main_cst_30 main_v108 (broadcastInDim S10000 ![] bcast_S_S10000 : (⟨S_, .f32⟩ : BufTy).Contents (Elt F) → (⟨S10000, .f32⟩ : BufTy).Contents (Elt F)),
    StableHlo.binary main_v102 main_v108 main_v109 (maximumf : (⟨S10000, .f32⟩ : BufTy).Contents (Elt F) → (⟨S10000, .f32⟩ : BufTy).Contents (Elt F) → (⟨S10000, .f32⟩ : BufTy).Contents (Elt F)),
    StableHlo.unary main_v109 main_v110 (Host.rsqrt : (⟨S10000, .f32⟩ : BufTy).Contents (Elt F) → (⟨S10000, .f32⟩ : BufTy).Contents (Elt F)),
    StableHlo.nullary main_cst_31 (constant S_ .f32 0x00000000#32),
    StableHlo.TRef.unary (.of main_cst_31 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S10000, .f32⟩) (broadcastInDim S10000 ![] bcast_S_S10000),
    StableHlo.TRef.ternary (.of main_v107 : StableHlo.TRef sig ⟨S10000, .i1⟩) (.of main_v110 : StableHlo.TRef sig ⟨S10000, .f32⟩) (.of main_call5_v1 : StableHlo.TRef sig ⟨S10000, .f32⟩) (.of main_v111 : StableHlo.TRef sig ⟨S10000, .f32⟩) select,
    StableHlo.nullary main_cst_32 (constant S_ .f32 0x00000000#32),
    StableHlo.unary main_cst_32 main_v112 (broadcastInDim S10000 ![] bcast_S_S10000 : (⟨S_, .f32⟩ : BufTy).Contents (Elt F) → (⟨S10000, .f32⟩ : BufTy).Contents (Elt F)),
    StableHlo.binary main_v105 main_v112 main_v113 (cmpf .ogt : (⟨S10000, .f32⟩ : BufTy).Contents (Elt F) → (⟨S10000, .f32⟩ : BufTy).Contents (Elt F) → (⟨S10000, .i1⟩ : BufTy).Contents (Elt F)),
    StableHlo.nullary main_cst_33 (constant S_ .f32 0x3F800000#32),
    StableHlo.unary main_cst_33 main_v114 (broadcastInDim S10000 ![] bcast_S_S10000 : (⟨S_, .f32⟩ : BufTy).Contents (Elt F) → (⟨S10000, .f32⟩ : BufTy).Contents (Elt F)),
    StableHlo.binary main_v105 main_v114 main_v115 (maximumf : (⟨S10000, .f32⟩ : BufTy).Contents (Elt F) → (⟨S10000, .f32⟩ : BufTy).Contents (Elt F) → (⟨S10000, .f32⟩ : BufTy).Contents (Elt F)),
    StableHlo.unary main_v115 main_v116 (Host.rsqrt : (⟨S10000, .f32⟩ : BufTy).Contents (Elt F) → (⟨S10000, .f32⟩ : BufTy).Contents (Elt F)),
    StableHlo.nullary main_cst_34 (constant S_ .f32 0x00000000#32),
    StableHlo.TRef.unary (.of main_cst_34 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S10000, .f32⟩) (broadcastInDim S10000 ![] bcast_S_S10000),
    StableHlo.TRef.ternary (.of main_v113 : StableHlo.TRef sig ⟨S10000, .i1⟩) (.of main_v116 : StableHlo.TRef sig ⟨S10000, .f32⟩) (.of main_call6_v1 : StableHlo.TRef sig ⟨S10000, .f32⟩) (.of main_v117 : StableHlo.TRef sig ⟨S10000, .f32⟩) select ]
abbrev kblk02_W : List (Ref sig .tc) := [main_v71, main_c_21, main_v72, main_v73, main_c_22, main_v74, main_v75, main_v76, main_v77, main_v78, main_c_23, main_v79, main_v80, main_c_24, main_v81, main_v82, main_v83, main_v84, main_v85, main_v86, main_v87, main_v88, main_cst_25, main_v89, main_v90, main_v91, main_v92, main_v93, main_v94, main_v95, main_v96, main_v97, main_v98, main_cst_26, main_v99, main_cst_27, main_v100, main_v101, main_v102, main_cst_28, main_v103, main_v104, main_v105, main_cst_29, main_v106, main_v107, main_cst_30, main_v108, main_v109, main_v110, main_cst_31, main_call5_v0, main_call5_v1, main_v111, main_cst_32, main_v112, main_v113, main_cst_33, main_v114, main_v115, main_v116, main_cst_34, main_call6_v0, main_call6_v1, main_v117]
theorem kblk02_writes : (kblk02 : List (HloOp τ sig (Elt F))).Forall fun op => op.writes ⊆ (kblk02_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk02_sub : (kblk02 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk02_fresh : (kblk02 : List (HloOp τ sig (Elt F))).Forall fun op => op.fresh = ∅ := by
  simp only [List.Forall]; repeat' constructor
theorem kblk02_keep (W : Valuation τ sig (Elt F)) (r : Ref sig .tc) (h : r ∉ kblk02_W) :
    StableHlo.after (kblk02 : List (HloOp τ sig (Elt F))) W (Proc.devRef .tc r) = W (Proc.devRef .tc r) :=
  StableHlo.after_of_writes_sub kblk02 _ kblk02_writes h

/-- Operations 169 … 200. -/
abbrev kblk03 : List (HloOp τ sig (Elt F)) :=
  [ StableHlo.binary main_arg1 main_arg9 main_v118 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c_35 (constantI S_ 32 0#32),
    StableHlo.unary main_c_35 main_v119 (broadcastInDim S320000 ![] bcast_S_S320000 : (⟨S_, .i32⟩ : BufTy).Contents (Elt F) → (⟨S320000, .i32⟩ : BufTy).Contents (Elt F)),
    StableHlo.binary main_v96 main_v119 main_v120 (cmpi .slt : (⟨S320000, .i32⟩ : BufTy).Contents (Elt F) → (⟨S320000, .i32⟩ : BufTy).Contents (Elt F) → (⟨S320000, .i1⟩ : BufTy).Contents (Elt F)),
    StableHlo.nullary main_c_36 (constantI S_ 32 10000#32),
    StableHlo.unary main_c_36 main_v121 (broadcastInDim S320000 ![] bcast_S_S320000 : (⟨S_, .i32⟩ : BufTy).Contents (Elt F) → (⟨S320000, .i32⟩ : BufTy).Contents (Elt F)),
    StableHlo.binary main_v96 main_v121 main_v122 (addi : (⟨S320000, .i32⟩ : BufTy).Contents (Elt F) → (⟨S320000, .i32⟩ : BufTy).Contents (Elt F) → (⟨S320000, .i32⟩ : BufTy).Contents (Elt F)),
    StableHlo.ternary main_v120 main_v122 main_v96 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v123 main_v124 (broadcastInDim S320000x1 ![0] bcast_S320000_S320000x1_0 : (⟨S320000, .i32⟩ : BufTy).Contents (Elt F) → (⟨S320000x1, .i32⟩ : BufTy).Contents (Elt F)),
    StableHlo.binary main_v118 main_v124 main_v125 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_37 (constantI S_ 32 0#32),
    StableHlo.unary main_c_37 main_v126 (broadcastInDim S320000 ![] bcast_S_S320000 : (⟨S_, .i32⟩ : BufTy).Contents (Elt F) → (⟨S320000, .i32⟩ : BufTy).Contents (Elt F)),
    StableHlo.binary main_v96 main_v126 main_v127 (cmpi .slt : (⟨S320000, .i32⟩ : BufTy).Contents (Elt F) → (⟨S320000, .i32⟩ : BufTy).Contents (Elt F) → (⟨S320000, .i1⟩ : BufTy).Contents (Elt F)),
    StableHlo.nullary main_c_38 (constantI S_ 32 10000#32),
    StableHlo.unary main_c_38 main_v128 (broadcastInDim S320000 ![] bcast_S_S320000 : (⟨S_, .i32⟩ : BufTy).Contents (Elt F) → (⟨S320000, .i32⟩ : BufTy).Contents (Elt F)),
    StableHlo.binary main_v96 main_v128 main_v129 (addi : (⟨S320000, .i32⟩ : BufTy).Contents (Elt F) → (⟨S320000, .i32⟩ : BufTy).Contents (Elt F) → (⟨S320000, .i32⟩ : BufTy).Contents (Elt F)),
    StableHlo.ternary main_v127 main_v129 main_v96 main_v130 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v130 main_v131 (broadcastInDim S320000x1 ![0] bcast_S320000_S320000x1_0 : (⟨S320000, .i32⟩ : BufTy).Contents (Elt F) → (⟨S320000x1, .i32⟩ : BufTy).Contents (Elt F)),
    StableHlo.binary main_v111 main_v131 main_v132 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v132 main_v133 (broadcastInDim S320000x1 ![0] bcast_S320000_S320000x1_0 : (⟨S320000, .f32⟩ : BufTy).Contents (Elt F) → (⟨S320000x1, .f32⟩ : BufTy).Contents (Elt F)),
    StableHlo.unary main_v133 main_v134 (broadcastInDim S320000x256 ![0, 1] bcast_S320000x1_S320000x256_0_1 : (⟨S320000x1, .f32⟩ : BufTy).Contents (Elt F) → (⟨S320000x256, .f32⟩ : BufTy).Contents (Elt F)),
    StableHlo.binary main_v125 main_v134 main_v135 (mulf : (⟨S320000x256, .f32⟩ : BufTy).Contents (Elt F) → (⟨S320000x256, .f32⟩ : BufTy).Contents (Elt F) → (⟨S320000x256, .f32⟩ : BufTy).Contents (Elt F)),
    StableHlo.nullary main_cst_39 (constant S_ .f32 0x00000000#32),
    StableHlo.unary main_cst_39 main_v136 (broadcastInDim S10000x256 ![] bcast_S_S10000x256 : (⟨S_, .f32⟩ : BufTy).Contents (Elt F) → (⟨S10000x256, .f32⟩ : BufTy).Contents (Elt F)),
    StableHlo.unary main_v98 main_v137 (broadcastInDim S320000x1 ![0] bcast_S320000_S320000x1_0 : (⟨S320000, .i32⟩ : BufTy).Contents (Elt F) → (⟨S320000x1, .i32⟩ : BufTy).Contents (Elt F)),
    StableHlo.ternary main_v136 main_v137 main_v135 main_v138 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v117 main_v139 (broadcastInDim S10000x1 ![0] bcast_S10000_S10000x1_0 : (⟨S10000, .f32⟩ : BufTy).Contents (Elt F) → (⟨S10000x1, .f32⟩ : BufTy).Contents (Elt F)),
    StableHlo.unary main_v139 main_v140 (broadcastInDim S10000x256 ![0, 1] bcast_S10000x1_S10000x256_0_1 : (⟨S10000x1, .f32⟩ : BufTy).Contents (Elt F) → (⟨S10000x256, .f32⟩ : BufTy).Contents (Elt F)),
    StableHlo.binary main_v138 main_v140 main_v141 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S10000x256, .f32⟩) (broadcastInDim S10000x256 ![] bcast_S_S10000x256),
    StableHlo.TRef.binary (.of main_v141 : StableHlo.TRef sig ⟨S10000x256, .f32⟩) (.of main_call7_v0 : StableHlo.TRef sig ⟨S10000x256, .f32⟩) (.of main_v142 : StableHlo.TRef sig ⟨S10000x256, .f32⟩) maximumf ]
abbrev kblk03_W : List (Ref sig .tc) := [main_v118, main_c_35, main_v119, main_v120, main_c_36, main_v121, main_v122, main_v123, main_v124, main_v125, main_c_37, main_v126, main_v127, main_c_38, main_v128, main_v129, main_v130, main_v131, main_v132, main_v133, main_v134, main_v135, main_cst_39, main_v136, main_v137, main_v138, main_v139, main_v140, main_v141, main_call7_cst, main_call7_v0, main_v142]
theorem kblk03_writes : (kblk03 : List (HloOp τ sig (Elt F))).Forall fun op => op.writes ⊆ (kblk03_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk03_sub : (kblk03 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk03_fresh : (kblk03 : List (HloOp τ sig (Elt F))).Forall fun op => op.fresh = ∅ := by
  simp only [List.Forall]; repeat' constructor
theorem kblk03_keep (W : Valuation τ sig (Elt F)) (r : Ref sig .tc) (h : r ∉ kblk03_W) :
    StableHlo.after (kblk03 : List (HloOp τ sig (Elt F))) W (Proc.devRef .tc r) = W (Proc.devRef .tc r) :=
  StableHlo.after_of_writes_sub kblk03 _ kblk03_writes h

/-- Operations 201 … 236. -/
abbrev kblk04 : List (HloOp τ sig (Elt F)) :=
  [ StableHlo.unary main_arg4 main_v143 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v143 main_v144 rfl shapeCasts_S1x320000_S320000,
    StableHlo.unary main_arg4 main_v145 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v145 main_v146 rfl shapeCasts_S1x320000_S320000,
    StableHlo.nullary main_cst_40 (constant S_ .f32 0x3F800000#32),
    StableHlo.unary main_cst_40 main_v147 (broadcastInDim S320000 ![] bcast_S_S320000 : (⟨S_, .f32⟩ : BufTy).Contents (Elt F) → (⟨S320000, .f32⟩ : BufTy).Contents (Elt F)),
    StableHlo.nullary main_cst_41 (constant S_ .f32 0x00000000#32),
    StableHlo.unary main_cst_41 main_v148 (broadcastInDim S10000 ![] bcast_S_S10000 : (⟨S_, .f32⟩ : BufTy).Contents (Elt F) → (⟨S10000, .f32⟩ : BufTy).Contents (Elt F)),
    StableHlo.unary main_v144 main_v149 (broadcastInDim S320000x1 ![0] bcast_S320000_S320000x1_0 : (⟨S320000, .i32⟩ : BufTy).Contents (Elt F) → (⟨S320000x1, .i32⟩ : BufTy).Contents (Elt F)),
    StableHlo.ternary main_v148 main_v149 main_v147 main_v150 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_42 (constant S_ .f32 0x00000000#32),
    StableHlo.unary main_cst_42 main_v151 (broadcastInDim S10000 ![] bcast_S_S10000 : (⟨S_, .f32⟩ : BufTy).Contents (Elt F) → (⟨S10000, .f32⟩ : BufTy).Contents (Elt F)),
    StableHlo.unary main_v146 main_v152 (broadcastInDim S320000x1 ![0] bcast_S320000_S320000x1_0 : (⟨S320000, .i32⟩ : BufTy).Contents (Elt F) → (⟨S320000x1, .i32⟩ : BufTy).Contents (Elt F)),
    StableHlo.ternary main_v151 main_v152 main_v147 main_v153 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_43 (constant S_ .f32 0x00000000#32),
    StableHlo.unary main_cst_43 main_v154 (broadcastInDim S10000 ![] bcast_S_S10000 : (⟨S_, .f32⟩ : BufTy).Contents (Elt F) → (⟨S10000, .f32⟩ : BufTy).Contents (Elt F)),
    StableHlo.binary main_v150 main_v154 main_v155 (cmpf .ogt : (⟨S10000, .f32⟩ : BufTy).Contents (Elt F) → (⟨S10000, .f32⟩ : BufTy).Contents (Elt F) → (⟨S10000, .i1⟩ : BufTy).Contents (Elt F)),
    StableHlo.nullary main_cst_44 (constant S_ .f32 0x3F800000#32),
    StableHlo.unary main_cst_44 main_v156 (broadcastInDim S10000 ![] bcast_S_S10000 : (⟨S_, .f32⟩ : BufTy).Contents (Elt F) → (⟨S10000, .f32⟩ : BufTy).Contents (Elt F)),
    StableHlo.binary main_v150 main_v156 main_v157 (maximumf : (⟨S10000, .f32⟩ : BufTy).Contents (Elt F) → (⟨S10000, .f32⟩ : BufTy).Contents (Elt F) → (⟨S10000, .f32⟩ : BufTy).Contents (Elt F)),
    StableHlo.unary main_v157 main_v158 (Host.rsqrt : (⟨S10000, .f32⟩ : BufTy).Contents (Elt F) → (⟨S10000, .f32⟩ : BufTy).Contents (Elt F)),
    StableHlo.nullary main_cst_45 (constant S_ .f32 0x00000000#32),
    StableHlo.TRef.unary (.of main_cst_45 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S10000, .f32⟩) (broadcastInDim S10000 ![] bcast_S_S10000),
    StableHlo.TRef.ternary (.of main_v155 : StableHlo.TRef sig ⟨S10000, .i1⟩) (.of main_v158 : StableHlo.TRef sig ⟨S10000, .f32⟩) (.of main_call8_v1 : StableHlo.TRef sig ⟨S10000, .f32⟩) (.of main_v159 : StableHlo.TRef sig ⟨S10000, .f32⟩) select,
    StableHlo.nullary main_cst_46 (constant S_ .f32 0x00000000#32),
    StableHlo.unary main_cst_46 main_v160 (broadcastInDim S10000 ![] bcast_S_S10000 : (⟨S_, .f32⟩ : BufTy).Contents (Elt F) → (⟨S10000, .f32⟩ : BufTy).Contents (Elt F)),
    StableHlo.binary main_v153 main_v160 main_v161 (cmpf .ogt : (⟨S10000, .f32⟩ : BufTy).Contents (Elt F) → (⟨S10000, .f32⟩ : BufTy).Contents (Elt F) → (⟨S10000, .i1⟩ : BufTy).Contents (Elt F)),
    StableHlo.nullary main_cst_47 (constant S_ .f32 0x3F800000#32),
    StableHlo.unary main_cst_47 main_v162 (broadcastInDim S10000 ![] bcast_S_S10000 : (⟨S_, .f32⟩ : BufTy).Contents (Elt F) → (⟨S10000, .f32⟩ : BufTy).Contents (Elt F)),
    StableHlo.binary main_v153 main_v162 main_v163 (maximumf : (⟨S10000, .f32⟩ : BufTy).Contents (Elt F) → (⟨S10000, .f32⟩ : BufTy).Contents (Elt F) → (⟨S10000, .f32⟩ : BufTy).Contents (Elt F)),
    StableHlo.unary main_v163 main_v164 (Host.rsqrt : (⟨S10000, .f32⟩ : BufTy).Contents (Elt F) → (⟨S10000, .f32⟩ : BufTy).Contents (Elt F)),
    StableHlo.nullary main_cst_48 (constant S_ .f32 0x00000000#32),
    StableHlo.TRef.unary (.of main_cst_48 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S10000, .f32⟩) (broadcastInDim S10000 ![] bcast_S_S10000),
    StableHlo.TRef.ternary (.of main_v161 : StableHlo.TRef sig ⟨S10000, .i1⟩) (.of main_v164 : StableHlo.TRef sig ⟨S10000, .f32⟩) (.of main_call9_v1 : StableHlo.TRef sig ⟨S10000, .f32⟩) (.of main_v165 : StableHlo.TRef sig ⟨S10000, .f32⟩) select ]
abbrev kblk04_W : List (Ref sig .tc) := [main_v143, main_v144, main_v145, main_v146, main_cst_40, main_v147, main_cst_41, main_v148, main_v149, main_v150, main_cst_42, main_v151, main_v152, main_v153, main_cst_43, main_v154, main_v155, main_cst_44, main_v156, main_v157, main_v158, main_cst_45, main_call8_v0, main_call8_v1, main_v159, main_cst_46, main_v160, main_v161, main_cst_47, main_v162, main_v163, main_v164, main_cst_48, main_call9_v0, main_call9_v1, main_v165]
theorem kblk04_writes : (kblk04 : List (HloOp τ sig (Elt F))).Forall fun op => op.writes ⊆ (kblk04_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk04_sub : (kblk04 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk04_fresh : (kblk04 : List (HloOp τ sig (Elt F))).Forall fun op => op.fresh = ∅ := by
  simp only [List.Forall]; repeat' constructor
theorem kblk04_keep (W : Valuation τ sig (Elt F)) (r : Ref sig .tc) (h : r ∉ kblk04_W) :
    StableHlo.after (kblk04 : List (HloOp τ sig (Elt F))) W (Proc.devRef .tc r) = W (Proc.devRef .tc r) :=
  StableHlo.after_of_writes_sub kblk04 _ kblk04_writes h

/-- Operations 237 … 301. -/
abbrev kblk05 : List (HloOp τ sig (Elt F)) :=
  [ StableHlo.binary main_v142 main_arg10 main_v166 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_49 (constantI S_ 32 0#32),
    StableHlo.unary main_c_49 main_v167 (broadcastInDim S320000 ![] bcast_S_S320000 : (⟨S_, .i32⟩ : BufTy).Contents (Elt F) → (⟨S320000, .i32⟩ : BufTy).Contents (Elt F)),
    StableHlo.binary main_v144 main_v167 main_v168 (cmpi .slt : (⟨S320000, .i32⟩ : BufTy).Contents (Elt F) → (⟨S320000, .i32⟩ : BufTy).Contents (Elt F) → (⟨S320000, .i1⟩ : BufTy).Contents (Elt F)),
    StableHlo.nullary main_c_50 (constantI S_ 32 10000#32),
    StableHlo.unary main_c_50 main_v169 (broadcastInDim S320000 ![] bcast_S_S320000 : (⟨S_, .i32⟩ : BufTy).Contents (Elt F) → (⟨S320000, .i32⟩ : BufTy).Contents (Elt F)),
    StableHlo.binary main_v144 main_v169 main_v170 (addi : (⟨S320000, .i32⟩ : BufTy).Contents (Elt F) → (⟨S320000, .i32⟩ : BufTy).Contents (Elt F) → (⟨S320000, .i32⟩ : BufTy).Contents (Elt F)),
    StableHlo.ternary main_v168 main_v170 main_v144 main_v171 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v171 main_v172 (broadcastInDim S320000x1 ![0] bcast_S320000_S320000x1_0 : (⟨S320000, .i32⟩ : BufTy).Contents (Elt F) → (⟨S320000x1, .i32⟩ : BufTy).Contents (Elt F)),
    StableHlo.binary main_v166 main_v172 main_v173 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_51 (constantI S_ 32 0#32),
    StableHlo.unary main_c_51 main_v174 (broadcastInDim S320000 ![] bcast_S_S320000 : (⟨S_, .i32⟩ : BufTy).Contents (Elt F) → (⟨S320000, .i32⟩ : BufTy).Contents (Elt F)),
    StableHlo.binary main_v144 main_v174 main_v175 (cmpi .slt : (⟨S320000, .i32⟩ : BufTy).Contents (Elt F) → (⟨S320000, .i32⟩ : BufTy).Contents (Elt F) → (⟨S320000, .i1⟩ : BufTy).Contents (Elt F)),
    StableHlo.nullary main_c_52 (constantI S_ 32 10000#32),
    StableHlo.unary main_c_52 main_v176 (broadcastInDim S320000 ![] bcast_S_S320000 : (⟨S_, .i32⟩ : BufTy).Contents (Elt F) → (⟨S320000, .i32⟩ : BufTy).Contents (Elt F)),
    StableHlo.binary main_v144 main_v176 main_v177 (addi : (⟨S320000, .i32⟩ : BufTy).Contents (Elt F) → (⟨S320000, .i32⟩ : BufTy).Contents (Elt F) → (⟨S320000, .i32⟩ : BufTy).Contents (Elt F)),
    StableHlo.ternary main_v175 main_v177 main_v144 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v178 main_v179 (broadcastInDim S320000x1 ![0] bcast_S320000_S320000x1_0 : (⟨S320000, .i32⟩ : BufTy).Contents (Elt F) → (⟨S320000x1, .i32⟩ : BufTy).Contents (Elt F)),
    StableHlo.binary main_v159 main_v179 main_v180 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v180 main_v181 (broadcastInDim S320000x1 ![0] bcast_S320000_S320000x1_0 : (⟨S320000, .f32⟩ : BufTy).Contents (Elt F) → (⟨S320000x1, .f32⟩ : BufTy).Contents (Elt F)),
    StableHlo.unary main_v181 main_v182 (broadcastInDim S320000x64 ![0, 1] bcast_S320000x1_S320000x64_0_1 : (⟨S320000x1, .f32⟩ : BufTy).Contents (Elt F) → (⟨S320000x64, .f32⟩ : BufTy).Contents (Elt F)),
    StableHlo.binary main_v173 main_v182 main_v183 (mulf : (⟨S320000x64, .f32⟩ : BufTy).Contents (Elt F) → (⟨S320000x64, .f32⟩ : BufTy).Contents (Elt F) → (⟨S320000x64, .f32⟩ : BufTy).Contents (Elt F)),
    StableHlo.nullary main_cst_53 (constant S_ .f32 0x00000000#32),
    StableHlo.unary main_cst_53 main_v184 (broadcastInDim S10000x64 ![] bcast_S_S10000x64 : (⟨S_, .f32⟩ : BufTy).Contents (Elt F) → (⟨S10000x64, .f32⟩ : BufTy).Contents (Elt F)),
    StableHlo.unary main_v146 main_v185 (broadcastInDim S320000x1 ![0] bcast_S320000_S320000x1_0 : (⟨S320000, .i32⟩ : BufTy).Contents (Elt F) → (⟨S320000x1, .i32⟩ : BufTy).Contents (Elt F)),
    StableHlo.ternary main_v184 main_v185 main_v183 main_v186 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v165 main_v187 (broadcastInDim S10000x1 ![0] bcast_S10000_S10000x1_0 : (⟨S10000, .f32⟩ : BufTy).Contents (Elt F) → (⟨S10000x1, .f32⟩ : BufTy).Contents (Elt F)),
    StableHlo.unary main_v187 main_v188 (broadcastInDim S10000x64 ![0, 1] bcast_S10000x1_S10000x64_0_1 : (⟨S10000x1, .f32⟩ : BufTy).Contents (Elt F) → (⟨S10000x64, .f32⟩ : BufTy).Contents (Elt F)),
    StableHlo.binary main_v186 main_v188 main_v189 (mulf : (⟨S10000x64, .f32⟩ : BufTy).Contents (Elt F) → (⟨S10000x64, .f32⟩ : BufTy).Contents (Elt F) → (⟨S10000x64, .f32⟩ : BufTy).Contents (Elt F)),
    StableHlo.unary main_arg5 main_v190 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v190 main_v191 rfl shapeCasts_S1x320000_S320000,
    StableHlo.unary main_arg5 main_v192 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v192 main_v193 rfl shapeCasts_S1x320000_S320000,
    StableHlo.nullary main_cst_54 (constant S_ .f32 0x3F800000#32),
    StableHlo.unary main_cst_54 main_v194 (broadcastInDim S320000 ![] bcast_S_S320000 : (⟨S_, .f32⟩ : BufTy).Contents (Elt F) → (⟨S320000, .f32⟩ : BufTy).Contents (Elt F)),
    StableHlo.nullary main_cst_55 (constant S_ .f32 0x00000000#32),
    StableHlo.unary main_cst_55 main_v195 (broadcastInDim S10000 ![] bcast_S_S10000 : (⟨S_, .f32⟩ : BufTy).Contents (Elt F) → (⟨S10000, .f32⟩ : BufTy).Contents (Elt F)),
    StableHlo.unary main_v191 main_v196 (broadcastInDim S320000x1 ![0] bcast_S320000_S320000x1_0 : (⟨S320000, .i32⟩ : BufTy).Contents (Elt F) → (⟨S320000x1, .i32⟩ : BufTy).Contents (Elt F)),
    StableHlo.ternary main_v195 main_v196 main_v194 main_v197 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_56 (constant S_ .f32 0x00000000#32),
    StableHlo.unary main_cst_56 main_v198 (broadcastInDim S10000 ![] bcast_S_S10000 : (⟨S_, .f32⟩ : BufTy).Contents (Elt F) → (⟨S10000, .f32⟩ : BufTy).Contents (Elt F)),
    StableHlo.unary main_v193 main_v199 (broadcastInDim S320000x1 ![0] bcast_S320000_S320000x1_0 : (⟨S320000, .i32⟩ : BufTy).Contents (Elt F) → (⟨S320000x1, .i32⟩ : BufTy).Contents (Elt F)),
    StableHlo.ternary main_v198 main_v199 main_v194 main_v200 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_57 (constant S_ .f32 0x00000000#32),
    StableHlo.unary main_cst_57 main_v201 (broadcastInDim S10000 ![] bcast_S_S10000 : (⟨S_, .f32⟩ : BufTy).Contents (Elt F) → (⟨S10000, .f32⟩ : BufTy).Contents (Elt F)),
    StableHlo.binary main_v197 main_v201 main_v202 (cmpf .ogt : (⟨S10000, .f32⟩ : BufTy).Contents (Elt F) → (⟨S10000, .f32⟩ : BufTy).Contents (Elt F) → (⟨S10000, .i1⟩ : BufTy).Contents (Elt F)),
    StableHlo.nullary main_cst_58 (constant S_ .f32 0x3F800000#32),
    StableHlo.unary main_cst_58 main_v203 (broadcastInDim S10000 ![] bcast_S_S10000 : (⟨S_, .f32⟩ : BufTy).Contents (Elt F) → (⟨S10000, .f32⟩ : BufTy).Contents (Elt F)),
    StableHlo.binary main_v197 main_v203 main_v204 (maximumf : (⟨S10000, .f32⟩ : BufTy).Contents (Elt F) → (⟨S10000, .f32⟩ : BufTy).Contents (Elt F) → (⟨S10000, .f32⟩ : BufTy).Contents (Elt F)),
    StableHlo.unary main_v204 main_v205 (Host.rsqrt : (⟨S10000, .f32⟩ : BufTy).Contents (Elt F) → (⟨S10000, .f32⟩ : BufTy).Contents (Elt F)),
    StableHlo.nullary main_cst_59 (constant S_ .f32 0x00000000#32),
    StableHlo.TRef.unary (.of main_cst_59 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S10000, .f32⟩) (broadcastInDim S10000 ![] bcast_S_S10000),
    StableHlo.TRef.ternary (.of main_v202 : StableHlo.TRef sig ⟨S10000, .i1⟩) (.of main_v205 : StableHlo.TRef sig ⟨S10000, .f32⟩) (.of main_call10_v1 : StableHlo.TRef sig ⟨S10000, .f32⟩) (.of main_v206 : StableHlo.TRef sig ⟨S10000, .f32⟩) select,
    StableHlo.nullary main_cst_60 (constant S_ .f32 0x00000000#32),
    StableHlo.unary main_cst_60 main_v207 (broadcastInDim S10000 ![] bcast_S_S10000 : (⟨S_, .f32⟩ : BufTy).Contents (Elt F) → (⟨S10000, .f32⟩ : BufTy).Contents (Elt F)),
    StableHlo.binary main_v200 main_v207 main_v208 (cmpf .ogt : (⟨S10000, .f32⟩ : BufTy).Contents (Elt F) → (⟨S10000, .f32⟩ : BufTy).Contents (Elt F) → (⟨S10000, .i1⟩ : BufTy).Contents (Elt F)),
    StableHlo.nullary main_cst_61 (constant S_ .f32 0x3F800000#32),
    StableHlo.unary main_cst_61 main_v209 (broadcastInDim S10000 ![] bcast_S_S10000 : (⟨S_, .f32⟩ : BufTy).Contents (Elt F) → (⟨S10000, .f32⟩ : BufTy).Contents (Elt F)),
    StableHlo.binary main_v200 main_v209 main_v210 (maximumf : (⟨S10000, .f32⟩ : BufTy).Contents (Elt F) → (⟨S10000, .f32⟩ : BufTy).Contents (Elt F) → (⟨S10000, .f32⟩ : BufTy).Contents (Elt F)),
    StableHlo.unary main_v210 main_v211 (Host.rsqrt : (⟨S10000, .f32⟩ : BufTy).Contents (Elt F) → (⟨S10000, .f32⟩ : BufTy).Contents (Elt F)),
    StableHlo.nullary main_cst_62 (constant S_ .f32 0x00000000#32),
    StableHlo.TRef.unary (.of main_cst_62 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S10000, .f32⟩) (broadcastInDim S10000 ![] bcast_S_S10000),
    StableHlo.TRef.ternary (.of main_v208 : StableHlo.TRef sig ⟨S10000, .i1⟩) (.of main_v211 : StableHlo.TRef sig ⟨S10000, .f32⟩) (.of main_call11_v1 : StableHlo.TRef sig ⟨S10000, .f32⟩) (.of main_v212 : StableHlo.TRef sig ⟨S10000, .f32⟩) select ]
abbrev kblk05_W : List (Ref sig .tc) := [main_v166, main_c_49, main_v167, main_v168, main_c_50, main_v169, main_v170, main_v171, main_v172, main_v173, main_c_51, main_v174, main_v175, main_c_52, main_v176, main_v177, main_v178, main_v179, main_v180, main_v181, main_v182, main_v183, main_cst_53, main_v184, main_v185, main_v186, main_v187, main_v188, main_v189, main_v190, main_v191, main_v192, main_v193, main_cst_54, main_v194, main_cst_55, main_v195, main_v196, main_v197, main_cst_56, main_v198, main_v199, main_v200, main_cst_57, main_v201, main_v202, main_cst_58, main_v203, main_v204, main_v205, main_cst_59, main_call10_v0, main_call10_v1, main_v206, main_cst_60, main_v207, main_v208, main_cst_61, main_v209, main_v210, main_v211, main_cst_62, main_call11_v0, main_call11_v1, main_v212]
theorem kblk05_writes : (kblk05 : List (HloOp τ sig (Elt F))).Forall fun op => op.writes ⊆ (kblk05_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk05_sub : (kblk05 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk05_fresh : (kblk05 : List (HloOp τ sig (Elt F))).Forall fun op => op.fresh = ∅ := by
  simp only [List.Forall]; repeat' constructor
theorem kblk05_keep (W : Valuation τ sig (Elt F)) (r : Ref sig .tc) (h : r ∉ kblk05_W) :
    StableHlo.after (kblk05 : List (HloOp τ sig (Elt F))) W (Proc.devRef .tc r) = W (Proc.devRef .tc r) :=
  StableHlo.after_of_writes_sub kblk05 _ kblk05_writes h

/-- Operations 302 … 333. -/
abbrev kblk06 : List (HloOp τ sig (Elt F)) :=
  [ StableHlo.binary main_arg2 main_arg11 main_v213 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c_63 (constantI S_ 32 0#32),
    StableHlo.unary main_c_63 main_v214 (broadcastInDim S320000 ![] bcast_S_S320000 : (⟨S_, .i32⟩ : BufTy).Contents (Elt F) → (⟨S320000, .i32⟩ : BufTy).Contents (Elt F)),
    StableHlo.binary main_v191 main_v214 main_v215 (cmpi .slt : (⟨S320000, .i32⟩ : BufTy).Contents (Elt F) → (⟨S320000, .i32⟩ : BufTy).Contents (Elt F) → (⟨S320000, .i1⟩ : BufTy).Contents (Elt F)),
    StableHlo.nullary main_c_64 (constantI S_ 32 10000#32),
    StableHlo.unary main_c_64 main_v216 (broadcastInDim S320000 ![] bcast_S_S320000 : (⟨S_, .i32⟩ : BufTy).Contents (Elt F) → (⟨S320000, .i32⟩ : BufTy).Contents (Elt F)),
    StableHlo.binary main_v191 main_v216 main_v217 (addi : (⟨S320000, .i32⟩ : BufTy).Contents (Elt F) → (⟨S320000, .i32⟩ : BufTy).Contents (Elt F) → (⟨S320000, .i32⟩ : BufTy).Contents (Elt F)),
    StableHlo.ternary main_v215 main_v217 main_v191 main_v218 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v218 main_v219 (broadcastInDim S320000x1 ![0] bcast_S320000_S320000x1_0 : (⟨S320000, .i32⟩ : BufTy).Contents (Elt F) → (⟨S320000x1, .i32⟩ : BufTy).Contents (Elt F)),
    StableHlo.binary main_v213 main_v219 main_v220 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_65 (constantI S_ 32 0#32),
    StableHlo.unary main_c_65 main_v221 (broadcastInDim S320000 ![] bcast_S_S320000 : (⟨S_, .i32⟩ : BufTy).Contents (Elt F) → (⟨S320000, .i32⟩ : BufTy).Contents (Elt F)),
    StableHlo.binary main_v191 main_v221 main_v222 (cmpi .slt : (⟨S320000, .i32⟩ : BufTy).Contents (Elt F) → (⟨S320000, .i32⟩ : BufTy).Contents (Elt F) → (⟨S320000, .i1⟩ : BufTy).Contents (Elt F)),
    StableHlo.nullary main_c_66 (constantI S_ 32 10000#32),
    StableHlo.unary main_c_66 main_v223 (broadcastInDim S320000 ![] bcast_S_S320000 : (⟨S_, .i32⟩ : BufTy).Contents (Elt F) → (⟨S320000, .i32⟩ : BufTy).Contents (Elt F)),
    StableHlo.binary main_v191 main_v223 main_v224 (addi : (⟨S320000, .i32⟩ : BufTy).Contents (Elt F) → (⟨S320000, .i32⟩ : BufTy).Contents (Elt F) → (⟨S320000, .i32⟩ : BufTy).Contents (Elt F)),
    StableHlo.ternary main_v222 main_v224 main_v191 main_v225 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v225 main_v226 (broadcastInDim S320000x1 ![0] bcast_S320000_S320000x1_0 : (⟨S320000, .i32⟩ : BufTy).Contents (Elt F) → (⟨S320000x1, .i32⟩ : BufTy).Contents (Elt F)),
    StableHlo.binary main_v206 main_v226 main_v227 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v227 main_v228 (broadcastInDim S320000x1 ![0] bcast_S320000_S320000x1_0 : (⟨S320000, .f32⟩ : BufTy).Contents (Elt F) → (⟨S320000x1, .f32⟩ : BufTy).Contents (Elt F)),
    StableHlo.unary main_v228 main_v229 (broadcastInDim S320000x256 ![0, 1] bcast_S320000x1_S320000x256_0_1 : (⟨S320000x1, .f32⟩ : BufTy).Contents (Elt F) → (⟨S320000x256, .f32⟩ : BufTy).Contents (Elt F)),
    StableHlo.binary main_v220 main_v229 main_v230 (mulf : (⟨S320000x256, .f32⟩ : BufTy).Contents (Elt F) → (⟨S320000x256, .f32⟩ : BufTy).Contents (Elt F) → (⟨S320000x256, .f32⟩ : BufTy).Contents (Elt F)),
    StableHlo.nullary main_cst_67 (constant S_ .f32 0x00000000#32),
    StableHlo.unary main_cst_67 main_v231 (broadcastInDim S10000x256 ![] bcast_S_S10000x256 : (⟨S_, .f32⟩ : BufTy).Contents (Elt F) → (⟨S10000x256, .f32⟩ : BufTy).Contents (Elt F)),
    StableHlo.unary main_v193 main_v232 (broadcastInDim S320000x1 ![0] bcast_S320000_S320000x1_0 : (⟨S320000, .i32⟩ : BufTy).Contents (Elt F) → (⟨S320000x1, .i32⟩ : BufTy).Contents (Elt F)),
    StableHlo.ternary main_v231 main_v232 main_v230 main_v233 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v212 main_v234 (broadcastInDim S10000x1 ![0] bcast_S10000_S10000x1_0 : (⟨S10000, .f32⟩ : BufTy).Contents (Elt F) → (⟨S10000x1, .f32⟩ : BufTy).Contents (Elt F)),
    StableHlo.unary main_v234 main_v235 (broadcastInDim S10000x256 ![0, 1] bcast_S10000x1_S10000x256_0_1 : (⟨S10000x1, .f32⟩ : BufTy).Contents (Elt F) → (⟨S10000x256, .f32⟩ : BufTy).Contents (Elt F)),
    StableHlo.binary main_v233 main_v235 main_v236 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S10000x256, .f32⟩) (broadcastInDim S10000x256 ![] bcast_S_S10000x256),
    StableHlo.TRef.binary (.of main_v236 : StableHlo.TRef sig ⟨S10000x256, .f32⟩) (.of main_call12_v0 : StableHlo.TRef sig ⟨S10000x256, .f32⟩) (.of main_v237 : StableHlo.TRef sig ⟨S10000x256, .f32⟩) maximumf ]
abbrev kblk06_W : List (Ref sig .tc) := [main_v213, main_c_63, main_v214, main_v215, main_c_64, main_v216, main_v217, main_v218, main_v219, main_v220, main_c_65, main_v221, main_v222, main_c_66, main_v223, main_v224, main_v225, main_v226, main_v227, main_v228, main_v229, main_v230, main_cst_67, main_v231, main_v232, main_v233, main_v234, main_v235, main_v236, main_call12_cst, main_call12_v0, main_v237]
theorem kblk06_writes : (kblk06 : List (HloOp τ sig (Elt F))).Forall fun op => op.writes ⊆ (kblk06_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk06_sub : (kblk06 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk06_fresh : (kblk06 : List (HloOp τ sig (Elt F))).Forall fun op => op.fresh = ∅ := by
  simp only [List.Forall]; repeat' constructor
theorem kblk06_keep (W : Valuation τ sig (Elt F)) (r : Ref sig .tc) (h : r ∉ kblk06_W) :
    StableHlo.after (kblk06 : List (HloOp τ sig (Elt F))) W (Proc.devRef .tc r) = W (Proc.devRef .tc r) :=
  StableHlo.after_of_writes_sub kblk06 _ kblk06_writes h

/-- Operations 334 … 369. -/
abbrev kblk07 : List (HloOp τ sig (Elt F)) :=
  [ StableHlo.unary main_arg5 main_v238 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v238 main_v239 rfl shapeCasts_S1x320000_S320000,
    StableHlo.unary main_arg5 main_v240 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v240 main_v241 rfl shapeCasts_S1x320000_S320000,
    StableHlo.nullary main_cst_68 (constant S_ .f32 0x3F800000#32),
    StableHlo.unary main_cst_68 main_v242 (broadcastInDim S320000 ![] bcast_S_S320000 : (⟨S_, .f32⟩ : BufTy).Contents (Elt F) → (⟨S320000, .f32⟩ : BufTy).Contents (Elt F)),
    StableHlo.nullary main_cst_69 (constant S_ .f32 0x00000000#32),
    StableHlo.unary main_cst_69 main_v243 (broadcastInDim S10000 ![] bcast_S_S10000 : (⟨S_, .f32⟩ : BufTy).Contents (Elt F) → (⟨S10000, .f32⟩ : BufTy).Contents (Elt F)),
    StableHlo.unary main_v239 main_v244 (broadcastInDim S320000x1 ![0] bcast_S320000_S320000x1_0 : (⟨S320000, .i32⟩ : BufTy).Contents (Elt F) → (⟨S320000x1, .i32⟩ : BufTy).Contents (Elt F)),
    StableHlo.ternary main_v243 main_v244 main_v242 main_v245 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_70 (constant S_ .f32 0x00000000#32),
    StableHlo.unary main_cst_70 main_v246 (broadcastInDim S10000 ![] bcast_S_S10000 : (⟨S_, .f32⟩ : BufTy).Contents (Elt F) → (⟨S10000, .f32⟩ : BufTy).Contents (Elt F)),
    StableHlo.unary main_v241 main_v247 (broadcastInDim S320000x1 ![0] bcast_S320000_S320000x1_0 : (⟨S320000, .i32⟩ : BufTy).Contents (Elt F) → (⟨S320000x1, .i32⟩ : BufTy).Contents (Elt F)),
    StableHlo.ternary main_v246 main_v247 main_v242 main_v248 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_71 (constant S_ .f32 0x00000000#32),
    StableHlo.unary main_cst_71 main_v249 (broadcastInDim S10000 ![] bcast_S_S10000 : (⟨S_, .f32⟩ : BufTy).Contents (Elt F) → (⟨S10000, .f32⟩ : BufTy).Contents (Elt F)),
    StableHlo.binary main_v245 main_v249 main_v250 (cmpf .ogt : (⟨S10000, .f32⟩ : BufTy).Contents (Elt F) → (⟨S10000, .f32⟩ : BufTy).Contents (Elt F) → (⟨S10000, .i1⟩ : BufTy).Contents (Elt F)),
    StableHlo.nullary main_cst_72 (constant S_ .f32 0x3F800000#32),
    StableHlo.unary main_cst_72 main_v251 (broadcastInDim S10000 ![] bcast_S_S10000 : (⟨S_, .f32⟩ : BufTy).Contents (Elt F) → (⟨S10000, .f32⟩ : BufTy).Contents (Elt F)),
    StableHlo.binary main_v245 main_v251 main_v252 (maximumf : (⟨S10000, .f32⟩ : BufTy).Contents (Elt F) → (⟨S10000, .f32⟩ : BufTy).Contents (Elt F) → (⟨S10000, .f32⟩ : BufTy).Contents (Elt F)),
    StableHlo.unary main_v252 main_v253 (Host.rsqrt : (⟨S10000, .f32⟩ : BufTy).Contents (Elt F) → (⟨S10000, .f32⟩ : BufTy).Contents (Elt F)),
    StableHlo.nullary main_cst_73 (constant S_ .f32 0x00000000#32),
    StableHlo.TRef.unary (.of main_cst_73 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S10000, .f32⟩) (broadcastInDim S10000 ![] bcast_S_S10000),
    StableHlo.TRef.ternary (.of main_v250 : StableHlo.TRef sig ⟨S10000, .i1⟩) (.of main_v253 : StableHlo.TRef sig ⟨S10000, .f32⟩) (.of main_call13_v1 : StableHlo.TRef sig ⟨S10000, .f32⟩) (.of main_v254 : StableHlo.TRef sig ⟨S10000, .f32⟩) select,
    StableHlo.nullary main_cst_74 (constant S_ .f32 0x00000000#32),
    StableHlo.unary main_cst_74 main_v255 (broadcastInDim S10000 ![] bcast_S_S10000 : (⟨S_, .f32⟩ : BufTy).Contents (Elt F) → (⟨S10000, .f32⟩ : BufTy).Contents (Elt F)),
    StableHlo.binary main_v248 main_v255 main_v256 (cmpf .ogt : (⟨S10000, .f32⟩ : BufTy).Contents (Elt F) → (⟨S10000, .f32⟩ : BufTy).Contents (Elt F) → (⟨S10000, .i1⟩ : BufTy).Contents (Elt F)),
    StableHlo.nullary main_cst_75 (constant S_ .f32 0x3F800000#32),
    StableHlo.unary main_cst_75 main_v257 (broadcastInDim S10000 ![] bcast_S_S10000 : (⟨S_, .f32⟩ : BufTy).Contents (Elt F) → (⟨S10000, .f32⟩ : BufTy).Contents (Elt F)),
    StableHlo.binary main_v248 main_v257 main_v258 (maximumf : (⟨S10000, .f32⟩ : BufTy).Contents (Elt F) → (⟨S10000, .f32⟩ : BufTy).Contents (Elt F) → (⟨S10000, .f32⟩ : BufTy).Contents (Elt F)),
    StableHlo.unary main_v258 main_v259 (Host.rsqrt : (⟨S10000, .f32⟩ : BufTy).Contents (Elt F) → (⟨S10000, .f32⟩ : BufTy).Contents (Elt F)),
    StableHlo.nullary main_cst_76 (constant S_ .f32 0x00000000#32),
    StableHlo.TRef.unary (.of main_cst_76 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S10000, .f32⟩) (broadcastInDim S10000 ![] bcast_S_S10000),
    StableHlo.TRef.ternary (.of main_v256 : StableHlo.TRef sig ⟨S10000, .i1⟩) (.of main_v259 : StableHlo.TRef sig ⟨S10000, .f32⟩) (.of main_call14_v1 : StableHlo.TRef sig ⟨S10000, .f32⟩) (.of main_v260 : StableHlo.TRef sig ⟨S10000, .f32⟩) select ]
abbrev kblk07_W : List (Ref sig .tc) := [main_v238, main_v239, main_v240, main_v241, main_cst_68, main_v242, main_cst_69, main_v243, main_v244, main_v245, main_cst_70, main_v246, main_v247, main_v248, main_cst_71, main_v249, main_v250, main_cst_72, main_v251, main_v252, main_v253, main_cst_73, main_call13_v0, main_call13_v1, main_v254, main_cst_74, main_v255, main_v256, main_cst_75, main_v257, main_v258, main_v259, main_cst_76, main_call14_v0, main_call14_v1, main_v260]
theorem kblk07_writes : (kblk07 : List (HloOp τ sig (Elt F))).Forall fun op => op.writes ⊆ (kblk07_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk07_sub : (kblk07 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk07_fresh : (kblk07 : List (HloOp τ sig (Elt F))).Forall fun op => op.fresh = ∅ := by
  simp only [List.Forall]; repeat' constructor
theorem kblk07_keep (W : Valuation τ sig (Elt F)) (r : Ref sig .tc) (h : r ∉ kblk07_W) :
    StableHlo.after (kblk07 : List (HloOp τ sig (Elt F))) W (Proc.devRef .tc r) = W (Proc.devRef .tc r) :=
  StableHlo.after_of_writes_sub kblk07 _ kblk07_writes h

/-- Operations 370 … 420. -/
abbrev kblk08 : List (HloOp τ sig (Elt F)) :=
  [ StableHlo.binary main_v237 main_arg12 main_v261 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_77 (constantI S_ 32 0#32),
    StableHlo.unary main_c_77 main_v262 (broadcastInDim S320000 ![] bcast_S_S320000 : (⟨S_, .i32⟩ : BufTy).Contents (Elt F) → (⟨S320000, .i32⟩ : BufTy).Contents (Elt F)),
    StableHlo.binary main_v239 main_v262 main_v263 (cmpi .slt : (⟨S320000, .i32⟩ : BufTy).Contents (Elt F) → (⟨S320000, .i32⟩ : BufTy).Contents (Elt F) → (⟨S320000, .i1⟩ : BufTy).Contents (Elt F)),
    StableHlo.nullary main_c_78 (constantI S_ 32 10000#32),
    StableHlo.unary main_c_78 main_v264 (broadcastInDim S320000 ![] bcast_S_S320000 : (⟨S_, .i32⟩ : BufTy).Contents (Elt F) → (⟨S320000, .i32⟩ : BufTy).Contents (Elt F)),
    StableHlo.binary main_v239 main_v264 main_v265 (addi : (⟨S320000, .i32⟩ : BufTy).Contents (Elt F) → (⟨S320000, .i32⟩ : BufTy).Contents (Elt F) → (⟨S320000, .i32⟩ : BufTy).Contents (Elt F)),
    StableHlo.ternary main_v263 main_v265 main_v239 main_v266 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v266 main_v267 (broadcastInDim S320000x1 ![0] bcast_S320000_S320000x1_0 : (⟨S320000, .i32⟩ : BufTy).Contents (Elt F) → (⟨S320000x1, .i32⟩ : BufTy).Contents (Elt F)),
    StableHlo.binary main_v261 main_v267 main_v268 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_79 (constantI S_ 32 0#32),
    StableHlo.unary main_c_79 main_v269 (broadcastInDim S320000 ![] bcast_S_S320000 : (⟨S_, .i32⟩ : BufTy).Contents (Elt F) → (⟨S320000, .i32⟩ : BufTy).Contents (Elt F)),
    StableHlo.binary main_v239 main_v269 main_v270 (cmpi .slt : (⟨S320000, .i32⟩ : BufTy).Contents (Elt F) → (⟨S320000, .i32⟩ : BufTy).Contents (Elt F) → (⟨S320000, .i1⟩ : BufTy).Contents (Elt F)),
    StableHlo.nullary main_c_80 (constantI S_ 32 10000#32),
    StableHlo.unary main_c_80 main_v271 (broadcastInDim S320000 ![] bcast_S_S320000 : (⟨S_, .i32⟩ : BufTy).Contents (Elt F) → (⟨S320000, .i32⟩ : BufTy).Contents (Elt F)),
    StableHlo.binary main_v239 main_v271 main_v272 (addi : (⟨S320000, .i32⟩ : BufTy).Contents (Elt F) → (⟨S320000, .i32⟩ : BufTy).Contents (Elt F) → (⟨S320000, .i32⟩ : BufTy).Contents (Elt F)),
    StableHlo.ternary main_v270 main_v272 main_v239 main_v273 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v273 main_v274 (broadcastInDim S320000x1 ![0] bcast_S320000_S320000x1_0 : (⟨S320000, .i32⟩ : BufTy).Contents (Elt F) → (⟨S320000x1, .i32⟩ : BufTy).Contents (Elt F)),
    StableHlo.binary main_v254 main_v274 main_v275 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v275 main_v276 (broadcastInDim S320000x1 ![0] bcast_S320000_S320000x1_0 : (⟨S320000, .f32⟩ : BufTy).Contents (Elt F) → (⟨S320000x1, .f32⟩ : BufTy).Contents (Elt F)),
    StableHlo.unary main_v276 main_v277 (broadcastInDim S320000x64 ![0, 1] bcast_S320000x1_S320000x64_0_1 : (⟨S320000x1, .f32⟩ : BufTy).Contents (Elt F) → (⟨S320000x64, .f32⟩ : BufTy).Contents (Elt F)),
    StableHlo.binary main_v268 main_v277 main_v278 (mulf : (⟨S320000x64, .f32⟩ : BufTy).Contents (Elt F) → (⟨S320000x64, .f32⟩ : BufTy).Contents (Elt F) → (⟨S320000x64, .f32⟩ : BufTy).Contents (Elt F)),
    StableHlo.nullary main_cst_81 (constant S_ .f32 0x00000000#32),
    StableHlo.unary main_cst_81 main_v279 (broadcastInDim S10000x64 ![] bcast_S_S10000x64 : (⟨S_, .f32⟩ : BufTy).Contents (Elt F) → (⟨S10000x64, .f32⟩ : BufTy).Contents (Elt F)),
    StableHlo.unary main_v241 main_v280 (broadcastInDim S320000x1 ![0] bcast_S320000_S320000x1_0 : (⟨S320000, .i32⟩ : BufTy).Contents (Elt F) → (⟨S320000x1, .i32⟩ : BufTy).Contents (Elt F)),
    StableHlo.ternary main_v279 main_v280 main_v278 main_v281 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v260 main_v282 (broadcastInDim S10000x1 ![0] bcast_S10000_S10000x1_0 : (⟨S10000, .f32⟩ : BufTy).Contents (Elt F) → (⟨S10000x1, .f32⟩ : BufTy).Contents (Elt F)),
    StableHlo.unary main_v282 main_v283 (broadcastInDim S10000x64 ![0, 1] bcast_S10000x1_S10000x64_0_1 : (⟨S10000x1, .f32⟩ : BufTy).Contents (Elt F) → (⟨S10000x64, .f32⟩ : BufTy).Contents (Elt F)),
    StableHlo.binary main_v281 main_v283 main_v284 (mulf : (⟨S10000x64, .f32⟩ : BufTy).Contents (Elt F) → (⟨S10000x64, .f32⟩ : BufTy).Contents (Elt F) → (⟨S10000x64, .f32⟩ : BufTy).Contents (Elt F)),
    StableHlo.binary main_v94 main_arg13 main_v285 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v189 main_arg14 main_v286 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v285 main_v286 main_v287 (addf : (⟨S10000x64, .f32⟩ : BufTy).Contents (Elt F) → (⟨S10000x64, .f32⟩ : BufTy).Contents (Elt F) → (⟨S10000x64, .f32⟩ : BufTy).Contents (Elt F)),
    StableHlo.binary main_v284 main_arg15 main_v288 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v287 main_v288 main_v289 (addf : (⟨S10000x64, .f32⟩ : BufTy).Contents (Elt F) → (⟨S10000x64, .f32⟩ : BufTy).Contents (Elt F) → (⟨S10000x64, .f32⟩ : BufTy).Contents (Elt F)),
    StableHlo.nullary main_cst_82 (constant S_ .f32 0xFF800000#32),
    StableHlo.binary main_v289 main_cst_82 main_v290 ((fun x v => Host.reduce FloatOps.maximumf x v reducesTo_S10000x64_S10000_d1 h_S_) : (⟨S10000x64, .f32⟩ : BufTy).Contents (Elt F) → (⟨S_, .f32⟩ : BufTy).Contents (Elt F) → (⟨S10000, .f32⟩ : BufTy).Contents (Elt F)),
    StableHlo.nullary main_cst_83 (constant S_ .f32 0xFF800000#32),
    StableHlo.unary main_cst_83 main_v291 (broadcastInDim S10000 ![] bcast_S_S10000 : (⟨S_, .f32⟩ : BufTy).Contents (Elt F) → (⟨S10000, .f32⟩ : BufTy).Contents (Elt F)),
    StableHlo.binary main_v291 main_v290 main_v292 (maximumf : (⟨S10000, .f32⟩ : BufTy).Contents (Elt F) → (⟨S10000, .f32⟩ : BufTy).Contents (Elt F) → (⟨S10000, .f32⟩ : BufTy).Contents (Elt F)),
    StableHlo.unary main_v292 main_v293 (broadcastInDim S10000x1 ![0] bcast_S10000_S10000x1_0 : (⟨S10000, .f32⟩ : BufTy).Contents (Elt F) → (⟨S10000x1, .f32⟩ : BufTy).Contents (Elt F)),
    StableHlo.unary main_v293 main_v294 (broadcastInDim S10000x64 ![0, 1] bcast_S10000x1_S10000x64_0_1 : (⟨S10000x1, .f32⟩ : BufTy).Contents (Elt F) → (⟨S10000x64, .f32⟩ : BufTy).Contents (Elt F)),
    StableHlo.binary main_v289 main_v294 main_v295 (subf : (⟨S10000x64, .f32⟩ : BufTy).Contents (Elt F) → (⟨S10000x64, .f32⟩ : BufTy).Contents (Elt F) → (⟨S10000x64, .f32⟩ : BufTy).Contents (Elt F)),
    StableHlo.unary main_v295 main_v296 (Host.exp : (⟨S10000x64, .f32⟩ : BufTy).Contents (Elt F) → (⟨S10000x64, .f32⟩ : BufTy).Contents (Elt F)),
    StableHlo.nullary main_cst_84 (constant S_ .f32 0x00000000#32),
    StableHlo.binary main_v296 main_cst_84 main_v297 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    StableHlo.unary main_v297 main_v298 (broadcastInDim S10000x1 ![0] bcast_S10000_S10000x1_0 : (⟨S10000, .f32⟩ : BufTy).Contents (Elt F) → (⟨S10000x1, .f32⟩ : BufTy).Contents (Elt F)),
    StableHlo.unary main_v298 main_v299 (broadcastInDim S10000x64 ![0, 1] bcast_S10000x1_S10000x64_0_1 : (⟨S10000x1, .f32⟩ : BufTy).Contents (Elt F) → (⟨S10000x64, .f32⟩ : BufTy).Contents (Elt F)),
    StableHlo.binary main_v296 main_v299 main_v300 (Host.divf : (⟨S10000x64, .f32⟩ : BufTy).Contents (Elt F) → (⟨S10000x64, .f32⟩ : BufTy).Contents (Elt F) → (⟨S10000x64, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S10000x64, .f32⟩) (broadcastInDim S10000x64 ![] bcast_S_S10000x64),
    StableHlo.TRef.binary (.of main_v300 : StableHlo.TRef sig ⟨S10000x64, .f32⟩) (.of main_call15_v0 : StableHlo.TRef sig ⟨S10000x64, .f32⟩) (.of main_v301 : StableHlo.TRef sig ⟨S10000x64, .f32⟩) maximumf ]
abbrev kblk08_W : List (Ref sig .tc) := [main_v261, main_c_77, main_v262, main_v263, main_c_78, main_v264, main_v265, main_v266, main_v267, main_v268, main_c_79, main_v269, main_v270, main_c_80, main_v271, main_v272, main_v273, main_v274, main_v275, main_v276, main_v277, main_v278, main_cst_81, main_v279, main_v280, main_v281, main_v282, main_v283, main_v284, main_v285, main_v286, main_v287, main_v288, main_v289, main_cst_82, main_v290, main_cst_83, main_v291, main_v292, main_v293, main_v294, main_v295, main_v296, main_cst_84, main_v297, main_v298, main_v299, main_v300, main_call15_cst, main_call15_v0, main_v301]
theorem kblk08_writes : (kblk08 : List (HloOp τ sig (Elt F))).Forall fun op => op.writes ⊆ (kblk08_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk08_sub : (kblk08 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem kblk08_fresh : (kblk08 : List (HloOp τ sig (Elt F))).Forall fun op => op.fresh = ∅ := by
  simp only [List.Forall]; repeat' constructor
theorem kblk08_keep (W : Valuation τ sig (Elt F)) (r : Ref sig .tc) (h : r ∉ kblk08_W) :
    StableHlo.after (kblk08 : List (HloOp τ sig (Elt F))) W (Proc.devRef .tc r) = W (Proc.devRef .tc r) :=
  StableHlo.after_of_writes_sub kblk08 _ kblk08_writes h

/-- Operations 421 … 427. -/
abbrev kblk09 : List (HloOp τ sig (Elt F)) :=
  [ StableHlo.nullary main_v302 (iotaInDim S10000 32 0),
    StableHlo.unary main_arg6 main_v303 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v303 main_v304 rfl shapeCasts_S1x320000_S320000,
    StableHlo.binary main_v304 main_v302 main_v305 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.unary main_arg6 main_v306 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v306 main_v307 rfl shapeCasts_S1x320000_S320000,
    StableHlo.binary main_v307 main_v302 main_v308 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
abbrev kblk09_W : List (Ref sig .tc) := [main_v302, main_v303, main_v304, main_v305, main_v306, main_v307, main_v308]
theorem kblk09_writes : (kblk09 : List (HloOp τ sig (Elt F))).Forall fun op => op.writes ⊆ (kblk09_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk09_sub : (kblk09 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub ..⟩
theorem kblk09_fresh : (kblk09 : List (HloOp τ sig (Elt F))).Forall fun op => op.fresh = ∅ := by
  simp only [List.Forall]; repeat' constructor
theorem kblk09_keep (W : Valuation τ sig (Elt F)) (r : Ref sig .tc) (h : r ∉ kblk09_W) :
    StableHlo.after (kblk09 : List (HloOp τ sig (Elt F))) W (Proc.devRef .tc r) = W (Proc.devRef .tc r) :=
  StableHlo.after_of_writes_sub kblk09 _ kblk09_writes h

/-- Operations 428 … 459. -/
abbrev kblk10 : List (HloOp τ sig (Elt F)) :=
  [ StableHlo.nullary main_cst_85 (constant S_ .f32 0x3F800000#32),
    StableHlo.unary main_cst_85 main_v309 (broadcastInDim S330000 ![] bcast_S_S330000 : (⟨S_, .f32⟩ : BufTy).Contents (Elt F) → (⟨S330000, .f32⟩ : BufTy).Contents (Elt F)),
    StableHlo.nullary main_cst_86 (constant S_ .f32 0x00000000#32),
    StableHlo.unary main_cst_86 main_v310 (broadcastInDim S10000 ![] bcast_S_S10000 : (⟨S_, .f32⟩ : BufTy).Contents (Elt F) → (⟨S10000, .f32⟩ : BufTy).Contents (Elt F)),
    StableHlo.unary main_v305 main_v311 (broadcastInDim S330000x1 ![0] bcast_S330000_S330000x1_0 : (⟨S330000, .i32⟩ : BufTy).Contents (Elt F) → (⟨S330000x1, .i32⟩ : BufTy).Contents (Elt F)),
    StableHlo.ternary main_v310 main_v311 main_v309 main_v312 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_87 (constant S_ .f32 0x00000000#32),
    StableHlo.unary main_cst_87 main_v313 (broadcastInDim S10000 ![] bcast_S_S10000 : (⟨S_, .f32⟩ : BufTy).Contents (Elt F) → (⟨S10000, .f32⟩ : BufTy).Contents (Elt F)),
    StableHlo.unary main_v308 main_v314 (broadcastInDim S330000x1 ![0] bcast_S330000_S330000x1_0 : (⟨S330000, .i32⟩ : BufTy).Contents (Elt F) → (⟨S330000x1, .i32⟩ : BufTy).Contents (Elt F)),
    StableHlo.ternary main_v313 main_v314 main_v309 main_v315 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_88 (constant S_ .f32 0x00000000#32),
    StableHlo.unary main_cst_88 main_v316 (broadcastInDim S10000 ![] bcast_S_S10000 : (⟨S_, .f32⟩ : BufTy).Contents (Elt F) → (⟨S10000, .f32⟩ : BufTy).Contents (Elt F)),
    StableHlo.binary main_v312 main_v316 main_v317 (cmpf .ogt : (⟨S10000, .f32⟩ : BufTy).Contents (Elt F) → (⟨S10000, .f32⟩ : BufTy).Contents (Elt F) → (⟨S10000, .i1⟩ : BufTy).Contents (Elt F)),
    StableHlo.nullary main_cst_89 (constant S_ .f32 0x3F800000#32),
    StableHlo.unary main_cst_89 main_v318 (broadcastInDim S10000 ![] bcast_S_S10000 : (⟨S_, .f32⟩ : BufTy).Contents (Elt F) → (⟨S10000, .f32⟩ : BufTy).Contents (Elt F)),
    StableHlo.binary main_v312 main_v318 main_v319 (maximumf : (⟨S10000, .f32⟩ : BufTy).Contents (Elt F) → (⟨S10000, .f32⟩ : BufTy).Contents (Elt F) → (⟨S10000, .f32⟩ : BufTy).Contents (Elt F)),
    StableHlo.unary main_v319 main_v320 (Host.rsqrt : (⟨S10000, .f32⟩ : BufTy).Contents (Elt F) → (⟨S10000, .f32⟩ : BufTy).Contents (Elt F)),
    StableHlo.nullary main_cst_90 (constant S_ .f32 0x00000000#32),
    StableHlo.TRef.unary (.of main_cst_90 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S10000, .f32⟩) (broadcastInDim S10000 ![] bcast_S_S10000),
    StableHlo.TRef.ternary (.of main_v317 : StableHlo.TRef sig ⟨S10000, .i1⟩) (.of main_v320 : StableHlo.TRef sig ⟨S10000, .f32⟩) (.of main_call16_v1 : StableHlo.TRef sig ⟨S10000, .f32⟩) (.of main_v321 : StableHlo.TRef sig ⟨S10000, .f32⟩) select,
    StableHlo.nullary main_cst_91 (constant S_ .f32 0x00000000#32),
    StableHlo.unary main_cst_91 main_v322 (broadcastInDim S10000 ![] bcast_S_S10000 : (⟨S_, .f32⟩ : BufTy).Contents (Elt F) → (⟨S10000, .f32⟩ : BufTy).Contents (Elt F)),
    StableHlo.binary main_v315 main_v322 main_v323 (cmpf .ogt : (⟨S10000, .f32⟩ : BufTy).Contents (Elt F) → (⟨S10000, .f32⟩ : BufTy).Contents (Elt F) → (⟨S10000, .i1⟩ : BufTy).Contents (Elt F)),
    StableHlo.nullary main_cst_92 (constant S_ .f32 0x3F800000#32),
    StableHlo.unary main_cst_92 main_v324 (broadcastInDim S10000 ![] bcast_S_S10000 : (⟨S_, .f32⟩ : BufTy).Contents (Elt F) → (⟨S10000, .f32⟩ : BufTy).Contents (Elt F)),
    StableHlo.binary main_v315 main_v324 main_v325 (maximumf : (⟨S10000, .f32⟩ : BufTy).Contents (Elt F) → (⟨S10000, .f32⟩ : BufTy).Contents (Elt F) → (⟨S10000, .f32⟩ : BufTy).Contents (Elt F)),
    StableHlo.unary main_v325 main_v326 (Host.rsqrt : (⟨S10000, .f32⟩ : BufTy).Contents (Elt F) → (⟨S10000, .f32⟩ : BufTy).Contents (Elt F)),
    StableHlo.nullary main_cst_93 (constant S_ .f32 0x00000000#32),
    StableHlo.TRef.unary (.of main_cst_93 : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S10000, .f32⟩) (broadcastInDim S10000 ![] bcast_S_S10000),
    StableHlo.TRef.ternary (.of main_v323 : StableHlo.TRef sig ⟨S10000, .i1⟩) (.of main_v326 : StableHlo.TRef sig ⟨S10000, .f32⟩) (.of main_call17_v1 : StableHlo.TRef sig ⟨S10000, .f32⟩) (.of main_v327 : StableHlo.TRef sig ⟨S10000, .f32⟩) select ]
abbrev kblk10_W : List (Ref sig .tc) := [main_cst_85, main_v309, main_cst_86, main_v310, main_v311, main_v312, main_cst_87, main_v313, main_v314, main_v315, main_cst_88, main_v316, main_v317, main_cst_89, main_v318, main_v319, main_v320, main_cst_90, main_call16_v0, main_call16_v1, main_v321, main_cst_91, main_v322, main_v323, main_cst_92, main_v324, main_v325, main_v326, main_cst_93, main_call17_v0, main_call17_v1, main_v327]
theorem kblk10_writes : (kblk10 : List (HloOp τ sig (Elt F))).Forall fun op => op.writes ⊆ (kblk10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk10_sub : (kblk10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk10_fresh : (kblk10 : List (HloOp τ sig (Elt F))).Forall fun op => op.fresh = ∅ := by
  simp only [List.Forall]; repeat' constructor
theorem kblk10_keep (W : Valuation τ sig (Elt F)) (r : Ref sig .tc) (h : r ∉ kblk10_W) :
    StableHlo.after (kblk10 : List (HloOp τ sig (Elt F))) W (Proc.devRef .tc r) = W (Proc.devRef .tc r) :=
  StableHlo.after_of_writes_sub kblk10 _ kblk10_writes h

/-- Operations 460 … 491. -/
abbrev kblk11 : List (HloOp τ sig (Elt F)) :=
  [ StableHlo.binary main_v301 main_arg16 main_v328 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    StableHlo.nullary main_c_94 (constantI S_ 32 0#32),
    StableHlo.unary main_c_94 main_v329 (broadcastInDim S330000 ![] bcast_S_S330000 : (⟨S_, .i32⟩ : BufTy).Contents (Elt F) → (⟨S330000, .i32⟩ : BufTy).Contents (Elt F)),
    StableHlo.binary main_v305 main_v329 main_v330 (cmpi .slt : (⟨S330000, .i32⟩ : BufTy).Contents (Elt F) → (⟨S330000, .i32⟩ : BufTy).Contents (Elt F) → (⟨S330000, .i1⟩ : BufTy).Contents (Elt F)),
    StableHlo.nullary main_c_95 (constantI S_ 32 10000#32),
    StableHlo.unary main_c_95 main_v331 (broadcastInDim S330000 ![] bcast_S_S330000 : (⟨S_, .i32⟩ : BufTy).Contents (Elt F) → (⟨S330000, .i32⟩ : BufTy).Contents (Elt F)),
    StableHlo.binary main_v305 main_v331 main_v332 (addi : (⟨S330000, .i32⟩ : BufTy).Contents (Elt F) → (⟨S330000, .i32⟩ : BufTy).Contents (Elt F) → (⟨S330000, .i32⟩ : BufTy).Contents (Elt F)),
    StableHlo.ternary main_v330 main_v332 main_v305 main_v333 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v333 main_v334 (broadcastInDim S330000x1 ![0] bcast_S330000_S330000x1_0 : (⟨S330000, .i32⟩ : BufTy).Contents (Elt F) → (⟨S330000x1, .i32⟩ : BufTy).Contents (Elt F)),
    StableHlo.binary main_v328 main_v334 main_v335 ((fun x i => Host.gather gather_S10000x32_S330000x1_S330000x32_1_0_n_n_0_1_132 x i) : (⟨S10000x32, .f32⟩ : BufTy).Contents (Elt F) → (⟨S330000x1, .i32⟩ : BufTy).Contents (Elt F) → (⟨S330000x32, .f32⟩ : BufTy).Contents (Elt F)),
    StableHlo.nullary main_c_96 (constantI S_ 32 0#32),
    StableHlo.unary main_c_96 main_v336 (broadcastInDim S330000 ![] bcast_S_S330000 : (⟨S_, .i32⟩ : BufTy).Contents (Elt F) → (⟨S330000, .i32⟩ : BufTy).Contents (Elt F)),
    StableHlo.binary main_v305 main_v336 main_v337 (cmpi .slt : (⟨S330000, .i32⟩ : BufTy).Contents (Elt F) → (⟨S330000, .i32⟩ : BufTy).Contents (Elt F) → (⟨S330000, .i1⟩ : BufTy).Contents (Elt F)),
    StableHlo.nullary main_c_97 (constantI S_ 32 10000#32),
    StableHlo.unary main_c_97 main_v338 (broadcastInDim S330000 ![] bcast_S_S330000 : (⟨S_, .i32⟩ : BufTy).Contents (Elt F) → (⟨S330000, .i32⟩ : BufTy).Contents (Elt F)),
    StableHlo.binary main_v305 main_v338 main_v339 (addi : (⟨S330000, .i32⟩ : BufTy).Contents (Elt F) → (⟨S330000, .i32⟩ : BufTy).Contents (Elt F) → (⟨S330000, .i32⟩ : BufTy).Contents (Elt F)),
    StableHlo.ternary main_v337 main_v339 main_v305 main_v340 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v340 main_v341 (broadcastInDim S330000x1 ![0] bcast_S330000_S330000x1_0 : (⟨S330000, .i32⟩ : BufTy).Contents (Elt F) → (⟨S330000x1, .i32⟩ : BufTy).Contents (Elt F)),
    StableHlo.binary main_v321 main_v341 main_v342 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.unary main_v342 main_v343 (broadcastInDim S330000x1 ![0] bcast_S330000_S330000x1_0 : (⟨S330000, .f32⟩ : BufTy).Contents (Elt F) → (⟨S330000x1, .f32⟩ : BufTy).Contents (Elt F)),
    StableHlo.unary main_v343 main_v344 (broadcastInDim S330000x32 ![0, 1] bcast_S330000x1_S330000x32_0_1 : (⟨S330000x1, .f32⟩ : BufTy).Contents (Elt F) → (⟨S330000x32, .f32⟩ : BufTy).Contents (Elt F)),
    StableHlo.binary main_v335 main_v344 main_v345 (mulf : (⟨S330000x32, .f32⟩ : BufTy).Contents (Elt F) → (⟨S330000x32, .f32⟩ : BufTy).Contents (Elt F) → (⟨S330000x32, .f32⟩ : BufTy).Contents (Elt F)),
    StableHlo.nullary main_cst_98 (constant S_ .f32 0x00000000#32),
    StableHlo.unary main_cst_98 main_v346 (broadcastInDim S10000x32 ![] bcast_S_S10000x32 : (⟨S_, .f32⟩ : BufTy).Contents (Elt F) → (⟨S10000x32, .f32⟩ : BufTy).Contents (Elt F)),
    StableHlo.unary main_v308 main_v347 (broadcastInDim S330000x1 ![0] bcast_S330000_S330000x1_0 : (⟨S330000, .i32⟩ : BufTy).Contents (Elt F) → (⟨S330000x1, .i32⟩ : BufTy).Contents (Elt F)),
    StableHlo.ternary main_v346 main_v347 main_v345 main_v348 ((fun x i u => Host.scatterAdd scatter_S10000x32_S330000x1_S330000x32_1_0_0_1 x i u) : (⟨S10000x32, .f32⟩ : BufTy).Contents (Elt F) → (⟨S330000x1, .i32⟩ : BufTy).Contents (Elt F) → (⟨S330000x32, .f32⟩ : BufTy).Contents (Elt F) → (⟨S10000x32, .f32⟩ : BufTy).Contents (Elt F)),
    StableHlo.unary main_v327 main_v349 (broadcastInDim S10000x1 ![0] bcast_S10000_S10000x1_0 : (⟨S10000, .f32⟩ : BufTy).Contents (Elt F) → (⟨S10000x1, .f32⟩ : BufTy).Contents (Elt F)),
    StableHlo.unary main_v349 main_v350 (broadcastInDim S10000x32 ![0, 1] bcast_S10000x1_S10000x32_0_1 : (⟨S10000x1, .f32⟩ : BufTy).Contents (Elt F) → (⟨S10000x32, .f32⟩ : BufTy).Contents (Elt F)),
    StableHlo.binary main_v348 main_v350 main_v351 (mulf : (⟨S10000x32, .f32⟩ : BufTy).Contents (Elt F) → (⟨S10000x32, .f32⟩ : BufTy).Contents (Elt F) → (⟨S10000x32, .f32⟩ : BufTy).Contents (Elt F)),
    StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S10000x32, .f32⟩) (broadcastInDim S10000x32 ![] bcast_S_S10000x32),
    StableHlo.TRef.binary (.of main_v351 : StableHlo.TRef sig ⟨S10000x32, .f32⟩) (.of main_call18_v0 : StableHlo.TRef sig ⟨S10000x32, .f32⟩) (.of main_v352 : StableHlo.TRef sig ⟨S10000x32, .f32⟩) maximumf ]
abbrev kblk11_W : List (Ref sig .tc) := [main_v328, main_c_94, main_v329, main_v330, main_c_95, main_v331, main_v332, main_v333, main_v334, main_v335, main_c_96, main_v336, main_v337, main_c_97, main_v338, main_v339, main_v340, main_v341, main_v342, main_v343, main_v344, main_v345, main_cst_98, main_v346, main_v347, main_v348, main_v349, main_v350, main_v351, main_call18_cst, main_call18_v0, main_v352]
theorem kblk11_writes : (kblk11 : List (HloOp τ sig (Elt F))).Forall fun op => op.writes ⊆ (kblk11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk11_sub : (kblk11 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk11_fresh : (kblk11 : List (HloOp τ sig (Elt F))).Forall fun op => op.fresh = ∅ := by
  simp only [List.Forall]; repeat' constructor
theorem kblk11_keep (W : Valuation τ sig (Elt F)) (r : Ref sig .tc) (h : r ∉ kblk11_W) :
    StableHlo.after (kblk11 : List (HloOp τ sig (Elt F))) W (Proc.devRef .tc r) = W (Proc.devRef .tc r) :=
  StableHlo.after_of_writes_sub kblk11 _ kblk11_writes h

/-- Operations 492 … 523. -/
abbrev kblk12 : List (HloOp τ sig (Elt F)) :=
  [ StableHlo.nullary main_cst_99 (constant S_ .f32 0x3F800000#32),
    StableHlo.unary main_cst_99 main_v353 (broadcastInDim S330000 ![] bcast_S_S330000 : (⟨S_, .f32⟩ : BufTy).Contents (Elt F) → (⟨S330000, .f32⟩ : BufTy).Contents (Elt F)),
    StableHlo.nullary main_cst_100 (constant S_ .f32 0x00000000#32),
    StableHlo.unary main_cst_100 main_v354 (broadcastInDim S10000 ![] bcast_S_S10000 : (⟨S_, .f32⟩ : BufTy).Contents (Elt F) → (⟨S10000, .f32⟩ : BufTy).Contents (Elt F)),
    StableHlo.unary main_v305 main_v355 (broadcastInDim S330000x1 ![0] bcast_S330000_S330000x1_0 : (⟨S330000, .i32⟩ : BufTy).Contents (Elt F) → (⟨S330000x1, .i32⟩ : BufTy).Contents (Elt F)),
    StableHlo.ternary main_v354 main_v355 main_v353 main_v356 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_101 (constant S_ .f32 0x00000000#32),
    StableHlo.unary main_cst_101 main_v357 (broadcastInDim S10000 ![] bcast_S_S10000 : (⟨S_, .f32⟩ : BufTy).Contents (Elt F) → (⟨S10000, .f32⟩ : BufTy).Contents (Elt F)),
    StableHlo.unary main_v308 main_v358 (broadcastInDim S330000x1 ![0] bcast_S330000_S330000x1_0 : (⟨S330000, .i32⟩ : BufTy).Contents (Elt F) → (⟨S330000x1, .i32⟩ : BufTy).Contents (Elt F)),
    StableHlo.ternary main_v357 main_v358 main_v353 main_v359 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_102 (constant S_ .f32 0x00000000#32),
    StableHlo.unary main_cst_102 main_v360 (broadcastInDim S10000 ![] bcast_S_S10000 : (⟨S_, .f32⟩ : BufTy).Contents (Elt F) → (⟨S10000, .f32⟩ : BufTy).Contents (Elt F)),
    StableHlo.binary main_v356 main_v360 main_v361 (cmpf .ogt : (⟨S10000, .f32⟩ : BufTy).Contents (Elt F) → (⟨S10000, .f32⟩ : BufTy).Contents (Elt F) → (⟨S10000, .i1⟩ : BufTy).Contents (Elt F)),
    StableHlo.nullary main_cst_103 (constant S_ .f32 0x3F800000#32),
    StableHlo.unary main_cst_103 main_v362 (broadcastInDim S10000 ![] bcast_S_S10000 : (⟨S_, .f32⟩ : BufTy).Contents (Elt F) → (⟨S10000, .f32⟩ : BufTy).Contents (Elt F)),
    StableHlo.binary main_v356 main_v362 main_v363 (maximumf : (⟨S10000, .f32⟩ : BufTy).Contents (Elt F) → (⟨S10000, .f32⟩ : BufTy).Contents (Elt F) → (⟨S10000, .f32⟩ : BufTy).Contents (Elt F)),
    StableHlo.unary main_v363 main_v364 (Host.rsqrt : (⟨S10000, .f32⟩ : BufTy).Contents (Elt F) → (⟨S10000, .f32⟩ : BufTy).Contents (Elt F)),
    StableHlo.nullary main_cst_104 (constant S_ .f32 0x00000000#32),
    StableHlo.TRef.unary (.of main_cst_104 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S10000, .f32⟩) (broadcastInDim S10000 ![] bcast_S_S10000),
    StableHlo.TRef.ternary (.of main_v361 : StableHlo.TRef sig ⟨S10000, .i1⟩) (.of main_v364 : StableHlo.TRef sig ⟨S10000, .f32⟩) (.of main_call19_v1 : StableHlo.TRef sig ⟨S10000, .f32⟩) (.of main_v365 : StableHlo.TRef sig ⟨S10000, .f32⟩) select,
    StableHlo.nullary main_cst_105 (constant S_ .f32 0x00000000#32),
    StableHlo.unary main_cst_105 main_v366 (broadcastInDim S10000 ![] bcast_S_S10000 : (⟨S_, .f32⟩ : BufTy).Contents (Elt F) → (⟨S10000, .f32⟩ : BufTy).Contents (Elt F)),
    StableHlo.binary main_v359 main_v366 main_v367 (cmpf .ogt : (⟨S10000, .f32⟩ : BufTy).Contents (Elt F) → (⟨S10000, .f32⟩ : BufTy).Contents (Elt F) → (⟨S10000, .i1⟩ : BufTy).Contents (Elt F)),
    StableHlo.nullary main_cst_106 (constant S_ .f32 0x3F800000#32),
    StableHlo.unary main_cst_106 main_v368 (broadcastInDim S10000 ![] bcast_S_S10000 : (⟨S_, .f32⟩ : BufTy).Contents (Elt F) → (⟨S10000, .f32⟩ : BufTy).Contents (Elt F)),
    StableHlo.binary main_v359 main_v368 main_v369 (maximumf : (⟨S10000, .f32⟩ : BufTy).Contents (Elt F) → (⟨S10000, .f32⟩ : BufTy).Contents (Elt F) → (⟨S10000, .f32⟩ : BufTy).Contents (Elt F)),
    StableHlo.unary main_v369 main_v370 (Host.rsqrt : (⟨S10000, .f32⟩ : BufTy).Contents (Elt F) → (⟨S10000, .f32⟩ : BufTy).Contents (Elt F)),
    StableHlo.nullary main_cst_107 (constant S_ .f32 0x00000000#32),
    StableHlo.TRef.unary (.of main_cst_107 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S10000, .f32⟩) (broadcastInDim S10000 ![] bcast_S_S10000),
    StableHlo.TRef.ternary (.of main_v367 : StableHlo.TRef sig ⟨S10000, .i1⟩) (.of main_v370 : StableHlo.TRef sig ⟨S10000, .f32⟩) (.of main_call20_v1 : StableHlo.TRef sig ⟨S10000, .f32⟩) (.of main_v371 : StableHlo.TRef sig ⟨S10000, .f32⟩) select ]
abbrev kblk12_W : List (Ref sig .tc) := [main_cst_99, main_v353, main_cst_100, main_v354, main_v355, main_v356, main_cst_101, main_v357, main_v358, main_v359, main_cst_102, main_v360, main_v361, main_cst_103, main_v362, main_v363, main_v364, main_cst_104, main_call19_v0, main_call19_v1, main_v365, main_cst_105, main_v366, main_v367, main_cst_106, main_v368, main_v369, main_v370, main_cst_107, main_call20_v0, main_call20_v1, main_v371]
theorem kblk12_writes : (kblk12 : List (HloOp τ sig (Elt F))).Forall fun op => op.writes ⊆ (kblk12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk12_sub : (kblk12 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk12_fresh : (kblk12 : List (HloOp τ sig (Elt F))).Forall fun op => op.fresh = ∅ := by
  simp only [List.Forall]; repeat' constructor
theorem kblk12_keep (W : Valuation τ sig (Elt F)) (r : Ref sig .tc) (h : r ∉ kblk12_W) :
    StableHlo.after (kblk12 : List (HloOp τ sig (Elt F))) W (Proc.devRef .tc r) = W (Proc.devRef .tc r) :=
  StableHlo.after_of_writes_sub kblk12 _ kblk12_writes h

/-- Operations 524 … 552. -/
abbrev kblk13 : List (HloOp τ sig (Elt F)) :=
  [ StableHlo.binary main_v352 main_arg17 main_v372 ((fun l r => Host.dotGeneral dot_S10000x32_S32x10_S10000x10_1_0_0_1_n_n none l r) : (⟨S10000x32, .f32⟩ : BufTy).Contents (Elt F) → (⟨S32x10, .f32⟩ : BufTy).Contents (Elt F) → (⟨S10000x10, .f32⟩ : BufTy).Contents (Elt F)),
    StableHlo.nullary main_c_108 (constantI S_ 32 0#32),
    StableHlo.unary main_c_108 main_v373 (broadcastInDim S330000 ![] bcast_S_S330000 : (⟨S_, .i32⟩ : BufTy).Contents (Elt F) → (⟨S330000, .i32⟩ : BufTy).Contents (Elt F)),
    StableHlo.binary main_v305 main_v373 main_v374 (cmpi .slt : (⟨S330000, .i32⟩ : BufTy).Contents (Elt F) → (⟨S330000, .i32⟩ : BufTy).Contents (Elt F) → (⟨S330000, .i1⟩ : BufTy).Contents (Elt F)),
    StableHlo.nullary main_c_109 (constantI S_ 32 10000#32),
    StableHlo.unary main_c_109 main_v375 (broadcastInDim S330000 ![] bcast_S_S330000 : (⟨S_, .i32⟩ : BufTy).Contents (Elt F) → (⟨S330000, .i32⟩ : BufTy).Contents (Elt F)),
    StableHlo.binary main_v305 main_v375 main_v376 (addi : (⟨S330000, .i32⟩ : BufTy).Contents (Elt F) → (⟨S330000, .i32⟩ : BufTy).Contents (Elt F) → (⟨S330000, .i32⟩ : BufTy).Contents (Elt F)),
    StableHlo.ternary main_v374 main_v376 main_v305 main_v377 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v377 main_v378 (broadcastInDim S330000x1 ![0] bcast_S330000_S330000x1_0 : (⟨S330000, .i32⟩ : BufTy).Contents (Elt F) → (⟨S330000x1, .i32⟩ : BufTy).Contents (Elt F)),
    StableHlo.binary main_v372 main_v378 main_v379 ((fun x i => Host.gather gather_S10000x10_S330000x1_S330000x10_1_0_n_n_0_1_110 x i) : (⟨S10000x10, .f32⟩ : BufTy).Contents (Elt F) → (⟨S330000x1, .i32⟩ : BufTy).Contents (Elt F) → (⟨S330000x10, .f32⟩ : BufTy).Contents (Elt F)),
    StableHlo.nullary main_c_110 (constantI S_ 32 0#32),
    StableHlo.unary main_c_110 main_v380 (broadcastInDim S330000 ![] bcast_S_S330000 : (⟨S_, .i32⟩ : BufTy).Contents (Elt F) → (⟨S330000, .i32⟩ : BufTy).Contents (Elt F)),
    StableHlo.binary main_v305 main_v380 main_v381 (cmpi .slt : (⟨S330000, .i32⟩ : BufTy).Contents (Elt F) → (⟨S330000, .i32⟩ : BufTy).Contents (Elt F) → (⟨S330000, .i1⟩ : BufTy).Contents (Elt F)),
    StableHlo.nullary main_c_111 (constantI S_ 32 10000#32),
    StableHlo.unary main_c_111 main_v382 (broadcastInDim S330000 ![] bcast_S_S330000 : (⟨S_, .i32⟩ : BufTy).Contents (Elt F) → (⟨S330000, .i32⟩ : BufTy).Contents (Elt F)),
    StableHlo.binary main_v305 main_v382 main_v383 (addi : (⟨S330000, .i32⟩ : BufTy).Contents (Elt F) → (⟨S330000, .i32⟩ : BufTy).Contents (Elt F) → (⟨S330000, .i32⟩ : BufTy).Contents (Elt F)),
    StableHlo.ternary main_v381 main_v383 main_v305 main_v384 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v384 main_v385 (broadcastInDim S330000x1 ![0] bcast_S330000_S330000x1_0 : (⟨S330000, .i32⟩ : BufTy).Contents (Elt F) → (⟨S330000x1, .i32⟩ : BufTy).Contents (Elt F)),
    StableHlo.binary main_v365 main_v385 main_v386 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.unary main_v386 main_v387 (broadcastInDim S330000x1 ![0] bcast_S330000_S330000x1_0 : (⟨S330000, .f32⟩ : BufTy).Contents (Elt F) → (⟨S330000x1, .f32⟩ : BufTy).Contents (Elt F)),
    StableHlo.unary main_v387 main_v388 (broadcastInDim S330000x10 ![0, 1] bcast_S330000x1_S330000x10_0_1 : (⟨S330000x1, .f32⟩ : BufTy).Contents (Elt F) → (⟨S330000x10, .f32⟩ : BufTy).Contents (Elt F)),
    StableHlo.binary main_v379 main_v388 main_v389 (mulf : (⟨S330000x10, .f32⟩ : BufTy).Contents (Elt F) → (⟨S330000x10, .f32⟩ : BufTy).Contents (Elt F) → (⟨S330000x10, .f32⟩ : BufTy).Contents (Elt F)),
    StableHlo.nullary main_cst_112 (constant S_ .f32 0x00000000#32),
    StableHlo.unary main_cst_112 main_v390 (broadcastInDim S10000x10 ![] bcast_S_S10000x10 : (⟨S_, .f32⟩ : BufTy).Contents (Elt F) → (⟨S10000x10, .f32⟩ : BufTy).Contents (Elt F)),
    StableHlo.unary main_v308 main_v391 (broadcastInDim S330000x1 ![0] bcast_S330000_S330000x1_0 : (⟨S330000, .i32⟩ : BufTy).Contents (Elt F) → (⟨S330000x1, .i32⟩ : BufTy).Contents (Elt F)),
    StableHlo.ternary main_v390 main_v391 main_v389 main_v392 ((fun x i u => Host.scatterAdd scatter_S10000x10_S330000x1_S330000x10_1_0_0_1 x i u) : (⟨S10000x10, .f32⟩ : BufTy).Contents (Elt F) → (⟨S330000x1, .i32⟩ : BufTy).Contents (Elt F) → (⟨S330000x10, .f32⟩ : BufTy).Contents (Elt F) → (⟨S10000x10, .f32⟩ : BufTy).Contents (Elt F)),
    StableHlo.unary main_v371 main_v393 (broadcastInDim S10000x1 ![0] bcast_S10000_S10000x1_0 : (⟨S10000, .f32⟩ : BufTy).Contents (Elt F) → (⟨S10000x1, .f32⟩ : BufTy).Contents (Elt F)),
    StableHlo.unary main_v393 main_v394 (broadcastInDim S10000x10 ![0, 1] bcast_S10000x1_S10000x10_0_1 : (⟨S10000x1, .f32⟩ : BufTy).Contents (Elt F) → (⟨S10000x10, .f32⟩ : BufTy).Contents (Elt F)),
    StableHlo.binary main_v392 main_v394 main_v395 (mulf : (⟨S10000x10, .f32⟩ : BufTy).Contents (Elt F) → (⟨S10000x10, .f32⟩ : BufTy).Contents (Elt F) → (⟨S10000x10, .f32⟩ : BufTy).Contents (Elt F)) ]
abbrev kblk13_W : List (Ref sig .tc) := [main_v372, main_c_108, main_v373, main_v374, main_c_109, main_v375, main_v376, main_v377, main_v378, main_v379, main_c_110, main_v380, main_v381, main_c_111, main_v382, main_v383, main_v384, main_v385, main_v386, main_v387, main_v388, main_v389, main_cst_112, main_v390, main_v391, main_v392, main_v393, main_v394, main_v395]
theorem kblk13_writes : (kblk13 : List (HloOp τ sig (Elt F))).Forall fun op => op.writes ⊆ (kblk13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk13_sub : (kblk13 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem kblk13_fresh : (kblk13 : List (HloOp τ sig (Elt F))).Forall fun op => op.fresh = ∅ := by
  simp only [List.Forall]; repeat' constructor
theorem kblk13_keep (W : Valuation τ sig (Elt F)) (r : Ref sig .tc) (h : r ∉ kblk13_W) :
    StableHlo.after (kblk13 : List (HloOp τ sig (Elt F))) W (Proc.devRef .tc r) = W (Proc.devRef .tc r) :=
  StableHlo.after_of_writes_sub kblk13 _ kblk13_writes h

/-- The kernel program's own last three operations before the call. -/
abbrev kblkP : List (HloOp τ sig (Elt F)) :=
  [ StableHlo.nullary main_c_113 (constantI S_ 32 0#32),
    StableHlo.TRef.unary (.of main_c_113 : StableHlo.TRef sig ⟨S_, .i32⟩) (.of main_call21_v0 : StableHlo.TRef sig ⟨S_, .f32⟩) (sitofp .f32),
    StableHlo.TRef.binary (.of main_v395 : StableHlo.TRef sig ⟨S10000x10, .f32⟩) (.of main_call21_v0 : StableHlo.TRef sig ⟨S_, .f32⟩) (.of main_v396 : StableHlo.TRef sig ⟨S10240x10, .f32⟩) (fun x v => pad S10240x10 ![0, 0] ![240, 0] ![0, 0] x v pads_S10000x10_S10240x10_02400_000 h_S_) ]
abbrev kblkP_W : List (Ref sig .tc) := [main_c_113, main_call21_v0, main_v396]
theorem kblkP_writes : (kblkP : List (HloOp τ sig (Elt F))).Forall fun op => op.writes ⊆ (kblkP_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblkP_sub : (kblkP : List (HloOp τ sig (Elt F))).Forall fun op => op.bufs ⊆ StableHlo.tcRefs τ sig :=
  ⟨StableHlo.nullary_bufs_sub .., StableHlo.unary_bufs_sub .., StableHlo.binary_bufs_sub ..⟩
theorem kblkP_fresh : (kblkP : List (HloOp τ sig (Elt F))).Forall fun op => op.fresh = ∅ := by
  simp only [List.Forall]; repeat' constructor
theorem kblkP_keep (W : Valuation τ sig (Elt F)) (r : Ref sig .tc) (h : r ∉ kblkP_W) :
    StableHlo.after (kblkP : List (HloOp τ sig (Elt F))) W (Proc.devRef .tc r) = W (Proc.devRef .tc r) :=
  StableHlo.after_of_writes_sub kblkP _ kblkP_writes h

end Cert.Kernel.Hand

end
-- ==== Proof.BShares.lean ====
/-
  How the ownership of the two windowed arrays is dealt among the three windows.  Windows 0 and 1 both read the
  array main_v396 and window 2 writes main_v397, so the set of arrays behind the windows has two elements.  Held whole
  at the full share, these two buffers are the same resource as three points-tos, one per window: main_v396 at the left
  half of the full share (window 0), main_v396 at the right half (window 1), and main_v397 whole (window 2).  The full
  share is the composite of its two halves, so a points-to at the full share splits into, and is rejoined from, the two
  points-tos at the halves with the same contents.
-/
import proofs.«176114_j39599598469276_1_alg».proof.Proof.BDefs

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window 0, an input window, holds its array at the left half of the full share. -/
theorem share_rows (c : Dev nD) : (dats m 0 c).share 0 = fullShare.left := by
  unfold Dat.share
  rfl

/-- Window 1, an input window, holds the same array at the right half. -/
theorem share_cols (c : Dev nD) : (dats m 0 c).share 1 = fullShare.right := by
  unfold Dat.share
  rfl

/-- Window 2, the output window, holds its array whole. -/
theorem share_tile (c : Dev nD) : (dats m 0 c).share 2 = fullShare := by
  unfold Dat.share
  rfl

/-- The arrays behind the three windows are two: the one both input windows read, and the output's. -/
theorem arrRef_image : Finset.univ.image (Pipeline.arrRef spec0) = {main_v396, main_v397} := by
  decide

/-- A buffer held whole beside another is the same buffer held in its two halves beside the other. -/
theorem halves_split {ℓ ℓ' : Loc nD τ sig} (f : Buf (Elt F) ℓ) (g : Buf (Elt F) ℓ') :
    (BI.sep (ℓ ↦{fullShare} f) (ℓ' ↦{fullShare} g) : sProp 𝕄)
      ⊢ iprop((ℓ ↦{fullShare.left} f) ∗ (ℓ ↦{fullShare.right} f) ∗ (ℓ' ↦{fullShare} g)) :=
  (Idealize.SL.BI.sep_mono_l (pointsTo_share (PosShare.mem_left_op_right fullShare)).1).trans Idealize.SL.BI.sep_assoc

/-- And back: the two halves of a buffer, at the same contents, are the buffer held whole. -/
theorem halves_join {ℓ ℓ' : Loc nD τ sig} (f : Buf (Elt F) ℓ) (g : Buf (Elt F) ℓ') :
    (iprop((ℓ ↦{fullShare.left} f) ∗ (ℓ ↦{fullShare.right} f) ∗ (ℓ' ↦{fullShare} g)) : sProp 𝕄)
      ⊢ BI.sep (ℓ ↦{fullShare} f) (ℓ' ↦{fullShare} g) :=
  Idealize.SL.BI.sep_assoc'.trans (Idealize.SL.BI.sep_mono_l (pointsTo_share (PosShare.mem_left_op_right fullShare)).2)

/-- The two buffers behind the windows, held whole at contents `W`, are the pipeline's arrays at contents agreeing
    with `W`: the shared input array is dealt in halves to windows 0 and 1, the output array goes whole to window 2. -/
theorem arrays_split (c : Dev nD) (W : Valuation τ sig (Elt F))
    (Fw : (w : Fin cfg0.W) → Buf (Elt F) ((cfg0.spec w).arr.view.loc (c.tc : Thread nD τ)))
    (hF : ∀ w, Fw w = W (Proc.devRef .tc (Pipeline.arrRef cfg0.spec w))) :
    (Pipeline.arrBufs cfg0.spec c (fun b => W (Proc.devRef .tc b)) : sProp 𝕄) ⊢ (dats m 0 c).arrays Fw := by
  unfold Pipeline.arrBufs Dat.arrays
  rw [bigSep_W0]
  rw [share_rows, share_cols, share_tile]
  rw [(arr_whole0 0).set_eq_univ, (arr_whole0 2).set_eq_univ]
  rw [hF 0, hF 1, hF 2]
  rw [show Finset.univ.image (Pipeline.arrRef cfg0.spec) = {main_v396, main_v397} from arrRef_image]
  rw [BI.bigSep_insert (by decide), BI.bigSep_singleton]
  exact halves_split (ℓ := (c.tc : Thread nD τ).loc main_v396) (ℓ' := (c.tc : Thread nD τ).loc main_v397)
    (W (Proc.devRef .tc main_v396)) (W (Proc.devRef .tc main_v397))

/-- Conversely the pipeline's arrays, at contents agreeing with `W`, are the two buffers held whole at `W`: the two
    halves of the shared input array, both at `W`'s contents, rejoin. -/
theorem arrays_join (c : Dev nD) (W : Valuation τ sig (Elt F))
    (Fw : (w : Fin cfg0.W) → Buf (Elt F) ((cfg0.spec w).arr.view.loc (c.tc : Thread nD τ)))
    (hF : ∀ w, Fw w = W (Proc.devRef .tc (Pipeline.arrRef cfg0.spec w))) :
    (dats m 0 c).arrays Fw ⊢ (Pipeline.arrBufs cfg0.spec c (fun b => W (Proc.devRef .tc b)) : sProp 𝕄) := by
  unfold Pipeline.arrBufs Dat.arrays
  rw [bigSep_W0]
  rw [share_rows, share_cols, share_tile]
  rw [(arr_whole0 0).set_eq_univ, (arr_whole0 2).set_eq_univ]
  rw [hF 0, hF 1, hF 2]
  rw [show Finset.univ.image (Pipeline.arrRef cfg0.spec) = {main_v396, main_v397} from arrRef_image]
  rw [BI.bigSep_insert (by decide), BI.bigSep_singleton]
  exact halves_join (ℓ := (c.tc : Thread nD τ).loc main_v396) (ℓ' := (c.tc : Thread nD τ).loc main_v397)
    (W (Proc.devRef .tc main_v396)) (W (Proc.devRef .tc main_v397))

end Cert.Kernel.Hand

end
-- ==== Proof.LibSharedLaunch.lean ====
/-
  A pipelined kernel region whose INPUT windows may stage one array several times over (two `in_specs` reading one
  operand at different blocks), inside an @main that runs host lines before the region and more host lines after it.

  With distinct arrays the region holds each array whole.  Here the certificate says how ownership of the buffers
  behind the arrays is dealt among the windows when the region is entered (`hsplit`: an array read through two windows
  is split in two fractions, one per window) and how the windows' holdings are put back together when it is left
  (`hjoin`).  Everything else is as for distinct arrays: the host lines before the region run on all unscoped buffers
  and leave them at `V₀`; the region's body obligation is met at every grid point; the lines after the region run on
  all unscoped buffers again, from the contents the region leaves (`Wx`: each array at what the write-backs made of it,
  every other buffer as the region found it), and may write no array.  The conclusion reads every array and every
  other unscoped buffer in the final state.
-/
import Idealize.ShloMosaic.Lib.Pipeline.FrameSuffix

noncomputable section

namespace Idealize.ShloMosaic

open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedAround

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The post of the run below: each window's array at what the library computes from the proof data, every unscoped
    buffer that is no window's array at the contents the lines after the region leave. -/
def SharedPost (Wx : Dev nD → Valuation τ sig Val) (opss : List (List (HloOp τ sig Val)))
    (r : PUnit × MemSt nD τ sig Val) : Prop :=
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (Wx c) (Proc.devRef .tc b)

local notation "𝕍" => Variants.lift 𝒱₀

/-- THE LINES AFTER THE REGION when windows may share arrays: the windows' holdings are joined into the distinct
    buffers behind the arrays (`hjoin`), which with the bypassing buffers are all the unscoped buffers, at the contents
    `Wx` the region leaves; the lines run within them and write no array (`hkeep`), so dealing the buffers out again
    (`hsplit`) at the contents after the lines gives the arrays back as the region left them. -/
theorem tail_seqs_shared (c : Dev nD) (hw : WinFacts₀ (cfg).spec)
    (V₀ : Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hsplit : ∀ (W : Valuation τ sig Val)
        (F : (w : Fin (cfg).W) → Buf Val (((cfg).spec w).arr.view.loc (c.tc : Thread nD τ))),
        (∀ w, F w = W (Proc.devRef .tc (arrRef (cfg).spec w))) →
        (arrBufs (cfg).spec c (fun b => W (Proc.devRef .tc b)) : sProp 𝕄) ⊢ (dats p c).arrays F)
    (hjoin : ∀ (W : Valuation τ sig Val)
        (F : (w : Fin (cfg).W) → Buf Val (((cfg).spec w).arr.view.loc (c.tc : Thread nD τ))),
        (∀ w, F w = W (Proc.devRef .tc (arrRef (cfg).spec w))) →
        (dats p c).arrays F ⊢ (arrBufs (cfg).spec c (fun b => W (Proc.devRef .tc b)) : sProp 𝕄))
    (Wx : Valuation τ sig Val)
    (hWx : ∀ w, Wx (Proc.devRef .tc (arrRef (cfg).spec w)) = (dats p c).arrAt w (cfg).N)
    (hWx' : ∀ b : Ref sig .tc, (∀ w, arrRef (cfg).spec w ≠ b) → Wx (Proc.devRef .tc b) = V₀ (Proc.devRef .tc b))
    (Q' : PUnit → sProp 𝕄) :
    iprop((iprop((dats p c).arrays ((dats p c).arrAt · (cfg).N)
              ∗ unscopedRestP Prefetch.none (cfg).spec c (fun b => StableHlo.after opss.flatten Wx (Proc.devRef .tc b))) -∗ Q' ⟨⟩)
        ∗ boundary (c.tc : Thread nD τ) ∗ (dats p c).arrays ((dats p c).arrAt · (cfg).N)
        ∗ unscopedRestP Prefetch.none (cfg).spec c (fun b => V₀ (Proc.devRef .tc b)))
      ⊢ wp frame (wpE 𝔻 𝕍 (c.tc : Thread nD τ) none) Set.univ (chain (opss.map StableHlo.seq)) Q' := by
  classical
  -- all the unscoped buffers at a valuation: the distinct buffers behind the arrays, and the rest
  have hheld : ∀ W : Valuation τ sig Val,
      (StableHlo.held (c.tc : Thread nD τ) (ucRefs τ sig) W : sProp 𝕄)
        = iprop(arrBufs (cfg).spec c (fun b => W (Proc.devRef .tc b)) ∗ unscopedRest (cfg).spec c (fun b => W (Proc.devRef .tc b))) := fun W => by
    rw [← unscopedBufs_held (Ix := Unit) (Name := ℕ) (U := UR sig nD τ) (Lvl := ℕ) c W]
    exact unscopedBufs_split₀ cfgs p hw.arr_unscoped c (fun b => W (Proc.devRef .tc b))
  -- a buffer that is no window's array is at the region's exit as at its entry
  have hZ : (unscopedRestP Prefetch.none (cfg).spec c (fun b => V₀ (Proc.devRef .tc b)) : sProp 𝕄)
      = unscopedRest (cfg).spec c (fun b => Wx (Proc.devRef .tc b)) := by
    rw [unscopedRestP_none]
    unfold unscopedRest
    exact bigSep_congr fun b hb => by
      beta_reduce
      rw [hWx' b fun w e => (Finset.mem_sdiff.mp hb).2 (Finset.mem_image.mpr ⟨w, Finset.mem_univ _, e⟩)]
  -- no line writes an array
  have hafter : ∀ w, StableHlo.after opss.flatten Wx (Proc.devRef .tc (arrRef (cfg).spec w)) = (dats p c).arrAt w (cfg).N := fun w => by
    rw [StableHlo.after_of_forall_not_mem _ _ fun op hop => ?_, hWx]
    obtain ⟨ops, hops, hop⟩ := List.mem_flatten.mp hop
    exact hkeep ops hops op hop w
  have hgo : iprop((dats p c).arrays ((dats p c).arrAt · (cfg).N)
        ∗ unscopedRestP Prefetch.none (cfg).spec c (fun b => V₀ (Proc.devRef .tc b)))
      ⊢ (StableHlo.held (c.tc : Thread nD τ) (ucRefs τ sig) Wx : sProp 𝕄) := by
    rw [hheld Wx, hZ]
    exact sep_mono (hjoin Wx _ fun w => (hWx w).symm) .rfl
  have hback : (StableHlo.held (c.tc : Thread nD τ) (ucRefs τ sig) (StableHlo.after opss.flatten Wx) : sProp 𝕄)
      ⊢ iprop((dats p c).arrays ((dats p c).arrAt · (cfg).N)
        ∗ unscopedRestP Prefetch.none (cfg).spec c (fun b => StableHlo.after opss.flatten Wx (Proc.devRef .tc b))) := by
    rw [hheld (StableHlo.after opss.flatten Wx), unscopedRestP_none]
    exact sep_mono (hsplit (StableHlo.after opss.flatten Wx) _ fun w => (hafter w).symm) .rfl
  rw [← List.append_nil (opss.map StableHlo.seq)]
  iintro ⟨Hk, Hb, HA, HZ⟩
  iapply (wp_seqs_then (fun q => (cfgs q).toPCfg (Val := Val)) defs₀ 𝒱₀ c (ucRefs τ sig) [] opss
    (fun ops hops op hop => sub_ucRefs op (hsub ops hops op hop)) hfresh Wx) $$ [Hb HA HZ]
  · isplitl [Hb]; · iexact Hb
    iapply hgo
    isplitl [HA] <;> iassumption
  iintro Hb
  rw [chain_nil, wp_pure]
  imodintro
  iapply Hk
  icases Hb with ⟨-, H⟩
  iapply hback
  iexact H

/-- THE RUN around a region whose windows may share arrays. -/
theorem θ_run_frame_around_shared
    (hcell : Function.Injective (cellOf (nD := nD) (τ := τ) cfgs))
    (hw : WinFacts₀ (cfg).spec)
    (hne : ∀ w : Fin (cfg).W, 0 < ((cfg).spec w).block.numel)
    (harr : ∀ w : Fin (cfg).W, ((cfg).spec w).arr.IsWhole)
    (hstage : ∀ (w : Fin (cfg).W) (s : Fin ((cfg).spec w).nbuf), (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ (c : Dev nD) (W : Valuation τ sig Val)
        (F : (w : Fin (cfg).W) → Buf Val (((cfg).spec w).arr.view.loc (c.tc : Thread nD τ))),
        (∀ w, F w = W (Proc.devRef .tc (arrRef (cfg).spec w))) →
        (arrBufs (cfg).spec c (fun b => W (Proc.devRef .tc b)) : sProp 𝕄) ⊢ (dats p c).arrays F)
    (hjoin : ∀ (c : Dev nD) (W : Valuation τ sig Val)
        (F : (w : Fin (cfg).W) → Buf Val (((cfg).spec w).arr.view.loc (c.tc : Thread nD τ))),
        (∀ w, F w = W (Proc.devRef .tc (arrRef (cfg).spec w))) →
        (dats p c).arrays F ⊢ (arrBufs (cfg).spec c (fun b => W (Proc.devRef .tc b)) : sProp 𝕄))
    (hA : ∀ c w, (dats p c).A w = V₀ c (Proc.devRef .tc (arrRef (cfg).spec w)))
    (Wx : Dev nD → Valuation τ sig Val)
    (hWx : ∀ c w, Wx c (Proc.devRef .tc (arrRef (cfg).spec w)) = (dats p c).arrAt w (cfg).N)
    (hWx' : ∀ c (b : Ref sig .tc), (∀ w, arrRef (cfg).spec w ≠ b) → Wx c (Proc.devRef .tc b) = V₀ c (Proc.devRef .tc b))
    (hΦ : ∀ c t, (dats p c).Φ t = ΦA (cfg).spec c) :
    θ_run 𝔻 (onTc main) (s₀ m g) (SharedPost cfgs dats p Wx opss) := by
  classical
  exact θ_run_region_pf_tail (fun q => (cfgs q).toPCfg (Val := Val)) (fun q => (cfgs q).toPCfg_adm) dats () hcell p hw
    (OwnSemFacts.none (cfg).spec) (PreFacts.none _) emb₁ defs₀ 𝒱₀ m g main
    (fun _ => chain (opss.map StableHlo.seq)) hbody hne harr hstage howed
    (G := fun _ => iprop(emp))
    (u₀ := initOf (cells (pin (fun q => (cfgs q).toPCfg (Val := Val)) (fun q => (cfgs q).toPCfg_adm)) hcell)
      (launchToks (pin (fun q => (cfgs q).toPCfg (Val := Val)) (fun q => (cfgs q).toPCfg_adm)) hcell))
    (hu₀ := by
      iintro Hu; imodintro
      isplitl [Hu]
      · iapply (show (ownU _ : sProp 𝕄) ⊢ BI.own (emb₁ (initOf (cells (pin (fun q => (cfgs q).toPCfg (Val := Val)) (fun q => (cfgs q).toPCfg_adm)) hcell)
          (launchToks (pin (fun q => (cfgs q).toPCfg (Val := Val)) (fun q => (cfgs q).toPCfg_adm)) hcell))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => hsplit c (V₀ c) _ fun w => hA c w)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (Wx c) (Proc.devRef .tc b)))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (htail := fun c Q' =>
      tail_seqs_shared cfgs dats p defs₀ 𝒱₀ c hw (V₀ c) opss hsub hfresh hkeep (hsplit c) (hjoin c) (Wx c) (hWx c) (hWx' c) Q')
    (QY := fun c s => ∀ b ∈ restRefsP sig Prefetch.none (cfg).spec, s.mem ((c.tc : Thread nD τ).loc b) = StableHlo.after opss.flatten (Wx c) (Proc.devRef .tc b))
    (hY := fun c s' => by
      iintro ⟨-, HU, HSI⟩
      unfold unscopedRestP
      imodintro
      iapply (pointsTo_read_all (restRefsP sig Prefetch.none (cfg).spec) (fun b => (c.tc : Thread nD τ).loc b)
        (fun b => StableHlo.after opss.flatten (Wx c) (Proc.devRef .tc b)) s')
      isplitl [HU] <;> iassumption)
    (hQ := fun s h c => ⟨(h c).1, fun b hb => (h c).2.2 b (Finset.mem_sdiff.mpr ⟨hb, fun hk => by
      obtain ⟨k, -, -⟩ := Finset.mem_image.mp hk
      exact k.elim0⟩)⟩)

end SharedAround

end Pipeline

end Idealize.ShloMosaic

end
-- ==== Proof.BRun.lean ====
/-
  The kernel program runs its host lines, then the tiled product, then the slice.  Here the pieces are put together:
  the lines before the call are the blocks the two programs share and the kernel's own three operations (the
  zero it pads with, and the pad); @main reduces to the call continued by the slice, at the contents those lines leave;
  when the call returns, every buffer is as the call found it except the product array, which holds what the fifty
  write-backs made of it; the run of the whole program then reads, in the final state, each argument as launched,
  the node embeddings as the common prefix computed them, and the result as the slice of the product array.
-/
import proofs.«176114_j39599598469276_1_alg».proof.Proof.BDefs
import proofs.«176114_j39599598469276_1_alg».proof.Proof.BBody
import proofs.«176114_j39599598469276_1_alg».proof.Proof.BBlocks
import proofs.«176114_j39599598469276_1_alg».proof.Proof.BShares
import proofs.«176114_j39599598469276_1_alg».proof.Proof.LibSharedLaunch

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before the call, as blocks -/

/-- The blocks the two programs share. -/
abbrev kPrefix : List (HloOp τ sig (Elt F)) :=
  kblk00 ++ (kblk01 ++ (kblk02 ++ (kblk03 ++ (kblk04 ++ (kblk05 ++ (kblk06 ++ (kblk07 ++ (kblk08 ++ (kblk09 ++ (kblk10 ++ (kblk11 ++ (kblk12 ++ (kblk13)))))))))))))

set_option maxHeartbeats 4000000 in
/-- The lines before the call are those blocks and the kernel's own three operations. -/
theorem lines_eq : (linesBefore (F := F)).flatten = kPrefix ++ kblkP := rfl

theorem V0_eq (c : Dev nD) :
    V0 m c = StableHlo.after (kblkP (F := F)) (StableHlo.after (kPrefix (F := F)) (fun b => m (c, b))) := by
  show StableHlo.after (linesBefore (F := F)).flatten (fun b => m (c, b)) = _
  rw [lines_eq, StableHlo.after_append]

/-- A buffer no block writes keeps its contents through the common prefix. -/
theorem kPrefix_keep (W : Valuation τ sig (Elt F)) (r : Ref sig .tc)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    StableHlo.after (kPrefix : List (HloOp τ sig (Elt F))) W (Proc.devRef .tc r) = W (Proc.devRef .tc r) := by
  simp only [kPrefix, StableHlo.after_append]
  rw [kblk13_keep _ r h_kblk13, kblk12_keep _ r h_kblk12, kblk11_keep _ r h_kblk11, kblk10_keep _ r h_kblk10, kblk09_keep _ r h_kblk09, kblk08_keep _ r h_kblk08, kblk07_keep _ r h_kblk07, kblk06_keep _ r h_kblk06, kblk05_keep _ r h_kblk05, kblk04_keep _ r h_kblk04, kblk03_keep _ r h_kblk03, kblk02_keep _ r h_kblk02, kblk01_keep _ r h_kblk01, kblk00_keep _ r h_kblk00]

/-- No line before the call writes an argument: at entry it is as launched. -/
theorem V_keep (c : Dev nD) (r : Ref sig .tc) (hP : r ∉ kblkP_W)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    V0 m c (Proc.devRef .tc r) = m ((c.tc : Thread nD τ).loc r) := by
  rw [V0_eq, kblkP_keep _ r hP, kPrefix_keep _ r h_kblk00 h_kblk01 h_kblk02 h_kblk03 h_kblk04 h_kblk05 h_kblk06 h_kblk07 h_kblk08 h_kblk09 h_kblk10 h_kblk11 h_kblk12 h_kblk13]

/-- The node embeddings at entry are what the common prefix computes. -/
theorem V_embeddings (c : Dev nD) :
    V0 m c (Proc.devRef .tc main_v395) = StableHlo.after (kPrefix (F := F)) (fun b => m (c, b)) (Proc.devRef .tc main_v395) := by
  rw [V0_eq, kblkP_keep _ main_v395 (by decide)]

/-- The array the two input windows stage is the embeddings padded with 240 rows. -/
theorem V_padded (c : Dev nD) :
    V m c main_v396 = pad S10240x10 ![0, 0] ![240, 0] ![0, 0] (V m c main_v395) (V m c main_call21_v0) pads_S10000x10_S10240x10_02400_000 h_S_ := by
  show V0 m c (Proc.devRef .tc main_v396) = pad S10240x10 ![0, 0] ![240, 0] ![0, 0] (V0 m c (Proc.devRef .tc main_v395)) (V0 m c (Proc.devRef .tc main_call21_v0)) pads_S10000x10_S10240x10_02400_000 h_S_
  rw [V0_eq]
  generalize StableHlo.after (kPrefix (F := F)) (fun b => m (c, b)) = W
  after_results
  simp only [StableHlo.TRef.ofBuf, StableHlo.TRef.toBuf, cast_eq]

/-! ## @main around the call -/

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub⟩

theorem linesBefore_fresh : (linesBefore (F := F)).Forall fun ops => ops.Forall fun op => op.fresh = ∅ := by
  simp only [List.Forall]; repeat' constructor

theorem linesAfter_sub : ∀ ops ∈ (linesAfter (F := F)), ∀ op ∈ ops, op.bufs ⊆ StableHlo.tcRefs τ sig := by
  intro ops ho op h
  rw [List.mem_singleton] at ho; subst ho
  exact (List.forall_iff_forall_mem.mp hostOps1_sub) op h

theorem linesAfter_fresh : ∀ ops ∈ (linesAfter (F := F)), ∀ op ∈ ops, op.fresh = ∅ := by
  intro ops ho op h
  rw [List.mem_singleton] at ho; subst ho
  rw [List.mem_singleton] at h; subst h
  rfl

/-- The slice writes neither array of the call. -/
theorem linesAfter_keep : ∀ ops ∈ (linesAfter (F := F)), ∀ op ∈ ops, ∀ w, Proc.devRef .tc (Pipeline.arrRef cfg0.spec w) ∉ op.writes := by
  intro ops ho op h w
  rw [List.mem_singleton] at ho; subst ho
  rw [List.mem_singleton] at h; subst h
  rw [StableHlo.unary_writes, Finset.mem_singleton]
  exact StableHlo.devRef_ne_of_ne (by revert w; decide)

/-- @main reduces to the call continued by the slice, at the contents the earlier lines leave. -/
theorem hmainK : Pipeline.HMainK (Ix := Unit) (Name := ℕ) (U := UR sig nD τ) (Lvl := ℕ) cfgs 0 defs₀ Variants.none m (main (F := F))
    (fun c b => V0 m c (Proc.devRef .tc b)) (fun _ => Pipeline.chain ((linesAfter (F := F)).map StableHlo.seq)) :=
  Pipeline.hmain_around cfgs 0 defs₀ Variants.none m main linesBefore linesAfter linesBefore_sub linesBefore_fresh
    fun c => (main_chain c).trans rfl

/-! ## When the call returns -/

/-- Core `c`'s buffers when the call returns: as it found them, but for the product array. -/
def Wx (c : Dev nD) : Valuation τ sig (Elt F) :=
  Function.update (V0 m c) (Proc.devRef .tc main_v397) ((dats m 0 c).arrAt 2 cfg0.N)

theorem Wx_product (c : Dev nD) : Wx m c (Proc.devRef .tc main_v397) = (dats m 0 c).arrAt 2 cfg0.N := by
  unfold Wx; exact Function.update_self _ _ _

theorem Wx_other (c : Dev nD) (r : Ref sig .tc) (h : r ≠ main_v397) : Wx m c (Proc.devRef .tc r) = V0 m c (Proc.devRef .tc r) := by
  unfold Wx; exact Function.update_of_ne (StableHlo.devRef_ne_of_ne h) _ _

theorem Wx_arr (c : Dev nD) : ∀ w, Wx m c (Proc.devRef .tc (Pipeline.arrRef cfg0.spec w)) = (dats m 0 c).arrAt w cfg0.N
  | ⟨0, _⟩ => (Wx_other m c main_v396 (by decide)).trans (((dats m 0 c).arrAt_in 0 rfl _).trans (A_eq m c 0)).symm
  | ⟨1, _⟩ => (Wx_other m c main_v396 (by decide)).trans (((dats m 0 c).arrAt_in 1 rfl _).trans (A_eq m c 1)).symm
  | ⟨2, _⟩ => Wx_product m c

theorem Wx_rest (c : Dev nD) (b : Ref sig .tc) (h : ∀ w, Pipeline.arrRef cfg0.spec w ≠ b) :
    Wx m c (Proc.devRef .tc b) = V0 m c (Proc.devRef .tc b) :=
  Wx_other m c b (h 2).symm

/-! ## The run -/

set_option backward.isDefEq.respectTransparency.types false in
/-- Every weakly fair execution of @main terminates; in the final state each array of the call holds what the library
    computes from the proof data, every other unscoped buffer what the slice leaves from the contents at the call's return. -/
theorem run_main : θ_run defs (onTc (τ := τ) (main (F := F))) (s₀ m ρ) (Pipeline.SharedPost cfgs (dats m) 0 (Wx m) linesAfter) :=
  Pipeline.θ_run_frame_around_shared cfgs (dats m) (0 : Fin 1) defs₀ Variants.none cellOf_inj winFacts₀0 block_pos0 arr_whole0 stage_whole0 m ρ main
    (fun c => (body_obligation m c).loose) (fun _ _ => rfl) (V0 m) linesAfter linesAfter_sub linesAfter_fresh linesAfter_keep (hmainK m)
    (arrays_split m) (arrays_join m) (fun c w => A_eq m c w) (Wx m) (Wx_arr m) (Wx_rest m) (fun _ _ => rfl)

/-! ## What the final state holds -/

theorem hostOps1_writes : (hostOps1 : List (HloOp τ sig (Elt F))).Forall fun op => op.writes ⊆ (([main_v398] : List (Ref sig .tc)).map (Proc.devRef (τ := τ) .tc)).toFinset := by
  simp only [List.Forall]; exact (by simp only [StableHlo.unary_writes, Finset.singleton_subset_iff, List.mem_toFinset]; exact List.mem_map_of_mem (by decide))

theorem linesAfter_flatten : (linesAfter (F := F)).flatten = hostOps1 := by
  simp only [linesAfter, List.flatten_cons, List.flatten_nil, List.append_nil]

/-- The slice writes only the result. -/
theorem after_slice_keep (W : Valuation τ sig (Elt F)) (r : Ref sig .tc) (h : r ∉ ([main_v398] : List (Ref sig .tc))) :
    StableHlo.after (linesAfter (F := F)).flatten W (Proc.devRef .tc r) = W (Proc.devRef .tc r) := by
  rw [linesAfter_flatten]; exact StableHlo.after_of_writes_sub hostOps1 _ hostOps1_writes h

/-- The result is the slice of the product array. -/
theorem after_slice_result (W : Valuation τ sig (Elt F)) :
    StableHlo.after (linesAfter (F := F)).flatten W (Proc.devRef .tc main_v398)
      = extractStridedSlice S10000x10000 ![0, 0] (W (Proc.devRef .tc main_v397)) slices_S10240x10240_S10000x10000_0_0 := by
  rw [linesAfter_flatten]
  after_results

/-- An argument in the final state is as launched. -/
theorem final_arg (c : Dev nD) (r : Ref sig .tc) (h8 : r ∉ ([main_v398] : List (Ref sig .tc))) (h7 : r ≠ main_v397) (hP : r ∉ kblkP_W)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    StableHlo.after (linesAfter (F := F)).flatten (Wx m c) (Proc.devRef .tc r) = m ((c.tc : Thread nD τ).loc r) :=
  (after_slice_keep _ r h8).trans ((Wx_other m c r h7).trans (V_keep m c r hP h_kblk00 h_kblk01 h_kblk02 h_kblk03 h_kblk04 h_kblk05 h_kblk06 h_kblk07 h_kblk08 h_kblk09 h_kblk10 h_kblk11 h_kblk12 h_kblk13))

/-- THE FRAME: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 rfl (by decide))).trans (final_arg m c main_arg0 (by decide) (by decide) (by decide) (by decide) (by decide) (by decide) (by decide) (by decide) (by decide) (by decide) (by decide) (by decide) (by decide) (by decide) (by decide) (by decide) (by decide)),
      ((h c).2 main_arg1 (Pipeline.mem_restRefs_of main_arg1 rfl (by decide))).trans (final_arg m c main_arg1 (by decide) (by decide) (by decide) (by decide) (by decide) (by decide) (by decide) (by decide) (by decide) (by decide) (by decide) (by decide) (by decide) (by decide) (by decide) (by decide) (by decide)),
      ((h c).2 main_arg2 (Pipeline.mem_restRefs_of main_arg2 rfl (by decide))).trans (final_arg m c main_arg2 (by decide) (by decide) (by decide) (by decide) (by decide) (by decide) (by decide) (by decide) (by decide) (by decide) (by decide) (by decide) (by decide) (by decide) (by decide) (by decide) (by decide)),
      ((h c).2 main_arg3 (Pipeline.mem_restRefs_of main_arg3 rfl (by decide))).trans (final_arg m c main_arg3 (by decide) (by decide) (by decide) (by decide) (by decide) (by decide) (by decide) (by decide) (by decide) (by decide) (by decide) (by decide) (by decide) (by decide) (by decide) (by decide) (by decide)),
      ((h c).2 main_arg4 (Pipeline.mem_restRefs_of main_arg4 rfl (by decide))).trans (final_arg m c main_arg4 (by decide) (by decide) (by decide) (by decide) (by decide) (by decide) (by decide) (by decide) (by decide) (by decide) (by decide) (by decide) (by decide) (by decide) (by decide) (by decide) (by decide)),
      ((h c).2 main_arg5 (Pipeline.mem_restRefs_of main_arg5 rfl (by decide))).trans (final_arg m c main_arg5 (by decide) (by decide) (by decide) (by decide) (by decide) (by decide) (by decide) (by decide) (by decide) (by decide) (by decide) (by decide) (by decide) (by decide) (by decide) (by decide) (by decide)),
      ((h c).2 main_arg6 (Pipeline.mem_restRefs_of main_arg6 rfl (by decide))).trans (final_arg m c main_arg6 (by decide) (by decide) (by decide) (by decide) (by decide) (by decide) (by decide) (by decide) (by decide) (by decide) (by decide) (by decide) (by decide) (by decide) (by decide) (by decide) (by decide)),
      ((h c).2 main_arg7 (Pipeline.mem_restRefs_of main_arg7 rfl (by decide))).trans (final_arg m c main_arg7 (by decide) (by decide) (by decide) (by decide) (by decide) (by decide) (by decide) (by decide) (by decide) (by decide) (by decide) (by decide) (by decide) (by decide) (by decide) (by decide) (by decide)),
      ((h c).2 main_arg8 (Pipeline.mem_restRefs_of main_arg8 rfl (by decide))).trans (final_arg m c main_arg8 (by decide) (by decide) (by decide) (by decide) (by decide) (by decide) (by decide) (by decide) (by decide) (by decide) (by decide) (by decide) (by decide) (by decide) (by decide) (by decide) (by decide)),
      ((h c).2 main_arg9 (Pipeline.mem_restRefs_of main_arg9 rfl (by decide))).trans (final_arg m c main_arg9 (by decide) (by decide) (by decide) (by decide) (by decide) (by decide) (by decide) (by decide) (by decide) (by decide) (by decide) (by decide) (by decide) (by decide) (by decide) (by decide) (by decide)),
      ((h c).2 main_arg10 (Pipeline.mem_restRefs_of main_arg10 rfl (by decide))).trans (final_arg m c main_arg10 (by decide) (by decide) (by decide) (by decide) (by decide) (by decide) (by decide) (by decide) (by decide) (by decide) (by decide) (by decide) (by decide) (by decide) (by decide) (by decide) (by decide)),
      ((h c).2 main_arg11 (Pipeline.mem_restRefs_of main_arg11 rfl (by decide))).trans (final_arg m c main_arg11 (by decide) (by decide) (by decide) (by decide) (by decide) (by decide) (by decide) (by decide) (by decide) (by decide) (by decide) (by decide) (by decide) (by decide) (by decide) (by decide) (by decide)),
      ((h c).2 main_arg12 (Pipeline.mem_restRefs_of main_arg12 rfl (by decide))).trans (final_arg m c main_arg12 (by decide) (by decide) (by decide) (by decide) (by decide) (by decide) (by decide) (by decide) (by decide) (by decide) (by decide) (by decide) (by decide) (by decide) (by decide) (by decide) (by decide)),
      ((h c).2 main_arg13 (Pipeline.mem_restRefs_of main_arg13 rfl (by decide))).trans (final_arg m c main_arg13 (by decide) (by decide) (by decide) (by decide) (by decide) (by decide) (by decide) (by decide) (by decide) (by decide) (by decide) (by decide) (by decide) (by decide) (by decide) (by decide) (by decide)),
      ((h c).2 main_arg14 (Pipeline.mem_restRefs_of main_arg14 rfl (by decide))).trans (final_arg m c main_arg14 (by decide) (by decide) (by decide) (by decide) (by decide) (by decide) (by decide) (by decide) (by decide) (by decide) (by decide) (by decide) (by decide) (by decide) (by decide) (by decide) (by decide)),
      ((h c).2 main_arg15 (Pipeline.mem_restRefs_of main_arg15 rfl (by decide))).trans (final_arg m c main_arg15 (by decide) (by decide) (by decide) (by decide) (by decide) (by decide) (by decide) (by decide) (by decide) (by decide) (by decide) (by decide) (by decide) (by decide) (by decide) (by decide) (by decide)),
      ((h c).2 main_arg16 (Pipeline.mem_restRefs_of main_arg16 rfl (by decide))).trans (final_arg m c main_arg16 (by decide) (by decide) (by decide) (by decide) (by decide) (by decide) (by decide) (by decide) (by decide) (by decide) (by decide) (by decide) (by decide) (by decide) (by decide) (by decide) (by decide)),
      ((h c).2 main_arg17 (Pipeline.mem_restRefs_of main_arg17 rfl (by decide))).trans (final_arg m c main_arg17 (by decide) (by decide) (by decide) (by decide) (by decide) (by decide) (by decide) (by decide) (by decide) (by decide) (by decide) (by decide) (by decide) (by decide) (by decide) (by decide) (by decide))⟩)
    (run_main m ρ)

/-- THE RUN with its results named: the result is the slice of the product array, the embeddings are what the common
    prefix computed, the arguments are as launched. -/
theorem run_named : θ_run defs (onTc (τ := τ) (main (F := F))) ⟨m, fun _ => 0, ρ⟩ (fun r => ∀ c : Dev nD,
      r.2.mem ((c.tc : Thread nD τ).loc main_v398) = extractStridedSlice S10000x10000 ![0, 0] ((dats m 0 c).arrAt 2 cfg0.N) slices_S10240x10240_S10000x10000_0_0
      ∧ r.2.mem ((c.tc : Thread nD τ).loc main_v395) = V m c main_v395
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_v398 (Pipeline.mem_restRefs_of main_v398 rfl (by decide))).trans ((after_slice_result _).trans (by rw [Wx_product])),
      ((h c).2 main_v395 (Pipeline.mem_restRefs_of main_v395 rfl (by decide))).trans ((after_slice_keep _ main_v395 (by decide)).trans (Wx_other m c main_v395 (by decide))),
      ((h c).2 main_arg0 (Pipeline.mem_restRefs_of main_arg0 rfl (by decide))).trans (final_arg m c main_arg0 (by decide) (by decide) (by decide) (by decide) (by decide) (by decide) (by decide) (by decide) (by decide) (by decide) (by decide) (by decide) (by decide) (by decide) (by decide) (by decide) (by decide)),
      ((h c).2 main_arg1 (Pipeline.mem_restRefs_of main_arg1 rfl (by decide))).trans (final_arg m c main_arg1 (by decide) (by decide) (by decide) (by decide) (by decide) (by decide) (by decide) (by decide) (by decide) (by decide) (by decide) (by decide) (by decide) (by decide) (by decide) (by decide) (by decide)),
      ((h c).2 main_arg2 (Pipeline.mem_restRefs_of main_arg2 rfl (by decide))).trans (final_arg m c main_arg2 (by decide) (by decide) (by decide) (by decide) (by decide) (by decide) (by decide) (by decide) (by decide) (by decide) (by decide) (by decide) (by decide) (by decide) (by decide) (by decide) (by decide)),
      ((h c).2 main_arg3 (Pipeline.mem_restRefs_of main_arg3 rfl (by decide))).trans (final_arg m c main_arg3 (by decide) (by decide) (by decide) (by decide) (by decide) (by decide) (by decide) (by decide) (by decide) (by decide) (by decide) (by decide) (by decide) (by decide) (by decide) (by decide) (by decide)),
      ((h c).2 main_arg4 (Pipeline.mem_restRefs_of main_arg4 rfl (by decide))).trans (final_arg m c main_arg4 (by decide) (by decide) (by decide) (by decide) (by decide) (by decide) (by decide) (by decide) (by decide) (by decide) (by decide) (by decide) (by decide) (by decide) (by decide) (by decide) (by decide)),
      ((h c).2 main_arg5 (Pipeline.mem_restRefs_of main_arg5 rfl (by decide))).trans (final_arg m c main_arg5 (by decide) (by decide) (by decide) (by decide) (by decide) (by decide) (by decide) (by decide) (by decide) (by decide) (by decide) (by decide) (by decide) (by decide) (by decide) (by decide) (by decide)),
      ((h c).2 main_arg6 (Pipeline.mem_restRefs_of main_arg6 rfl (by decide))).trans (final_arg m c main_arg6 (by decide) (by decide) (by decide) (by decide) (by decide) (by decide) (by decide) (by decide) (by decide) (by decide) (by decide) (by decide) (by decide) (by decide) (by decide) (by decide) (by decide)),
      ((h c).2 main_arg7 (Pipeline.mem_restRefs_of main_arg7 rfl (by decide))).trans (final_arg m c main_arg7 (by decide) (by decide) (by decide) (by decide) (by decide) (by decide) (by decide) (by decide) (by decide) (by decide) (by decide) (by decide) (by decide) (by decide) (by decide) (by decide) (by decide)),
      ((h c).2 main_arg8 (Pipeline.mem_restRefs_of main_arg8 rfl (by decide))).trans (final_arg m c main_arg8 (by decide) (by decide) (by decide) (by decide) (by decide) (by decide) (by decide) (by decide) (by decide) (by decide) (by decide) (by decide) (by decide) (by decide) (by decide) (by decide) (by decide)),
      ((h c).2 main_arg9 (Pipeline.mem_restRefs_of main_arg9 rfl (by decide))).trans (final_arg m c main_arg9 (by decide) (by decide) (by decide) (by decide) (by decide) (by decide) (by decide) (by decide) (by decide) (by decide) (by decide) (by decide) (by decide) (by decide) (by decide) (by decide) (by decide)),
      ((h c).2 main_arg10 (Pipeline.mem_restRefs_of main_arg10 rfl (by decide))).trans (final_arg m c main_arg10 (by decide) (by decide) (by decide) (by decide) (by decide) (by decide) (by decide) (by decide) (by decide) (by decide) (by decide) (by decide) (by decide) (by decide) (by decide) (by decide) (by decide)),
      ((h c).2 main_arg11 (Pipeline.mem_restRefs_of main_arg11 rfl (by decide))).trans (final_arg m c main_arg11 (by decide) (by decide) (by decide) (by decide) (by decide) (by decide) (by decide) (by decide) (by decide) (by decide) (by decide) (by decide) (by decide) (by decide) (by decide) (by decide) (by decide)),
      ((h c).2 main_arg12 (Pipeline.mem_restRefs_of main_arg12 rfl (by decide))).trans (final_arg m c main_arg12 (by decide) (by decide) (by decide) (by decide) (by decide) (by decide) (by decide) (by decide) (by decide) (by decide) (by decide) (by decide) (by decide) (by decide) (by decide) (by decide) (by decide)),
      ((h c).2 main_arg13 (Pipeline.mem_restRefs_of main_arg13 rfl (by decide))).trans (final_arg m c main_arg13 (by decide) (by decide) (by decide) (by decide) (by decide) (by decide) (by decide) (by decide) (by decide) (by decide) (by decide) (by decide) (by decide) (by decide) (by decide) (by decide) (by decide)),
      ((h c).2 main_arg14 (Pipeline.mem_restRefs_of main_arg14 rfl (by decide))).trans (final_arg m c main_arg14 (by decide) (by decide) (by decide) (by decide) (by decide) (by decide) (by decide) (by decide) (by decide) (by decide) (by decide) (by decide) (by decide) (by decide) (by decide) (by decide) (by decide)),
      ((h c).2 main_arg15 (Pipeline.mem_restRefs_of main_arg15 rfl (by decide))).trans (final_arg m c main_arg15 (by decide) (by decide) (by decide) (by decide) (by decide) (by decide) (by decide) (by decide) (by decide) (by decide) (by decide) (by decide) (by decide) (by decide) (by decide) (by decide) (by decide)),
      ((h c).2 main_arg16 (Pipeline.mem_restRefs_of main_arg16 rfl (by decide))).trans (final_arg m c main_arg16 (by decide) (by decide) (by decide) (by decide) (by decide) (by decide) (by decide) (by decide) (by decide) (by decide) (by decide) (by decide) (by decide) (by decide) (by decide) (by decide) (by decide)),
      ((h c).2 main_arg17 (Pipeline.mem_restRefs_of main_arg17 rfl (by decide))).trans (final_arg m c main_arg17 (by decide) (by decide) (by decide) (by decide) (by decide) (by decide) (by decide) (by decide) (by decide) (by decide) (by decide) (by decide) (by decide) (by decide) (by decide) (by decide) (by decide))⟩)
    (run_main m ρ)

end Cert.Kernel.Hand

end
-- ==== Proof.KDefs.lean ====
/-
  The one pallas_call of this program computes, tile by tile over a 5 × 10 grid, the product of the padded node
  embeddings with their own transpose: window 0 stages a 2048-row block of the padded array, window 1 a 1024-row
  block of THE SAME array, and window 2 receives the 2048 × 1024 tile of products.  This module fixes the objects the
  rest of the proof speaks of: the host lines before and after the call, the buffers' contents when the call is
  entered (the fold of the earlier lines over the launch memory), each window's block at a grid point, what the body
  leaves in the output tile as a function of the two input blocks, and the pipeline's proof data.  Because the two
  input windows read one array, that array's ownership is split in two halves, one per window; the output array is
  held whole.
-/
import proofs.«176114_j39599598469276_1_alg».proof.Proof.Gen.KernelIdeal.Launch
import proofs.«176114_j39599598469276_1_alg».proof.Proof.Gen.KernelIdeal.Skeleton
import proofs.«176114_j39599598469276_1_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines of @main before the pallas_call, stretch by stretch. -/
abbrev linesBefore : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43]

/-- The host lines of @main after the pallas_call: the slice of the padded product back to 10000 × 10000. -/
abbrev linesAfter : List (List (HloOp τ sig (Elt F))) := [hostOps1]

/-- Core `c`'s buffer contents when the pallas_call is entered: the earlier lines folded over the launch memory. -/
abbrev V0 (c : Dev nD) : Valuation τ sig (Elt F) :=
  StableHlo.after (linesBefore (F := F)).flatten (fun b => m (c, b))

/-- The same, read at a TensorCore reference. -/
abbrev V (c : Dev nD) (b : Ref sig .tc) : Buf (Elt F) ((c : Thread nD τ).loc b) := V0 m c (Proc.devRef .tc b)

/-- Window `w`'s block of its array at grid point `t`, read off the contents at entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole 2048 × 10 row block, the whole 1024 × 10 row block and the whole 2048 × 1024 tile, as rectangles. -/
abbrev rRows : Rect S2048x10 := Rect.unit (s := S2048x10) ![0, 0] S2048x10.size inb_S2048x10_S2048x10_0_0
abbrev rCols : Rect S1024x10 := Rect.unit (s := S1024x10) ![0, 0] S1024x10.size inb_S1024x10_S1024x10_0_0
abbrev rTile : Rect S2048x1024 := Rect.unit (s := S2048x1024) ![0, 0] S2048x1024.size inb_S2048x1024_S2048x1024_0_0

/-- What the body leaves in the output tile: its one store, of the product of the two loaded blocks. -/
def outTile (x0 : Vec F S2048x10 .f32) (x1 : Vec F S1024x10 .f32) : Vec F S2048x1024 .f32 :=
  View.canon [⟨rTile, k0_pay1 (View.ld x0 rRows) (View.ld x1 rCols)⟩]

/-- The pipeline's proof data on core `c`: the arrays as the call finds them; after the body each input buffer still
    at its block and the output buffer at the tile of products; the class's invariant; nothing owed; the shared input
    array held in two halves, the output array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (iblk m c 0 t) (iblk m c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_cols (c : Dev nD) (t : Fin cfg0.N) : (dats m 0 c).after 1 t = iblk m c 1 t := by dsimp only [dats]
theorem after_tile (c : Dev nD) (t : Fin cfg0.N) :
    (dats m 0 c).after 2 t = outTile (iblk m c 0 t) (iblk m c 1 t) := by dsimp only [dats]

end Cert.KernelIdeal.Hand

end
-- ==== Proof.KBody.lean ====
/-
  The body of the pallas_call at one grid point.  The body loads the whole 2048 × 10 row block and the whole
  1024 × 10 row block from the two input windows' current buffers, rounds both to bf16, multiplies them contracting
  the short axis of both, and stores the 2048 × 1024 product over the whole of the output window's current buffer.
  This module proves the body's triple on whole buffers, shows that each input window's current buffer holds its block
  at every grid point (whether or not a transfer happened at that point), and concludes the pipeline's body
  obligation for the proof data of the preceding module.
-/
import proofs.«176114_j39599598469276_1_alg».proof.Proof.KDefs
import Idealize.ShloMosaic.Lib.Ring
import Idealize.ShloMosaic.Lib.Tactic

-- membership of an index in a rectangle with axes of length 2048 and 1024 is checked coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The one store covers the output buffer -/

/-- The tile rectangle is the whole 2048 × 1024 buffer, so a single piece on it reaches every index. -/
theorem tile_covers (p : Vec F S2048x1024 .f32) (y : S2048x1024.Idx) :
    ∃ pc ∈ ([⟨rTile, p⟩] : List (View.Piece (Elt F) S2048x1024 .f32)), y ∈ pc.1.set :=
  View.cover_of_tiled [⟨rTile, p⟩] S2048x1024.size (by rfl) y

/-! ## The body's triple on whole buffers -/

set_option maxHeartbeats 1000000 in
/-- With the row buffer at `x0`, the column buffer at `x1` and the output buffer at anything, the body runs to a state
    with the two input buffers unchanged and the output buffer at `outTile x0 x1`. -/
theorem body_triple (c : Dev nD) (E : Set ℕ) (i : grid0.Coords)
    (arg2 : Memref sig .tc .vmem S2048x10 .f32) (harg2 : arg2.IsWhole)
    (arg3 : Memref sig .tc .vmem S1024x10 .f32) (harg3 : arg3.IsWhole)
    (arg4 : Memref sig .tc .vmem S2048x1024 .f32) (harg4 : arg4.IsWhole)
    (x0 : Vec F S2048x10 .f32) (x1 : Vec F S1024x10 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outTile x0 x1)) -∗ K ⟨⟩))
      ⊢ wp frame (wpE (defs₀ (F := F)) Variants.none c none) E
          (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers _)

/-! ## The input buffers hold their blocks at every point -/

/-- The row window's current buffer holds its block at every point.  It is transferred only at the first point of
    each row of the grid; in between, its block index does not move, so the block left in place is still the block. -/
theorem before_rows (c : Dev nD) (t : Fin cfg0.N) (d) : (dats m 0 c).before 0 t d = iblk m c 0 t :=
  ((dats m 0 c).before_in_eq_fetched 0 rfl (fun _ => rfl) (fun _ _ _ => rfl)
      (fun t => by rw [after_rows]; unfold Dat.blockOf iblk; rw [A_eq]; try rfl) t d).trans
    (by unfold Dat.fetched Dat.blockOf iblk; rw [A_eq]; try rfl)

/-- The column window's current buffer holds its block at every point (it is transferred at every point). -/
theorem before_cols (c : Dev nD) (t : Fin cfg0.N) (d) : (dats m 0 c).before 1 t d = iblk m c 1 t :=
  ((dats m 0 c).before_in_eq_fetched 1 rfl (fun _ => rfl) (fun _ _ _ => rfl)
      (fun t => by rw [after_cols]; unfold Dat.blockOf iblk; rw [A_eq]; try rfl) t d).trans
    (by unfold Dat.fetched Dat.blockOf iblk; rw [A_eq]; try rfl)

/-! ## The body obligation at one point -/

/-- What the body is handed at point `t`, the three windows written out. -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at point `t`: the input buffers hold their blocks, so the triple applies; the invariant and what the core
    owes are not touched. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_rows, before_cols]
  rw [show (dats m 0 c).Φ t.succ = (dats m 0 c).Φ t.castSucc from rfl,
    show (dats m 0 c).owesAt () t.succ = (dats m 0 c).owesAt () t.castSucc from rfl,
    after_rows, after_cols, after_tile]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact body_at_point m c t

end Cert.KernelIdeal.Hand

end
-- ==== Proof.KBlocks.lean ====
import proofs.«176114_j39599598469276_1_alg».proof.Proof.KDefs
import Idealize.ShloMosaic.Lib.StableHlo.Run

set_option maxRecDepth 8192

noncomputable section

namespace Cert.KernelIdeal.Hand

open Cert.KernelIdeal Cert.KernelIdeal.Gen Idealize.ShloMosaic Idealize.ShloMosaic.TcCoe Idealize.SL.Sem

variable {F : FTy → Type} [FloatOps F]

/-- Operations 0 … 67. -/
abbrev kblk00 : List (HloOp τ sig (Elt F)) :=
  [ StableHlo.unary main_arg3 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg3 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x3F800000#32),
    StableHlo.unary main_cst main_v4 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v5 (broadcastInDim S10000 ![] bcast_S_S10000 : (⟨S_, .f32⟩ : BufTy).Contents (Elt F) → (⟨S10000, .f32⟩ : BufTy).Contents (Elt F)),
    StableHlo.unary main_v1 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_1 (constant S_ .f32 0x00000000#32),
    StableHlo.unary main_cst_1 main_v8 (broadcastInDim S10000 ![] bcast_S_S10000 : (⟨S_, .f32⟩ : BufTy).Contents (Elt F) → (⟨S10000, .f32⟩ : BufTy).Contents (Elt F)),
    StableHlo.unary main_v3 main_v9 (broadcastInDim S320000x1 ![0] bcast_S320000_S320000x1_0 : (⟨S320000, .i32⟩ : BufTy).Contents (Elt F) → (⟨S320000x1, .i32⟩ : BufTy).Contents (Elt F)),
    StableHlo.ternary main_v8 main_v9 main_v4 main_v10 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_2 (constant S_ .f32 0x00000000#32),
    StableHlo.unary main_cst_2 main_v11 (broadcastInDim S10000 ![] bcast_S_S10000 : (⟨S_, .f32⟩ : BufTy).Contents (Elt F) → (⟨S10000, .f32⟩ : BufTy).Contents (Elt F)),
    StableHlo.binary main_v7 main_v11 main_v12 (cmpf .ogt : (⟨S10000, .f32⟩ : BufTy).Contents (Elt F) → (⟨S10000, .f32⟩ : BufTy).Contents (Elt F) → (⟨S10000, .i1⟩ : BufTy).Contents (Elt F)),
    StableHlo.nullary main_cst_3 (constant S_ .f32 0x3F800000#32),
    StableHlo.unary main_cst_3 main_v13 (broadcastInDim S10000 ![] bcast_S_S10000 : (⟨S_, .f32⟩ : BufTy).Contents (Elt F) → (⟨S10000, .f32⟩ : BufTy).Contents (Elt F)),
    StableHlo.binary main_v7 main_v13 main_v14 (maximumf : (⟨S10000, .f32⟩ : BufTy).Contents (Elt F) → (⟨S10000, .f32⟩ : BufTy).Contents (Elt F) → (⟨S10000, .f32⟩ : BufTy).Contents (Elt F)),
    StableHlo.unary main_v14 main_v15 (Host.rsqrt : (⟨S10000, .f32⟩ : BufTy).Contents (Elt F) → (⟨S10000, .f32⟩ : BufTy).Contents (Elt F)),
    StableHlo.nullary main_cst_4 (constant S_ .f32 0x00000000#32),
    StableHlo.TRef.unary (.of main_cst_4 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S10000, .f32⟩) (broadcastInDim S10000 ![] bcast_S_S10000),
    StableHlo.TRef.ternary (.of main_v12 : StableHlo.TRef sig ⟨S10000, .i1⟩) (.of main_v15 : StableHlo.TRef sig ⟨S10000, .f32⟩) (.of main_call0_v1 : StableHlo.TRef sig ⟨S10000, .f32⟩) (.of main_v16 : StableHlo.TRef sig ⟨S10000, .f32⟩) select,
    StableHlo.nullary main_cst_5 (constant S_ .f32 0x00000000#32),
    StableHlo.unary main_cst_5 main_v17 (broadcastInDim S10000 ![] bcast_S_S10000 : (⟨S_, .f32⟩ : BufTy).Contents (Elt F) → (⟨S10000, .f32⟩ : BufTy).Contents (Elt F)),
    StableHlo.binary main_v10 main_v17 main_v18 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v19 (broadcastInDim S10000 ![] bcast_S_S10000 : (⟨S_, .f32⟩ : BufTy).Contents (Elt F) → (⟨S10000, .f32⟩ : BufTy).Contents (Elt F)),
    StableHlo.binary main_v10 main_v19 main_v20 (maximumf : (⟨S10000, .f32⟩ : BufTy).Contents (Elt F) → (⟨S10000, .f32⟩ : BufTy).Contents (Elt F) → (⟨S10000, .f32⟩ : BufTy).Contents (Elt F)),
    StableHlo.unary main_v20 main_v21 (Host.rsqrt : (⟨S10000, .f32⟩ : BufTy).Contents (Elt F) → (⟨S10000, .f32⟩ : BufTy).Contents (Elt F)),
    StableHlo.nullary main_cst_7 (constant S_ .f32 0x00000000#32),
    StableHlo.TRef.unary (.of main_cst_7 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S10000, .f32⟩) (broadcastInDim S10000 ![] bcast_S_S10000),
    StableHlo.TRef.ternary (.of main_v18 : StableHlo.TRef sig ⟨S10000, .i1⟩) (.of main_v21 : StableHlo.TRef sig ⟨S10000, .f32⟩) (.of main_call1_v1 : StableHlo.TRef sig ⟨S10000, .f32⟩) (.of main_v22 : StableHlo.TRef sig ⟨S10000, .f32⟩) select,
    StableHlo.binary main_arg0 main_arg7 main_v23 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c (constantI S_ 32 0#32),
    StableHlo.unary main_c main_v24 (broadcastInDim S320000 ![] bcast_S_S320000 : (⟨S_, .i32⟩ : BufTy).Contents (Elt F) → (⟨S320000, .i32⟩ : BufTy).Contents (Elt F)),
    StableHlo.binary main_v1 main_v24 main_v25 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 10000#32),
    StableHlo.unary main_c_8 main_v26 (broadcastInDim S320000 ![] bcast_S_S320000 : (⟨S_, .i32⟩ : BufTy).Contents (Elt F) → (⟨S320000, .i32⟩ : BufTy).Contents (Elt F)),
    StableHlo.binary main_v1 main_v26 main_v27 (addi : (⟨S320000, .i32⟩ : BufTy).Contents (Elt F) → (⟨S320000, .i32⟩ : BufTy).Contents (Elt F) → (⟨S320000, .i32⟩ : BufTy).Contents (Elt F)),
    StableHlo.ternary main_v25 main_v27 main_v1 main_v28 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v28 main_v29 (broadcastInDim S320000x1 ![0] bcast_S320000_S320000x1_0 : (⟨S320000, .i32⟩ : BufTy).Contents (Elt F) → (⟨S320000x1, .i32⟩ : BufTy).Contents (Elt F)),
    StableHlo.binary main_v23 main_v29 main_v30 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_9 (constantI S_ 32 0#32),
    StableHlo.unary main_c_9 main_v31 (broadcastInDim S320000 ![] bcast_S_S320000 : (⟨S_, .i32⟩ : BufTy).Contents (Elt F) → (⟨S320000, .i32⟩ : BufTy).Contents (Elt F)),
    StableHlo.binary main_v1 main_v31 main_v32 (cmpi .slt : (⟨S320000, .i32⟩ : BufTy).Contents (Elt F) → (⟨S320000, .i32⟩ : BufTy).Contents (Elt F) → (⟨S320000, .i1⟩ : BufTy).Contents (Elt F)),
    StableHlo.nullary main_c_10 (constantI S_ 32 10000#32),
    StableHlo.unary main_c_10 main_v33 (broadcastInDim S320000 ![] bcast_S_S320000 : (⟨S_, .i32⟩ : BufTy).Contents (Elt F) → (⟨S320000, .i32⟩ : BufTy).Contents (Elt F)),
    StableHlo.binary main_v1 main_v33 main_v34 (addi : (⟨S320000, .i32⟩ : BufTy).Contents (Elt F) → (⟨S320000, .i32⟩ : BufTy).Contents (Elt F) → (⟨S320000, .i32⟩ : BufTy).Contents (Elt F)),
    StableHlo.ternary main_v32 main_v34 main_v1 main_v35 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v35 main_v36 (broadcastInDim S320000x1 ![0] bcast_S320000_S320000x1_0 : (⟨S320000, .i32⟩ : BufTy).Contents (Elt F) → (⟨S320000x1, .i32⟩ : BufTy).Contents (Elt F)),
    StableHlo.binary main_v16 main_v36 main_v37 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v37 main_v38 (broadcastInDim S320000x1 ![0] bcast_S320000_S320000x1_0 : (⟨S320000, .f32⟩ : BufTy).Contents (Elt F) → (⟨S320000x1, .f32⟩ : BufTy).Contents (Elt F)),
    StableHlo.unary main_v38 main_v39 (broadcastInDim S320000x256 ![0, 1] bcast_S320000x1_S320000x256_0_1 : (⟨S320000x1, .f32⟩ : BufTy).Contents (Elt F) → (⟨S320000x256, .f32⟩ : BufTy).Contents (Elt F)),
    StableHlo.binary main_v30 main_v39 main_v40 (mulf : (⟨S320000x256, .f32⟩ : BufTy).Contents (Elt F) → (⟨S320000x256, .f32⟩ : BufTy).Contents (Elt F) → (⟨S320000x256, .f32⟩ : BufTy).Contents (Elt F)),
    StableHlo.nullary main_cst_11 (constant S_ .f32 0x00000000#32),
    StableHlo.unary main_cst_11 main_v41 (broadcastInDim S10000x256 ![] bcast_S_S10000x256 : (⟨S_, .f32⟩ : BufTy).Contents (Elt F) → (⟨S10000x256, .f32⟩ : BufTy).Contents (Elt F)),
    StableHlo.unary main_v3 main_v42 (broadcastInDim S320000x1 ![0] bcast_S320000_S320000x1_0 : (⟨S320000, .i32⟩ : BufTy).Contents (Elt F) → (⟨S320000x1, .i32⟩ : BufTy).Contents (Elt F)),
    StableHlo.ternary main_v41 main_v42 main_v40 main_v43 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v22 main_v44 (broadcastInDim S10000x1 ![0] bcast_S10000_S10000x1_0 : (⟨S10000, .f32⟩ : BufTy).Contents (Elt F) → (⟨S10000x1, .f32⟩ : BufTy).Contents (Elt F)),
    StableHlo.unary main_v44 main_v45 (broadcastInDim S10000x256 ![0, 1] bcast_S10000x1_S10000x256_0_1 : (⟨S10000x1, .f32⟩ : BufTy).Contents (Elt F) → (⟨S10000x256, .f32⟩ : BufTy).Contents (Elt F)),
    StableHlo.binary main_v43 main_v45 main_v46 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S10000x256, .f32⟩) (broadcastInDim S10000x256 ![] bcast_S_S10000x256),
    StableHlo.TRef.binary (.of main_v46 : StableHlo.TRef sig ⟨S10000x256, .f32⟩) (.of main_call2_v0 : StableHlo.TRef sig ⟨S10000x256, .f32⟩) (.of main_v47 : StableHlo.TRef sig ⟨S10000x256, .f32⟩) maximumf ]
abbrev kblk00_W : List (Ref sig .tc) := [main_v0, main_v1, main_v2, main_v3, main_cst, main_v4, main_cst_0, main_v5, main_v6, main_v7, main_cst_1, main_v8, main_v9, main_v10, main_cst_2, main_v11, main_v12, main_cst_3, main_v13, main_v14, main_v15, main_cst_4, main_call0_v0, main_call0_v1, main_v16, main_cst_5, main_v17, main_v18, main_cst_6, main_v19, main_v20, main_v21, main_cst_7, main_call1_v0, main_call1_v1, main_v22, main_v23, main_c, main_v24, main_v25, main_c_8, main_v26, main_v27, main_v28, main_v29, main_v30, main_c_9, main_v31, main_v32, main_c_10, main_v33, main_v34, main_v35, main_v36, main_v37, main_v38, main_v39, main_v40, main_cst_11, main_v41, main_v42, main_v43, main_v44, main_v45, main_v46, main_call2_cst, main_call2_v0, main_v47]
theorem kblk00_writes : (kblk00 : List (HloOp τ sig (Elt F))).Forall fun op => op.writes ⊆ (kblk00_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk00_sub : (kblk00 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk00_fresh : (kblk00 : List (HloOp τ sig (Elt F))).Forall fun op => op.fresh = ∅ := by
  simp only [List.Forall]; repeat' constructor
theorem kblk00_keep (W : Valuation τ sig (Elt F)) (r : Ref sig .tc) (h : r ∉ kblk00_W) :
    StableHlo.after (kblk00 : List (HloOp τ sig (Elt F))) W (Proc.devRef .tc r) = W (Proc.devRef .tc r) :=
  StableHlo.after_of_writes_sub kblk00 _ kblk00_writes h

/-- Operations 68 … 103. -/
abbrev kblk01 : List (HloOp τ sig (Elt F)) :=
  [ StableHlo.unary main_arg3 main_v48 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v48 main_v49 rfl shapeCasts_S1x320000_S320000,
    StableHlo.unary main_arg3 main_v50 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v50 main_v51 rfl shapeCasts_S1x320000_S320000,
    StableHlo.nullary main_cst_12 (constant S_ .f32 0x3F800000#32),
    StableHlo.unary main_cst_12 main_v52 (broadcastInDim S320000 ![] bcast_S_S320000 : (⟨S_, .f32⟩ : BufTy).Contents (Elt F) → (⟨S320000, .f32⟩ : BufTy).Contents (Elt F)),
    StableHlo.nullary main_cst_13 (constant S_ .f32 0x00000000#32),
    StableHlo.unary main_cst_13 main_v53 (broadcastInDim S10000 ![] bcast_S_S10000 : (⟨S_, .f32⟩ : BufTy).Contents (Elt F) → (⟨S10000, .f32⟩ : BufTy).Contents (Elt F)),
    StableHlo.unary main_v49 main_v54 (broadcastInDim S320000x1 ![0] bcast_S320000_S320000x1_0 : (⟨S320000, .i32⟩ : BufTy).Contents (Elt F) → (⟨S320000x1, .i32⟩ : BufTy).Contents (Elt F)),
    StableHlo.ternary main_v53 main_v54 main_v52 main_v55 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_14 (constant S_ .f32 0x00000000#32),
    StableHlo.unary main_cst_14 main_v56 (broadcastInDim S10000 ![] bcast_S_S10000 : (⟨S_, .f32⟩ : BufTy).Contents (Elt F) → (⟨S10000, .f32⟩ : BufTy).Contents (Elt F)),
    StableHlo.unary main_v51 main_v57 (broadcastInDim S320000x1 ![0] bcast_S320000_S320000x1_0 : (⟨S320000, .i32⟩ : BufTy).Contents (Elt F) → (⟨S320000x1, .i32⟩ : BufTy).Contents (Elt F)),
    StableHlo.ternary main_v56 main_v57 main_v52 main_v58 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_15 (constant S_ .f32 0x00000000#32),
    StableHlo.unary main_cst_15 main_v59 (broadcastInDim S10000 ![] bcast_S_S10000 : (⟨S_, .f32⟩ : BufTy).Contents (Elt F) → (⟨S10000, .f32⟩ : BufTy).Contents (Elt F)),
    StableHlo.binary main_v55 main_v59 main_v60 (cmpf .ogt : (⟨S10000, .f32⟩ : BufTy).Contents (Elt F) → (⟨S10000, .f32⟩ : BufTy).Contents (Elt F) → (⟨S10000, .i1⟩ : BufTy).Contents (Elt F)),
    StableHlo.nullary main_cst_16 (constant S_ .f32 0x3F800000#32),
    StableHlo.unary main_cst_16 main_v61 (broadcastInDim S10000 ![] bcast_S_S10000 : (⟨S_, .f32⟩ : BufTy).Contents (Elt F) → (⟨S10000, .f32⟩ : BufTy).Contents (Elt F)),
    StableHlo.binary main_v55 main_v61 main_v62 (maximumf : (⟨S10000, .f32⟩ : BufTy).Contents (Elt F) → (⟨S10000, .f32⟩ : BufTy).Contents (Elt F) → (⟨S10000, .f32⟩ : BufTy).Contents (Elt F)),
    StableHlo.unary main_v62 main_v63 (Host.rsqrt : (⟨S10000, .f32⟩ : BufTy).Contents (Elt F) → (⟨S10000, .f32⟩ : BufTy).Contents (Elt F)),
    StableHlo.nullary main_cst_17 (constant S_ .f32 0x00000000#32),
    StableHlo.TRef.unary (.of main_cst_17 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S10000, .f32⟩) (broadcastInDim S10000 ![] bcast_S_S10000),
    StableHlo.TRef.ternary (.of main_v60 : StableHlo.TRef sig ⟨S10000, .i1⟩) (.of main_v63 : StableHlo.TRef sig ⟨S10000, .f32⟩) (.of main_call3_v1 : StableHlo.TRef sig ⟨S10000, .f32⟩) (.of main_v64 : StableHlo.TRef sig ⟨S10000, .f32⟩) select,
    StableHlo.nullary main_cst_18 (constant S_ .f32 0x00000000#32),
    StableHlo.unary main_cst_18 main_v65 (broadcastInDim S10000 ![] bcast_S_S10000 : (⟨S_, .f32⟩ : BufTy).Contents (Elt F) → (⟨S10000, .f32⟩ : BufTy).Contents (Elt F)),
    StableHlo.binary main_v58 main_v65 main_v66 (cmpf .ogt : (⟨S10000, .f32⟩ : BufTy).Contents (Elt F) → (⟨S10000, .f32⟩ : BufTy).Contents (Elt F) → (⟨S10000, .i1⟩ : BufTy).Contents (Elt F)),
    StableHlo.nullary main_cst_19 (constant S_ .f32 0x3F800000#32),
    StableHlo.unary main_cst_19 main_v67 (broadcastInDim S10000 ![] bcast_S_S10000 : (⟨S_, .f32⟩ : BufTy).Contents (Elt F) → (⟨S10000, .f32⟩ : BufTy).Contents (Elt F)),
    StableHlo.binary main_v58 main_v67 main_v68 (maximumf : (⟨S10000, .f32⟩ : BufTy).Contents (Elt F) → (⟨S10000, .f32⟩ : BufTy).Contents (Elt F) → (⟨S10000, .f32⟩ : BufTy).Contents (Elt F)),
    StableHlo.unary main_v68 main_v69 (Host.rsqrt : (⟨S10000, .f32⟩ : BufTy).Contents (Elt F) → (⟨S10000, .f32⟩ : BufTy).Contents (Elt F)),
    StableHlo.nullary main_cst_20 (constant S_ .f32 0x00000000#32),
    StableHlo.TRef.unary (.of main_cst_20 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S10000, .f32⟩) (broadcastInDim S10000 ![] bcast_S_S10000),
    StableHlo.TRef.ternary (.of main_v66 : StableHlo.TRef sig ⟨S10000, .i1⟩) (.of main_v69 : StableHlo.TRef sig ⟨S10000, .f32⟩) (.of main_call4_v1 : StableHlo.TRef sig ⟨S10000, .f32⟩) (.of main_v70 : StableHlo.TRef sig ⟨S10000, .f32⟩) select ]
abbrev kblk01_W : List (Ref sig .tc) := [main_v48, main_v49, main_v50, main_v51, main_cst_12, main_v52, main_cst_13, main_v53, main_v54, main_v55, main_cst_14, main_v56, main_v57, main_v58, main_cst_15, main_v59, main_v60, main_cst_16, main_v61, main_v62, main_v63, main_cst_17, main_call3_v0, main_call3_v1, main_v64, main_cst_18, main_v65, main_v66, main_cst_19, main_v67, main_v68, main_v69, main_cst_20, main_call4_v0, main_call4_v1, main_v70]
theorem kblk01_writes : (kblk01 : List (HloOp τ sig (Elt F))).Forall fun op => op.writes ⊆ (kblk01_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk01_sub : (kblk01 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk01_fresh : (kblk01 : List (HloOp τ sig (Elt F))).Forall fun op => op.fresh = ∅ := by
  simp only [List.Forall]; repeat' constructor
theorem kblk01_keep (W : Valuation τ sig (Elt F)) (r : Ref sig .tc) (h : r ∉ kblk01_W) :
    StableHlo.after (kblk01 : List (HloOp τ sig (Elt F))) W (Proc.devRef .tc r) = W (Proc.devRef .tc r) :=
  StableHlo.after_of_writes_sub kblk01 _ kblk01_writes h

/-- Operations 104 … 168. -/
abbrev kblk02 : List (HloOp τ sig (Elt F)) :=
  [ StableHlo.binary main_v47 main_arg8 main_v71 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_21 (constantI S_ 32 0#32),
    StableHlo.unary main_c_21 main_v72 (broadcastInDim S320000 ![] bcast_S_S320000 : (⟨S_, .i32⟩ : BufTy).Contents (Elt F) → (⟨S320000, .i32⟩ : BufTy).Contents (Elt F)),
    StableHlo.binary main_v49 main_v72 main_v73 (cmpi .slt : (⟨S320000, .i32⟩ : BufTy).Contents (Elt F) → (⟨S320000, .i32⟩ : BufTy).Contents (Elt F) → (⟨S320000, .i1⟩ : BufTy).Contents (Elt F)),
    StableHlo.nullary main_c_22 (constantI S_ 32 10000#32),
    StableHlo.unary main_c_22 main_v74 (broadcastInDim S320000 ![] bcast_S_S320000 : (⟨S_, .i32⟩ : BufTy).Contents (Elt F) → (⟨S320000, .i32⟩ : BufTy).Contents (Elt F)),
    StableHlo.binary main_v49 main_v74 main_v75 (addi : (⟨S320000, .i32⟩ : BufTy).Contents (Elt F) → (⟨S320000, .i32⟩ : BufTy).Contents (Elt F) → (⟨S320000, .i32⟩ : BufTy).Contents (Elt F)),
    StableHlo.ternary main_v73 main_v75 main_v49 main_v76 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v76 main_v77 (broadcastInDim S320000x1 ![0] bcast_S320000_S320000x1_0 : (⟨S320000, .i32⟩ : BufTy).Contents (Elt F) → (⟨S320000x1, .i32⟩ : BufTy).Contents (Elt F)),
    StableHlo.binary main_v71 main_v77 main_v78 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_23 (constantI S_ 32 0#32),
    StableHlo.unary main_c_23 main_v79 (broadcastInDim S320000 ![] bcast_S_S320000 : (⟨S_, .i32⟩ : BufTy).Contents (Elt F) → (⟨S320000, .i32⟩ : BufTy).Contents (Elt F)),
    StableHlo.binary main_v49 main_v79 main_v80 (cmpi .slt : (⟨S320000, .i32⟩ : BufTy).Contents (Elt F) → (⟨S320000, .i32⟩ : BufTy).Contents (Elt F) → (⟨S320000, .i1⟩ : BufTy).Contents (Elt F)),
    StableHlo.nullary main_c_24 (constantI S_ 32 10000#32),
    StableHlo.unary main_c_24 main_v81 (broadcastInDim S320000 ![] bcast_S_S320000 : (⟨S_, .i32⟩ : BufTy).Contents (Elt F) → (⟨S320000, .i32⟩ : BufTy).Contents (Elt F)),
    StableHlo.binary main_v49 main_v81 main_v82 (addi : (⟨S320000, .i32⟩ : BufTy).Contents (Elt F) → (⟨S320000, .i32⟩ : BufTy).Contents (Elt F) → (⟨S320000, .i32⟩ : BufTy).Contents (Elt F)),
    StableHlo.ternary main_v80 main_v82 main_v49 main_v83 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v83 main_v84 (broadcastInDim S320000x1 ![0] bcast_S320000_S320000x1_0 : (⟨S320000, .i32⟩ : BufTy).Contents (Elt F) → (⟨S320000x1, .i32⟩ : BufTy).Contents (Elt F)),
    StableHlo.binary main_v64 main_v84 main_v85 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v85 main_v86 (broadcastInDim S320000x1 ![0] bcast_S320000_S320000x1_0 : (⟨S320000, .f32⟩ : BufTy).Contents (Elt F) → (⟨S320000x1, .f32⟩ : BufTy).Contents (Elt F)),
    StableHlo.unary main_v86 main_v87 (broadcastInDim S320000x64 ![0, 1] bcast_S320000x1_S320000x64_0_1 : (⟨S320000x1, .f32⟩ : BufTy).Contents (Elt F) → (⟨S320000x64, .f32⟩ : BufTy).Contents (Elt F)),
    StableHlo.binary main_v78 main_v87 main_v88 (mulf : (⟨S320000x64, .f32⟩ : BufTy).Contents (Elt F) → (⟨S320000x64, .f32⟩ : BufTy).Contents (Elt F) → (⟨S320000x64, .f32⟩ : BufTy).Contents (Elt F)),
    StableHlo.nullary main_cst_25 (constant S_ .f32 0x00000000#32),
    StableHlo.unary main_cst_25 main_v89 (broadcastInDim S10000x64 ![] bcast_S_S10000x64 : (⟨S_, .f32⟩ : BufTy).Contents (Elt F) → (⟨S10000x64, .f32⟩ : BufTy).Contents (Elt F)),
    StableHlo.unary main_v51 main_v90 (broadcastInDim S320000x1 ![0] bcast_S320000_S320000x1_0 : (⟨S320000, .i32⟩ : BufTy).Contents (Elt F) → (⟨S320000x1, .i32⟩ : BufTy).Contents (Elt F)),
    StableHlo.ternary main_v89 main_v90 main_v88 main_v91 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v70 main_v92 (broadcastInDim S10000x1 ![0] bcast_S10000_S10000x1_0 : (⟨S10000, .f32⟩ : BufTy).Contents (Elt F) → (⟨S10000x1, .f32⟩ : BufTy).Contents (Elt F)),
    StableHlo.unary main_v92 main_v93 (broadcastInDim S10000x64 ![0, 1] bcast_S10000x1_S10000x64_0_1 : (⟨S10000x1, .f32⟩ : BufTy).Contents (Elt F) → (⟨S10000x64, .f32⟩ : BufTy).Contents (Elt F)),
    StableHlo.binary main_v91 main_v93 main_v94 (mulf : (⟨S10000x64, .f32⟩ : BufTy).Contents (Elt F) → (⟨S10000x64, .f32⟩ : BufTy).Contents (Elt F) → (⟨S10000x64, .f32⟩ : BufTy).Contents (Elt F)),
    StableHlo.unary main_arg4 main_v95 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v95 main_v96 rfl shapeCasts_S1x320000_S320000,
    StableHlo.unary main_arg4 main_v97 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v97 main_v98 rfl shapeCasts_S1x320000_S320000,
    StableHlo.nullary main_cst_26 (constant S_ .f32 0x3F800000#32),
    StableHlo.unary main_cst_26 main_v99 (broadcastInDim S320000 ![] bcast_S_S320000 : (⟨S_, .f32⟩ : BufTy).Contents (Elt F) → (⟨S320000, .f32⟩ : BufTy).Contents (Elt F)),
    StableHlo.nullary main_cst_27 (constant S_ .f32 0x00000000#32),
    StableHlo.unary main_cst_27 main_v100 (broadcastInDim S10000 ![] bcast_S_S10000 : (⟨S_, .f32⟩ : BufTy).Contents (Elt F) → (⟨S10000, .f32⟩ : BufTy).Contents (Elt F)),
    StableHlo.unary main_v96 main_v101 (broadcastInDim S320000x1 ![0] bcast_S320000_S320000x1_0 : (⟨S320000, .i32⟩ : BufTy).Contents (Elt F) → (⟨S320000x1, .i32⟩ : BufTy).Contents (Elt F)),
    StableHlo.ternary main_v100 main_v101 main_v99 main_v102 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_28 (constant S_ .f32 0x00000000#32),
    StableHlo.unary main_cst_28 main_v103 (broadcastInDim S10000 ![] bcast_S_S10000 : (⟨S_, .f32⟩ : BufTy).Contents (Elt F) → (⟨S10000, .f32⟩ : BufTy).Contents (Elt F)),
    StableHlo.unary main_v98 main_v104 (broadcastInDim S320000x1 ![0] bcast_S320000_S320000x1_0 : (⟨S320000, .i32⟩ : BufTy).Contents (Elt F) → (⟨S320000x1, .i32⟩ : BufTy).Contents (Elt F)),
    StableHlo.ternary main_v103 main_v104 main_v99 main_v105 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_29 (constant S_ .f32 0x00000000#32),
    StableHlo.unary main_cst_29 main_v106 (broadcastInDim S10000 ![] bcast_S_S10000 : (⟨S_, .f32⟩ : BufTy).Contents (Elt F) → (⟨S10000, .f32⟩ : BufTy).Contents (Elt F)),
    StableHlo.binary main_v102 main_v106 main_v107 (cmpf .ogt : (⟨S10000, .f32⟩ : BufTy).Contents (Elt F) → (⟨S10000, .f32⟩ : BufTy).Contents (Elt F) → (⟨S10000, .i1⟩ : BufTy).Contents (Elt F)),
    StableHlo.nullary main_cst_30 (constant S_ .f32 0x3F800000#32),
    StableHlo.unary main_cst_30 main_v108 (broadcastInDim S10000 ![] bcast_S_S10000 : (⟨S_, .f32⟩ : BufTy).Contents (Elt F) → (⟨S10000, .f32⟩ : BufTy).Contents (Elt F)),
    StableHlo.binary main_v102 main_v108 main_v109 (maximumf : (⟨S10000, .f32⟩ : BufTy).Contents (Elt F) → (⟨S10000, .f32⟩ : BufTy).Contents (Elt F) → (⟨S10000, .f32⟩ : BufTy).Contents (Elt F)),
    StableHlo.unary main_v109 main_v110 (Host.rsqrt : (⟨S10000, .f32⟩ : BufTy).Contents (Elt F) → (⟨S10000, .f32⟩ : BufTy).Contents (Elt F)),
    StableHlo.nullary main_cst_31 (constant S_ .f32 0x00000000#32),
    StableHlo.TRef.unary (.of main_cst_31 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S10000, .f32⟩) (broadcastInDim S10000 ![] bcast_S_S10000),
    StableHlo.TRef.ternary (.of main_v107 : StableHlo.TRef sig ⟨S10000, .i1⟩) (.of main_v110 : StableHlo.TRef sig ⟨S10000, .f32⟩) (.of main_call5_v1 : StableHlo.TRef sig ⟨S10000, .f32⟩) (.of main_v111 : StableHlo.TRef sig ⟨S10000, .f32⟩) select,
    StableHlo.nullary main_cst_32 (constant S_ .f32 0x00000000#32),
    StableHlo.unary main_cst_32 main_v112 (broadcastInDim S10000 ![] bcast_S_S10000 : (⟨S_, .f32⟩ : BufTy).Contents (Elt F) → (⟨S10000, .f32⟩ : BufTy).Contents (Elt F)),
    StableHlo.binary main_v105 main_v112 main_v113 (cmpf .ogt : (⟨S10000, .f32⟩ : BufTy).Contents (Elt F) → (⟨S10000, .f32⟩ : BufTy).Contents (Elt F) → (⟨S10000, .i1⟩ : BufTy).Contents (Elt F)),
    StableHlo.nullary main_cst_33 (constant S_ .f32 0x3F800000#32),
    StableHlo.unary main_cst_33 main_v114 (broadcastInDim S10000 ![] bcast_S_S10000 : (⟨S_, .f32⟩ : BufTy).Contents (Elt F) → (⟨S10000, .f32⟩ : BufTy).Contents (Elt F)),
    StableHlo.binary main_v105 main_v114 main_v115 (maximumf : (⟨S10000, .f32⟩ : BufTy).Contents (Elt F) → (⟨S10000, .f32⟩ : BufTy).Contents (Elt F) → (⟨S10000, .f32⟩ : BufTy).Contents (Elt F)),
    StableHlo.unary main_v115 main_v116 (Host.rsqrt : (⟨S10000, .f32⟩ : BufTy).Contents (Elt F) → (⟨S10000, .f32⟩ : BufTy).Contents (Elt F)),
    StableHlo.nullary main_cst_34 (constant S_ .f32 0x00000000#32),
    StableHlo.TRef.unary (.of main_cst_34 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S10000, .f32⟩) (broadcastInDim S10000 ![] bcast_S_S10000),
    StableHlo.TRef.ternary (.of main_v113 : StableHlo.TRef sig ⟨S10000, .i1⟩) (.of main_v116 : StableHlo.TRef sig ⟨S10000, .f32⟩) (.of main_call6_v1 : StableHlo.TRef sig ⟨S10000, .f32⟩) (.of main_v117 : StableHlo.TRef sig ⟨S10000, .f32⟩) select ]
abbrev kblk02_W : List (Ref sig .tc) := [main_v71, main_c_21, main_v72, main_v73, main_c_22, main_v74, main_v75, main_v76, main_v77, main_v78, main_c_23, main_v79, main_v80, main_c_24, main_v81, main_v82, main_v83, main_v84, main_v85, main_v86, main_v87, main_v88, main_cst_25, main_v89, main_v90, main_v91, main_v92, main_v93, main_v94, main_v95, main_v96, main_v97, main_v98, main_cst_26, main_v99, main_cst_27, main_v100, main_v101, main_v102, main_cst_28, main_v103, main_v104, main_v105, main_cst_29, main_v106, main_v107, main_cst_30, main_v108, main_v109, main_v110, main_cst_31, main_call5_v0, main_call5_v1, main_v111, main_cst_32, main_v112, main_v113, main_cst_33, main_v114, main_v115, main_v116, main_cst_34, main_call6_v0, main_call6_v1, main_v117]
theorem kblk02_writes : (kblk02 : List (HloOp τ sig (Elt F))).Forall fun op => op.writes ⊆ (kblk02_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk02_sub : (kblk02 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk02_fresh : (kblk02 : List (HloOp τ sig (Elt F))).Forall fun op => op.fresh = ∅ := by
  simp only [List.Forall]; repeat' constructor
theorem kblk02_keep (W : Valuation τ sig (Elt F)) (r : Ref sig .tc) (h : r ∉ kblk02_W) :
    StableHlo.after (kblk02 : List (HloOp τ sig (Elt F))) W (Proc.devRef .tc r) = W (Proc.devRef .tc r) :=
  StableHlo.after_of_writes_sub kblk02 _ kblk02_writes h

/-- Operations 169 … 200. -/
abbrev kblk03 : List (HloOp τ sig (Elt F)) :=
  [ StableHlo.binary main_arg1 main_arg9 main_v118 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c_35 (constantI S_ 32 0#32),
    StableHlo.unary main_c_35 main_v119 (broadcastInDim S320000 ![] bcast_S_S320000 : (⟨S_, .i32⟩ : BufTy).Contents (Elt F) → (⟨S320000, .i32⟩ : BufTy).Contents (Elt F)),
    StableHlo.binary main_v96 main_v119 main_v120 (cmpi .slt : (⟨S320000, .i32⟩ : BufTy).Contents (Elt F) → (⟨S320000, .i32⟩ : BufTy).Contents (Elt F) → (⟨S320000, .i1⟩ : BufTy).Contents (Elt F)),
    StableHlo.nullary main_c_36 (constantI S_ 32 10000#32),
    StableHlo.unary main_c_36 main_v121 (broadcastInDim S320000 ![] bcast_S_S320000 : (⟨S_, .i32⟩ : BufTy).Contents (Elt F) → (⟨S320000, .i32⟩ : BufTy).Contents (Elt F)),
    StableHlo.binary main_v96 main_v121 main_v122 (addi : (⟨S320000, .i32⟩ : BufTy).Contents (Elt F) → (⟨S320000, .i32⟩ : BufTy).Contents (Elt F) → (⟨S320000, .i32⟩ : BufTy).Contents (Elt F)),
    StableHlo.ternary main_v120 main_v122 main_v96 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v123 main_v124 (broadcastInDim S320000x1 ![0] bcast_S320000_S320000x1_0 : (⟨S320000, .i32⟩ : BufTy).Contents (Elt F) → (⟨S320000x1, .i32⟩ : BufTy).Contents (Elt F)),
    StableHlo.binary main_v118 main_v124 main_v125 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_37 (constantI S_ 32 0#32),
    StableHlo.unary main_c_37 main_v126 (broadcastInDim S320000 ![] bcast_S_S320000 : (⟨S_, .i32⟩ : BufTy).Contents (Elt F) → (⟨S320000, .i32⟩ : BufTy).Contents (Elt F)),
    StableHlo.binary main_v96 main_v126 main_v127 (cmpi .slt : (⟨S320000, .i32⟩ : BufTy).Contents (Elt F) → (⟨S320000, .i32⟩ : BufTy).Contents (Elt F) → (⟨S320000, .i1⟩ : BufTy).Contents (Elt F)),
    StableHlo.nullary main_c_38 (constantI S_ 32 10000#32),
    StableHlo.unary main_c_38 main_v128 (broadcastInDim S320000 ![] bcast_S_S320000 : (⟨S_, .i32⟩ : BufTy).Contents (Elt F) → (⟨S320000, .i32⟩ : BufTy).Contents (Elt F)),
    StableHlo.binary main_v96 main_v128 main_v129 (addi : (⟨S320000, .i32⟩ : BufTy).Contents (Elt F) → (⟨S320000, .i32⟩ : BufTy).Contents (Elt F) → (⟨S320000, .i32⟩ : BufTy).Contents (Elt F)),
    StableHlo.ternary main_v127 main_v129 main_v96 main_v130 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v130 main_v131 (broadcastInDim S320000x1 ![0] bcast_S320000_S320000x1_0 : (⟨S320000, .i32⟩ : BufTy).Contents (Elt F) → (⟨S320000x1, .i32⟩ : BufTy).Contents (Elt F)),
    StableHlo.binary main_v111 main_v131 main_v132 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v132 main_v133 (broadcastInDim S320000x1 ![0] bcast_S320000_S320000x1_0 : (⟨S320000, .f32⟩ : BufTy).Contents (Elt F) → (⟨S320000x1, .f32⟩ : BufTy).Contents (Elt F)),
    StableHlo.unary main_v133 main_v134 (broadcastInDim S320000x256 ![0, 1] bcast_S320000x1_S320000x256_0_1 : (⟨S320000x1, .f32⟩ : BufTy).Contents (Elt F) → (⟨S320000x256, .f32⟩ : BufTy).Contents (Elt F)),
    StableHlo.binary main_v125 main_v134 main_v135 (mulf : (⟨S320000x256, .f32⟩ : BufTy).Contents (Elt F) → (⟨S320000x256, .f32⟩ : BufTy).Contents (Elt F) → (⟨S320000x256, .f32⟩ : BufTy).Contents (Elt F)),
    StableHlo.nullary main_cst_39 (constant S_ .f32 0x00000000#32),
    StableHlo.unary main_cst_39 main_v136 (broadcastInDim S10000x256 ![] bcast_S_S10000x256 : (⟨S_, .f32⟩ : BufTy).Contents (Elt F) → (⟨S10000x256, .f32⟩ : BufTy).Contents (Elt F)),
    StableHlo.unary main_v98 main_v137 (broadcastInDim S320000x1 ![0] bcast_S320000_S320000x1_0 : (⟨S320000, .i32⟩ : BufTy).Contents (Elt F) → (⟨S320000x1, .i32⟩ : BufTy).Contents (Elt F)),
    StableHlo.ternary main_v136 main_v137 main_v135 main_v138 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v117 main_v139 (broadcastInDim S10000x1 ![0] bcast_S10000_S10000x1_0 : (⟨S10000, .f32⟩ : BufTy).Contents (Elt F) → (⟨S10000x1, .f32⟩ : BufTy).Contents (Elt F)),
    StableHlo.unary main_v139 main_v140 (broadcastInDim S10000x256 ![0, 1] bcast_S10000x1_S10000x256_0_1 : (⟨S10000x1, .f32⟩ : BufTy).Contents (Elt F) → (⟨S10000x256, .f32⟩ : BufTy).Contents (Elt F)),
    StableHlo.binary main_v138 main_v140 main_v141 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S10000x256, .f32⟩) (broadcastInDim S10000x256 ![] bcast_S_S10000x256),
    StableHlo.TRef.binary (.of main_v141 : StableHlo.TRef sig ⟨S10000x256, .f32⟩) (.of main_call7_v0 : StableHlo.TRef sig ⟨S10000x256, .f32⟩) (.of main_v142 : StableHlo.TRef sig ⟨S10000x256, .f32⟩) maximumf ]
abbrev kblk03_W : List (Ref sig .tc) := [main_v118, main_c_35, main_v119, main_v120, main_c_36, main_v121, main_v122, main_v123, main_v124, main_v125, main_c_37, main_v126, main_v127, main_c_38, main_v128, main_v129, main_v130, main_v131, main_v132, main_v133, main_v134, main_v135, main_cst_39, main_v136, main_v137, main_v138, main_v139, main_v140, main_v141, main_call7_cst, main_call7_v0, main_v142]
theorem kblk03_writes : (kblk03 : List (HloOp τ sig (Elt F))).Forall fun op => op.writes ⊆ (kblk03_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk03_sub : (kblk03 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk03_fresh : (kblk03 : List (HloOp τ sig (Elt F))).Forall fun op => op.fresh = ∅ := by
  simp only [List.Forall]; repeat' constructor
theorem kblk03_keep (W : Valuation τ sig (Elt F)) (r : Ref sig .tc) (h : r ∉ kblk03_W) :
    StableHlo.after (kblk03 : List (HloOp τ sig (Elt F))) W (Proc.devRef .tc r) = W (Proc.devRef .tc r) :=
  StableHlo.after_of_writes_sub kblk03 _ kblk03_writes h

/-- Operations 201 … 236. -/
abbrev kblk04 : List (HloOp τ sig (Elt F)) :=
  [ StableHlo.unary main_arg4 main_v143 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v143 main_v144 rfl shapeCasts_S1x320000_S320000,
    StableHlo.unary main_arg4 main_v145 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v145 main_v146 rfl shapeCasts_S1x320000_S320000,
    StableHlo.nullary main_cst_40 (constant S_ .f32 0x3F800000#32),
    StableHlo.unary main_cst_40 main_v147 (broadcastInDim S320000 ![] bcast_S_S320000 : (⟨S_, .f32⟩ : BufTy).Contents (Elt F) → (⟨S320000, .f32⟩ : BufTy).Contents (Elt F)),
    StableHlo.nullary main_cst_41 (constant S_ .f32 0x00000000#32),
    StableHlo.unary main_cst_41 main_v148 (broadcastInDim S10000 ![] bcast_S_S10000 : (⟨S_, .f32⟩ : BufTy).Contents (Elt F) → (⟨S10000, .f32⟩ : BufTy).Contents (Elt F)),
    StableHlo.unary main_v144 main_v149 (broadcastInDim S320000x1 ![0] bcast_S320000_S320000x1_0 : (⟨S320000, .i32⟩ : BufTy).Contents (Elt F) → (⟨S320000x1, .i32⟩ : BufTy).Contents (Elt F)),
    StableHlo.ternary main_v148 main_v149 main_v147 main_v150 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_42 (constant S_ .f32 0x00000000#32),
    StableHlo.unary main_cst_42 main_v151 (broadcastInDim S10000 ![] bcast_S_S10000 : (⟨S_, .f32⟩ : BufTy).Contents (Elt F) → (⟨S10000, .f32⟩ : BufTy).Contents (Elt F)),
    StableHlo.unary main_v146 main_v152 (broadcastInDim S320000x1 ![0] bcast_S320000_S320000x1_0 : (⟨S320000, .i32⟩ : BufTy).Contents (Elt F) → (⟨S320000x1, .i32⟩ : BufTy).Contents (Elt F)),
    StableHlo.ternary main_v151 main_v152 main_v147 main_v153 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_43 (constant S_ .f32 0x00000000#32),
    StableHlo.unary main_cst_43 main_v154 (broadcastInDim S10000 ![] bcast_S_S10000 : (⟨S_, .f32⟩ : BufTy).Contents (Elt F) → (⟨S10000, .f32⟩ : BufTy).Contents (Elt F)),
    StableHlo.binary main_v150 main_v154 main_v155 (cmpf .ogt : (⟨S10000, .f32⟩ : BufTy).Contents (Elt F) → (⟨S10000, .f32⟩ : BufTy).Contents (Elt F) → (⟨S10000, .i1⟩ : BufTy).Contents (Elt F)),
    StableHlo.nullary main_cst_44 (constant S_ .f32 0x3F800000#32),
    StableHlo.unary main_cst_44 main_v156 (broadcastInDim S10000 ![] bcast_S_S10000 : (⟨S_, .f32⟩ : BufTy).Contents (Elt F) → (⟨S10000, .f32⟩ : BufTy).Contents (Elt F)),
    StableHlo.binary main_v150 main_v156 main_v157 (maximumf : (⟨S10000, .f32⟩ : BufTy).Contents (Elt F) → (⟨S10000, .f32⟩ : BufTy).Contents (Elt F) → (⟨S10000, .f32⟩ : BufTy).Contents (Elt F)),
    StableHlo.unary main_v157 main_v158 (Host.rsqrt : (⟨S10000, .f32⟩ : BufTy).Contents (Elt F) → (⟨S10000, .f32⟩ : BufTy).Contents (Elt F)),
    StableHlo.nullary main_cst_45 (constant S_ .f32 0x00000000#32),
    StableHlo.TRef.unary (.of main_cst_45 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S10000, .f32⟩) (broadcastInDim S10000 ![] bcast_S_S10000),
    StableHlo.TRef.ternary (.of main_v155 : StableHlo.TRef sig ⟨S10000, .i1⟩) (.of main_v158 : StableHlo.TRef sig ⟨S10000, .f32⟩) (.of main_call8_v1 : StableHlo.TRef sig ⟨S10000, .f32⟩) (.of main_v159 : StableHlo.TRef sig ⟨S10000, .f32⟩) select,
    StableHlo.nullary main_cst_46 (constant S_ .f32 0x00000000#32),
    StableHlo.unary main_cst_46 main_v160 (broadcastInDim S10000 ![] bcast_S_S10000 : (⟨S_, .f32⟩ : BufTy).Contents (Elt F) → (⟨S10000, .f32⟩ : BufTy).Contents (Elt F)),
    StableHlo.binary main_v153 main_v160 main_v161 (cmpf .ogt : (⟨S10000, .f32⟩ : BufTy).Contents (Elt F) → (⟨S10000, .f32⟩ : BufTy).Contents (Elt F) → (⟨S10000, .i1⟩ : BufTy).Contents (Elt F)),
    StableHlo.nullary main_cst_47 (constant S_ .f32 0x3F800000#32),
    StableHlo.unary main_cst_47 main_v162 (broadcastInDim S10000 ![] bcast_S_S10000 : (⟨S_, .f32⟩ : BufTy).Contents (Elt F) → (⟨S10000, .f32⟩ : BufTy).Contents (Elt F)),
    StableHlo.binary main_v153 main_v162 main_v163 (maximumf : (⟨S10000, .f32⟩ : BufTy).Contents (Elt F) → (⟨S10000, .f32⟩ : BufTy).Contents (Elt F) → (⟨S10000, .f32⟩ : BufTy).Contents (Elt F)),
    StableHlo.unary main_v163 main_v164 (Host.rsqrt : (⟨S10000, .f32⟩ : BufTy).Contents (Elt F) → (⟨S10000, .f32⟩ : BufTy).Contents (Elt F)),
    StableHlo.nullary main_cst_48 (constant S_ .f32 0x00000000#32),
    StableHlo.TRef.unary (.of main_cst_48 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S10000, .f32⟩) (broadcastInDim S10000 ![] bcast_S_S10000),
    StableHlo.TRef.ternary (.of main_v161 : StableHlo.TRef sig ⟨S10000, .i1⟩) (.of main_v164 : StableHlo.TRef sig ⟨S10000, .f32⟩) (.of main_call9_v1 : StableHlo.TRef sig ⟨S10000, .f32⟩) (.of main_v165 : StableHlo.TRef sig ⟨S10000, .f32⟩) select ]
abbrev kblk04_W : List (Ref sig .tc) := [main_v143, main_v144, main_v145, main_v146, main_cst_40, main_v147, main_cst_41, main_v148, main_v149, main_v150, main_cst_42, main_v151, main_v152, main_v153, main_cst_43, main_v154, main_v155, main_cst_44, main_v156, main_v157, main_v158, main_cst_45, main_call8_v0, main_call8_v1, main_v159, main_cst_46, main_v160, main_v161, main_cst_47, main_v162, main_v163, main_v164, main_cst_48, main_call9_v0, main_call9_v1, main_v165]
theorem kblk04_writes : (kblk04 : List (HloOp τ sig (Elt F))).Forall fun op => op.writes ⊆ (kblk04_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk04_sub : (kblk04 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk04_fresh : (kblk04 : List (HloOp τ sig (Elt F))).Forall fun op => op.fresh = ∅ := by
  simp only [List.Forall]; repeat' constructor
theorem kblk04_keep (W : Valuation τ sig (Elt F)) (r : Ref sig .tc) (h : r ∉ kblk04_W) :
    StableHlo.after (kblk04 : List (HloOp τ sig (Elt F))) W (Proc.devRef .tc r) = W (Proc.devRef .tc r) :=
  StableHlo.after_of_writes_sub kblk04 _ kblk04_writes h

/-- Operations 237 … 301. -/
abbrev kblk05 : List (HloOp τ sig (Elt F)) :=
  [ StableHlo.binary main_v142 main_arg10 main_v166 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_49 (constantI S_ 32 0#32),
    StableHlo.unary main_c_49 main_v167 (broadcastInDim S320000 ![] bcast_S_S320000 : (⟨S_, .i32⟩ : BufTy).Contents (Elt F) → (⟨S320000, .i32⟩ : BufTy).Contents (Elt F)),
    StableHlo.binary main_v144 main_v167 main_v168 (cmpi .slt : (⟨S320000, .i32⟩ : BufTy).Contents (Elt F) → (⟨S320000, .i32⟩ : BufTy).Contents (Elt F) → (⟨S320000, .i1⟩ : BufTy).Contents (Elt F)),
    StableHlo.nullary main_c_50 (constantI S_ 32 10000#32),
    StableHlo.unary main_c_50 main_v169 (broadcastInDim S320000 ![] bcast_S_S320000 : (⟨S_, .i32⟩ : BufTy).Contents (Elt F) → (⟨S320000, .i32⟩ : BufTy).Contents (Elt F)),
    StableHlo.binary main_v144 main_v169 main_v170 (addi : (⟨S320000, .i32⟩ : BufTy).Contents (Elt F) → (⟨S320000, .i32⟩ : BufTy).Contents (Elt F) → (⟨S320000, .i32⟩ : BufTy).Contents (Elt F)),
    StableHlo.ternary main_v168 main_v170 main_v144 main_v171 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v171 main_v172 (broadcastInDim S320000x1 ![0] bcast_S320000_S320000x1_0 : (⟨S320000, .i32⟩ : BufTy).Contents (Elt F) → (⟨S320000x1, .i32⟩ : BufTy).Contents (Elt F)),
    StableHlo.binary main_v166 main_v172 main_v173 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_51 (constantI S_ 32 0#32),
    StableHlo.unary main_c_51 main_v174 (broadcastInDim S320000 ![] bcast_S_S320000 : (⟨S_, .i32⟩ : BufTy).Contents (Elt F) → (⟨S320000, .i32⟩ : BufTy).Contents (Elt F)),
    StableHlo.binary main_v144 main_v174 main_v175 (cmpi .slt : (⟨S320000, .i32⟩ : BufTy).Contents (Elt F) → (⟨S320000, .i32⟩ : BufTy).Contents (Elt F) → (⟨S320000, .i1⟩ : BufTy).Contents (Elt F)),
    StableHlo.nullary main_c_52 (constantI S_ 32 10000#32),
    StableHlo.unary main_c_52 main_v176 (broadcastInDim S320000 ![] bcast_S_S320000 : (⟨S_, .i32⟩ : BufTy).Contents (Elt F) → (⟨S320000, .i32⟩ : BufTy).Contents (Elt F)),
    StableHlo.binary main_v144 main_v176 main_v177 (addi : (⟨S320000, .i32⟩ : BufTy).Contents (Elt F) → (⟨S320000, .i32⟩ : BufTy).Contents (Elt F) → (⟨S320000, .i32⟩ : BufTy).Contents (Elt F)),
    StableHlo.ternary main_v175 main_v177 main_v144 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v178 main_v179 (broadcastInDim S320000x1 ![0] bcast_S320000_S320000x1_0 : (⟨S320000, .i32⟩ : BufTy).Contents (Elt F) → (⟨S320000x1, .i32⟩ : BufTy).Contents (Elt F)),
    StableHlo.binary main_v159 main_v179 main_v180 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v180 main_v181 (broadcastInDim S320000x1 ![0] bcast_S320000_S320000x1_0 : (⟨S320000, .f32⟩ : BufTy).Contents (Elt F) → (⟨S320000x1, .f32⟩ : BufTy).Contents (Elt F)),
    StableHlo.unary main_v181 main_v182 (broadcastInDim S320000x64 ![0, 1] bcast_S320000x1_S320000x64_0_1 : (⟨S320000x1, .f32⟩ : BufTy).Contents (Elt F) → (⟨S320000x64, .f32⟩ : BufTy).Contents (Elt F)),
    StableHlo.binary main_v173 main_v182 main_v183 (mulf : (⟨S320000x64, .f32⟩ : BufTy).Contents (Elt F) → (⟨S320000x64, .f32⟩ : BufTy).Contents (Elt F) → (⟨S320000x64, .f32⟩ : BufTy).Contents (Elt F)),
    StableHlo.nullary main_cst_53 (constant S_ .f32 0x00000000#32),
    StableHlo.unary main_cst_53 main_v184 (broadcastInDim S10000x64 ![] bcast_S_S10000x64 : (⟨S_, .f32⟩ : BufTy).Contents (Elt F) → (⟨S10000x64, .f32⟩ : BufTy).Contents (Elt F)),
    StableHlo.unary main_v146 main_v185 (broadcastInDim S320000x1 ![0] bcast_S320000_S320000x1_0 : (⟨S320000, .i32⟩ : BufTy).Contents (Elt F) → (⟨S320000x1, .i32⟩ : BufTy).Contents (Elt F)),
    StableHlo.ternary main_v184 main_v185 main_v183 main_v186 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v165 main_v187 (broadcastInDim S10000x1 ![0] bcast_S10000_S10000x1_0 : (⟨S10000, .f32⟩ : BufTy).Contents (Elt F) → (⟨S10000x1, .f32⟩ : BufTy).Contents (Elt F)),
    StableHlo.unary main_v187 main_v188 (broadcastInDim S10000x64 ![0, 1] bcast_S10000x1_S10000x64_0_1 : (⟨S10000x1, .f32⟩ : BufTy).Contents (Elt F) → (⟨S10000x64, .f32⟩ : BufTy).Contents (Elt F)),
    StableHlo.binary main_v186 main_v188 main_v189 (mulf : (⟨S10000x64, .f32⟩ : BufTy).Contents (Elt F) → (⟨S10000x64, .f32⟩ : BufTy).Contents (Elt F) → (⟨S10000x64, .f32⟩ : BufTy).Contents (Elt F)),
    StableHlo.unary main_arg5 main_v190 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v190 main_v191 rfl shapeCasts_S1x320000_S320000,
    StableHlo.unary main_arg5 main_v192 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v192 main_v193 rfl shapeCasts_S1x320000_S320000,
    StableHlo.nullary main_cst_54 (constant S_ .f32 0x3F800000#32),
    StableHlo.unary main_cst_54 main_v194 (broadcastInDim S320000 ![] bcast_S_S320000 : (⟨S_, .f32⟩ : BufTy).Contents (Elt F) → (⟨S320000, .f32⟩ : BufTy).Contents (Elt F)),
    StableHlo.nullary main_cst_55 (constant S_ .f32 0x00000000#32),
    StableHlo.unary main_cst_55 main_v195 (broadcastInDim S10000 ![] bcast_S_S10000 : (⟨S_, .f32⟩ : BufTy).Contents (Elt F) → (⟨S10000, .f32⟩ : BufTy).Contents (Elt F)),
    StableHlo.unary main_v191 main_v196 (broadcastInDim S320000x1 ![0] bcast_S320000_S320000x1_0 : (⟨S320000, .i32⟩ : BufTy).Contents (Elt F) → (⟨S320000x1, .i32⟩ : BufTy).Contents (Elt F)),
    StableHlo.ternary main_v195 main_v196 main_v194 main_v197 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_56 (constant S_ .f32 0x00000000#32),
    StableHlo.unary main_cst_56 main_v198 (broadcastInDim S10000 ![] bcast_S_S10000 : (⟨S_, .f32⟩ : BufTy).Contents (Elt F) → (⟨S10000, .f32⟩ : BufTy).Contents (Elt F)),
    StableHlo.unary main_v193 main_v199 (broadcastInDim S320000x1 ![0] bcast_S320000_S320000x1_0 : (⟨S320000, .i32⟩ : BufTy).Contents (Elt F) → (⟨S320000x1, .i32⟩ : BufTy).Contents (Elt F)),
    StableHlo.ternary main_v198 main_v199 main_v194 main_v200 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_57 (constant S_ .f32 0x00000000#32),
    StableHlo.unary main_cst_57 main_v201 (broadcastInDim S10000 ![] bcast_S_S10000 : (⟨S_, .f32⟩ : BufTy).Contents (Elt F) → (⟨S10000, .f32⟩ : BufTy).Contents (Elt F)),
    StableHlo.binary main_v197 main_v201 main_v202 (cmpf .ogt : (⟨S10000, .f32⟩ : BufTy).Contents (Elt F) → (⟨S10000, .f32⟩ : BufTy).Contents (Elt F) → (⟨S10000, .i1⟩ : BufTy).Contents (Elt F)),
    StableHlo.nullary main_cst_58 (constant S_ .f32 0x3F800000#32),
    StableHlo.unary main_cst_58 main_v203 (broadcastInDim S10000 ![] bcast_S_S10000 : (⟨S_, .f32⟩ : BufTy).Contents (Elt F) → (⟨S10000, .f32⟩ : BufTy).Contents (Elt F)),
    StableHlo.binary main_v197 main_v203 main_v204 (maximumf : (⟨S10000, .f32⟩ : BufTy).Contents (Elt F) → (⟨S10000, .f32⟩ : BufTy).Contents (Elt F) → (⟨S10000, .f32⟩ : BufTy).Contents (Elt F)),
    StableHlo.unary main_v204 main_v205 (Host.rsqrt : (⟨S10000, .f32⟩ : BufTy).Contents (Elt F) → (⟨S10000, .f32⟩ : BufTy).Contents (Elt F)),
    StableHlo.nullary main_cst_59 (constant S_ .f32 0x00000000#32),
    StableHlo.TRef.unary (.of main_cst_59 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S10000, .f32⟩) (broadcastInDim S10000 ![] bcast_S_S10000),
    StableHlo.TRef.ternary (.of main_v202 : StableHlo.TRef sig ⟨S10000, .i1⟩) (.of main_v205 : StableHlo.TRef sig ⟨S10000, .f32⟩) (.of main_call10_v1 : StableHlo.TRef sig ⟨S10000, .f32⟩) (.of main_v206 : StableHlo.TRef sig ⟨S10000, .f32⟩) select,
    StableHlo.nullary main_cst_60 (constant S_ .f32 0x00000000#32),
    StableHlo.unary main_cst_60 main_v207 (broadcastInDim S10000 ![] bcast_S_S10000 : (⟨S_, .f32⟩ : BufTy).Contents (Elt F) → (⟨S10000, .f32⟩ : BufTy).Contents (Elt F)),
    StableHlo.binary main_v200 main_v207 main_v208 (cmpf .ogt : (⟨S10000, .f32⟩ : BufTy).Contents (Elt F) → (⟨S10000, .f32⟩ : BufTy).Contents (Elt F) → (⟨S10000, .i1⟩ : BufTy).Contents (Elt F)),
    StableHlo.nullary main_cst_61 (constant S_ .f32 0x3F800000#32),
    StableHlo.unary main_cst_61 main_v209 (broadcastInDim S10000 ![] bcast_S_S10000 : (⟨S_, .f32⟩ : BufTy).Contents (Elt F) → (⟨S10000, .f32⟩ : BufTy).Contents (Elt F)),
    StableHlo.binary main_v200 main_v209 main_v210 (maximumf : (⟨S10000, .f32⟩ : BufTy).Contents (Elt F) → (⟨S10000, .f32⟩ : BufTy).Contents (Elt F) → (⟨S10000, .f32⟩ : BufTy).Contents (Elt F)),
    StableHlo.unary main_v210 main_v211 (Host.rsqrt : (⟨S10000, .f32⟩ : BufTy).Contents (Elt F) → (⟨S10000, .f32⟩ : BufTy).Contents (Elt F)),
    StableHlo.nullary main_cst_62 (constant S_ .f32 0x00000000#32),
    StableHlo.TRef.unary (.of main_cst_62 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S10000, .f32⟩) (broadcastInDim S10000 ![] bcast_S_S10000),
    StableHlo.TRef.ternary (.of main_v208 : StableHlo.TRef sig ⟨S10000, .i1⟩) (.of main_v211 : StableHlo.TRef sig ⟨S10000, .f32⟩) (.of main_call11_v1 : StableHlo.TRef sig ⟨S10000, .f32⟩) (.of main_v212 : StableHlo.TRef sig ⟨S10000, .f32⟩) select ]
abbrev kblk05_W : List (Ref sig .tc) := [main_v166, main_c_49, main_v167, main_v168, main_c_50, main_v169, main_v170, main_v171, main_v172, main_v173, main_c_51, main_v174, main_v175, main_c_52, main_v176, main_v177, main_v178, main_v179, main_v180, main_v181, main_v182, main_v183, main_cst_53, main_v184, main_v185, main_v186, main_v187, main_v188, main_v189, main_v190, main_v191, main_v192, main_v193, main_cst_54, main_v194, main_cst_55, main_v195, main_v196, main_v197, main_cst_56, main_v198, main_v199, main_v200, main_cst_57, main_v201, main_v202, main_cst_58, main_v203, main_v204, main_v205, main_cst_59, main_call10_v0, main_call10_v1, main_v206, main_cst_60, main_v207, main_v208, main_cst_61, main_v209, main_v210, main_v211, main_cst_62, main_call11_v0, main_call11_v1, main_v212]
theorem kblk05_writes : (kblk05 : List (HloOp τ sig (Elt F))).Forall fun op => op.writes ⊆ (kblk05_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk05_sub : (kblk05 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk05_fresh : (kblk05 : List (HloOp τ sig (Elt F))).Forall fun op => op.fresh = ∅ := by
  simp only [List.Forall]; repeat' constructor
theorem kblk05_keep (W : Valuation τ sig (Elt F)) (r : Ref sig .tc) (h : r ∉ kblk05_W) :
    StableHlo.after (kblk05 : List (HloOp τ sig (Elt F))) W (Proc.devRef .tc r) = W (Proc.devRef .tc r) :=
  StableHlo.after_of_writes_sub kblk05 _ kblk05_writes h

/-- Operations 302 … 333. -/
abbrev kblk06 : List (HloOp τ sig (Elt F)) :=
  [ StableHlo.binary main_arg2 main_arg11 main_v213 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    StableHlo.nullary main_c_63 (constantI S_ 32 0#32),
    StableHlo.unary main_c_63 main_v214 (broadcastInDim S320000 ![] bcast_S_S320000 : (⟨S_, .i32⟩ : BufTy).Contents (Elt F) → (⟨S320000, .i32⟩ : BufTy).Contents (Elt F)),
    StableHlo.binary main_v191 main_v214 main_v215 (cmpi .slt : (⟨S320000, .i32⟩ : BufTy).Contents (Elt F) → (⟨S320000, .i32⟩ : BufTy).Contents (Elt F) → (⟨S320000, .i1⟩ : BufTy).Contents (Elt F)),
    StableHlo.nullary main_c_64 (constantI S_ 32 10000#32),
    StableHlo.unary main_c_64 main_v216 (broadcastInDim S320000 ![] bcast_S_S320000 : (⟨S_, .i32⟩ : BufTy).Contents (Elt F) → (⟨S320000, .i32⟩ : BufTy).Contents (Elt F)),
    StableHlo.binary main_v191 main_v216 main_v217 (addi : (⟨S320000, .i32⟩ : BufTy).Contents (Elt F) → (⟨S320000, .i32⟩ : BufTy).Contents (Elt F) → (⟨S320000, .i32⟩ : BufTy).Contents (Elt F)),
    StableHlo.ternary main_v215 main_v217 main_v191 main_v218 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v218 main_v219 (broadcastInDim S320000x1 ![0] bcast_S320000_S320000x1_0 : (⟨S320000, .i32⟩ : BufTy).Contents (Elt F) → (⟨S320000x1, .i32⟩ : BufTy).Contents (Elt F)),
    StableHlo.binary main_v213 main_v219 main_v220 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.nullary main_c_65 (constantI S_ 32 0#32),
    StableHlo.unary main_c_65 main_v221 (broadcastInDim S320000 ![] bcast_S_S320000 : (⟨S_, .i32⟩ : BufTy).Contents (Elt F) → (⟨S320000, .i32⟩ : BufTy).Contents (Elt F)),
    StableHlo.binary main_v191 main_v221 main_v222 (cmpi .slt : (⟨S320000, .i32⟩ : BufTy).Contents (Elt F) → (⟨S320000, .i32⟩ : BufTy).Contents (Elt F) → (⟨S320000, .i1⟩ : BufTy).Contents (Elt F)),
    StableHlo.nullary main_c_66 (constantI S_ 32 10000#32),
    StableHlo.unary main_c_66 main_v223 (broadcastInDim S320000 ![] bcast_S_S320000 : (⟨S_, .i32⟩ : BufTy).Contents (Elt F) → (⟨S320000, .i32⟩ : BufTy).Contents (Elt F)),
    StableHlo.binary main_v191 main_v223 main_v224 (addi : (⟨S320000, .i32⟩ : BufTy).Contents (Elt F) → (⟨S320000, .i32⟩ : BufTy).Contents (Elt F) → (⟨S320000, .i32⟩ : BufTy).Contents (Elt F)),
    StableHlo.ternary main_v222 main_v224 main_v191 main_v225 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v225 main_v226 (broadcastInDim S320000x1 ![0] bcast_S320000_S320000x1_0 : (⟨S320000, .i32⟩ : BufTy).Contents (Elt F) → (⟨S320000x1, .i32⟩ : BufTy).Contents (Elt F)),
    StableHlo.binary main_v206 main_v226 main_v227 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v227 main_v228 (broadcastInDim S320000x1 ![0] bcast_S320000_S320000x1_0 : (⟨S320000, .f32⟩ : BufTy).Contents (Elt F) → (⟨S320000x1, .f32⟩ : BufTy).Contents (Elt F)),
    StableHlo.unary main_v228 main_v229 (broadcastInDim S320000x256 ![0, 1] bcast_S320000x1_S320000x256_0_1 : (⟨S320000x1, .f32⟩ : BufTy).Contents (Elt F) → (⟨S320000x256, .f32⟩ : BufTy).Contents (Elt F)),
    StableHlo.binary main_v220 main_v229 main_v230 (mulf : (⟨S320000x256, .f32⟩ : BufTy).Contents (Elt F) → (⟨S320000x256, .f32⟩ : BufTy).Contents (Elt F) → (⟨S320000x256, .f32⟩ : BufTy).Contents (Elt F)),
    StableHlo.nullary main_cst_67 (constant S_ .f32 0x00000000#32),
    StableHlo.unary main_cst_67 main_v231 (broadcastInDim S10000x256 ![] bcast_S_S10000x256 : (⟨S_, .f32⟩ : BufTy).Contents (Elt F) → (⟨S10000x256, .f32⟩ : BufTy).Contents (Elt F)),
    StableHlo.unary main_v193 main_v232 (broadcastInDim S320000x1 ![0] bcast_S320000_S320000x1_0 : (⟨S320000, .i32⟩ : BufTy).Contents (Elt F) → (⟨S320000x1, .i32⟩ : BufTy).Contents (Elt F)),
    StableHlo.ternary main_v231 main_v232 main_v230 main_v233 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    StableHlo.unary main_v212 main_v234 (broadcastInDim S10000x1 ![0] bcast_S10000_S10000x1_0 : (⟨S10000, .f32⟩ : BufTy).Contents (Elt F) → (⟨S10000x1, .f32⟩ : BufTy).Contents (Elt F)),
    StableHlo.unary main_v234 main_v235 (broadcastInDim S10000x256 ![0, 1] bcast_S10000x1_S10000x256_0_1 : (⟨S10000x1, .f32⟩ : BufTy).Contents (Elt F) → (⟨S10000x256, .f32⟩ : BufTy).Contents (Elt F)),
    StableHlo.binary main_v233 main_v235 main_v236 (mulf : (⟨S10000x256, .f32⟩ : BufTy).Contents (Elt F) → (⟨S10000x256, .f32⟩ : BufTy).Contents (Elt F) → (⟨S10000x256, .f32⟩ : BufTy).Contents (Elt F)),
    StableHlo.TRef.nullary (.of main_call12_cst : StableHlo.TRef sig ⟨S_, .f32⟩) (constant S_ .f32 0x00000000#32),
    StableHlo.TRef.unary (.of main_call12_cst : StableHlo.TRef sig ⟨S_, .f32⟩) (.of main_call12_v0 : StableHlo.TRef sig ⟨S10000x256, .f32⟩) (broadcastInDim S10000x256 ![] bcast_S_S10000x256),
    StableHlo.TRef.binary (.of main_v236 : StableHlo.TRef sig ⟨S10000x256, .f32⟩) (.of main_call12_v0 : StableHlo.TRef sig ⟨S10000x256, .f32⟩) (.of main_v237 : StableHlo.TRef sig ⟨S10000x256, .f32⟩) maximumf ]
abbrev kblk06_W : List (Ref sig .tc) := [main_v213, main_c_63, main_v214, main_v215, main_c_64, main_v216, main_v217, main_v218, main_v219, main_v220, main_c_65, main_v221, main_v222, main_c_66, main_v223, main_v224, main_v225, main_v226, main_v227, main_v228, main_v229, main_v230, main_cst_67, main_v231, main_v232, main_v233, main_v234, main_v235, main_v236, main_call12_cst, main_call12_v0, main_v237]
theorem kblk06_writes : (kblk06 : List (HloOp τ sig (Elt F))).Forall fun op => op.writes ⊆ (kblk06_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk06_sub : (kblk06 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk06_fresh : (kblk06 : List (HloOp τ sig (Elt F))).Forall fun op => op.fresh = ∅ := by
  simp only [List.Forall]; repeat' constructor
theorem kblk06_keep (W : Valuation τ sig (Elt F)) (r : Ref sig .tc) (h : r ∉ kblk06_W) :
    StableHlo.after (kblk06 : List (HloOp τ sig (Elt F))) W (Proc.devRef .tc r) = W (Proc.devRef .tc r) :=
  StableHlo.after_of_writes_sub kblk06 _ kblk06_writes h

/-- Operations 334 … 369. -/
abbrev kblk07 : List (HloOp τ sig (Elt F)) :=
  [ StableHlo.unary main_arg5 main_v238 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v238 main_v239 rfl shapeCasts_S1x320000_S320000,
    StableHlo.unary main_arg5 main_v240 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v240 main_v241 rfl shapeCasts_S1x320000_S320000,
    StableHlo.nullary main_cst_68 (constant S_ .f32 0x3F800000#32),
    StableHlo.unary main_cst_68 main_v242 (broadcastInDim S320000 ![] bcast_S_S320000 : (⟨S_, .f32⟩ : BufTy).Contents (Elt F) → (⟨S320000, .f32⟩ : BufTy).Contents (Elt F)),
    StableHlo.nullary main_cst_69 (constant S_ .f32 0x00000000#32),
    StableHlo.unary main_cst_69 main_v243 (broadcastInDim S10000 ![] bcast_S_S10000 : (⟨S_, .f32⟩ : BufTy).Contents (Elt F) → (⟨S10000, .f32⟩ : BufTy).Contents (Elt F)),
    StableHlo.unary main_v239 main_v244 (broadcastInDim S320000x1 ![0] bcast_S320000_S320000x1_0 : (⟨S320000, .i32⟩ : BufTy).Contents (Elt F) → (⟨S320000x1, .i32⟩ : BufTy).Contents (Elt F)),
    StableHlo.ternary main_v243 main_v244 main_v242 main_v245 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_70 (constant S_ .f32 0x00000000#32),
    StableHlo.unary main_cst_70 main_v246 (broadcastInDim S10000 ![] bcast_S_S10000 : (⟨S_, .f32⟩ : BufTy).Contents (Elt F) → (⟨S10000, .f32⟩ : BufTy).Contents (Elt F)),
    StableHlo.unary main_v241 main_v247 (broadcastInDim S320000x1 ![0] bcast_S320000_S320000x1_0 : (⟨S320000, .i32⟩ : BufTy).Contents (Elt F) → (⟨S320000x1, .i32⟩ : BufTy).Contents (Elt F)),
    StableHlo.ternary main_v246 main_v247 main_v242 main_v248 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_71 (constant S_ .f32 0x00000000#32),
    StableHlo.unary main_cst_71 main_v249 (broadcastInDim S10000 ![] bcast_S_S10000 : (⟨S_, .f32⟩ : BufTy).Contents (Elt F) → (⟨S10000, .f32⟩ : BufTy).Contents (Elt F)),
    StableHlo.binary main_v245 main_v249 main_v250 (cmpf .ogt : (⟨S10000, .f32⟩ : BufTy).Contents (Elt F) → (⟨S10000, .f32⟩ : BufTy).Contents (Elt F) → (⟨S10000, .i1⟩ : BufTy).Contents (Elt F)),
    StableHlo.nullary main_cst_72 (constant S_ .f32 0x3F800000#32),
    StableHlo.unary main_cst_72 main_v251 (broadcastInDim S10000 ![] bcast_S_S10000 : (⟨S_, .f32⟩ : BufTy).Contents (Elt F) → (⟨S10000, .f32⟩ : BufTy).Contents (Elt F)),
    StableHlo.binary main_v245 main_v251 main_v252 (maximumf : (⟨S10000, .f32⟩ : BufTy).Contents (Elt F) → (⟨S10000, .f32⟩ : BufTy).Contents (Elt F) → (⟨S10000, .f32⟩ : BufTy).Contents (Elt F)),
    StableHlo.unary main_v252 main_v253 (Host.rsqrt : (⟨S10000, .f32⟩ : BufTy).Contents (Elt F) → (⟨S10000, .f32⟩ : BufTy).Contents (Elt F)),
    StableHlo.nullary main_cst_73 (constant S_ .f32 0x00000000#32),
    StableHlo.TRef.unary (.of main_cst_73 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S10000, .f32⟩) (broadcastInDim S10000 ![] bcast_S_S10000),
    StableHlo.TRef.ternary (.of main_v250 : StableHlo.TRef sig ⟨S10000, .i1⟩) (.of main_v253 : StableHlo.TRef sig ⟨S10000, .f32⟩) (.of main_call13_v1 : StableHlo.TRef sig ⟨S10000, .f32⟩) (.of main_v254 : StableHlo.TRef sig ⟨S10000, .f32⟩) select,
    StableHlo.nullary main_cst_74 (constant S_ .f32 0x00000000#32),
    StableHlo.unary main_cst_74 main_v255 (broadcastInDim S10000 ![] bcast_S_S10000 : (⟨S_, .f32⟩ : BufTy).Contents (Elt F) → (⟨S10000, .f32⟩ : BufTy).Contents (Elt F)),
    StableHlo.binary main_v248 main_v255 main_v256 (cmpf .ogt : (⟨S10000, .f32⟩ : BufTy).Contents (Elt F) → (⟨S10000, .f32⟩ : BufTy).Contents (Elt F) → (⟨S10000, .i1⟩ : BufTy).Contents (Elt F)),
    StableHlo.nullary main_cst_75 (constant S_ .f32 0x3F800000#32),
    StableHlo.unary main_cst_75 main_v257 (broadcastInDim S10000 ![] bcast_S_S10000 : (⟨S_, .f32⟩ : BufTy).Contents (Elt F) → (⟨S10000, .f32⟩ : BufTy).Contents (Elt F)),
    StableHlo.binary main_v248 main_v257 main_v258 (maximumf : (⟨S10000, .f32⟩ : BufTy).Contents (Elt F) → (⟨S10000, .f32⟩ : BufTy).Contents (Elt F) → (⟨S10000, .f32⟩ : BufTy).Contents (Elt F)),
    StableHlo.unary main_v258 main_v259 (Host.rsqrt : (⟨S10000, .f32⟩ : BufTy).Contents (Elt F) → (⟨S10000, .f32⟩ : BufTy).Contents (Elt F)),
    StableHlo.nullary main_cst_76 (constant S_ .f32 0x00000000#32),
    StableHlo.TRef.unary (.of main_cst_76 : StableHlo.TRef sig ⟨S_, .f32⟩) (.of main_call14_v0 : StableHlo.TRef sig ⟨S_, .f32⟩) id,
    StableHlo.TRef.unary (.of main_call14_v0 : StableHlo.TRef sig ⟨S_, .f32⟩) (.of main_call14_v1 : StableHlo.TRef sig ⟨S10000, .f32⟩) (broadcastInDim S10000 ![] bcast_S_S10000),
    StableHlo.TRef.ternary (.of main_v256 : StableHlo.TRef sig ⟨S10000, .i1⟩) (.of main_v259 : StableHlo.TRef sig ⟨S10000, .f32⟩) (.of main_call14_v1 : StableHlo.TRef sig ⟨S10000, .f32⟩) (.of main_v260 : StableHlo.TRef sig ⟨S10000, .f32⟩) select ]
abbrev kblk07_W : List (Ref sig .tc) := [main_v238, main_v239, main_v240, main_v241, main_cst_68, main_v242, main_cst_69, main_v243, main_v244, main_v245, main_cst_70, main_v246, main_v247, main_v248, main_cst_71, main_v249, main_v250, main_cst_72, main_v251, main_v252, main_v253, main_cst_73, main_call13_v0, main_call13_v1, main_v254, main_cst_74, main_v255, main_v256, main_cst_75, main_v257, main_v258, main_v259, main_cst_76, main_call14_v0, main_call14_v1, main_v260]
theorem kblk07_writes : (kblk07 : List (HloOp τ sig (Elt F))).Forall fun op => op.writes ⊆ (kblk07_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk07_sub : (kblk07 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk07_fresh : (kblk07 : List (HloOp τ sig (Elt F))).Forall fun op => op.fresh = ∅ := by
  simp only [List.Forall]; repeat' constructor
theorem kblk07_keep (W : Valuation τ sig (Elt F)) (r : Ref sig .tc) (h : r ∉ kblk07_W) :
    StableHlo.after (kblk07 : List (HloOp τ sig (Elt F))) W (Proc.devRef .tc r) = W (Proc.devRef .tc r) :=
  StableHlo.after_of_writes_sub kblk07 _ kblk07_writes h

/-- Operations 370 … 420. -/
abbrev kblk08 : List (HloOp τ sig (Elt F)) :=
  [ StableHlo.binary main_v237 main_arg12 main_v261 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    StableHlo.nullary main_c_77 (constantI S_ 32 0#32),
    StableHlo.unary main_c_77 main_v262 (broadcastInDim S320000 ![] bcast_S_S320000 : (⟨S_, .i32⟩ : BufTy).Contents (Elt F) → (⟨S320000, .i32⟩ : BufTy).Contents (Elt F)),
    StableHlo.binary main_v239 main_v262 main_v263 (cmpi .slt : (⟨S320000, .i32⟩ : BufTy).Contents (Elt F) → (⟨S320000, .i32⟩ : BufTy).Contents (Elt F) → (⟨S320000, .i1⟩ : BufTy).Contents (Elt F)),
    StableHlo.nullary main_c_78 (constantI S_ 32 10000#32),
    StableHlo.unary main_c_78 main_v264 (broadcastInDim S320000 ![] bcast_S_S320000 : (⟨S_, .i32⟩ : BufTy).Contents (Elt F) → (⟨S320000, .i32⟩ : BufTy).Contents (Elt F)),
    StableHlo.binary main_v239 main_v264 main_v265 (addi : (⟨S320000, .i32⟩ : BufTy).Contents (Elt F) → (⟨S320000, .i32⟩ : BufTy).Contents (Elt F) → (⟨S320000, .i32⟩ : BufTy).Contents (Elt F)),
    StableHlo.ternary main_v263 main_v265 main_v239 main_v266 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v266 main_v267 (broadcastInDim S320000x1 ![0] bcast_S320000_S320000x1_0 : (⟨S320000, .i32⟩ : BufTy).Contents (Elt F) → (⟨S320000x1, .i32⟩ : BufTy).Contents (Elt F)),
    StableHlo.binary main_v261 main_v267 main_v268 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    StableHlo.nullary main_c_79 (constantI S_ 32 0#32),
    StableHlo.unary main_c_79 main_v269 (broadcastInDim S320000 ![] bcast_S_S320000 : (⟨S_, .i32⟩ : BufTy).Contents (Elt F) → (⟨S320000, .i32⟩ : BufTy).Contents (Elt F)),
    StableHlo.binary main_v239 main_v269 main_v270 (cmpi .slt : (⟨S320000, .i32⟩ : BufTy).Contents (Elt F) → (⟨S320000, .i32⟩ : BufTy).Contents (Elt F) → (⟨S320000, .i1⟩ : BufTy).Contents (Elt F)),
    StableHlo.nullary main_c_80 (constantI S_ 32 10000#32),
    StableHlo.unary main_c_80 main_v271 (broadcastInDim S320000 ![] bcast_S_S320000 : (⟨S_, .i32⟩ : BufTy).Contents (Elt F) → (⟨S320000, .i32⟩ : BufTy).Contents (Elt F)),
    StableHlo.binary main_v239 main_v271 main_v272 (addi : (⟨S320000, .i32⟩ : BufTy).Contents (Elt F) → (⟨S320000, .i32⟩ : BufTy).Contents (Elt F) → (⟨S320000, .i32⟩ : BufTy).Contents (Elt F)),
    StableHlo.ternary main_v270 main_v272 main_v239 main_v273 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v273 main_v274 (broadcastInDim S320000x1 ![0] bcast_S320000_S320000x1_0 : (⟨S320000, .i32⟩ : BufTy).Contents (Elt F) → (⟨S320000x1, .i32⟩ : BufTy).Contents (Elt F)),
    StableHlo.binary main_v254 main_v274 main_v275 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v275 main_v276 (broadcastInDim S320000x1 ![0] bcast_S320000_S320000x1_0 : (⟨S320000, .f32⟩ : BufTy).Contents (Elt F) → (⟨S320000x1, .f32⟩ : BufTy).Contents (Elt F)),
    StableHlo.unary main_v276 main_v277 (broadcastInDim S320000x64 ![0, 1] bcast_S320000x1_S320000x64_0_1 : (⟨S320000x1, .f32⟩ : BufTy).Contents (Elt F) → (⟨S320000x64, .f32⟩ : BufTy).Contents (Elt F)),
    StableHlo.binary main_v268 main_v277 main_v278 (mulf : (⟨S320000x64, .f32⟩ : BufTy).Contents (Elt F) → (⟨S320000x64, .f32⟩ : BufTy).Contents (Elt F) → (⟨S320000x64, .f32⟩ : BufTy).Contents (Elt F)),
    StableHlo.nullary main_cst_81 (constant S_ .f32 0x00000000#32),
    StableHlo.unary main_cst_81 main_v279 (broadcastInDim S10000x64 ![] bcast_S_S10000x64 : (⟨S_, .f32⟩ : BufTy).Contents (Elt F) → (⟨S10000x64, .f32⟩ : BufTy).Contents (Elt F)),
    StableHlo.unary main_v241 main_v280 (broadcastInDim S320000x1 ![0] bcast_S320000_S320000x1_0 : (⟨S320000, .i32⟩ : BufTy).Contents (Elt F) → (⟨S320000x1, .i32⟩ : BufTy).Contents (Elt F)),
    StableHlo.ternary main_v279 main_v280 main_v278 main_v281 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    StableHlo.unary main_v260 main_v282 (broadcastInDim S10000x1 ![0] bcast_S10000_S10000x1_0 : (⟨S10000, .f32⟩ : BufTy).Contents (Elt F) → (⟨S10000x1, .f32⟩ : BufTy).Contents (Elt F)),
    StableHlo.unary main_v282 main_v283 (broadcastInDim S10000x64 ![0, 1] bcast_S10000x1_S10000x64_0_1 : (⟨S10000x1, .f32⟩ : BufTy).Contents (Elt F) → (⟨S10000x64, .f32⟩ : BufTy).Contents (Elt F)),
    StableHlo.binary main_v281 main_v283 main_v284 (mulf : (⟨S10000x64, .f32⟩ : BufTy).Contents (Elt F) → (⟨S10000x64, .f32⟩ : BufTy).Contents (Elt F) → (⟨S10000x64, .f32⟩ : BufTy).Contents (Elt F)),
    StableHlo.binary main_v94 main_arg13 main_v285 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v189 main_arg14 main_v286 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v285 main_v286 main_v287 (addf : (⟨S10000x64, .f32⟩ : BufTy).Contents (Elt F) → (⟨S10000x64, .f32⟩ : BufTy).Contents (Elt F) → (⟨S10000x64, .f32⟩ : BufTy).Contents (Elt F)),
    StableHlo.binary main_v284 main_arg15 main_v288 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    StableHlo.binary main_v287 main_v288 main_v289 (addf : (⟨S10000x64, .f32⟩ : BufTy).Contents (Elt F) → (⟨S10000x64, .f32⟩ : BufTy).Contents (Elt F) → (⟨S10000x64, .f32⟩ : BufTy).Contents (Elt F)),
    StableHlo.nullary main_cst_82 (constant S_ .f32 0xFF800000#32),
    StableHlo.binary main_v289 main_cst_82 main_v290 ((fun x v => Host.reduce FloatOps.maximumf x v reducesTo_S10000x64_S10000_d1 h_S_) : (⟨S10000x64, .f32⟩ : BufTy).Contents (Elt F) → (⟨S_, .f32⟩ : BufTy).Contents (Elt F) → (⟨S10000, .f32⟩ : BufTy).Contents (Elt F)),
    StableHlo.nullary main_cst_83 (constant S_ .f32 0xFF800000#32),
    StableHlo.unary main_cst_83 main_v291 (broadcastInDim S10000 ![] bcast_S_S10000 : (⟨S_, .f32⟩ : BufTy).Contents (Elt F) → (⟨S10000, .f32⟩ : BufTy).Contents (Elt F)),
    StableHlo.binary main_v291 main_v290 main_v292 (maximumf : (⟨S10000, .f32⟩ : BufTy).Contents (Elt F) → (⟨S10000, .f32⟩ : BufTy).Contents (Elt F) → (⟨S10000, .f32⟩ : BufTy).Contents (Elt F)),
    StableHlo.unary main_v292 main_v293 (broadcastInDim S10000x1 ![0] bcast_S10000_S10000x1_0 : (⟨S10000, .f32⟩ : BufTy).Contents (Elt F) → (⟨S10000x1, .f32⟩ : BufTy).Contents (Elt F)),
    StableHlo.unary main_v293 main_v294 (broadcastInDim S10000x64 ![0, 1] bcast_S10000x1_S10000x64_0_1 : (⟨S10000x1, .f32⟩ : BufTy).Contents (Elt F) → (⟨S10000x64, .f32⟩ : BufTy).Contents (Elt F)),
    StableHlo.binary main_v289 main_v294 main_v295 (subf : (⟨S10000x64, .f32⟩ : BufTy).Contents (Elt F) → (⟨S10000x64, .f32⟩ : BufTy).Contents (Elt F) → (⟨S10000x64, .f32⟩ : BufTy).Contents (Elt F)),
    StableHlo.unary main_v295 main_v296 (Host.exp : (⟨S10000x64, .f32⟩ : BufTy).Contents (Elt F) → (⟨S10000x64, .f32⟩ : BufTy).Contents (Elt F)),
    StableHlo.nullary main_cst_84 (constant S_ .f32 0x00000000#32),
    StableHlo.binary main_v296 main_cst_84 main_v297 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    StableHlo.unary main_v297 main_v298 (broadcastInDim S10000x1 ![0] bcast_S10000_S10000x1_0 : (⟨S10000, .f32⟩ : BufTy).Contents (Elt F) → (⟨S10000x1, .f32⟩ : BufTy).Contents (Elt F)),
    StableHlo.unary main_v298 main_v299 (broadcastInDim S10000x64 ![0, 1] bcast_S10000x1_S10000x64_0_1 : (⟨S10000x1, .f32⟩ : BufTy).Contents (Elt F) → (⟨S10000x64, .f32⟩ : BufTy).Contents (Elt F)),
    StableHlo.binary main_v296 main_v299 main_v300 (Host.divf : (⟨S10000x64, .f32⟩ : BufTy).Contents (Elt F) → (⟨S10000x64, .f32⟩ : BufTy).Contents (Elt F) → (⟨S10000x64, .f32⟩ : BufTy).Contents (Elt F)),
    StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S10000x64, .f32⟩) (broadcastInDim S10000x64 ![] bcast_S_S10000x64),
    StableHlo.TRef.binary (.of main_v300 : StableHlo.TRef sig ⟨S10000x64, .f32⟩) (.of main_call15_v0 : StableHlo.TRef sig ⟨S10000x64, .f32⟩) (.of main_v301 : StableHlo.TRef sig ⟨S10000x64, .f32⟩) maximumf ]
abbrev kblk08_W : List (Ref sig .tc) := [main_v261, main_c_77, main_v262, main_v263, main_c_78, main_v264, main_v265, main_v266, main_v267, main_v268, main_c_79, main_v269, main_v270, main_c_80, main_v271, main_v272, main_v273, main_v274, main_v275, main_v276, main_v277, main_v278, main_cst_81, main_v279, main_v280, main_v281, main_v282, main_v283, main_v284, main_v285, main_v286, main_v287, main_v288, main_v289, main_cst_82, main_v290, main_cst_83, main_v291, main_v292, main_v293, main_v294, main_v295, main_v296, main_cst_84, main_v297, main_v298, main_v299, main_v300, main_call15_cst, main_call15_v0, main_v301]
theorem kblk08_writes : (kblk08 : List (HloOp τ sig (Elt F))).Forall fun op => op.writes ⊆ (kblk08_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk08_sub : (kblk08 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem kblk08_fresh : (kblk08 : List (HloOp τ sig (Elt F))).Forall fun op => op.fresh = ∅ := by
  simp only [List.Forall]; repeat' constructor
theorem kblk08_keep (W : Valuation τ sig (Elt F)) (r : Ref sig .tc) (h : r ∉ kblk08_W) :
    StableHlo.after (kblk08 : List (HloOp τ sig (Elt F))) W (Proc.devRef .tc r) = W (Proc.devRef .tc r) :=
  StableHlo.after_of_writes_sub kblk08 _ kblk08_writes h

/-- Operations 421 … 427. -/
abbrev kblk09 : List (HloOp τ sig (Elt F)) :=
  [ StableHlo.nullary main_v302 (iotaInDim S10000 32 0),
    StableHlo.unary main_arg6 main_v303 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v303 main_v304 rfl shapeCasts_S1x320000_S320000,
    StableHlo.binary main_v304 main_v302 main_v305 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.unary main_arg6 main_v306 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v306 main_v307 rfl shapeCasts_S1x320000_S320000,
    StableHlo.binary main_v307 main_v302 main_v308 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
abbrev kblk09_W : List (Ref sig .tc) := [main_v302, main_v303, main_v304, main_v305, main_v306, main_v307, main_v308]
theorem kblk09_writes : (kblk09 : List (HloOp τ sig (Elt F))).Forall fun op => op.writes ⊆ (kblk09_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk09_sub : (kblk09 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub ..⟩
theorem kblk09_fresh : (kblk09 : List (HloOp τ sig (Elt F))).Forall fun op => op.fresh = ∅ := by
  simp only [List.Forall]; repeat' constructor
theorem kblk09_keep (W : Valuation τ sig (Elt F)) (r : Ref sig .tc) (h : r ∉ kblk09_W) :
    StableHlo.after (kblk09 : List (HloOp τ sig (Elt F))) W (Proc.devRef .tc r) = W (Proc.devRef .tc r) :=
  StableHlo.after_of_writes_sub kblk09 _ kblk09_writes h

/-- Operations 428 … 459. -/
abbrev kblk10 : List (HloOp τ sig (Elt F)) :=
  [ StableHlo.nullary main_cst_85 (constant S_ .f32 0x3F800000#32),
    StableHlo.unary main_cst_85 main_v309 (broadcastInDim S330000 ![] bcast_S_S330000 : (⟨S_, .f32⟩ : BufTy).Contents (Elt F) → (⟨S330000, .f32⟩ : BufTy).Contents (Elt F)),
    StableHlo.nullary main_cst_86 (constant S_ .f32 0x00000000#32),
    StableHlo.unary main_cst_86 main_v310 (broadcastInDim S10000 ![] bcast_S_S10000 : (⟨S_, .f32⟩ : BufTy).Contents (Elt F) → (⟨S10000, .f32⟩ : BufTy).Contents (Elt F)),
    StableHlo.unary main_v305 main_v311 (broadcastInDim S330000x1 ![0] bcast_S330000_S330000x1_0 : (⟨S330000, .i32⟩ : BufTy).Contents (Elt F) → (⟨S330000x1, .i32⟩ : BufTy).Contents (Elt F)),
    StableHlo.ternary main_v310 main_v311 main_v309 main_v312 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_87 (constant S_ .f32 0x00000000#32),
    StableHlo.unary main_cst_87 main_v313 (broadcastInDim S10000 ![] bcast_S_S10000 : (⟨S_, .f32⟩ : BufTy).Contents (Elt F) → (⟨S10000, .f32⟩ : BufTy).Contents (Elt F)),
    StableHlo.unary main_v308 main_v314 (broadcastInDim S330000x1 ![0] bcast_S330000_S330000x1_0 : (⟨S330000, .i32⟩ : BufTy).Contents (Elt F) → (⟨S330000x1, .i32⟩ : BufTy).Contents (Elt F)),
    StableHlo.ternary main_v313 main_v314 main_v309 main_v315 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_88 (constant S_ .f32 0x00000000#32),
    StableHlo.unary main_cst_88 main_v316 (broadcastInDim S10000 ![] bcast_S_S10000 : (⟨S_, .f32⟩ : BufTy).Contents (Elt F) → (⟨S10000, .f32⟩ : BufTy).Contents (Elt F)),
    StableHlo.binary main_v312 main_v316 main_v317 (cmpf .ogt : (⟨S10000, .f32⟩ : BufTy).Contents (Elt F) → (⟨S10000, .f32⟩ : BufTy).Contents (Elt F) → (⟨S10000, .i1⟩ : BufTy).Contents (Elt F)),
    StableHlo.nullary main_cst_89 (constant S_ .f32 0x3F800000#32),
    StableHlo.unary main_cst_89 main_v318 (broadcastInDim S10000 ![] bcast_S_S10000 : (⟨S_, .f32⟩ : BufTy).Contents (Elt F) → (⟨S10000, .f32⟩ : BufTy).Contents (Elt F)),
    StableHlo.binary main_v312 main_v318 main_v319 (maximumf : (⟨S10000, .f32⟩ : BufTy).Contents (Elt F) → (⟨S10000, .f32⟩ : BufTy).Contents (Elt F) → (⟨S10000, .f32⟩ : BufTy).Contents (Elt F)),
    StableHlo.unary main_v319 main_v320 (Host.rsqrt : (⟨S10000, .f32⟩ : BufTy).Contents (Elt F) → (⟨S10000, .f32⟩ : BufTy).Contents (Elt F)),
    StableHlo.nullary main_cst_90 (constant S_ .f32 0x00000000#32),
    StableHlo.TRef.unary (.of main_cst_90 : StableHlo.TRef sig ⟨S_, .f32⟩) (.of main_call16_v0 : StableHlo.TRef sig ⟨S_, .f32⟩) id,
    StableHlo.TRef.unary (.of main_call16_v0 : StableHlo.TRef sig ⟨S_, .f32⟩) (.of main_call16_v1 : StableHlo.TRef sig ⟨S10000, .f32⟩) (broadcastInDim S10000 ![] bcast_S_S10000),
    StableHlo.TRef.ternary (.of main_v317 : StableHlo.TRef sig ⟨S10000, .i1⟩) (.of main_v320 : StableHlo.TRef sig ⟨S10000, .f32⟩) (.of main_call16_v1 : StableHlo.TRef sig ⟨S10000, .f32⟩) (.of main_v321 : StableHlo.TRef sig ⟨S10000, .f32⟩) select,
    StableHlo.nullary main_cst_91 (constant S_ .f32 0x00000000#32),
    StableHlo.unary main_cst_91 main_v322 (broadcastInDim S10000 ![] bcast_S_S10000 : (⟨S_, .f32⟩ : BufTy).Contents (Elt F) → (⟨S10000, .f32⟩ : BufTy).Contents (Elt F)),
    StableHlo.binary main_v315 main_v322 main_v323 (cmpf .ogt : (⟨S10000, .f32⟩ : BufTy).Contents (Elt F) → (⟨S10000, .f32⟩ : BufTy).Contents (Elt F) → (⟨S10000, .i1⟩ : BufTy).Contents (Elt F)),
    StableHlo.nullary main_cst_92 (constant S_ .f32 0x3F800000#32),
    StableHlo.unary main_cst_92 main_v324 (broadcastInDim S10000 ![] bcast_S_S10000 : (⟨S_, .f32⟩ : BufTy).Contents (Elt F) → (⟨S10000, .f32⟩ : BufTy).Contents (Elt F)),
    StableHlo.binary main_v315 main_v324 main_v325 (maximumf : (⟨S10000, .f32⟩ : BufTy).Contents (Elt F) → (⟨S10000, .f32⟩ : BufTy).Contents (Elt F) → (⟨S10000, .f32⟩ : BufTy).Contents (Elt F)),
    StableHlo.unary main_v325 main_v326 (Host.rsqrt : (⟨S10000, .f32⟩ : BufTy).Contents (Elt F) → (⟨S10000, .f32⟩ : BufTy).Contents (Elt F)),
    StableHlo.nullary main_cst_93 (constant S_ .f32 0x00000000#32),
    StableHlo.TRef.unary (.of main_cst_93 : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S10000, .f32⟩) (broadcastInDim S10000 ![] bcast_S_S10000),
    StableHlo.TRef.ternary (.of main_v323 : StableHlo.TRef sig ⟨S10000, .i1⟩) (.of main_v326 : StableHlo.TRef sig ⟨S10000, .f32⟩) (.of main_call17_v1 : StableHlo.TRef sig ⟨S10000, .f32⟩) (.of main_v327 : StableHlo.TRef sig ⟨S10000, .f32⟩) select ]
abbrev kblk10_W : List (Ref sig .tc) := [main_cst_85, main_v309, main_cst_86, main_v310, main_v311, main_v312, main_cst_87, main_v313, main_v314, main_v315, main_cst_88, main_v316, main_v317, main_cst_89, main_v318, main_v319, main_v320, main_cst_90, main_call16_v0, main_call16_v1, main_v321, main_cst_91, main_v322, main_v323, main_cst_92, main_v324, main_v325, main_v326, main_cst_93, main_call17_v0, main_call17_v1, main_v327]
theorem kblk10_writes : (kblk10 : List (HloOp τ sig (Elt F))).Forall fun op => op.writes ⊆ (kblk10_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk10_sub : (kblk10 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk10_fresh : (kblk10 : List (HloOp τ sig (Elt F))).Forall fun op => op.fresh = ∅ := by
  simp only [List.Forall]; repeat' constructor
theorem kblk10_keep (W : Valuation τ sig (Elt F)) (r : Ref sig .tc) (h : r ∉ kblk10_W) :
    StableHlo.after (kblk10 : List (HloOp τ sig (Elt F))) W (Proc.devRef .tc r) = W (Proc.devRef .tc r) :=
  StableHlo.after_of_writes_sub kblk10 _ kblk10_writes h

/-- Operations 460 … 491. -/
abbrev kblk11 : List (HloOp τ sig (Elt F)) :=
  [ StableHlo.binary main_v301 main_arg16 main_v328 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    StableHlo.nullary main_c_94 (constantI S_ 32 0#32),
    StableHlo.unary main_c_94 main_v329 (broadcastInDim S330000 ![] bcast_S_S330000 : (⟨S_, .i32⟩ : BufTy).Contents (Elt F) → (⟨S330000, .i32⟩ : BufTy).Contents (Elt F)),
    StableHlo.binary main_v305 main_v329 main_v330 (cmpi .slt : (⟨S330000, .i32⟩ : BufTy).Contents (Elt F) → (⟨S330000, .i32⟩ : BufTy).Contents (Elt F) → (⟨S330000, .i1⟩ : BufTy).Contents (Elt F)),
    StableHlo.nullary main_c_95 (constantI S_ 32 10000#32),
    StableHlo.unary main_c_95 main_v331 (broadcastInDim S330000 ![] bcast_S_S330000 : (⟨S_, .i32⟩ : BufTy).Contents (Elt F) → (⟨S330000, .i32⟩ : BufTy).Contents (Elt F)),
    StableHlo.binary main_v305 main_v331 main_v332 (addi : (⟨S330000, .i32⟩ : BufTy).Contents (Elt F) → (⟨S330000, .i32⟩ : BufTy).Contents (Elt F) → (⟨S330000, .i32⟩ : BufTy).Contents (Elt F)),
    StableHlo.ternary main_v330 main_v332 main_v305 main_v333 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v333 main_v334 (broadcastInDim S330000x1 ![0] bcast_S330000_S330000x1_0 : (⟨S330000, .i32⟩ : BufTy).Contents (Elt F) → (⟨S330000x1, .i32⟩ : BufTy).Contents (Elt F)),
    StableHlo.binary main_v328 main_v334 main_v335 ((fun x i => Host.gather gather_S10000x32_S330000x1_S330000x32_1_0_n_n_0_1_132 x i) : (⟨S10000x32, .f32⟩ : BufTy).Contents (Elt F) → (⟨S330000x1, .i32⟩ : BufTy).Contents (Elt F) → (⟨S330000x32, .f32⟩ : BufTy).Contents (Elt F)),
    StableHlo.nullary main_c_96 (constantI S_ 32 0#32),
    StableHlo.unary main_c_96 main_v336 (broadcastInDim S330000 ![] bcast_S_S330000 : (⟨S_, .i32⟩ : BufTy).Contents (Elt F) → (⟨S330000, .i32⟩ : BufTy).Contents (Elt F)),
    StableHlo.binary main_v305 main_v336 main_v337 (cmpi .slt : (⟨S330000, .i32⟩ : BufTy).Contents (Elt F) → (⟨S330000, .i32⟩ : BufTy).Contents (Elt F) → (⟨S330000, .i1⟩ : BufTy).Contents (Elt F)),
    StableHlo.nullary main_c_97 (constantI S_ 32 10000#32),
    StableHlo.unary main_c_97 main_v338 (broadcastInDim S330000 ![] bcast_S_S330000 : (⟨S_, .i32⟩ : BufTy).Contents (Elt F) → (⟨S330000, .i32⟩ : BufTy).Contents (Elt F)),
    StableHlo.binary main_v305 main_v338 main_v339 (addi : (⟨S330000, .i32⟩ : BufTy).Contents (Elt F) → (⟨S330000, .i32⟩ : BufTy).Contents (Elt F) → (⟨S330000, .i32⟩ : BufTy).Contents (Elt F)),
    StableHlo.ternary main_v337 main_v339 main_v305 main_v340 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v340 main_v341 (broadcastInDim S330000x1 ![0] bcast_S330000_S330000x1_0 : (⟨S330000, .i32⟩ : BufTy).Contents (Elt F) → (⟨S330000x1, .i32⟩ : BufTy).Contents (Elt F)),
    StableHlo.binary main_v321 main_v341 main_v342 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.unary main_v342 main_v343 (broadcastInDim S330000x1 ![0] bcast_S330000_S330000x1_0 : (⟨S330000, .f32⟩ : BufTy).Contents (Elt F) → (⟨S330000x1, .f32⟩ : BufTy).Contents (Elt F)),
    StableHlo.unary main_v343 main_v344 (broadcastInDim S330000x32 ![0, 1] bcast_S330000x1_S330000x32_0_1 : (⟨S330000x1, .f32⟩ : BufTy).Contents (Elt F) → (⟨S330000x32, .f32⟩ : BufTy).Contents (Elt F)),
    StableHlo.binary main_v335 main_v344 main_v345 (mulf : (⟨S330000x32, .f32⟩ : BufTy).Contents (Elt F) → (⟨S330000x32, .f32⟩ : BufTy).Contents (Elt F) → (⟨S330000x32, .f32⟩ : BufTy).Contents (Elt F)),
    StableHlo.nullary main_cst_98 (constant S_ .f32 0x00000000#32),
    StableHlo.unary main_cst_98 main_v346 (broadcastInDim S10000x32 ![] bcast_S_S10000x32 : (⟨S_, .f32⟩ : BufTy).Contents (Elt F) → (⟨S10000x32, .f32⟩ : BufTy).Contents (Elt F)),
    StableHlo.unary main_v308 main_v347 (broadcastInDim S330000x1 ![0] bcast_S330000_S330000x1_0 : (⟨S330000, .i32⟩ : BufTy).Contents (Elt F) → (⟨S330000x1, .i32⟩ : BufTy).Contents (Elt F)),
    StableHlo.ternary main_v346 main_v347 main_v345 main_v348 ((fun x i u => Host.scatterAdd scatter_S10000x32_S330000x1_S330000x32_1_0_0_1 x i u) : (⟨S10000x32, .f32⟩ : BufTy).Contents (Elt F) → (⟨S330000x1, .i32⟩ : BufTy).Contents (Elt F) → (⟨S330000x32, .f32⟩ : BufTy).Contents (Elt F) → (⟨S10000x32, .f32⟩ : BufTy).Contents (Elt F)),
    StableHlo.unary main_v327 main_v349 (broadcastInDim S10000x1 ![0] bcast_S10000_S10000x1_0 : (⟨S10000, .f32⟩ : BufTy).Contents (Elt F) → (⟨S10000x1, .f32⟩ : BufTy).Contents (Elt F)),
    StableHlo.unary main_v349 main_v350 (broadcastInDim S10000x32 ![0, 1] bcast_S10000x1_S10000x32_0_1 : (⟨S10000x1, .f32⟩ : BufTy).Contents (Elt F) → (⟨S10000x32, .f32⟩ : BufTy).Contents (Elt F)),
    StableHlo.binary main_v348 main_v350 main_v351 (mulf : (⟨S10000x32, .f32⟩ : BufTy).Contents (Elt F) → (⟨S10000x32, .f32⟩ : BufTy).Contents (Elt F) → (⟨S10000x32, .f32⟩ : BufTy).Contents (Elt F)),
    StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S10000x32, .f32⟩) (broadcastInDim S10000x32 ![] bcast_S_S10000x32),
    StableHlo.TRef.binary (.of main_v351 : StableHlo.TRef sig ⟨S10000x32, .f32⟩) (.of main_call18_v0 : StableHlo.TRef sig ⟨S10000x32, .f32⟩) (.of main_v352 : StableHlo.TRef sig ⟨S10000x32, .f32⟩) maximumf ]
abbrev kblk11_W : List (Ref sig .tc) := [main_v328, main_c_94, main_v329, main_v330, main_c_95, main_v331, main_v332, main_v333, main_v334, main_v335, main_c_96, main_v336, main_v337, main_c_97, main_v338, main_v339, main_v340, main_v341, main_v342, main_v343, main_v344, main_v345, main_cst_98, main_v346, main_v347, main_v348, main_v349, main_v350, main_v351, main_call18_cst, main_call18_v0, main_v352]
theorem kblk11_writes : (kblk11 : List (HloOp τ sig (Elt F))).Forall fun op => op.writes ⊆ (kblk11_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk11_sub : (kblk11 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩
theorem kblk11_fresh : (kblk11 : List (HloOp τ sig (Elt F))).Forall fun op => op.fresh = ∅ := by
  simp only [List.Forall]; repeat' constructor
theorem kblk11_keep (W : Valuation τ sig (Elt F)) (r : Ref sig .tc) (h : r ∉ kblk11_W) :
    StableHlo.after (kblk11 : List (HloOp τ sig (Elt F))) W (Proc.devRef .tc r) = W (Proc.devRef .tc r) :=
  StableHlo.after_of_writes_sub kblk11 _ kblk11_writes h

/-- Operations 492 … 523. -/
abbrev kblk12 : List (HloOp τ sig (Elt F)) :=
  [ StableHlo.nullary main_cst_99 (constant S_ .f32 0x3F800000#32),
    StableHlo.unary main_cst_99 main_v353 (broadcastInDim S330000 ![] bcast_S_S330000 : (⟨S_, .f32⟩ : BufTy).Contents (Elt F) → (⟨S330000, .f32⟩ : BufTy).Contents (Elt F)),
    StableHlo.nullary main_cst_100 (constant S_ .f32 0x00000000#32),
    StableHlo.unary main_cst_100 main_v354 (broadcastInDim S10000 ![] bcast_S_S10000 : (⟨S_, .f32⟩ : BufTy).Contents (Elt F) → (⟨S10000, .f32⟩ : BufTy).Contents (Elt F)),
    StableHlo.unary main_v305 main_v355 (broadcastInDim S330000x1 ![0] bcast_S330000_S330000x1_0 : (⟨S330000, .i32⟩ : BufTy).Contents (Elt F) → (⟨S330000x1, .i32⟩ : BufTy).Contents (Elt F)),
    StableHlo.ternary main_v354 main_v355 main_v353 main_v356 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_101 (constant S_ .f32 0x00000000#32),
    StableHlo.unary main_cst_101 main_v357 (broadcastInDim S10000 ![] bcast_S_S10000 : (⟨S_, .f32⟩ : BufTy).Contents (Elt F) → (⟨S10000, .f32⟩ : BufTy).Contents (Elt F)),
    StableHlo.unary main_v308 main_v358 (broadcastInDim S330000x1 ![0] bcast_S330000_S330000x1_0 : (⟨S330000, .i32⟩ : BufTy).Contents (Elt F) → (⟨S330000x1, .i32⟩ : BufTy).Contents (Elt F)),
    StableHlo.ternary main_v357 main_v358 main_v353 main_v359 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_102 (constant S_ .f32 0x00000000#32),
    StableHlo.unary main_cst_102 main_v360 (broadcastInDim S10000 ![] bcast_S_S10000 : (⟨S_, .f32⟩ : BufTy).Contents (Elt F) → (⟨S10000, .f32⟩ : BufTy).Contents (Elt F)),
    StableHlo.binary main_v356 main_v360 main_v361 (cmpf .ogt : (⟨S10000, .f32⟩ : BufTy).Contents (Elt F) → (⟨S10000, .f32⟩ : BufTy).Contents (Elt F) → (⟨S10000, .i1⟩ : BufTy).Contents (Elt F)),
    StableHlo.nullary main_cst_103 (constant S_ .f32 0x3F800000#32),
    StableHlo.unary main_cst_103 main_v362 (broadcastInDim S10000 ![] bcast_S_S10000 : (⟨S_, .f32⟩ : BufTy).Contents (Elt F) → (⟨S10000, .f32⟩ : BufTy).Contents (Elt F)),
    StableHlo.binary main_v356 main_v362 main_v363 (maximumf : (⟨S10000, .f32⟩ : BufTy).Contents (Elt F) → (⟨S10000, .f32⟩ : BufTy).Contents (Elt F) → (⟨S10000, .f32⟩ : BufTy).Contents (Elt F)),
    StableHlo.unary main_v363 main_v364 (Host.rsqrt : (⟨S10000, .f32⟩ : BufTy).Contents (Elt F) → (⟨S10000, .f32⟩ : BufTy).Contents (Elt F)),
    StableHlo.nullary main_cst_104 (constant S_ .f32 0x00000000#32),
    StableHlo.TRef.unary (.of main_cst_104 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S10000, .f32⟩) (broadcastInDim S10000 ![] bcast_S_S10000),
    StableHlo.TRef.ternary (.of main_v361 : StableHlo.TRef sig ⟨S10000, .i1⟩) (.of main_v364 : StableHlo.TRef sig ⟨S10000, .f32⟩) (.of main_call19_v1 : StableHlo.TRef sig ⟨S10000, .f32⟩) (.of main_v365 : StableHlo.TRef sig ⟨S10000, .f32⟩) select,
    StableHlo.nullary main_cst_105 (constant S_ .f32 0x00000000#32),
    StableHlo.unary main_cst_105 main_v366 (broadcastInDim S10000 ![] bcast_S_S10000 : (⟨S_, .f32⟩ : BufTy).Contents (Elt F) → (⟨S10000, .f32⟩ : BufTy).Contents (Elt F)),
    StableHlo.binary main_v359 main_v366 main_v367 (cmpf .ogt : (⟨S10000, .f32⟩ : BufTy).Contents (Elt F) → (⟨S10000, .f32⟩ : BufTy).Contents (Elt F) → (⟨S10000, .i1⟩ : BufTy).Contents (Elt F)),
    StableHlo.nullary main_cst_106 (constant S_ .f32 0x3F800000#32),
    StableHlo.unary main_cst_106 main_v368 (broadcastInDim S10000 ![] bcast_S_S10000 : (⟨S_, .f32⟩ : BufTy).Contents (Elt F) → (⟨S10000, .f32⟩ : BufTy).Contents (Elt F)),
    StableHlo.binary main_v359 main_v368 main_v369 (maximumf : (⟨S10000, .f32⟩ : BufTy).Contents (Elt F) → (⟨S10000, .f32⟩ : BufTy).Contents (Elt F) → (⟨S10000, .f32⟩ : BufTy).Contents (Elt F)),
    StableHlo.unary main_v369 main_v370 (Host.rsqrt : (⟨S10000, .f32⟩ : BufTy).Contents (Elt F) → (⟨S10000, .f32⟩ : BufTy).Contents (Elt F)),
    StableHlo.nullary main_cst_107 (constant S_ .f32 0x00000000#32),
    StableHlo.TRef.unary (.of main_cst_107 : StableHlo.TRef sig ⟨S_, .f32⟩) (.of main_call20_v0 : StableHlo.TRef sig ⟨S_, .f32⟩) id,
    StableHlo.TRef.unary (.of main_call20_v0 : StableHlo.TRef sig ⟨S_, .f32⟩) (.of main_call20_v1 : StableHlo.TRef sig ⟨S10000, .f32⟩) (broadcastInDim S10000 ![] bcast_S_S10000),
    StableHlo.TRef.ternary (.of main_v367 : StableHlo.TRef sig ⟨S10000, .i1⟩) (.of main_v370 : StableHlo.TRef sig ⟨S10000, .f32⟩) (.of main_call20_v1 : StableHlo.TRef sig ⟨S10000, .f32⟩) (.of main_v371 : StableHlo.TRef sig ⟨S10000, .f32⟩) select ]
abbrev kblk12_W : List (Ref sig .tc) := [main_cst_99, main_v353, main_cst_100, main_v354, main_v355, main_v356, main_cst_101, main_v357, main_v358, main_v359, main_cst_102, main_v360, main_v361, main_cst_103, main_v362, main_v363, main_v364, main_cst_104, main_call19_v0, main_call19_v1, main_v365, main_cst_105, main_v366, main_v367, main_cst_106, main_v368, main_v369, main_v370, main_cst_107, main_call20_v0, main_call20_v1, main_v371]
theorem kblk12_writes : (kblk12 : List (HloOp τ sig (Elt F))).Forall fun op => op.writes ⊆ (kblk12_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk12_sub : (kblk12 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩
theorem kblk12_fresh : (kblk12 : List (HloOp τ sig (Elt F))).Forall fun op => op.fresh = ∅ := by
  simp only [List.Forall]; repeat' constructor
theorem kblk12_keep (W : Valuation τ sig (Elt F)) (r : Ref sig .tc) (h : r ∉ kblk12_W) :
    StableHlo.after (kblk12 : List (HloOp τ sig (Elt F))) W (Proc.devRef .tc r) = W (Proc.devRef .tc r) :=
  StableHlo.after_of_writes_sub kblk12 _ kblk12_writes h

/-- Operations 524 … 552. -/
abbrev kblk13 : List (HloOp τ sig (Elt F)) :=
  [ StableHlo.binary main_v352 main_arg17 main_v372 ((fun l r => Host.dotGeneral dot_S10000x32_S32x10_S10000x10_1_0_0_1_n_n none l r) : (⟨S10000x32, .f32⟩ : BufTy).Contents (Elt F) → (⟨S32x10, .f32⟩ : BufTy).Contents (Elt F) → (⟨S10000x10, .f32⟩ : BufTy).Contents (Elt F)),
    StableHlo.nullary main_c_108 (constantI S_ 32 0#32),
    StableHlo.unary main_c_108 main_v373 (broadcastInDim S330000 ![] bcast_S_S330000 : (⟨S_, .i32⟩ : BufTy).Contents (Elt F) → (⟨S330000, .i32⟩ : BufTy).Contents (Elt F)),
    StableHlo.binary main_v305 main_v373 main_v374 (cmpi .slt : (⟨S330000, .i32⟩ : BufTy).Contents (Elt F) → (⟨S330000, .i32⟩ : BufTy).Contents (Elt F) → (⟨S330000, .i1⟩ : BufTy).Contents (Elt F)),
    StableHlo.nullary main_c_109 (constantI S_ 32 10000#32),
    StableHlo.unary main_c_109 main_v375 (broadcastInDim S330000 ![] bcast_S_S330000 : (⟨S_, .i32⟩ : BufTy).Contents (Elt F) → (⟨S330000, .i32⟩ : BufTy).Contents (Elt F)),
    StableHlo.binary main_v305 main_v375 main_v376 (addi : (⟨S330000, .i32⟩ : BufTy).Contents (Elt F) → (⟨S330000, .i32⟩ : BufTy).Contents (Elt F) → (⟨S330000, .i32⟩ : BufTy).Contents (Elt F)),
    StableHlo.ternary main_v374 main_v376 main_v305 main_v377 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v377 main_v378 (broadcastInDim S330000x1 ![0] bcast_S330000_S330000x1_0 : (⟨S330000, .i32⟩ : BufTy).Contents (Elt F) → (⟨S330000x1, .i32⟩ : BufTy).Contents (Elt F)),
    StableHlo.binary main_v372 main_v378 main_v379 ((fun x i => Host.gather gather_S10000x10_S330000x1_S330000x10_1_0_n_n_0_1_110 x i) : (⟨S10000x10, .f32⟩ : BufTy).Contents (Elt F) → (⟨S330000x1, .i32⟩ : BufTy).Contents (Elt F) → (⟨S330000x10, .f32⟩ : BufTy).Contents (Elt F)),
    StableHlo.nullary main_c_110 (constantI S_ 32 0#32),
    StableHlo.unary main_c_110 main_v380 (broadcastInDim S330000 ![] bcast_S_S330000 : (⟨S_, .i32⟩ : BufTy).Contents (Elt F) → (⟨S330000, .i32⟩ : BufTy).Contents (Elt F)),
    StableHlo.binary main_v305 main_v380 main_v381 (cmpi .slt : (⟨S330000, .i32⟩ : BufTy).Contents (Elt F) → (⟨S330000, .i32⟩ : BufTy).Contents (Elt F) → (⟨S330000, .i1⟩ : BufTy).Contents (Elt F)),
    StableHlo.nullary main_c_111 (constantI S_ 32 10000#32),
    StableHlo.unary main_c_111 main_v382 (broadcastInDim S330000 ![] bcast_S_S330000 : (⟨S_, .i32⟩ : BufTy).Contents (Elt F) → (⟨S330000, .i32⟩ : BufTy).Contents (Elt F)),
    StableHlo.binary main_v305 main_v382 main_v383 (addi : (⟨S330000, .i32⟩ : BufTy).Contents (Elt F) → (⟨S330000, .i32⟩ : BufTy).Contents (Elt F) → (⟨S330000, .i32⟩ : BufTy).Contents (Elt F)),
    StableHlo.ternary main_v381 main_v383 main_v305 main_v384 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    StableHlo.unary main_v384 main_v385 (broadcastInDim S330000x1 ![0] bcast_S330000_S330000x1_0 : (⟨S330000, .i32⟩ : BufTy).Contents (Elt F) → (⟨S330000x1, .i32⟩ : BufTy).Contents (Elt F)),
    StableHlo.binary main_v365 main_v385 main_v386 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    StableHlo.unary main_v386 main_v387 (broadcastInDim S330000x1 ![0] bcast_S330000_S330000x1_0 : (⟨S330000, .f32⟩ : BufTy).Contents (Elt F) → (⟨S330000x1, .f32⟩ : BufTy).Contents (Elt F)),
    StableHlo.unary main_v387 main_v388 (broadcastInDim S330000x10 ![0, 1] bcast_S330000x1_S330000x10_0_1 : (⟨S330000x1, .f32⟩ : BufTy).Contents (Elt F) → (⟨S330000x10, .f32⟩ : BufTy).Contents (Elt F)),
    StableHlo.binary main_v379 main_v388 main_v389 (mulf : (⟨S330000x10, .f32⟩ : BufTy).Contents (Elt F) → (⟨S330000x10, .f32⟩ : BufTy).Contents (Elt F) → (⟨S330000x10, .f32⟩ : BufTy).Contents (Elt F)),
    StableHlo.nullary main_cst_112 (constant S_ .f32 0x00000000#32),
    StableHlo.unary main_cst_112 main_v390 (broadcastInDim S10000x10 ![] bcast_S_S10000x10 : (⟨S_, .f32⟩ : BufTy).Contents (Elt F) → (⟨S10000x10, .f32⟩ : BufTy).Contents (Elt F)),
    StableHlo.unary main_v308 main_v391 (broadcastInDim S330000x1 ![0] bcast_S330000_S330000x1_0 : (⟨S330000, .i32⟩ : BufTy).Contents (Elt F) → (⟨S330000x1, .i32⟩ : BufTy).Contents (Elt F)),
    StableHlo.ternary main_v390 main_v391 main_v389 main_v392 ((fun x i u => Host.scatterAdd scatter_S10000x10_S330000x1_S330000x10_1_0_0_1 x i u) : (⟨S10000x10, .f32⟩ : BufTy).Contents (Elt F) → (⟨S330000x1, .i32⟩ : BufTy).Contents (Elt F) → (⟨S330000x10, .f32⟩ : BufTy).Contents (Elt F) → (⟨S10000x10, .f32⟩ : BufTy).Contents (Elt F)),
    StableHlo.unary main_v371 main_v393 (broadcastInDim S10000x1 ![0] bcast_S10000_S10000x1_0 : (⟨S10000, .f32⟩ : BufTy).Contents (Elt F) → (⟨S10000x1, .f32⟩ : BufTy).Contents (Elt F)),
    StableHlo.unary main_v393 main_v394 (broadcastInDim S10000x10 ![0, 1] bcast_S10000x1_S10000x10_0_1 : (⟨S10000x1, .f32⟩ : BufTy).Contents (Elt F) → (⟨S10000x10, .f32⟩ : BufTy).Contents (Elt F)),
    StableHlo.binary main_v392 main_v394 main_v395 (mulf : (⟨S10000x10, .f32⟩ : BufTy).Contents (Elt F) → (⟨S10000x10, .f32⟩ : BufTy).Contents (Elt F) → (⟨S10000x10, .f32⟩ : BufTy).Contents (Elt F)) ]
abbrev kblk13_W : List (Ref sig .tc) := [main_v372, main_c_108, main_v373, main_v374, main_c_109, main_v375, main_v376, main_v377, main_v378, main_v379, main_c_110, main_v380, main_v381, main_c_111, main_v382, main_v383, main_v384, main_v385, main_v386, main_v387, main_v388, main_v389, main_cst_112, main_v390, main_v391, main_v392, main_v393, main_v394, main_v395]
theorem kblk13_writes : (kblk13 : List (HloOp τ sig (Elt F))).Forall fun op => op.writes ⊆ (kblk13_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblk13_sub : (kblk13 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem kblk13_fresh : (kblk13 : List (HloOp τ sig (Elt F))).Forall fun op => op.fresh = ∅ := by
  simp only [List.Forall]; repeat' constructor
theorem kblk13_keep (W : Valuation τ sig (Elt F)) (r : Ref sig .tc) (h : r ∉ kblk13_W) :
    StableHlo.after (kblk13 : List (HloOp τ sig (Elt F))) W (Proc.devRef .tc r) = W (Proc.devRef .tc r) :=
  StableHlo.after_of_writes_sub kblk13 _ kblk13_writes h

/-- The kernel program's own last three operations before the call. -/
abbrev kblkP : List (HloOp τ sig (Elt F)) :=
  [ StableHlo.nullary main_c_113 (constantI S_ 32 0#32),
    StableHlo.TRef.unary (.of main_c_113 : StableHlo.TRef sig ⟨S_, .i32⟩) (.of main_call21_v0 : StableHlo.TRef sig ⟨S_, .f32⟩) (sitofp .f32),
    StableHlo.TRef.binary (.of main_v395 : StableHlo.TRef sig ⟨S10000x10, .f32⟩) (.of main_call21_v0 : StableHlo.TRef sig ⟨S_, .f32⟩) (.of main_v396 : StableHlo.TRef sig ⟨S10240x10, .f32⟩) (fun x v => pad S10240x10 ![0, 0] ![240, 0] ![0, 0] x v pads_S10000x10_S10240x10_02400_000 h_S_) ]
abbrev kblkP_W : List (Ref sig .tc) := [main_c_113, main_call21_v0, main_v396]
theorem kblkP_writes : (kblkP : List (HloOp τ sig (Elt F))).Forall fun op => op.writes ⊆ (kblkP_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem kblkP_sub : (kblkP : List (HloOp τ sig (Elt F))).Forall fun op => op.bufs ⊆ StableHlo.tcRefs τ sig :=
  ⟨StableHlo.nullary_bufs_sub .., StableHlo.unary_bufs_sub .., StableHlo.binary_bufs_sub ..⟩
theorem kblkP_fresh : (kblkP : List (HloOp τ sig (Elt F))).Forall fun op => op.fresh = ∅ := by
  simp only [List.Forall]; repeat' constructor
theorem kblkP_keep (W : Valuation τ sig (Elt F)) (r : Ref sig .tc) (h : r ∉ kblkP_W) :
    StableHlo.after (kblkP : List (HloOp τ sig (Elt F))) W (Proc.devRef .tc r) = W (Proc.devRef .tc r) :=
  StableHlo.after_of_writes_sub kblkP _ kblkP_writes h

end Cert.KernelIdeal.Hand

end
-- ==== Proof.KShares.lean ====
/-
  How the ownership of the two windowed arrays is dealt among the three windows.  Windows 0 and 1 both read the
  array main_v396 and window 2 writes main_v397, so the set of arrays behind the windows has two elements.  Held whole
  at the full share, these two buffers are the same resource as three points-tos, one per window: main_v396 at the left
  half of the full share (window 0), main_v396 at the right half (window 1), and main_v397 whole (window 2).  The full
  share is the composite of its two halves, so a points-to at the full share splits into, and is rejoined from, the two
  points-tos at the halves with the same contents.
-/
import proofs.«176114_j39599598469276_1_alg».proof.Proof.KDefs

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window 0, an input window, holds its array at the left half of the full share. -/
theorem share_rows (c : Dev nD) : (dats m 0 c).share 0 = fullShare.left := by
  unfold Dat.share
  rfl

/-- Window 1, an input window, holds the same array at the right half. -/
theorem share_cols (c : Dev nD) : (dats m 0 c).share 1 = fullShare.right := by
  unfold Dat.share
  rfl

/-- Window 2, the output window, holds its array whole. -/
theorem share_tile (c : Dev nD) : (dats m 0 c).share 2 = fullShare := by
  unfold Dat.share
  rfl

/-- The arrays behind the three windows are two: the one both input windows read, and the output's. -/
theorem arrRef_image : Finset.univ.image (Pipeline.arrRef spec0) = {main_v396, main_v397} := by
  decide

/-- A buffer held whole beside another is the same buffer held in its two halves beside the other. -/
theorem halves_split {ℓ ℓ' : Loc nD τ sig} (f : Buf (Elt F) ℓ) (g : Buf (Elt F) ℓ') :
    (BI.sep (ℓ ↦{fullShare} f) (ℓ' ↦{fullShare} g) : sProp 𝕄)
      ⊢ iprop((ℓ ↦{fullShare.left} f) ∗ (ℓ ↦{fullShare.right} f) ∗ (ℓ' ↦{fullShare} g)) :=
  (Idealize.SL.BI.sep_mono_l (pointsTo_share (PosShare.mem_left_op_right fullShare)).1).trans Idealize.SL.BI.sep_assoc

/-- And back: the two halves of a buffer, at the same contents, are the buffer held whole. -/
theorem halves_join {ℓ ℓ' : Loc nD τ sig} (f : Buf (Elt F) ℓ) (g : Buf (Elt F) ℓ') :
    (iprop((ℓ ↦{fullShare.left} f) ∗ (ℓ ↦{fullShare.right} f) ∗ (ℓ' ↦{fullShare} g)) : sProp 𝕄)
      ⊢ BI.sep (ℓ ↦{fullShare} f) (ℓ' ↦{fullShare} g) :=
  Idealize.SL.BI.sep_assoc'.trans (Idealize.SL.BI.sep_mono_l (pointsTo_share (PosShare.mem_left_op_right fullShare)).2)

/-- The two buffers behind the windows, held whole at contents `W`, are the pipeline's arrays at contents agreeing
    with `W`: the shared input array is dealt in halves to windows 0 and 1, the output array goes whole to window 2. -/
theorem arrays_split (c : Dev nD) (W : Valuation τ sig (Elt F))
    (Fw : (w : Fin cfg0.W) → Buf (Elt F) ((cfg0.spec w).arr.view.loc (c.tc : Thread nD τ)))
    (hF : ∀ w, Fw w = W (Proc.devRef .tc (Pipeline.arrRef cfg0.spec w))) :
    (Pipeline.arrBufs cfg0.spec c (fun b => W (Proc.devRef .tc b)) : sProp 𝕄) ⊢ (dats m 0 c).arrays Fw := by
  unfold Pipeline.arrBufs Dat.arrays
  rw [bigSep_W0]
  rw [share_rows, share_cols, share_tile]
  rw [(arr_whole0 0).set_eq_univ, (arr_whole0 2).set_eq_univ]
  rw [hF 0, hF 1, hF 2]
  rw [show Finset.univ.image (Pipeline.arrRef cfg0.spec) = {main_v396, main_v397} from arrRef_image]
  rw [BI.bigSep_insert (by decide), BI.bigSep_singleton]
  exact halves_split (ℓ := (c.tc : Thread nD τ).loc main_v396) (ℓ' := (c.tc : Thread nD τ).loc main_v397)
    (W (Proc.devRef .tc main_v396)) (W (Proc.devRef .tc main_v397))

/-- Conversely the pipeline's arrays, at contents agreeing with `W`, are the two buffers held whole at `W`: the two
    halves of the shared input array, both at `W`'s contents, rejoin. -/
theorem arrays_join (c : Dev nD) (W : Valuation τ sig (Elt F))
    (Fw : (w : Fin cfg0.W) → Buf (Elt F) ((cfg0.spec w).arr.view.loc (c.tc : Thread nD τ)))
    (hF : ∀ w, Fw w = W (Proc.devRef .tc (Pipeline.arrRef cfg0.spec w))) :
    (dats m 0 c).arrays Fw ⊢ (Pipeline.arrBufs cfg0.spec c (fun b => W (Proc.devRef .tc b)) : sProp 𝕄) := by
  unfold Pipeline.arrBufs Dat.arrays
  rw [bigSep_W0]
  rw [share_rows, share_cols, share_tile]
  rw [(arr_whole0 0).set_eq_univ, (arr_whole0 2).set_eq_univ]
  rw [hF 0, hF 1, hF 2]
  rw [show Finset.univ.image (Pipeline.arrRef cfg0.spec) = {main_v396, main_v397} from arrRef_image]
  rw [BI.bigSep_insert (by decide), BI.bigSep_singleton]
  exact halves_join (ℓ := (c.tc : Thread nD τ).loc main_v396) (ℓ' := (c.tc : Thread nD τ).loc main_v397)
    (W (Proc.devRef .tc main_v396)) (W (Proc.devRef .tc main_v397))

end Cert.KernelIdeal.Hand

end
-- ==== Proof.KRun.lean ====
/-
  The kernel program runs its host lines, then the tiled product, then the slice.  Here the pieces are put together:
  the lines before the call are the blocks the two programs share and the kernel's own three operations (the
  zero it pads with, and the pad); @main reduces to the call continued by the slice, at the contents those lines leave;
  when the call returns, every buffer is as the call found it except the product array, which holds what the fifty
  write-backs made of it; the run of the whole program then reads, in the final state, each argument as launched,
  the node embeddings as the common prefix computed them, and the result as the slice of the product array.
-/
import proofs.«176114_j39599598469276_1_alg».proof.Proof.KDefs
import proofs.«176114_j39599598469276_1_alg».proof.Proof.KBody
import proofs.«176114_j39599598469276_1_alg».proof.Proof.KBlocks
import proofs.«176114_j39599598469276_1_alg».proof.Proof.KShares
import proofs.«176114_j39599598469276_1_alg».proof.Proof.LibSharedLaunch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines before the call, as blocks -/

/-- The blocks the two programs share. -/
abbrev kPrefix : List (HloOp τ sig (Elt F)) :=
  kblk00 ++ (kblk01 ++ (kblk02 ++ (kblk03 ++ (kblk04 ++ (kblk05 ++ (kblk06 ++ (kblk07 ++ (kblk08 ++ (kblk09 ++ (kblk10 ++ (kblk11 ++ (kblk12 ++ (kblk13)))))))))))))

set_option maxHeartbeats 4000000 in
/-- The lines before the call are those blocks and the kernel's own three operations. -/
theorem lines_eq : (linesBefore (F := F)).flatten = kPrefix ++ kblkP := rfl

theorem V0_eq (c : Dev nD) :
    V0 m c = StableHlo.after (kblkP (F := F)) (StableHlo.after (kPrefix (F := F)) (fun b => m (c, b))) := by
  show StableHlo.after (linesBefore (F := F)).flatten (fun b => m (c, b)) = _
  rw [lines_eq, StableHlo.after_append]

/-- A buffer no block writes keeps its contents through the common prefix. -/
theorem kPrefix_keep (W : Valuation τ sig (Elt F)) (r : Ref sig .tc)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    StableHlo.after (kPrefix : List (HloOp τ sig (Elt F))) W (Proc.devRef .tc r) = W (Proc.devRef .tc r) := by
  simp only [kPrefix, StableHlo.after_append]
  rw [kblk13_keep _ r h_kblk13, kblk12_keep _ r h_kblk12, kblk11_keep _ r h_kblk11, kblk10_keep _ r h_kblk10, kblk09_keep _ r h_kblk09, kblk08_keep _ r h_kblk08, kblk07_keep _ r h_kblk07, kblk06_keep _ r h_kblk06, kblk05_keep _ r h_kblk05, kblk04_keep _ r h_kblk04, kblk03_keep _ r h_kblk03, kblk02_keep _ r h_kblk02, kblk01_keep _ r h_kblk01, kblk00_keep _ r h_kblk00]

/-- No line before the call writes an argument: at entry it is as launched. -/
theorem V_keep (c : Dev nD) (r : Ref sig .tc) (hP : r ∉ kblkP_W)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    V0 m c (Proc.devRef .tc r) = m ((c.tc : Thread nD τ).loc r) := by
  rw [V0_eq, kblkP_keep _ r hP, kPrefix_keep _ r h_kblk00 h_kblk01 h_kblk02 h_kblk03 h_kblk04 h_kblk05 h_kblk06 h_kblk07 h_kblk08 h_kblk09 h_kblk10 h_kblk11 h_kblk12 h_kblk13]

/-- The node embeddings at entry are what the common prefix computes. -/
theorem V_embeddings (c : Dev nD) :
    V0 m c (Proc.devRef .tc main_v395) = StableHlo.after (kPrefix (F := F)) (fun b => m (c, b)) (Proc.devRef .tc main_v395) := by
  rw [V0_eq, kblkP_keep _ main_v395 (by decide)]

/-- The array the two input windows stage is the embeddings padded with 240 rows. -/
theorem V_padded (c : Dev nD) :
    V m c main_v396 = pad S10240x10 ![0, 0] ![240, 0] ![0, 0] (V m c main_v395) (V m c main_call21_v0) pads_S10000x10_S10240x10_02400_000 h_S_ := by
  show V0 m c (Proc.devRef .tc main_v396) = pad S10240x10 ![0, 0] ![240, 0] ![0, 0] (V0 m c (Proc.devRef .tc main_v395)) (V0 m c (Proc.devRef .tc main_call21_v0)) pads_S10000x10_S10240x10_02400_000 h_S_
  rw [V0_eq]
  generalize StableHlo.after (kPrefix (F := F)) (fun b => m (c, b)) = W
  after_results
  simp only [StableHlo.TRef.ofBuf, StableHlo.TRef.toBuf, cast_eq]

/-! ## @main around the call -/

theorem linesBefore_sub : (linesBefore (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub⟩

theorem linesBefore_fresh : (linesBefore (F := F)).Forall fun ops => ops.Forall fun op => op.fresh = ∅ := by
  simp only [List.Forall]; repeat' constructor

theorem linesAfter_sub : ∀ ops ∈ (linesAfter (F := F)), ∀ op ∈ ops, op.bufs ⊆ StableHlo.tcRefs τ sig := by
  intro ops ho op h
  rw [List.mem_singleton] at ho; subst ho
  exact (List.forall_iff_forall_mem.mp hostOps1_sub) op h

theorem linesAfter_fresh : ∀ ops ∈ (linesAfter (F := F)), ∀ op ∈ ops, op.fresh = ∅ := by
  intro ops ho op h
  rw [List.mem_singleton] at ho; subst ho
  rw [List.mem_singleton] at h; subst h
  rfl

/-- The slice writes neither array of the call. -/
theorem linesAfter_keep : ∀ ops ∈ (linesAfter (F := F)), ∀ op ∈ ops, ∀ w, Proc.devRef .tc (Pipeline.arrRef cfg0.spec w) ∉ op.writes := by
  intro ops ho op h w
  rw [List.mem_singleton] at ho; subst ho
  rw [List.mem_singleton] at h; subst h
  rw [StableHlo.unary_writes, Finset.mem_singleton]
  exact StableHlo.devRef_ne_of_ne (by revert w; decide)

/-- @main reduces to the call continued by the slice, at the contents the earlier lines leave. -/
theorem hmainK : Pipeline.HMainK (Ix := Unit) (Name := ℕ) (U := UR sig nD τ) (Lvl := ℕ) cfgs 0 defs₀ Variants.none m (main (F := F))
    (fun c b => V0 m c (Proc.devRef .tc b)) (fun _ => Pipeline.chain ((linesAfter (F := F)).map StableHlo.seq)) :=
  Pipeline.hmain_around cfgs 0 defs₀ Variants.none m main linesBefore linesAfter linesBefore_sub linesBefore_fresh
    fun c => (main_chain c).trans rfl

/-! ## When the call returns -/

/-- Core `c`'s buffers when the call returns: as it found them, but for the product array. -/
def Wx (c : Dev nD) : Valuation τ sig (Elt F) :=
  Function.update (V0 m c) (Proc.devRef .tc main_v397) ((dats m 0 c).arrAt 2 cfg0.N)

theorem Wx_product (c : Dev nD) : Wx m c (Proc.devRef .tc main_v397) = (dats m 0 c).arrAt 2 cfg0.N := by
  unfold Wx; exact Function.update_self _ _ _

theorem Wx_other (c : Dev nD) (r : Ref sig .tc) (h : r ≠ main_v397) : Wx m c (Proc.devRef .tc r) = V0 m c (Proc.devRef .tc r) := by
  unfold Wx; exact Function.update_of_ne (StableHlo.devRef_ne_of_ne h) _ _

theorem Wx_arr (c : Dev nD) : ∀ w, Wx m c (Proc.devRef .tc (Pipeline.arrRef cfg0.spec w)) = (dats m 0 c).arrAt w cfg0.N
  | ⟨0, _⟩ => (Wx_other m c main_v396 (by decide)).trans (((dats m 0 c).arrAt_in 0 rfl _).trans (A_eq m c 0)).symm
  | ⟨1, _⟩ => (Wx_other m c main_v396 (by decide)).trans (((dats m 0 c).arrAt_in 1 rfl _).trans (A_eq m c 1)).symm
  | ⟨2, _⟩ => Wx_product m c

theorem Wx_rest (c : Dev nD) (b : Ref sig .tc) (h : ∀ w, Pipeline.arrRef cfg0.spec w ≠ b) :
    Wx m c (Proc.devRef .tc b) = V0 m c (Proc.devRef .tc b) :=
  Wx_other m c b (h 2).symm

/-! ## The run -/

set_option backward.isDefEq.respectTransparency.types false in
/-- Every weakly fair execution of @main terminates; in the final state each array of the call holds what the library
    computes from the proof data, every other unscoped buffer what the slice leaves from the contents at the call's return. -/
theorem run_main : θ_run defs (onTc (τ := τ) (main (F := F))) (s₀ m ρ) (Pipeline.SharedPost cfgs (dats m) 0 (Wx m) linesAfter) :=
  Pipeline.θ_run_frame_around_shared cfgs (dats m) (0 : Fin 1) defs₀ Variants.none cellOf_inj winFacts₀0 block_pos0 arr_whole0 stage_whole0 m ρ main
    (fun c => (body_obligation m c).loose) (fun _ _ => rfl) (V0 m) linesAfter linesAfter_sub linesAfter_fresh linesAfter_keep (hmainK m)
    (arrays_split m) (arrays_join m) (fun c w => A_eq m c w) (Wx m) (Wx_arr m) (Wx_rest m) (fun _ _ => rfl)

/-! ## What the final state holds -/

theorem hostOps1_writes : (hostOps1 : List (HloOp τ sig (Elt F))).Forall fun op => op.writes ⊆ (([main_v398] : List (Ref sig .tc)).map (Proc.devRef (τ := τ) .tc)).toFinset := by
  simp only [List.Forall]; exact (by simp only [StableHlo.unary_writes, Finset.singleton_subset_iff, List.mem_toFinset]; exact List.mem_map_of_mem (by decide))

theorem linesAfter_flatten : (linesAfter (F := F)).flatten = hostOps1 := by
  simp only [linesAfter, List.flatten_cons, List.flatten_nil, List.append_nil]

/-- The slice writes only the result. -/
theorem after_slice_keep (W : Valuation τ sig (Elt F)) (r : Ref sig .tc) (h : r ∉ ([main_v398] : List (Ref sig .tc))) :
    StableHlo.after (linesAfter (F := F)).flatten W (Proc.devRef .tc r) = W (Proc.devRef .tc r) := by
  rw [linesAfter_flatten]; exact StableHlo.after_of_writes_sub hostOps1 _ hostOps1_writes h

/-- The result is the slice of the product array. -/
theorem after_slice_result (W : Valuation τ sig (Elt F)) :
    StableHlo.after (linesAfter (F := F)).flatten W (Proc.devRef .tc main_v398)
      = extractStridedSlice S10000x10000 ![0, 0] (W (Proc.devRef .tc main_v397)) slices_S10240x10240_S10000x10000_0_0 := by
  rw [linesAfter_flatten]
  after_results

/-- An argument in the final state is as launched. -/
theorem final_arg (c : Dev nD) (r : Ref sig .tc) (h8 : r ∉ ([main_v398] : List (Ref sig .tc))) (h7 : r ≠ main_v397) (hP : r ∉ kblkP_W)
    (h_kblk00 : r ∉ kblk00_W) (h_kblk01 : r ∉ kblk01_W) (h_kblk02 : r ∉ kblk02_W) (h_kblk03 : r ∉ kblk03_W) (h_kblk04 : r ∉ kblk04_W) (h_kblk05 : r ∉ kblk05_W) (h_kblk06 : r ∉ kblk06_W) (h_kblk07 : r ∉ kblk07_W) (h_kblk08 : r ∉ kblk08_W) (h_kblk09 : r ∉ kblk09_W) (h_kblk10 : r ∉ kblk10_W) (h_kblk11 : r ∉ kblk11_W) (h_kblk12 : r ∉ kblk12_W) (h_kblk13 : r ∉ kblk13_W) :
    StableHlo.after (linesAfter (F := F)).flatten (Wx m c) (Proc.devRef .tc r) = m ((c.tc : Thread nD τ).loc r) :=
  (after_slice_keep _ r h8).trans ((Wx_other m c r h7).trans (V_keep m c r hP h_kblk00 h_kblk01 h_kblk02 h_kblk03 h_kblk04 h_kblk05 h_kblk06 h_kblk07 h_kblk08 h_kblk09 h_kblk10 h_kblk11 h_kblk12 h_kblk13))

/-- THE FRAME: the program runs to the end and its arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 rfl (by decide))).trans (final_arg m c main_arg0 (by decide) (by decide) (by decide) (by decide) (by decide) (by decide) (by decide) (by decide) (by decide) (by decide) (by decide) (by decide) (by decide) (by decide) (by decide) (by decide) (by decide)),
      ((h c).2 main_arg1 (Pipeline.mem_restRefs_of main_arg1 rfl (by decide))).trans (final_arg m c main_arg1 (by decide) (by decide) (by decide) (by decide) (by decide) (by decide) (by decide) (by decide) (by decide) (by decide) (by decide) (by decide) (by decide) (by decide) (by decide) (by decide) (by decide)),
      ((h c).2 main_arg2 (Pipeline.mem_restRefs_of main_arg2 rfl (by decide))).trans (final_arg m c main_arg2 (by decide) (by decide) (by decide) (by decide) (by decide) (by decide) (by decide) (by decide) (by decide) (by decide) (by decide) (by decide) (by decide) (by decide) (by decide) (by decide) (by decide)),
      ((h c).2 main_arg3 (Pipeline.mem_restRefs_of main_arg3 rfl (by decide))).trans (final_arg m c main_arg3 (by decide) (by decide) (by decide) (by decide) (by decide) (by decide) (by decide) (by decide) (by decide) (by decide) (by decide) (by decide) (by decide) (by decide) (by decide) (by decide) (by decide)),
      ((h c).2 main_arg4 (Pipeline.mem_restRefs_of main_arg4 rfl (by decide))).trans (final_arg m c main_arg4 (by decide) (by decide) (by decide) (by decide) (by decide) (by decide) (by decide) (by decide) (by decide) (by decide) (by decide) (by decide) (by decide) (by decide) (by decide) (by decide) (by decide)),
      ((h c).2 main_arg5 (Pipeline.mem_restRefs_of main_arg5 rfl (by decide))).trans (final_arg m c main_arg5 (by decide) (by decide) (by decide) (by decide) (by decide) (by decide) (by decide) (by decide) (by decide) (by decide) (by decide) (by decide) (by decide) (by decide) (by decide) (by decide) (by decide)),
      ((h c).2 main_arg6 (Pipeline.mem_restRefs_of main_arg6 rfl (by decide))).trans (final_arg m c main_arg6 (by decide) (by decide) (by decide) (by decide) (by decide) (by decide) (by decide) (by decide) (by decide) (by decide) (by decide) (by decide) (by decide) (by decide) (by decide) (by decide) (by decide)),
      ((h c).2 main_arg7 (Pipeline.mem_restRefs_of main_arg7 rfl (by decide))).trans (final_arg m c main_arg7 (by decide) (by decide) (by decide) (by decide) (by decide) (by decide) (by decide) (by decide) (by decide) (by decide) (by decide) (by decide) (by decide) (by decide) (by decide) (by decide) (by decide)),
      ((h c).2 main_arg8 (Pipeline.mem_restRefs_of main_arg8 rfl (by decide))).trans (final_arg m c main_arg8 (by decide) (by decide) (by decide) (by decide) (by decide) (by decide) (by decide) (by decide) (by decide) (by decide) (by decide) (by decide) (by decide) (by decide) (by decide) (by decide) (by decide)),
      ((h c).2 main_arg9 (Pipeline.mem_restRefs_of main_arg9 rfl (by decide))).trans (final_arg m c main_arg9 (by decide) (by decide) (by decide) (by decide) (by decide) (by decide) (by decide) (by decide) (by decide) (by decide) (by decide) (by decide) (by decide) (by decide) (by decide) (by decide) (by decide)),
      ((h c).2 main_arg10 (Pipeline.mem_restRefs_of main_arg10 rfl (by decide))).trans (final_arg m c main_arg10 (by decide) (by decide) (by decide) (by decide) (by decide) (by decide) (by decide) (by decide) (by decide) (by decide) (by decide) (by decide) (by decide) (by decide) (by decide) (by decide) (by decide)),
      ((h c).2 main_arg11 (Pipeline.mem_restRefs_of main_arg11 rfl (by decide))).trans (final_arg m c main_arg11 (by decide) (by decide) (by decide) (by decide) (by decide) (by decide) (by decide) (by decide) (by decide) (by decide) (by decide) (by decide) (by decide) (by decide) (by decide) (by decide) (by decide)),
      ((h c).2 main_arg12 (Pipeline.mem_restRefs_of main_arg12 rfl (by decide))).trans (final_arg m c main_arg12 (by decide) (by decide) (by decide) (by decide) (by decide) (by decide) (by decide) (by decide) (by decide) (by decide) (by decide) (by decide) (by decide) (by decide) (by decide) (by decide) (by decide)),
      ((h c).2 main_arg13 (Pipeline.mem_restRefs_of main_arg13 rfl (by decide))).trans (final_arg m c main_arg13 (by decide) (by decide) (by decide) (by decide) (by decide) (by decide) (by decide) (by decide) (by decide) (by decide) (by decide) (by decide) (by decide) (by decide) (by decide) (by decide) (by decide)),
      ((h c).2 main_arg14 (Pipeline.mem_restRefs_of main_arg14 rfl (by decide))).trans (final_arg m c main_arg14 (by decide) (by decide) (by decide) (by decide) (by decide) (by decide) (by decide) (by decide) (by decide) (by decide) (by decide) (by decide) (by decide) (by decide) (by decide) (by decide) (by decide)),
      ((h c).2 main_arg15 (Pipeline.mem_restRefs_of main_arg15 rfl (by decide))).trans (final_arg m c main_arg15 (by decide) (by decide) (by decide) (by decide) (by decide) (by decide) (by decide) (by decide) (by decide) (by decide) (by decide) (by decide) (by decide) (by decide) (by decide) (by decide) (by decide)),
      ((h c).2 main_arg16 (Pipeline.mem_restRefs_of main_arg16 rfl (by decide))).trans (final_arg m c main_arg16 (by decide) (by decide) (by decide) (by decide) (by decide) (by decide) (by decide) (by decide) (by decide) (by decide) (by decide) (by decide) (by decide) (by decide) (by decide) (by decide) (by decide)),
      ((h c).2 main_arg17 (Pipeline.mem_restRefs_of main_arg17 rfl (by decide))).trans (final_arg m c main_arg17 (by decide) (by decide) (by decide) (by decide) (by decide) (by decide) (by decide) (by decide) (by decide) (by decide) (by decide) (by decide) (by decide) (by decide) (by decide) (by decide) (by decide))⟩)
    (run_main m ρ)

/-- THE RUN with its results named: the result is the slice of the product array, the embeddings are what the common
    prefix computed, the arguments are as launched. -/
theorem run_named : θ_run defs (onTc (τ := τ) (main (F := F))) ⟨m, fun _ => 0, ρ⟩ (fun r => ∀ c : Dev nD,
      r.2.mem ((c.tc : Thread nD τ).loc main_v398) = extractStridedSlice S10000x10000 ![0, 0] ((dats m 0 c).arrAt 2 cfg0.N) slices_S10240x10240_S10000x10000_0_0
      ∧ r.2.mem ((c.tc : Thread nD τ).loc main_v395) = V m c main_v395
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_v398 (Pipeline.mem_restRefs_of main_v398 rfl (by decide))).trans ((after_slice_result _).trans (by rw [Wx_product])),
      ((h c).2 main_v395 (Pipeline.mem_restRefs_of main_v395 rfl (by decide))).trans ((after_slice_keep _ main_v395 (by decide)).trans (Wx_other m c main_v395 (by decide))),
      ((h c).2 main_arg0 (Pipeline.mem_restRefs_of main_arg0 rfl (by decide))).trans (final_arg m c main_arg0 (by decide) (by decide) (by decide) (by decide) (by decide) (by decide) (by decide) (by decide) (by decide) (by decide) (by decide) (by decide) (by decide) (by decide) (by decide) (by decide) (by decide)),
      ((h c).2 main_arg1 (Pipeline.mem_restRefs_of main_arg1 rfl (by decide))).trans (final_arg m c main_arg1 (by decide) (by decide) (by decide) (by decide) (by decide) (by decide) (by decide) (by decide) (by decide) (by decide) (by decide) (by decide) (by decide) (by decide) (by decide) (by decide) (by decide)),
      ((h c).2 main_arg2 (Pipeline.mem_restRefs_of main_arg2 rfl (by decide))).trans (final_arg m c main_arg2 (by decide) (by decide) (by decide) (by decide) (by decide) (by decide) (by decide) (by decide) (by decide) (by decide) (by decide) (by decide) (by decide) (by decide) (by decide) (by decide) (by decide)),
      ((h c).2 main_arg3 (Pipeline.mem_restRefs_of main_arg3 rfl (by decide))).trans (final_arg m c main_arg3 (by decide) (by decide) (by decide) (by decide) (by decide) (by decide) (by decide) (by decide) (by decide) (by decide) (by decide) (by decide) (by decide) (by decide) (by decide) (by decide) (by decide)),
      ((h c).2 main_arg4 (Pipeline.mem_restRefs_of main_arg4 rfl (by decide))).trans (final_arg m c main_arg4 (by decide) (by decide) (by decide) (by decide) (by decide) (by decide) (by decide) (by decide) (by decide) (by decide) (by decide) (by decide) (by decide) (by decide) (by decide) (by decide) (by decide)),
      ((h c).2 main_arg5 (Pipeline.mem_restRefs_of main_arg5 rfl (by decide))).trans (final_arg m c main_arg5 (by decide) (by decide) (by decide) (by decide) (by decide) (by decide) (by decide) (by decide) (by decide) (by decide) (by decide) (by decide) (by decide) (by decide) (by decide) (by decide) (by decide)),
      ((h c).2 main_arg6 (Pipeline.mem_restRefs_of main_arg6 rfl (by decide))).trans (final_arg m c main_arg6 (by decide) (by decide) (by decide) (by decide) (by decide) (by decide) (by decide) (by decide) (by decide) (by decide) (by decide) (by decide) (by decide) (by decide) (by decide) (by decide) (by decide)),
      ((h c).2 main_arg7 (Pipeline.mem_restRefs_of main_arg7 rfl (by decide))).trans (final_arg m c main_arg7 (by decide) (by decide) (by decide) (by decide) (by decide) (by decide) (by decide) (by decide) (by decide) (by decide) (by decide) (by decide) (by decide) (by decide) (by decide) (by decide) (by decide)),
      ((h c).2 main_arg8 (Pipeline.mem_restRefs_of main_arg8 rfl (by decide))).trans (final_arg m c main_arg8 (by decide) (by decide) (by decide) (by decide) (by decide) (by decide) (by decide) (by decide) (by decide) (by decide) (by decide) (by decide) (by decide) (by decide) (by decide) (by decide) (by decide)),
      ((h c).2 main_arg9 (Pipeline.mem_restRefs_of main_arg9 rfl (by decide))).trans (final_arg m c main_arg9 (by decide) (by decide) (by decide) (by decide) (by decide) (by decide) (by decide) (by decide) (by decide) (by decide) (by decide) (by decide) (by decide) (by decide) (by decide) (by decide) (by decide)),
      ((h c).2 main_arg10 (Pipeline.mem_restRefs_of main_arg10 rfl (by decide))).trans (final_arg m c main_arg10 (by decide) (by decide) (by decide) (by decide) (by decide) (by decide) (by decide) (by decide) (by decide) (by decide) (by decide) (by decide) (by decide) (by decide) (by decide) (by decide) (by decide)),
      ((h c).2 main_arg11 (Pipeline.mem_restRefs_of main_arg11 rfl (by decide))).trans (final_arg m c main_arg11 (by decide) (by decide) (by decide) (by decide) (by decide) (by decide) (by decide) (by decide) (by decide) (by decide) (by decide) (by decide) (by decide) (by decide) (by decide) (by decide) (by decide)),
      ((h c).2 main_arg12 (Pipeline.mem_restRefs_of main_arg12 rfl (by decide))).trans (final_arg m c main_arg12 (by decide) (by decide) (by decide) (by decide) (by decide) (by decide) (by decide) (by decide) (by decide) (by decide) (by decide) (by decide) (by decide) (by decide) (by decide) (by decide) (by decide)),
      ((h c).2 main_arg13 (Pipeline.mem_restRefs_of main_arg13 rfl (by decide))).trans (final_arg m c main_arg13 (by decide) (by decide) (by decide) (by decide) (by decide) (by decide) (by decide) (by decide) (by decide) (by decide) (by decide) (by decide) (by decide) (by decide) (by decide) (by decide) (by decide)),
      ((h c).2 main_arg14 (Pipeline.mem_restRefs_of main_arg14 rfl (by decide))).trans (final_arg m c main_arg14 (by decide) (by decide) (by decide) (by decide) (by decide) (by decide) (by decide) (by decide) (by decide) (by decide) (by decide) (by decide) (by decide) (by decide) (by decide) (by decide) (by decide)),
      ((h c).2 main_arg15 (Pipeline.mem_restRefs_of main_arg15 rfl (by decide))).trans (final_arg m c main_arg15 (by decide) (by decide) (by decide) (by decide) (by decide) (by decide) (by decide) (by decide) (by decide) (by decide) (by decide) (by decide) (by decide) (by decide) (by decide) (by decide) (by decide)),
      ((h c).2 main_arg16 (Pipeline.mem_restRefs_of main_arg16 rfl (by decide))).trans (final_arg m c main_arg16 (by decide) (by decide) (by decide) (by decide) (by decide) (by decide) (by decide) (by decide) (by decide) (by decide) (by decide) (by decide) (by decide) (by decide) (by decide) (by decide) (by decide)),
      ((h c).2 main_arg17 (Pipeline.mem_restRefs_of main_arg17 rfl (by decide))).trans (final_arg m c main_arg17 (by decide) (by decide) (by decide) (by decide) (by decide) (by decide) (by decide) (by decide) (by decide) (by decide) (by decide) (by decide) (by decide) (by decide) (by decide) (by decide) (by decide))⟩)
    (run_main m ρ)

end Cert.KernelIdeal.Hand

end
-- ==== Proof.KValue.lean ====
/-
  The value of the pallas_call and of the slice after it, over the extended reals.  Rounding to bf16 is the identity
  there and a product into a zero accumulator is the exact sum, so the 2048 × 1024 tile the body stores is, entry by
  entry, the sum over the ten columns of the products of a row of the first block with a row of the second.  Both blocks
  are rows of the same padded 10240 × 10 array, and the tiles of the 5 × 10 grid cover the 10240 × 10240 output, so after
  the call the output array is the Gram matrix of the padded array.  The padded array agrees with the 10000 × 10 array
  on its first 10000 rows, so the leading 10000 × 10000 corner is the Gram matrix of the unpadded array.
-/
import proofs.«176114_j39599598469276_1_alg».proof.Proof.KDefs
import Idealize.ShloMosaic.Lib.ValueIdx
import Idealize.ShloMosaic.Lib.Pipeline.Value
import Idealize.ShloMosaic.Lib.KernelVsHost
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The tile at an entry -/

/-- The offsets of the body's three rectangles are zero on both axes. -/
theorem zero_offsets : (![0, 0] : Fin 2 → Nat) = fun _ => 0 := funext fun a => by fin_cases a <;> rfl

/-- The product contracts axis 1 of both operands: the left operand is read at (row of the entry, contraction index), -/
theorem dot_lhs_row (i : S2048x1024.Idx) (q : dot_S2048x10_S1024x10_S2048x1024_1_1_0_0_n_n.contr.Idx) :
    (dot_S2048x10_S1024x10_S2048x1024_1_1_0_0_n_n.lhsIdx i q 0).val = (i 0).val := by
  unfold DotDims.lhsIdx
  rw [dif_neg (show ¬(0 : Fin S2048x10.rank) ∈ dot_S2048x10_S1024x10_S2048x1024_1_1_0_0_n_n.lhsBatch by decide), dif_pos (show (0 : Fin S2048x10.rank) ∈ dot_S2048x10_S1024x10_S2048x1024_1_1_0_0_n_n.lhsNonContracting by decide)]
  rfl
theorem dot_lhs_contr (i : S2048x1024.Idx) (q : dot_S2048x10_S1024x10_S2048x1024_1_1_0_0_n_n.contr.Idx) :
    (dot_S2048x10_S1024x10_S2048x1024_1_1_0_0_n_n.lhsIdx i q 1).val = (q ⟨0, by decide⟩).val :=
  dot_S2048x10_S1024x10_S2048x1024_1_1_0_0_n_n.lhsIdx_val_of_single rfl i q
/-- and the right operand at (column of the entry, contraction index). -/
theorem dot_rhs_row (i : S2048x1024.Idx) (q : dot_S2048x10_S1024x10_S2048x1024_1_1_0_0_n_n.contr.Idx) :
    (dot_S2048x10_S1024x10_S2048x1024_1_1_0_0_n_n.rhsIdx i q 0).val = (i 1).val := by
  unfold DotDims.rhsIdx
  rw [dif_neg (show ¬(0 : Fin S1024x10.rank) ∈ dot_S2048x10_S1024x10_S2048x1024_1_1_0_0_n_n.rhsBatch by decide), dif_pos (show (0 : Fin S1024x10.rank) ∈ dot_S2048x10_S1024x10_S2048x1024_1_1_0_0_n_n.rhsNonContracting by decide)]
  rfl
theorem dot_rhs_contr (i : S2048x1024.Idx) (q : dot_S2048x10_S1024x10_S2048x1024_1_1_0_0_n_n.contr.Idx) :
    (dot_S2048x10_S1024x10_S2048x1024_1_1_0_0_n_n.rhsIdx i q 1).val = (q ⟨0, by decide⟩).val :=
  dot_S2048x10_S1024x10_S2048x1024_1_1_0_0_n_n.rhsIdx_val_of_single rfl i q

/-- The product into the zero accumulator, at entry (a, b): the sum over the ten columns of the products of row `a` of
    the left operand with row `b` of the right. -/
theorem prod_apply (y0 : FVec Ideal S2048x10 .bf16) (y1 : FVec Ideal S1024x10 .bf16) (a : Fin 2048) (b : Fin 1024) :
    matmul dot_S2048x10_S1024x10_S2048x1024_1_1_0_0_n_n none y0 y1 (constant (F := Ideal) S2048x1024 .f32 0x00000000#32) (ix2 a b)
      = ∑ k : Fin 10, y0 (ix2 a k) * y1 (ix2 b k) := by
  show FloatOps.matmul _ _ _ _ _ _ = _
  rw [Ideal.matmul_constant_zero_apply, ← Equiv.sum_comp (ValueIdx.contrEquiv1 dot_S2048x10_S1024x10_S2048x1024_1_1_0_0_n_n 10 rfl rfl).symm]
  refine Finset.sum_congr rfl fun k _ => ?_
  have hk := ValueIdx.contrEquiv1_symm_val dot_S2048x10_S1024x10_S2048x1024_1_1_0_0_n_n 10 rfl rfl k
  have el : dot_S2048x10_S1024x10_S2048x1024_1_1_0_0_n_n.lhsIdx (ix2 a b) ((ValueIdx.contrEquiv1 dot_S2048x10_S1024x10_S2048x1024_1_1_0_0_n_n 10 rfl rfl).symm k) = ix2 a k := funext fun d => Fin.ext (by
    match d with
    | ⟨0, _⟩ => exact dot_lhs_row _ _
    | ⟨1, _⟩ => exact (dot_lhs_contr _ _).trans hk)
  have er : dot_S2048x10_S1024x10_S2048x1024_1_1_0_0_n_n.rhsIdx (ix2 a b) ((ValueIdx.contrEquiv1 dot_S2048x10_S1024x10_S2048x1024_1_1_0_0_n_n 10 rfl rfl).symm k) = ix2 b k := funext fun d => Fin.ext (by
    match d with
    | ⟨0, _⟩ => exact dot_rhs_row _ _
    | ⟨1, _⟩ => exact (dot_rhs_contr _ _).trans hk)
  rw [el, er]

/-- The tile the body leaves, at entry (a, b), from the two blocks it loaded: the one store covers the buffer, the loads
    read the whole blocks, the casts to the same shape and the roundings to bf16 change nothing. -/
theorem tile_apply (x0 : Vec Ideal S2048x10 .f32) (x1 : Vec Ideal S1024x10 .f32) (a : Fin 2048) (b : Fin 1024) :
    outTile x0 x1 (ix2 a b) = ∑ k : Fin 10, x0 (ix2 a k) * x1 (ix2 b k) := by
  unfold outTile
  rw [View.canon_unit_zero zero_offsets]
  simp only [View.ld_unit_zero (S := S2048x10) zero_offsets, View.ld_unit_zero (S := S1024x10) zero_offsets]
  unfold k0_pay1
  simp only [shapeCast_self]
  exact prod_apply _ _ a b

/-! ## The Gram matrix of the padded array, and the blocks as its rows -/

variable (m : (ℓ : Loc nD τ sig) → Buf (Elt Ideal) ℓ)

/-- The padded 10240 × 10 array as the call finds it, and the two input blocks at a grid point, at their literal types. -/
abbrev padded (c : Dev nD) : Vec Ideal S10240x10 .f32 := V m c main_v396
abbrev rowBlk (c : Dev nD) (t : Fin cfg0.N) : Vec Ideal S2048x10 .f32 := iblk m c 0 t
abbrev colBlk (c : Dev nD) (t : Fin cfg0.N) : Vec Ideal S1024x10 .f32 := iblk m c 1 t

/-- The inner product of rows `r` and `s` of a 10240 × 10 array. -/
def gramAt (A : Vec Ideal S10240x10 .f32) (r s : Fin 10240) : EReal := ∑ k : Fin 10, A (ix2 r k) * A (ix2 s k)

/-- The Gram matrix of a 10240 × 10 array. -/
def gram (A : Vec Ideal S10240x10 .f32) : Vec Ideal S10240x10240 .f32 :=
  fun j => gramAt A ⟨(j 0).val, idx2_lt0 j⟩ ⟨(j 1).val, idx2_lt1 j⟩

/-- The three index maps over the grid: at point (i, j) the first window is at block (i, 0), the second at block (j, 0)
    and the output at block (i, j), with i below 5 and j below 10. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 4
    ∧ win0_2.index t (1 : Fin 2) ≤ 9 :=
  (by decide +kernel : ∀ t : Fin grid0.N, _)

/-- Every output block (i, j) with i below 5 and j below 10 is some grid point's. -/
theorem index_onto : ∀ (q0 : Fin 5) (q1 : Fin 10), ∃ t : Fin cfg0.N, win0_2.index t = ![q0.val, q1.val] :=
  (by decide +kernel : ∀ (q0 : Fin 5) (q1 : Fin 10), ∃ t : Fin grid0.N, win0_2.index t = ![q0.val, q1.val])

/-- Row `a` of the first window's block at point `t` is row (block index × 2048 + a) of the padded array. -/
theorem rows_read (c : Dev nD) (t : Fin cfg0.N) (a : Fin 2048) (k : Fin 10) (r : Fin 10240)
    (hr : r.val = win0_0.index t (0 : Fin 2) * 2048 + a.val) (h1 : win0_0.index t (1 : Fin 2) = 0) :
    rowBlk m c t (ix2 a k) = padded m c (ix2 r k) := by
  show padded m c (((cfg0.win 0).blk t).view.emb (ix2 a k)) = _
  refine congrArg (padded m c) (funext fun d => Fin.ext ?_)
  match d with
  | ⟨0, _⟩ => show win0_0.index t (0 : Fin 2) * 2048 + 1 * a.val = r.val; omega
  | ⟨1, _⟩ => show win0_0.index t (1 : Fin 2) * 10 + 1 * k.val = k.val; omega

/-- Row `b` of the second window's block at point `t` is row (block index × 1024 + b) of the padded array. -/
theorem cols_read (c : Dev nD) (t : Fin cfg0.N) (b : Fin 1024) (k : Fin 10) (s : Fin 10240)
    (hs : s.val = win0_1.index t (0 : Fin 2) * 1024 + b.val) (h1 : win0_1.index t (1 : Fin 2) = 0) :
    colBlk m c t (ix2 b k) = padded m c (ix2 s k) := by
  show padded m c (((cfg0.win 1).blk t).view.emb (ix2 b k)) = _
  refine congrArg (padded m c) (funext fun d => Fin.ext ?_)
  match d with
  | ⟨0, _⟩ => show win0_1.index t (0 : Fin 2) * 1024 + 1 * b.val = s.val; omega
  | ⟨1, _⟩ => show win0_1.index t (1 : Fin 2) * 10 + 1 * k.val = k.val; omega

/-- If row `a` of the first block is row `r` of an array and row `b` of the second block is row `s` of the same array,
    entry (a, b) of the tile is the inner product of rows `r` and `s`. -/
theorem tile_of_blocks (A : Vec Ideal S10240x10 .f32) (x0 : Vec Ideal S2048x10 .f32) (x1 : Vec Ideal S1024x10 .f32)
    (a : Fin 2048) (b : Fin 1024) (r s : Fin 10240)
    (h0 : ∀ k : Fin 10, x0 (ix2 a k) = A (ix2 r k)) (h1 : ∀ k : Fin 10, x1 (ix2 b k) = A (ix2 s k)) :
    outTile x0 x1 (ix2 a b) = gramAt A r s := by
  rw [tile_apply]
  unfold gramAt
  exact Finset.sum_congr rfl fun k _ => by rw [h0 k, h1 k]

/-! ## What a grid point writes back, and the array after the call -/

/-- What point `t` writes back is its block of the Gram matrix of the padded array. -/
theorem flushed_eq (c : Dev nD) (t : Fin cfg0.N) :
    (dats m 0 c).flushed 2 t = ((cfg0.win 2).blk t).view.read (Elt Ideal) (gram (padded m c)) := by
  show (cfg0.win 2).cut (grid0.coords t) ((dats m 0 c).after 2 t) = _
  rw [after_tile]
  obtain ⟨e0, e1, e2, e3, b0, b1⟩ := index_facts t
  refine funext fun (j : S2048x1024.Idx) => ?_
  obtain ⟨a, b, rfl⟩ : ∃ (a : Fin 2048) (b : Fin 1024), j = ix2 a b := ⟨j 0, j 1, eq_ix2 j⟩
  have ha : a.val < 2048 := a.isLt
  have hb : b.val < 1024 := b.isLt
  show outTile (rowBlk m c t) (colBlk m c t) (ix2 a b) = gram (padded m c) (((cfg0.win 2).blk t).view.emb (ix2 a b))
  refine (tile_of_blocks (padded m c) (rowBlk m c t) (colBlk m c t) a b
    ⟨win0_2.index t (0 : Fin 2) * 2048 + a.val, by omega⟩ ⟨win0_2.index t (1 : Fin 2) * 1024 + b.val, by omega⟩
    (fun k => rows_read m c t a k _ (by show _ = win0_0.index t (0 : Fin 2) * 2048 + a.val; rw [e0]) e1)
    (fun k => cols_read m c t b k _ (by show _ = win0_1.index t (0 : Fin 2) * 1024 + b.val; rw [e2]) e3)).trans ?_
  unfold gram
  congr 1 <;> apply Fin.ext
  · show win0_2.index t (0 : Fin 2) * 2048 + a.val = win0_2.index t (0 : Fin 2) * 2048 + 1 * a.val; omega
  · show win0_2.index t (1 : Fin 2) * 1024 + b.val = win0_2.index t (1 : Fin 2) * 1024 + 1 * b.val; omega

/-- An index of the output array lies in point `t`'s block iff each coordinate lies in the block's range on its axis. -/
theorem mem_block (t : Fin cfg0.N) (i : S10240x10240.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v397).slice (win0_2.rect t)).set ↔ _
  rw [View.set_slice_whole, Rect.mem_set_unit]
  exact Iff.rfl

/-- Every index (r, s) of the output array lies in the block of the point at (r / 2048, s / 1024), which writes back. -/
theorem covered (i : S10240x10240.Idx) :
    ∃ t : Fin cfg0.N, (cfg0.win 2).flush t = true ∧ i ∈ ((cfg0.win 2).blk t).view.set := by
  have hi0 : (i 0).val < 10240 := idx2_lt0 i
  have hi1 : (i 1).val < 10240 := idx2_lt1 i
  obtain ⟨t, ht⟩ := index_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- After the call the output array is the Gram matrix of the padded array. -/
theorem gram_array (c : Dev nD) : (dats m 0 c).arrAt 2 cfg0.N = gram (padded m c) :=
  (dats m 0 c).arrAt_eq_of_cover 2 (gram (padded m c)) (fun t _ => flushed_eq m c t) covered

/-! ## The slice of the result, and the padding -/

/-- Padding 240 rows at the end leaves the first 10000 rows as they were. -/
theorem padded_row (x : Vec Ideal S10000x10 .f32) (v : Vec Ideal S_ .f32) (p : Fin 10000) (r : Fin 10240) (hr : r.val = p.val) (k : Fin 10) :
    pad S10240x10 ![0, 0] ![240, 0] ![0, 0] x v pads_S10000x10_S10240x10_02400_000 h_S_ (ix2 r k) = x (ix2 p k) :=
  pad_apply_of_inside _ _ _ x v _ _ (ix2 r k) (ix2 p k) fun a => by
    match a with
    | ⟨0, _⟩ => show r.val = 0 + p.val * (0 + 1); omega
    | ⟨1, _⟩ => show k.val = 0 + k.val * (0 + 1); omega

/-- The leading 10000 × 10000 corner of the Gram matrix of a 10000 × 10 array padded to 10240 rows is the Gram matrix
    of the array itself. -/
theorem slice_of_gram (X : Vec Ideal S10240x10240 .f32) (A : Vec Ideal S10240x10 .f32) (hX : X = gram A)
    (x : Vec Ideal S10000x10 .f32) (v : Vec Ideal S_ .f32)
    (hA : A = pad S10240x10 ![0, 0] ![240, 0] ![0, 0] x v pads_S10000x10_S10240x10_02400_000 h_S_) (p q : Fin 10000) :
    extractStridedSlice S10000x10000 ![0, 0] X slices_S10240x10240_S10000x10000_0_0 (ix2 p q)
      = ∑ k : Fin 10, x (ix2 p k) * x (ix2 q k) := by
  have hp : p.val < 10240 := by have := p.isLt; omega
  have hq : q.val < 10240 := by have := q.isLt; omega
  subst hX
  refine (extractStridedSlice_apply ![0, 0] (gram A) slices_S10240x10240_S10000x10000_0_0 (ix2 p q)
    (ix2 (⟨p.val, hp⟩ : Fin 10240) (⟨q.val, hq⟩ : Fin 10240)) (fun a => by
      match a with
      | ⟨0, _⟩ => show p.val = 0 + p.val; omega
      | ⟨1, _⟩ => show q.val = 0 + q.val; omega)).trans ?_
  show gramAt A ⟨p.val, hp⟩ ⟨q.val, hq⟩ = _
  unfold gramAt
  refine Finset.sum_congr rfl fun k _ => ?_
  rw [hA, padded_row x v p ⟨p.val, hp⟩ rfl k, padded_row x v q ⟨q.val, hq⟩ rfl k]

/-- The unpadded 10000 × 10 array as the call finds it, at its literal type. -/
abbrev unpadded (c : Dev nD) : Vec Ideal S10000x10 .f32 := V m c main_v395

/-- The slice of the call's result at (p, q) is the inner product of rows `p` and `q` of the unpadded array, given that
    the padded array is the unpadded one with 240 rows added at the end. -/
theorem gram_out (c : Dev nD) (p q : Fin 10000)
    (hpad : V m c main_v396 = pad S10240x10 ![0, 0] ![240, 0] ![0, 0] (V m c main_v395) (V m c main_call21_v0) pads_S10000x10_S10240x10_02400_000 h_S_) :
    (extractStridedSlice S10000x10000 ![0, 0] ((dats m 0 c).arrAt 2 cfg0.N) slices_S10240x10240_S10000x10000_0_0 (ValueIdx.ix2 p q) : EReal)
      = ∑ k : Fin 10, unpadded m c (ValueIdx.ix2 p k) * unpadded m c (ValueIdx.ix2 q k) :=
  slice_of_gram ((dats m 0 c).arrAt 2 cfg0.N) (padded m c) (gram_array m c) (unpadded m c) (V m c main_call21_v0) hpad p q

end Cert.KernelIdeal.Hand

end
-- ==== Proof.RBlocks.lean ====
import proofs.«176114_j39599598469276_1_alg».proof.Proof.Gen.ReferenceIdeal
import Idealize.ShloMosaic.Lib.StableHlo.Run

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 0 … 67. -/
abbrev rblk00 : List (HloOp τ sig (Elt F)) :=
  [ unary main_arg3 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg3 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    nullary main_cst (constant S_ .f32 0x3F800000#32),
    unary main_cst main_v4 (broadcastInDim S320000 ![] bcast_S_S320000 : (⟨S_, .f32⟩ : BufTy).Contents (Elt F) → (⟨S320000, .f32⟩ : BufTy).Contents (Elt F)),
    nullary main_cst_0 (constant S_ .f32 0x00000000#32),
    unary main_cst_0 main_v5 (broadcastInDim S10000 ![] bcast_S_S10000 : (⟨S_, .f32⟩ : BufTy).Contents (Elt F) → (⟨S10000, .f32⟩ : BufTy).Contents (Elt F)),
    unary main_v1 main_v6 (broadcastInDim S320000x1 ![0] bcast_S320000_S320000x1_0 : (⟨S320000, .i32⟩ : BufTy).Contents (Elt F) → (⟨S320000x1, .i32⟩ : BufTy).Contents (Elt F)),
    ternary main_v5 main_v6 main_v4 main_v7 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_1 (constant S_ .f32 0x00000000#32),
    unary main_cst_1 main_v8 (broadcastInDim S10000 ![] bcast_S_S10000 : (⟨S_, .f32⟩ : BufTy).Contents (Elt F) → (⟨S10000, .f32⟩ : BufTy).Contents (Elt F)),
    unary main_v3 main_v9 (broadcastInDim S320000x1 ![0] bcast_S320000_S320000x1_0 : (⟨S320000, .i32⟩ : BufTy).Contents (Elt F) → (⟨S320000x1, .i32⟩ : BufTy).Contents (Elt F)),
    ternary main_v8 main_v9 main_v4 main_v10 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_2 (constant S_ .f32 0x00000000#32),
    unary main_cst_2 main_v11 (broadcastInDim S10000 ![] bcast_S_S10000 : (⟨S_, .f32⟩ : BufTy).Contents (Elt F) → (⟨S10000, .f32⟩ : BufTy).Contents (Elt F)),
    binary main_v7 main_v11 main_v12 (cmpf .ogt : (⟨S10000, .f32⟩ : BufTy).Contents (Elt F) → (⟨S10000, .f32⟩ : BufTy).Contents (Elt F) → (⟨S10000, .i1⟩ : BufTy).Contents (Elt F)),
    nullary main_cst_3 (constant S_ .f32 0x3F800000#32),
    unary main_cst_3 main_v13 (broadcastInDim S10000 ![] bcast_S_S10000 : (⟨S_, .f32⟩ : BufTy).Contents (Elt F) → (⟨S10000, .f32⟩ : BufTy).Contents (Elt F)),
    binary main_v7 main_v13 main_v14 (maximumf : (⟨S10000, .f32⟩ : BufTy).Contents (Elt F) → (⟨S10000, .f32⟩ : BufTy).Contents (Elt F) → (⟨S10000, .f32⟩ : BufTy).Contents (Elt F)),
    unary main_v14 main_v15 (Host.rsqrt : (⟨S10000, .f32⟩ : BufTy).Contents (Elt F) → (⟨S10000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v12) (TRef.of (T := ⟨S10000, .f32⟩) main_v15) (TRef.of (T := ⟨S10000, .f32⟩) main_call0_v1) (TRef.of (T := ⟨S10000, .f32⟩) main_v16) select,
    nullary main_cst_5 (constant S_ .f32 0x00000000#32),
    unary main_cst_5 main_v17 (broadcastInDim S10000 ![] bcast_S_S10000 : (⟨S_, .f32⟩ : BufTy).Contents (Elt F) → (⟨S10000, .f32⟩ : BufTy).Contents (Elt F)),
    binary main_v10 main_v17 main_v18 (cmpf .ogt : (⟨S10000, .f32⟩ : BufTy).Contents (Elt F) → (⟨S10000, .f32⟩ : BufTy).Contents (Elt F) → (⟨S10000, .i1⟩ : BufTy).Contents (Elt F)),
    nullary main_cst_6 (constant S_ .f32 0x3F800000#32),
    unary main_cst_6 main_v19 (broadcastInDim S10000 ![] bcast_S_S10000 : (⟨S_, .f32⟩ : BufTy).Contents (Elt F) → (⟨S10000, .f32⟩ : BufTy).Contents (Elt F)),
    binary main_v10 main_v19 main_v20 (maximumf : (⟨S10000, .f32⟩ : BufTy).Contents (Elt F) → (⟨S10000, .f32⟩ : BufTy).Contents (Elt F) → (⟨S10000, .f32⟩ : BufTy).Contents (Elt F)),
    unary main_v20 main_v21 (Host.rsqrt : (⟨S10000, .f32⟩ : BufTy).Contents (Elt F) → (⟨S10000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S10000, .f32⟩) main_call1_v1) (broadcastInDim S10000 ![] bcast_S_S10000),
    TRef.ternary (TRef.of (T := ⟨S10000, .i1⟩) main_v18) (TRef.of (T := ⟨S10000, .f32⟩) main_v21) (TRef.of (T := ⟨S10000, .f32⟩) main_call1_v1) (TRef.of (T := ⟨S10000, .f32⟩) main_v22) select,
    binary main_arg0 main_arg7 main_v23 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_c (constantI S_ 32 0#32),
    unary main_c main_v24 (broadcastInDim S320000 ![] bcast_S_S320000 : (⟨S_, .i32⟩ : BufTy).Contents (Elt F) → (⟨S320000, .i32⟩ : BufTy).Contents (Elt F)),
    binary main_v1 main_v24 main_v25 (cmpi .slt : (⟨S320000, .i32⟩ : BufTy).Contents (Elt F) → (⟨S320000, .i32⟩ : BufTy).Contents (Elt F) → (⟨S320000, .i1⟩ : BufTy).Contents (Elt F)),
    nullary main_c_8 (constantI S_ 32 10000#32),
    unary main_c_8 main_v26 (broadcastInDim S320000 ![] bcast_S_S320000 : (⟨S_, .i32⟩ : BufTy).Contents (Elt F) → (⟨S320000, .i32⟩ : BufTy).Contents (Elt F)),
    binary main_v1 main_v26 main_v27 (addi : (⟨S320000, .i32⟩ : BufTy).Contents (Elt F) → (⟨S320000, .i32⟩ : BufTy).Contents (Elt F) → (⟨S320000, .i32⟩ : BufTy).Contents (Elt F)),
    ternary main_v25 main_v27 main_v1 main_v28 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v28 main_v29 (broadcastInDim S320000x1 ![0] bcast_S320000_S320000x1_0 : (⟨S320000, .i32⟩ : BufTy).Contents (Elt F) → (⟨S320000x1, .i32⟩ : BufTy).Contents (Elt F)),
    binary main_v23 main_v29 main_v30 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_9 (constantI S_ 32 0#32),
    unary main_c_9 main_v31 (broadcastInDim S320000 ![] bcast_S_S320000 : (⟨S_, .i32⟩ : BufTy).Contents (Elt F) → (⟨S320000, .i32⟩ : BufTy).Contents (Elt F)),
    binary main_v1 main_v31 main_v32 (cmpi .slt : (⟨S320000, .i32⟩ : BufTy).Contents (Elt F) → (⟨S320000, .i32⟩ : BufTy).Contents (Elt F) → (⟨S320000, .i1⟩ : BufTy).Contents (Elt F)),
    nullary main_c_10 (constantI S_ 32 10000#32),
    unary main_c_10 main_v33 (broadcastInDim S320000 ![] bcast_S_S320000 : (⟨S_, .i32⟩ : BufTy).Contents (Elt F) → (⟨S320000, .i32⟩ : BufTy).Contents (Elt F)),
    binary main_v1 main_v33 main_v34 (addi : (⟨S320000, .i32⟩ : BufTy).Contents (Elt F) → (⟨S320000, .i32⟩ : BufTy).Contents (Elt F) → (⟨S320000, .i32⟩ : BufTy).Contents (Elt F)),
    ternary main_v32 main_v34 main_v1 main_v35 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v35 main_v36 (broadcastInDim S320000x1 ![0] bcast_S320000_S320000x1_0 : (⟨S320000, .i32⟩ : BufTy).Contents (Elt F) → (⟨S320000x1, .i32⟩ : BufTy).Contents (Elt F)),
    binary main_v16 main_v36 main_v37 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v37 main_v38 (broadcastInDim S320000x1 ![0] bcast_S320000_S320000x1_0 : (⟨S320000, .f32⟩ : BufTy).Contents (Elt F) → (⟨S320000x1, .f32⟩ : BufTy).Contents (Elt F)),
    unary main_v38 main_v39 (broadcastInDim S320000x256 ![0, 1] bcast_S320000x1_S320000x256_0_1 : (⟨S320000x1, .f32⟩ : BufTy).Contents (Elt F) → (⟨S320000x256, .f32⟩ : BufTy).Contents (Elt F)),
    binary main_v30 main_v39 main_v40 (mulf : (⟨S320000x256, .f32⟩ : BufTy).Contents (Elt F) → (⟨S320000x256, .f32⟩ : BufTy).Contents (Elt F) → (⟨S320000x256, .f32⟩ : BufTy).Contents (Elt F)),
    nullary main_cst_11 (constant S_ .f32 0x00000000#32),
    unary main_cst_11 main_v41 (broadcastInDim S10000x256 ![] bcast_S_S10000x256 : (⟨S_, .f32⟩ : BufTy).Contents (Elt F) → (⟨S10000x256, .f32⟩ : BufTy).Contents (Elt F)),
    unary main_v3 main_v42 (broadcastInDim S320000x1 ![0] bcast_S320000_S320000x1_0 : (⟨S320000, .i32⟩ : BufTy).Contents (Elt F) → (⟨S320000x1, .i32⟩ : BufTy).Contents (Elt F)),
    ternary main_v41 main_v42 main_v40 main_v43 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    unary main_v22 main_v44 (broadcastInDim S10000x1 ![0] bcast_S10000_S10000x1_0 : (⟨S10000, .f32⟩ : BufTy).Contents (Elt F) → (⟨S10000x1, .f32⟩ : BufTy).Contents (Elt F)),
    unary main_v44 main_v45 (broadcastInDim S10000x256 ![0, 1] bcast_S10000x1_S10000x256_0_1 : (⟨S10000x1, .f32⟩ : BufTy).Contents (Elt F) → (⟨S10000x256, .f32⟩ : BufTy).Contents (Elt F)),
    binary main_v43 main_v45 main_v46 (mulf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S10000x256, .f32⟩) main_call2_v0) (broadcastInDim S10000x256 ![] bcast_S_S10000x256),
    TRef.binary (TRef.of (T := ⟨S10000x256, .f32⟩) main_v46) (TRef.of (T := ⟨S10000x256, .f32⟩) main_call2_v0) (TRef.of (T := ⟨S10000x256, .f32⟩) main_v47) maximumf ]
abbrev rblk00_W : List (Ref sig .tc) := [main_v0, main_v1, main_v2, main_v3, main_cst, main_v4, main_cst_0, main_v5, main_v6, main_v7, main_cst_1, main_v8, main_v9, main_v10, main_cst_2, main_v11, main_v12, main_cst_3, main_v13, main_v14, main_v15, main_cst_4, main_call0_v0, main_call0_v1, main_v16, main_cst_5, main_v17, main_v18, main_cst_6, main_v19, main_v20, main_v21, main_cst_7, main_call1_v0, main_call1_v1, main_v22, main_v23, main_c, main_v24, main_v25, main_c_8, main_v26, main_v27, main_v28, main_v29, main_v30, main_c_9, main_v31, main_v32, main_c_10, main_v33, main_v34, main_v35, main_v36, main_v37, main_v38, main_v39, main_v40, main_cst_11, main_v41, main_v42, main_v43, main_v44, main_v45, main_v46, main_call2_cst, main_call2_v0, main_v47]
theorem rblk00_writes : (rblk00 : List (HloOp τ sig (Elt F))).Forall fun op => op.writes ⊆ (rblk00_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk00_sub : (rblk00 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem rblk00_fresh : (rblk00 : List (HloOp τ sig (Elt F))).Forall fun op => op.fresh = ∅ := by
  simp only [List.Forall]; repeat' constructor
theorem rblk00_keep (W : Valuation τ sig (Elt F)) (r : Ref sig .tc) (h : r ∉ rblk00_W) :
    after (rblk00 : List (HloOp τ sig (Elt F))) W (Proc.devRef .tc r) = W (Proc.devRef .tc r) :=
  after_of_writes_sub rblk00 _ rblk00_writes h

/-- Operations 68 … 103. -/
abbrev rblk01 : List (HloOp τ sig (Elt F)) :=
  [ unary main_arg3 main_v48 ((extractStridedSlice S1x320000 ![0, 0] · slices_S2x320000_S1x320000_0_0) : (⟨S2x320000, .i32⟩ : BufTy).Contents (Elt F) → (⟨S1x320000, .i32⟩ : BufTy).Contents (Elt F)),
    reshape main_v48 main_v49 rfl shapeCasts_S1x320000_S320000,
    unary main_arg3 main_v50 ((extractStridedSlice S1x320000 ![1, 0] · slices_S2x320000_S1x320000_1_0) : (⟨S2x320000, .i32⟩ : BufTy).Contents (Elt F) → (⟨S1x320000, .i32⟩ : BufTy).Contents (Elt F)),
    reshape main_v50 main_v51 rfl shapeCasts_S1x320000_S320000,
    nullary main_cst_12 (constant S_ .f32 0x3F800000#32),
    unary main_cst_12 main_v52 (broadcastInDim S320000 ![] bcast_S_S320000 : (⟨S_, .f32⟩ : BufTy).Contents (Elt F) → (⟨S320000, .f32⟩ : BufTy).Contents (Elt F)),
    nullary main_cst_13 (constant S_ .f32 0x00000000#32),
    unary main_cst_13 main_v53 (broadcastInDim S10000 ![] bcast_S_S10000 : (⟨S_, .f32⟩ : BufTy).Contents (Elt F) → (⟨S10000, .f32⟩ : BufTy).Contents (Elt F)),
    unary main_v49 main_v54 (broadcastInDim S320000x1 ![0] bcast_S320000_S320000x1_0 : (⟨S320000, .i32⟩ : BufTy).Contents (Elt F) → (⟨S320000x1, .i32⟩ : BufTy).Contents (Elt F)),
    ternary main_v53 main_v54 main_v52 main_v55 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_14 (constant S_ .f32 0x00000000#32),
    unary main_cst_14 main_v56 (broadcastInDim S10000 ![] bcast_S_S10000 : (⟨S_, .f32⟩ : BufTy).Contents (Elt F) → (⟨S10000, .f32⟩ : BufTy).Contents (Elt F)),
    unary main_v51 main_v57 (broadcastInDim S320000x1 ![0] bcast_S320000_S320000x1_0 : (⟨S320000, .i32⟩ : BufTy).Contents (Elt F) → (⟨S320000x1, .i32⟩ : BufTy).Contents (Elt F)),
    ternary main_v56 main_v57 main_v52 main_v58 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_15 (constant S_ .f32 0x00000000#32),
    unary main_cst_15 main_v59 (broadcastInDim S10000 ![] bcast_S_S10000 : (⟨S_, .f32⟩ : BufTy).Contents (Elt F) → (⟨S10000, .f32⟩ : BufTy).Contents (Elt F)),
    binary main_v55 main_v59 main_v60 (cmpf .ogt : (⟨S10000, .f32⟩ : BufTy).Contents (Elt F) → (⟨S10000, .f32⟩ : BufTy).Contents (Elt F) → (⟨S10000, .i1⟩ : BufTy).Contents (Elt F)),
    nullary main_cst_16 (constant S_ .f32 0x3F800000#32),
    unary main_cst_16 main_v61 (broadcastInDim S10000 ![] bcast_S_S10000 : (⟨S_, .f32⟩ : BufTy).Contents (Elt F) → (⟨S10000, .f32⟩ : BufTy).Contents (Elt F)),
    binary main_v55 main_v61 main_v62 (maximumf : (⟨S10000, .f32⟩ : BufTy).Contents (Elt F) → (⟨S10000, .f32⟩ : BufTy).Contents (Elt F) → (⟨S10000, .f32⟩ : BufTy).Contents (Elt F)),
    unary main_v62 main_v63 (Host.rsqrt : (⟨S10000, .f32⟩ : BufTy).Contents (Elt F) → (⟨S10000, .f32⟩ : BufTy).Contents (Elt F)),
    nullary main_cst_17 (constant S_ .f32 0x00000000#32),
    TRef.unary (TRef.of (T := ⟨S_, .f32⟩) main_cst_17) (TRef.of (T := ⟨S_, .f32⟩) main_call3_v0) id,
    TRef.unary (TRef.of (T := ⟨S_, .f32⟩) main_call3_v0) (TRef.of (T := ⟨S10000, .f32⟩) main_call3_v1) (broadcastInDim S10000 ![] bcast_S_S10000),
    TRef.ternary (TRef.of (T := ⟨S10000, .i1⟩) main_v60) (TRef.of (T := ⟨S10000, .f32⟩) main_v63) (TRef.of (T := ⟨S10000, .f32⟩) main_call3_v1) (TRef.of (T := ⟨S10000, .f32⟩) main_v64) select,
    nullary main_cst_18 (constant S_ .f32 0x00000000#32),
    unary main_cst_18 main_v65 (broadcastInDim S10000 ![] bcast_S_S10000 : (⟨S_, .f32⟩ : BufTy).Contents (Elt F) → (⟨S10000, .f32⟩ : BufTy).Contents (Elt F)),
    binary main_v58 main_v65 main_v66 (cmpf .ogt : (⟨S10000, .f32⟩ : BufTy).Contents (Elt F) → (⟨S10000, .f32⟩ : BufTy).Contents (Elt F) → (⟨S10000, .i1⟩ : BufTy).Contents (Elt F)),
    nullary main_cst_19 (constant S_ .f32 0x3F800000#32),
    unary main_cst_19 main_v67 (broadcastInDim S10000 ![] bcast_S_S10000 : (⟨S_, .f32⟩ : BufTy).Contents (Elt F) → (⟨S10000, .f32⟩ : BufTy).Contents (Elt F)),
    binary main_v58 main_v67 main_v68 (maximumf : (⟨S10000, .f32⟩ : BufTy).Contents (Elt F) → (⟨S10000, .f32⟩ : BufTy).Contents (Elt F) → (⟨S10000, .f32⟩ : BufTy).Contents (Elt F)),
    unary main_v68 main_v69 (Host.rsqrt : (⟨S10000, .f32⟩ : BufTy).Contents (Elt F) → (⟨S10000, .f32⟩ : BufTy).Contents (Elt F)),
    nullary main_cst_20 (constant S_ .f32 0x00000000#32),
    TRef.unary (TRef.of (T := ⟨S_, .f32⟩) main_cst_20) (TRef.of (T := ⟨S_, .f32⟩) main_call4_v0) id,
    TRef.unary (TRef.of (T := ⟨S_, .f32⟩) main_call4_v0) (TRef.of (T := ⟨S10000, .f32⟩) main_call4_v1) (broadcastInDim S10000 ![] bcast_S_S10000),
    TRef.ternary (TRef.of (T := ⟨S10000, .i1⟩) main_v66) (TRef.of (T := ⟨S10000, .f32⟩) main_v69) (TRef.of (T := ⟨S10000, .f32⟩) main_call4_v1) (TRef.of (T := ⟨S10000, .f32⟩) main_v70) select ]
abbrev rblk01_W : List (Ref sig .tc) := [main_v48, main_v49, main_v50, main_v51, main_cst_12, main_v52, main_cst_13, main_v53, main_v54, main_v55, main_cst_14, main_v56, main_v57, main_v58, main_cst_15, main_v59, main_v60, main_cst_16, main_v61, main_v62, main_v63, main_cst_17, main_call3_v0, main_call3_v1, main_v64, main_cst_18, main_v65, main_v66, main_cst_19, main_v67, main_v68, main_v69, main_cst_20, main_call4_v0, main_call4_v1, main_v70]
theorem rblk01_writes : (rblk01 : List (HloOp τ sig (Elt F))).Forall fun op => op.writes ⊆ (rblk01_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk01_sub : (rblk01 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk01_fresh : (rblk01 : List (HloOp τ sig (Elt F))).Forall fun op => op.fresh = ∅ := by
  simp only [List.Forall]; repeat' constructor
theorem rblk01_keep (W : Valuation τ sig (Elt F)) (r : Ref sig .tc) (h : r ∉ rblk01_W) :
    after (rblk01 : List (HloOp τ sig (Elt F))) W (Proc.devRef .tc r) = W (Proc.devRef .tc r) :=
  after_of_writes_sub rblk01 _ rblk01_writes h

/-- Operations 104 … 168. -/
abbrev rblk02 : List (HloOp τ sig (Elt F)) :=
  [ binary main_v47 main_arg8 main_v71 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    nullary main_c_21 (constantI S_ 32 0#32),
    unary main_c_21 main_v72 (broadcastInDim S320000 ![] bcast_S_S320000 : (⟨S_, .i32⟩ : BufTy).Contents (Elt F) → (⟨S320000, .i32⟩ : BufTy).Contents (Elt F)),
    binary main_v49 main_v72 main_v73 (cmpi .slt : (⟨S320000, .i32⟩ : BufTy).Contents (Elt F) → (⟨S320000, .i32⟩ : BufTy).Contents (Elt F) → (⟨S320000, .i1⟩ : BufTy).Contents (Elt F)),
    nullary main_c_22 (constantI S_ 32 10000#32),
    unary main_c_22 main_v74 (broadcastInDim S320000 ![] bcast_S_S320000 : (⟨S_, .i32⟩ : BufTy).Contents (Elt F) → (⟨S320000, .i32⟩ : BufTy).Contents (Elt F)),
    binary main_v49 main_v74 main_v75 (addi : (⟨S320000, .i32⟩ : BufTy).Contents (Elt F) → (⟨S320000, .i32⟩ : BufTy).Contents (Elt F) → (⟨S320000, .i32⟩ : BufTy).Contents (Elt F)),
    ternary main_v73 main_v75 main_v49 main_v76 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v76 main_v77 (broadcastInDim S320000x1 ![0] bcast_S320000_S320000x1_0 : (⟨S320000, .i32⟩ : BufTy).Contents (Elt F) → (⟨S320000x1, .i32⟩ : BufTy).Contents (Elt F)),
    binary main_v71 main_v77 main_v78 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    nullary main_c_23 (constantI S_ 32 0#32),
    unary main_c_23 main_v79 (broadcastInDim S320000 ![] bcast_S_S320000 : (⟨S_, .i32⟩ : BufTy).Contents (Elt F) → (⟨S320000, .i32⟩ : BufTy).Contents (Elt F)),
    binary main_v49 main_v79 main_v80 (cmpi .slt : (⟨S320000, .i32⟩ : BufTy).Contents (Elt F) → (⟨S320000, .i32⟩ : BufTy).Contents (Elt F) → (⟨S320000, .i1⟩ : BufTy).Contents (Elt F)),
    nullary main_c_24 (constantI S_ 32 10000#32),
    unary main_c_24 main_v81 (broadcastInDim S320000 ![] bcast_S_S320000 : (⟨S_, .i32⟩ : BufTy).Contents (Elt F) → (⟨S320000, .i32⟩ : BufTy).Contents (Elt F)),
    binary main_v49 main_v81 main_v82 (addi : (⟨S320000, .i32⟩ : BufTy).Contents (Elt F) → (⟨S320000, .i32⟩ : BufTy).Contents (Elt F) → (⟨S320000, .i32⟩ : BufTy).Contents (Elt F)),
    ternary main_v80 main_v82 main_v49 main_v83 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v83 main_v84 (broadcastInDim S320000x1 ![0] bcast_S320000_S320000x1_0 : (⟨S320000, .i32⟩ : BufTy).Contents (Elt F) → (⟨S320000x1, .i32⟩ : BufTy).Contents (Elt F)),
    binary main_v64 main_v84 main_v85 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v85 main_v86 (broadcastInDim S320000x1 ![0] bcast_S320000_S320000x1_0 : (⟨S320000, .f32⟩ : BufTy).Contents (Elt F) → (⟨S320000x1, .f32⟩ : BufTy).Contents (Elt F)),
    unary main_v86 main_v87 (broadcastInDim S320000x64 ![0, 1] bcast_S320000x1_S320000x64_0_1 : (⟨S320000x1, .f32⟩ : BufTy).Contents (Elt F) → (⟨S320000x64, .f32⟩ : BufTy).Contents (Elt F)),
    binary main_v78 main_v87 main_v88 (mulf : (⟨S320000x64, .f32⟩ : BufTy).Contents (Elt F) → (⟨S320000x64, .f32⟩ : BufTy).Contents (Elt F) → (⟨S320000x64, .f32⟩ : BufTy).Contents (Elt F)),
    nullary main_cst_25 (constant S_ .f32 0x00000000#32),
    unary main_cst_25 main_v89 (broadcastInDim S10000x64 ![] bcast_S_S10000x64 : (⟨S_, .f32⟩ : BufTy).Contents (Elt F) → (⟨S10000x64, .f32⟩ : BufTy).Contents (Elt F)),
    unary main_v51 main_v90 (broadcastInDim S320000x1 ![0] bcast_S320000_S320000x1_0 : (⟨S320000, .i32⟩ : BufTy).Contents (Elt F) → (⟨S320000x1, .i32⟩ : BufTy).Contents (Elt F)),
    ternary main_v89 main_v90 main_v88 main_v91 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    unary main_v70 main_v92 (broadcastInDim S10000x1 ![0] bcast_S10000_S10000x1_0 : (⟨S10000, .f32⟩ : BufTy).Contents (Elt F) → (⟨S10000x1, .f32⟩ : BufTy).Contents (Elt F)),
    unary main_v92 main_v93 (broadcastInDim S10000x64 ![0, 1] bcast_S10000x1_S10000x64_0_1 : (⟨S10000x1, .f32⟩ : BufTy).Contents (Elt F) → (⟨S10000x64, .f32⟩ : BufTy).Contents (Elt F)),
    binary main_v91 main_v93 main_v94 (mulf : (⟨S10000x64, .f32⟩ : BufTy).Contents (Elt F) → (⟨S10000x64, .f32⟩ : BufTy).Contents (Elt F) → (⟨S10000x64, .f32⟩ : BufTy).Contents (Elt F)),
    unary main_arg4 main_v95 ((extractStridedSlice S1x320000 ![0, 0] · slices_S2x320000_S1x320000_0_0) : (⟨S2x320000, .i32⟩ : BufTy).Contents (Elt F) → (⟨S1x320000, .i32⟩ : BufTy).Contents (Elt F)),
    reshape main_v95 main_v96 rfl shapeCasts_S1x320000_S320000,
    unary main_arg4 main_v97 ((extractStridedSlice S1x320000 ![1, 0] · slices_S2x320000_S1x320000_1_0) : (⟨S2x320000, .i32⟩ : BufTy).Contents (Elt F) → (⟨S1x320000, .i32⟩ : BufTy).Contents (Elt F)),
    reshape main_v97 main_v98 rfl shapeCasts_S1x320000_S320000,
    nullary main_cst_26 (constant S_ .f32 0x3F800000#32),
    unary main_cst_26 main_v99 (broadcastInDim S320000 ![] bcast_S_S320000 : (⟨S_, .f32⟩ : BufTy).Contents (Elt F) → (⟨S320000, .f32⟩ : BufTy).Contents (Elt F)),
    nullary main_cst_27 (constant S_ .f32 0x00000000#32),
    unary main_cst_27 main_v100 (broadcastInDim S10000 ![] bcast_S_S10000 : (⟨S_, .f32⟩ : BufTy).Contents (Elt F) → (⟨S10000, .f32⟩ : BufTy).Contents (Elt F)),
    unary main_v96 main_v101 (broadcastInDim S320000x1 ![0] bcast_S320000_S320000x1_0 : (⟨S320000, .i32⟩ : BufTy).Contents (Elt F) → (⟨S320000x1, .i32⟩ : BufTy).Contents (Elt F)),
    ternary main_v100 main_v101 main_v99 main_v102 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_28 (constant S_ .f32 0x00000000#32),
    unary main_cst_28 main_v103 (broadcastInDim S10000 ![] bcast_S_S10000 : (⟨S_, .f32⟩ : BufTy).Contents (Elt F) → (⟨S10000, .f32⟩ : BufTy).Contents (Elt F)),
    unary main_v98 main_v104 (broadcastInDim S320000x1 ![0] bcast_S320000_S320000x1_0 : (⟨S320000, .i32⟩ : BufTy).Contents (Elt F) → (⟨S320000x1, .i32⟩ : BufTy).Contents (Elt F)),
    ternary main_v103 main_v104 main_v99 main_v105 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_29 (constant S_ .f32 0x00000000#32),
    unary main_cst_29 main_v106 (broadcastInDim S10000 ![] bcast_S_S10000 : (⟨S_, .f32⟩ : BufTy).Contents (Elt F) → (⟨S10000, .f32⟩ : BufTy).Contents (Elt F)),
    binary main_v102 main_v106 main_v107 (cmpf .ogt : (⟨S10000, .f32⟩ : BufTy).Contents (Elt F) → (⟨S10000, .f32⟩ : BufTy).Contents (Elt F) → (⟨S10000, .i1⟩ : BufTy).Contents (Elt F)),
    nullary main_cst_30 (constant S_ .f32 0x3F800000#32),
    unary main_cst_30 main_v108 (broadcastInDim S10000 ![] bcast_S_S10000 : (⟨S_, .f32⟩ : BufTy).Contents (Elt F) → (⟨S10000, .f32⟩ : BufTy).Contents (Elt F)),
    binary main_v102 main_v108 main_v109 (maximumf : (⟨S10000, .f32⟩ : BufTy).Contents (Elt F) → (⟨S10000, .f32⟩ : BufTy).Contents (Elt F) → (⟨S10000, .f32⟩ : BufTy).Contents (Elt F)),
    unary main_v109 main_v110 (Host.rsqrt : (⟨S10000, .f32⟩ : BufTy).Contents (Elt F) → (⟨S10000, .f32⟩ : BufTy).Contents (Elt F)),
    nullary main_cst_31 (constant S_ .f32 0x00000000#32),
    TRef.unary (TRef.of (T := ⟨S_, .f32⟩) main_cst_31) (TRef.of (T := ⟨S_, .f32⟩) main_call5_v0) id,
    TRef.unary (TRef.of (T := ⟨S_, .f32⟩) main_call5_v0) (TRef.of (T := ⟨S10000, .f32⟩) main_call5_v1) (broadcastInDim S10000 ![] bcast_S_S10000),
    TRef.ternary (TRef.of (T := ⟨S10000, .i1⟩) main_v107) (TRef.of (T := ⟨S10000, .f32⟩) main_v110) (TRef.of (T := ⟨S10000, .f32⟩) main_call5_v1) (TRef.of (T := ⟨S10000, .f32⟩) main_v111) select,
    nullary main_cst_32 (constant S_ .f32 0x00000000#32),
    unary main_cst_32 main_v112 (broadcastInDim S10000 ![] bcast_S_S10000 : (⟨S_, .f32⟩ : BufTy).Contents (Elt F) → (⟨S10000, .f32⟩ : BufTy).Contents (Elt F)),
    binary main_v105 main_v112 main_v113 (cmpf .ogt : (⟨S10000, .f32⟩ : BufTy).Contents (Elt F) → (⟨S10000, .f32⟩ : BufTy).Contents (Elt F) → (⟨S10000, .i1⟩ : BufTy).Contents (Elt F)),
    nullary main_cst_33 (constant S_ .f32 0x3F800000#32),
    unary main_cst_33 main_v114 (broadcastInDim S10000 ![] bcast_S_S10000 : (⟨S_, .f32⟩ : BufTy).Contents (Elt F) → (⟨S10000, .f32⟩ : BufTy).Contents (Elt F)),
    binary main_v105 main_v114 main_v115 (maximumf : (⟨S10000, .f32⟩ : BufTy).Contents (Elt F) → (⟨S10000, .f32⟩ : BufTy).Contents (Elt F) → (⟨S10000, .f32⟩ : BufTy).Contents (Elt F)),
    unary main_v115 main_v116 (Host.rsqrt : (⟨S10000, .f32⟩ : BufTy).Contents (Elt F) → (⟨S10000, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S10000, .f32⟩) main_call6_v1) (broadcastInDim S10000 ![] bcast_S_S10000),
    TRef.ternary (TRef.of (T := ⟨S10000, .i1⟩) main_v113) (TRef.of (T := ⟨S10000, .f32⟩) main_v116) (TRef.of (T := ⟨S10000, .f32⟩) main_call6_v1) (TRef.of (T := ⟨S10000, .f32⟩) main_v117) select ]
abbrev rblk02_W : List (Ref sig .tc) := [main_v71, main_c_21, main_v72, main_v73, main_c_22, main_v74, main_v75, main_v76, main_v77, main_v78, main_c_23, main_v79, main_v80, main_c_24, main_v81, main_v82, main_v83, main_v84, main_v85, main_v86, main_v87, main_v88, main_cst_25, main_v89, main_v90, main_v91, main_v92, main_v93, main_v94, main_v95, main_v96, main_v97, main_v98, main_cst_26, main_v99, main_cst_27, main_v100, main_v101, main_v102, main_cst_28, main_v103, main_v104, main_v105, main_cst_29, main_v106, main_v107, main_cst_30, main_v108, main_v109, main_v110, main_cst_31, main_call5_v0, main_call5_v1, main_v111, main_cst_32, main_v112, main_v113, main_cst_33, main_v114, main_v115, main_v116, main_cst_34, main_call6_v0, main_call6_v1, main_v117]
theorem rblk02_writes : (rblk02 : List (HloOp τ sig (Elt F))).Forall fun op => op.writes ⊆ (rblk02_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk02_sub : (rblk02 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk02_fresh : (rblk02 : List (HloOp τ sig (Elt F))).Forall fun op => op.fresh = ∅ := by
  simp only [List.Forall]; repeat' constructor
theorem rblk02_keep (W : Valuation τ sig (Elt F)) (r : Ref sig .tc) (h : r ∉ rblk02_W) :
    after (rblk02 : List (HloOp τ sig (Elt F))) W (Proc.devRef .tc r) = W (Proc.devRef .tc r) :=
  after_of_writes_sub rblk02 _ rblk02_writes h

/-- Operations 169 … 200. -/
abbrev rblk03 : List (HloOp τ sig (Elt F)) :=
  [ binary main_arg1 main_arg9 main_v118 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_c_35 (constantI S_ 32 0#32),
    unary main_c_35 main_v119 (broadcastInDim S320000 ![] bcast_S_S320000 : (⟨S_, .i32⟩ : BufTy).Contents (Elt F) → (⟨S320000, .i32⟩ : BufTy).Contents (Elt F)),
    binary main_v96 main_v119 main_v120 (cmpi .slt : (⟨S320000, .i32⟩ : BufTy).Contents (Elt F) → (⟨S320000, .i32⟩ : BufTy).Contents (Elt F) → (⟨S320000, .i1⟩ : BufTy).Contents (Elt F)),
    nullary main_c_36 (constantI S_ 32 10000#32),
    unary main_c_36 main_v121 (broadcastInDim S320000 ![] bcast_S_S320000 : (⟨S_, .i32⟩ : BufTy).Contents (Elt F) → (⟨S320000, .i32⟩ : BufTy).Contents (Elt F)),
    binary main_v96 main_v121 main_v122 (addi : (⟨S320000, .i32⟩ : BufTy).Contents (Elt F) → (⟨S320000, .i32⟩ : BufTy).Contents (Elt F) → (⟨S320000, .i32⟩ : BufTy).Contents (Elt F)),
    ternary main_v120 main_v122 main_v96 main_v123 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v123 main_v124 (broadcastInDim S320000x1 ![0] bcast_S320000_S320000x1_0 : (⟨S320000, .i32⟩ : BufTy).Contents (Elt F) → (⟨S320000x1, .i32⟩ : BufTy).Contents (Elt F)),
    binary main_v118 main_v124 main_v125 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_37 (constantI S_ 32 0#32),
    unary main_c_37 main_v126 (broadcastInDim S320000 ![] bcast_S_S320000 : (⟨S_, .i32⟩ : BufTy).Contents (Elt F) → (⟨S320000, .i32⟩ : BufTy).Contents (Elt F)),
    binary main_v96 main_v126 main_v127 (cmpi .slt : (⟨S320000, .i32⟩ : BufTy).Contents (Elt F) → (⟨S320000, .i32⟩ : BufTy).Contents (Elt F) → (⟨S320000, .i1⟩ : BufTy).Contents (Elt F)),
    nullary main_c_38 (constantI S_ 32 10000#32),
    unary main_c_38 main_v128 (broadcastInDim S320000 ![] bcast_S_S320000 : (⟨S_, .i32⟩ : BufTy).Contents (Elt F) → (⟨S320000, .i32⟩ : BufTy).Contents (Elt F)),
    binary main_v96 main_v128 main_v129 (addi : (⟨S320000, .i32⟩ : BufTy).Contents (Elt F) → (⟨S320000, .i32⟩ : BufTy).Contents (Elt F) → (⟨S320000, .i32⟩ : BufTy).Contents (Elt F)),
    ternary main_v127 main_v129 main_v96 main_v130 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v130 main_v131 (broadcastInDim S320000x1 ![0] bcast_S320000_S320000x1_0 : (⟨S320000, .i32⟩ : BufTy).Contents (Elt F) → (⟨S320000x1, .i32⟩ : BufTy).Contents (Elt F)),
    binary main_v111 main_v131 main_v132 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v132 main_v133 (broadcastInDim S320000x1 ![0] bcast_S320000_S320000x1_0 : (⟨S320000, .f32⟩ : BufTy).Contents (Elt F) → (⟨S320000x1, .f32⟩ : BufTy).Contents (Elt F)),
    unary main_v133 main_v134 (broadcastInDim S320000x256 ![0, 1] bcast_S320000x1_S320000x256_0_1 : (⟨S320000x1, .f32⟩ : BufTy).Contents (Elt F) → (⟨S320000x256, .f32⟩ : BufTy).Contents (Elt F)),
    binary main_v125 main_v134 main_v135 (mulf : (⟨S320000x256, .f32⟩ : BufTy).Contents (Elt F) → (⟨S320000x256, .f32⟩ : BufTy).Contents (Elt F) → (⟨S320000x256, .f32⟩ : BufTy).Contents (Elt F)),
    nullary main_cst_39 (constant S_ .f32 0x00000000#32),
    unary main_cst_39 main_v136 (broadcastInDim S10000x256 ![] bcast_S_S10000x256 : (⟨S_, .f32⟩ : BufTy).Contents (Elt F) → (⟨S10000x256, .f32⟩ : BufTy).Contents (Elt F)),
    unary main_v98 main_v137 (broadcastInDim S320000x1 ![0] bcast_S320000_S320000x1_0 : (⟨S320000, .i32⟩ : BufTy).Contents (Elt F) → (⟨S320000x1, .i32⟩ : BufTy).Contents (Elt F)),
    ternary main_v136 main_v137 main_v135 main_v138 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    unary main_v117 main_v139 (broadcastInDim S10000x1 ![0] bcast_S10000_S10000x1_0 : (⟨S10000, .f32⟩ : BufTy).Contents (Elt F) → (⟨S10000x1, .f32⟩ : BufTy).Contents (Elt F)),
    unary main_v139 main_v140 (broadcastInDim S10000x256 ![0, 1] bcast_S10000x1_S10000x256_0_1 : (⟨S10000x1, .f32⟩ : BufTy).Contents (Elt F) → (⟨S10000x256, .f32⟩ : BufTy).Contents (Elt F)),
    binary main_v138 main_v140 main_v141 (mulf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S10000x256, .f32⟩) main_call7_v0) (broadcastInDim S10000x256 ![] bcast_S_S10000x256),
    TRef.binary (TRef.of (T := ⟨S10000x256, .f32⟩) main_v141) (TRef.of (T := ⟨S10000x256, .f32⟩) main_call7_v0) (TRef.of (T := ⟨S10000x256, .f32⟩) main_v142) maximumf ]
abbrev rblk03_W : List (Ref sig .tc) := [main_v118, main_c_35, main_v119, main_v120, main_c_36, main_v121, main_v122, main_v123, main_v124, main_v125, main_c_37, main_v126, main_v127, main_c_38, main_v128, main_v129, main_v130, main_v131, main_v132, main_v133, main_v134, main_v135, main_cst_39, main_v136, main_v137, main_v138, main_v139, main_v140, main_v141, main_call7_cst, main_call7_v0, main_v142]
theorem rblk03_writes : (rblk03 : List (HloOp τ sig (Elt F))).Forall fun op => op.writes ⊆ (rblk03_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk03_sub : (rblk03 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem rblk03_fresh : (rblk03 : List (HloOp τ sig (Elt F))).Forall fun op => op.fresh = ∅ := by
  simp only [List.Forall]; repeat' constructor
theorem rblk03_keep (W : Valuation τ sig (Elt F)) (r : Ref sig .tc) (h : r ∉ rblk03_W) :
    after (rblk03 : List (HloOp τ sig (Elt F))) W (Proc.devRef .tc r) = W (Proc.devRef .tc r) :=
  after_of_writes_sub rblk03 _ rblk03_writes h

/-- Operations 201 … 236. -/
abbrev rblk04 : List (HloOp τ sig (Elt F)) :=
  [ unary main_arg4 main_v143 ((extractStridedSlice S1x320000 ![0, 0] · slices_S2x320000_S1x320000_0_0) : (⟨S2x320000, .i32⟩ : BufTy).Contents (Elt F) → (⟨S1x320000, .i32⟩ : BufTy).Contents (Elt F)),
    reshape main_v143 main_v144 rfl shapeCasts_S1x320000_S320000,
    unary main_arg4 main_v145 ((extractStridedSlice S1x320000 ![1, 0] · slices_S2x320000_S1x320000_1_0) : (⟨S2x320000, .i32⟩ : BufTy).Contents (Elt F) → (⟨S1x320000, .i32⟩ : BufTy).Contents (Elt F)),
    reshape main_v145 main_v146 rfl shapeCasts_S1x320000_S320000,
    nullary main_cst_40 (constant S_ .f32 0x3F800000#32),
    unary main_cst_40 main_v147 (broadcastInDim S320000 ![] bcast_S_S320000 : (⟨S_, .f32⟩ : BufTy).Contents (Elt F) → (⟨S320000, .f32⟩ : BufTy).Contents (Elt F)),
    nullary main_cst_41 (constant S_ .f32 0x00000000#32),
    unary main_cst_41 main_v148 (broadcastInDim S10000 ![] bcast_S_S10000 : (⟨S_, .f32⟩ : BufTy).Contents (Elt F) → (⟨S10000, .f32⟩ : BufTy).Contents (Elt F)),
    unary main_v144 main_v149 (broadcastInDim S320000x1 ![0] bcast_S320000_S320000x1_0 : (⟨S320000, .i32⟩ : BufTy).Contents (Elt F) → (⟨S320000x1, .i32⟩ : BufTy).Contents (Elt F)),
    ternary main_v148 main_v149 main_v147 main_v150 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_42 (constant S_ .f32 0x00000000#32),
    unary main_cst_42 main_v151 (broadcastInDim S10000 ![] bcast_S_S10000 : (⟨S_, .f32⟩ : BufTy).Contents (Elt F) → (⟨S10000, .f32⟩ : BufTy).Contents (Elt F)),
    unary main_v146 main_v152 (broadcastInDim S320000x1 ![0] bcast_S320000_S320000x1_0 : (⟨S320000, .i32⟩ : BufTy).Contents (Elt F) → (⟨S320000x1, .i32⟩ : BufTy).Contents (Elt F)),
    ternary main_v151 main_v152 main_v147 main_v153 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_43 (constant S_ .f32 0x00000000#32),
    unary main_cst_43 main_v154 (broadcastInDim S10000 ![] bcast_S_S10000 : (⟨S_, .f32⟩ : BufTy).Contents (Elt F) → (⟨S10000, .f32⟩ : BufTy).Contents (Elt F)),
    binary main_v150 main_v154 main_v155 (cmpf .ogt : (⟨S10000, .f32⟩ : BufTy).Contents (Elt F) → (⟨S10000, .f32⟩ : BufTy).Contents (Elt F) → (⟨S10000, .i1⟩ : BufTy).Contents (Elt F)),
    nullary main_cst_44 (constant S_ .f32 0x3F800000#32),
    unary main_cst_44 main_v156 (broadcastInDim S10000 ![] bcast_S_S10000 : (⟨S_, .f32⟩ : BufTy).Contents (Elt F) → (⟨S10000, .f32⟩ : BufTy).Contents (Elt F)),
    binary main_v150 main_v156 main_v157 (maximumf : (⟨S10000, .f32⟩ : BufTy).Contents (Elt F) → (⟨S10000, .f32⟩ : BufTy).Contents (Elt F) → (⟨S10000, .f32⟩ : BufTy).Contents (Elt F)),
    unary main_v157 main_v158 (Host.rsqrt : (⟨S10000, .f32⟩ : BufTy).Contents (Elt F) → (⟨S10000, .f32⟩ : BufTy).Contents (Elt F)),
    nullary main_cst_45 (constant S_ .f32 0x00000000#32),
    TRef.unary (TRef.of (T := ⟨S_, .f32⟩) main_cst_45) (TRef.of (T := ⟨S_, .f32⟩) main_call8_v0) id,
    TRef.unary (TRef.of (T := ⟨S_, .f32⟩) main_call8_v0) (TRef.of (T := ⟨S10000, .f32⟩) main_call8_v1) (broadcastInDim S10000 ![] bcast_S_S10000),
    TRef.ternary (TRef.of (T := ⟨S10000, .i1⟩) main_v155) (TRef.of (T := ⟨S10000, .f32⟩) main_v158) (TRef.of (T := ⟨S10000, .f32⟩) main_call8_v1) (TRef.of (T := ⟨S10000, .f32⟩) main_v159) select,
    nullary main_cst_46 (constant S_ .f32 0x00000000#32),
    unary main_cst_46 main_v160 (broadcastInDim S10000 ![] bcast_S_S10000 : (⟨S_, .f32⟩ : BufTy).Contents (Elt F) → (⟨S10000, .f32⟩ : BufTy).Contents (Elt F)),
    binary main_v153 main_v160 main_v161 (cmpf .ogt : (⟨S10000, .f32⟩ : BufTy).Contents (Elt F) → (⟨S10000, .f32⟩ : BufTy).Contents (Elt F) → (⟨S10000, .i1⟩ : BufTy).Contents (Elt F)),
    nullary main_cst_47 (constant S_ .f32 0x3F800000#32),
    unary main_cst_47 main_v162 (broadcastInDim S10000 ![] bcast_S_S10000 : (⟨S_, .f32⟩ : BufTy).Contents (Elt F) → (⟨S10000, .f32⟩ : BufTy).Contents (Elt F)),
    binary main_v153 main_v162 main_v163 (maximumf : (⟨S10000, .f32⟩ : BufTy).Contents (Elt F) → (⟨S10000, .f32⟩ : BufTy).Contents (Elt F) → (⟨S10000, .f32⟩ : BufTy).Contents (Elt F)),
    unary main_v163 main_v164 (Host.rsqrt : (⟨S10000, .f32⟩ : BufTy).Contents (Elt F) → (⟨S10000, .f32⟩ : BufTy).Contents (Elt F)),
    nullary main_cst_48 (constant S_ .f32 0x00000000#32),
    TRef.unary (TRef.of (T := ⟨S_, .f32⟩) main_cst_48) (TRef.of (T := ⟨S_, .f32⟩) main_call9_v0) id,
    TRef.unary (TRef.of (T := ⟨S_, .f32⟩) main_call9_v0) (TRef.of (T := ⟨S10000, .f32⟩) main_call9_v1) (broadcastInDim S10000 ![] bcast_S_S10000),
    TRef.ternary (TRef.of (T := ⟨S10000, .i1⟩) main_v161) (TRef.of (T := ⟨S10000, .f32⟩) main_v164) (TRef.of (T := ⟨S10000, .f32⟩) main_call9_v1) (TRef.of (T := ⟨S10000, .f32⟩) main_v165) select ]
abbrev rblk04_W : List (Ref sig .tc) := [main_v143, main_v144, main_v145, main_v146, main_cst_40, main_v147, main_cst_41, main_v148, main_v149, main_v150, main_cst_42, main_v151, main_v152, main_v153, main_cst_43, main_v154, main_v155, main_cst_44, main_v156, main_v157, main_v158, main_cst_45, main_call8_v0, main_call8_v1, main_v159, main_cst_46, main_v160, main_v161, main_cst_47, main_v162, main_v163, main_v164, main_cst_48, main_call9_v0, main_call9_v1, main_v165]
theorem rblk04_writes : (rblk04 : List (HloOp τ sig (Elt F))).Forall fun op => op.writes ⊆ (rblk04_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk04_sub : (rblk04 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk04_fresh : (rblk04 : List (HloOp τ sig (Elt F))).Forall fun op => op.fresh = ∅ := by
  simp only [List.Forall]; repeat' constructor
theorem rblk04_keep (W : Valuation τ sig (Elt F)) (r : Ref sig .tc) (h : r ∉ rblk04_W) :
    after (rblk04 : List (HloOp τ sig (Elt F))) W (Proc.devRef .tc r) = W (Proc.devRef .tc r) :=
  after_of_writes_sub rblk04 _ rblk04_writes h

/-- Operations 237 … 301. -/
abbrev rblk05 : List (HloOp τ sig (Elt F)) :=
  [ binary main_v142 main_arg10 main_v166 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    nullary main_c_49 (constantI S_ 32 0#32),
    unary main_c_49 main_v167 (broadcastInDim S320000 ![] bcast_S_S320000 : (⟨S_, .i32⟩ : BufTy).Contents (Elt F) → (⟨S320000, .i32⟩ : BufTy).Contents (Elt F)),
    binary main_v144 main_v167 main_v168 (cmpi .slt : (⟨S320000, .i32⟩ : BufTy).Contents (Elt F) → (⟨S320000, .i32⟩ : BufTy).Contents (Elt F) → (⟨S320000, .i1⟩ : BufTy).Contents (Elt F)),
    nullary main_c_50 (constantI S_ 32 10000#32),
    unary main_c_50 main_v169 (broadcastInDim S320000 ![] bcast_S_S320000 : (⟨S_, .i32⟩ : BufTy).Contents (Elt F) → (⟨S320000, .i32⟩ : BufTy).Contents (Elt F)),
    binary main_v144 main_v169 main_v170 (addi : (⟨S320000, .i32⟩ : BufTy).Contents (Elt F) → (⟨S320000, .i32⟩ : BufTy).Contents (Elt F) → (⟨S320000, .i32⟩ : BufTy).Contents (Elt F)),
    ternary main_v168 main_v170 main_v144 main_v171 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v171 main_v172 (broadcastInDim S320000x1 ![0] bcast_S320000_S320000x1_0 : (⟨S320000, .i32⟩ : BufTy).Contents (Elt F) → (⟨S320000x1, .i32⟩ : BufTy).Contents (Elt F)),
    binary main_v166 main_v172 main_v173 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    nullary main_c_51 (constantI S_ 32 0#32),
    unary main_c_51 main_v174 (broadcastInDim S320000 ![] bcast_S_S320000 : (⟨S_, .i32⟩ : BufTy).Contents (Elt F) → (⟨S320000, .i32⟩ : BufTy).Contents (Elt F)),
    binary main_v144 main_v174 main_v175 (cmpi .slt : (⟨S320000, .i32⟩ : BufTy).Contents (Elt F) → (⟨S320000, .i32⟩ : BufTy).Contents (Elt F) → (⟨S320000, .i1⟩ : BufTy).Contents (Elt F)),
    nullary main_c_52 (constantI S_ 32 10000#32),
    unary main_c_52 main_v176 (broadcastInDim S320000 ![] bcast_S_S320000 : (⟨S_, .i32⟩ : BufTy).Contents (Elt F) → (⟨S320000, .i32⟩ : BufTy).Contents (Elt F)),
    binary main_v144 main_v176 main_v177 (addi : (⟨S320000, .i32⟩ : BufTy).Contents (Elt F) → (⟨S320000, .i32⟩ : BufTy).Contents (Elt F) → (⟨S320000, .i32⟩ : BufTy).Contents (Elt F)),
    ternary main_v175 main_v177 main_v144 main_v178 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v178 main_v179 (broadcastInDim S320000x1 ![0] bcast_S320000_S320000x1_0 : (⟨S320000, .i32⟩ : BufTy).Contents (Elt F) → (⟨S320000x1, .i32⟩ : BufTy).Contents (Elt F)),
    binary main_v159 main_v179 main_v180 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v180 main_v181 (broadcastInDim S320000x1 ![0] bcast_S320000_S320000x1_0 : (⟨S320000, .f32⟩ : BufTy).Contents (Elt F) → (⟨S320000x1, .f32⟩ : BufTy).Contents (Elt F)),
    unary main_v181 main_v182 (broadcastInDim S320000x64 ![0, 1] bcast_S320000x1_S320000x64_0_1 : (⟨S320000x1, .f32⟩ : BufTy).Contents (Elt F) → (⟨S320000x64, .f32⟩ : BufTy).Contents (Elt F)),
    binary main_v173 main_v182 main_v183 (mulf : (⟨S320000x64, .f32⟩ : BufTy).Contents (Elt F) → (⟨S320000x64, .f32⟩ : BufTy).Contents (Elt F) → (⟨S320000x64, .f32⟩ : BufTy).Contents (Elt F)),
    nullary main_cst_53 (constant S_ .f32 0x00000000#32),
    unary main_cst_53 main_v184 (broadcastInDim S10000x64 ![] bcast_S_S10000x64 : (⟨S_, .f32⟩ : BufTy).Contents (Elt F) → (⟨S10000x64, .f32⟩ : BufTy).Contents (Elt F)),
    unary main_v146 main_v185 (broadcastInDim S320000x1 ![0] bcast_S320000_S320000x1_0 : (⟨S320000, .i32⟩ : BufTy).Contents (Elt F) → (⟨S320000x1, .i32⟩ : BufTy).Contents (Elt F)),
    ternary main_v184 main_v185 main_v183 main_v186 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    unary main_v165 main_v187 (broadcastInDim S10000x1 ![0] bcast_S10000_S10000x1_0 : (⟨S10000, .f32⟩ : BufTy).Contents (Elt F) → (⟨S10000x1, .f32⟩ : BufTy).Contents (Elt F)),
    unary main_v187 main_v188 (broadcastInDim S10000x64 ![0, 1] bcast_S10000x1_S10000x64_0_1 : (⟨S10000x1, .f32⟩ : BufTy).Contents (Elt F) → (⟨S10000x64, .f32⟩ : BufTy).Contents (Elt F)),
    binary main_v186 main_v188 main_v189 (mulf : (⟨S10000x64, .f32⟩ : BufTy).Contents (Elt F) → (⟨S10000x64, .f32⟩ : BufTy).Contents (Elt F) → (⟨S10000x64, .f32⟩ : BufTy).Contents (Elt F)),
    unary main_arg5 main_v190 ((extractStridedSlice S1x320000 ![0, 0] · slices_S2x320000_S1x320000_0_0) : (⟨S2x320000, .i32⟩ : BufTy).Contents (Elt F) → (⟨S1x320000, .i32⟩ : BufTy).Contents (Elt F)),
    reshape main_v190 main_v191 rfl shapeCasts_S1x320000_S320000,
    unary main_arg5 main_v192 ((extractStridedSlice S1x320000 ![1, 0] · slices_S2x320000_S1x320000_1_0) : (⟨S2x320000, .i32⟩ : BufTy).Contents (Elt F) → (⟨S1x320000, .i32⟩ : BufTy).Contents (Elt F)),
    reshape main_v192 main_v193 rfl shapeCasts_S1x320000_S320000,
    nullary main_cst_54 (constant S_ .f32 0x3F800000#32),
    unary main_cst_54 main_v194 (broadcastInDim S320000 ![] bcast_S_S320000 : (⟨S_, .f32⟩ : BufTy).Contents (Elt F) → (⟨S320000, .f32⟩ : BufTy).Contents (Elt F)),
    nullary main_cst_55 (constant S_ .f32 0x00000000#32),
    unary main_cst_55 main_v195 (broadcastInDim S10000 ![] bcast_S_S10000 : (⟨S_, .f32⟩ : BufTy).Contents (Elt F) → (⟨S10000, .f32⟩ : BufTy).Contents (Elt F)),
    unary main_v191 main_v196 (broadcastInDim S320000x1 ![0] bcast_S320000_S320000x1_0 : (⟨S320000, .i32⟩ : BufTy).Contents (Elt F) → (⟨S320000x1, .i32⟩ : BufTy).Contents (Elt F)),
    ternary main_v195 main_v196 main_v194 main_v197 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_56 (constant S_ .f32 0x00000000#32),
    unary main_cst_56 main_v198 (broadcastInDim S10000 ![] bcast_S_S10000 : (⟨S_, .f32⟩ : BufTy).Contents (Elt F) → (⟨S10000, .f32⟩ : BufTy).Contents (Elt F)),
    unary main_v193 main_v199 (broadcastInDim S320000x1 ![0] bcast_S320000_S320000x1_0 : (⟨S320000, .i32⟩ : BufTy).Contents (Elt F) → (⟨S320000x1, .i32⟩ : BufTy).Contents (Elt F)),
    ternary main_v198 main_v199 main_v194 main_v200 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_57 (constant S_ .f32 0x00000000#32),
    unary main_cst_57 main_v201 (broadcastInDim S10000 ![] bcast_S_S10000 : (⟨S_, .f32⟩ : BufTy).Contents (Elt F) → (⟨S10000, .f32⟩ : BufTy).Contents (Elt F)),
    binary main_v197 main_v201 main_v202 (cmpf .ogt : (⟨S10000, .f32⟩ : BufTy).Contents (Elt F) → (⟨S10000, .f32⟩ : BufTy).Contents (Elt F) → (⟨S10000, .i1⟩ : BufTy).Contents (Elt F)),
    nullary main_cst_58 (constant S_ .f32 0x3F800000#32),
    unary main_cst_58 main_v203 (broadcastInDim S10000 ![] bcast_S_S10000 : (⟨S_, .f32⟩ : BufTy).Contents (Elt F) → (⟨S10000, .f32⟩ : BufTy).Contents (Elt F)),
    binary main_v197 main_v203 main_v204 (maximumf : (⟨S10000, .f32⟩ : BufTy).Contents (Elt F) → (⟨S10000, .f32⟩ : BufTy).Contents (Elt F) → (⟨S10000, .f32⟩ : BufTy).Contents (Elt F)),
    unary main_v204 main_v205 (Host.rsqrt : (⟨S10000, .f32⟩ : BufTy).Contents (Elt F) → (⟨S10000, .f32⟩ : BufTy).Contents (Elt F)),
    nullary main_cst_59 (constant S_ .f32 0x00000000#32),
    TRef.unary (TRef.of (T := ⟨S_, .f32⟩) main_cst_59) (TRef.of (T := ⟨S_, .f32⟩) main_call10_v0) id,
    TRef.unary (TRef.of (T := ⟨S_, .f32⟩) main_call10_v0) (TRef.of (T := ⟨S10000, .f32⟩) main_call10_v1) (broadcastInDim S10000 ![] bcast_S_S10000),
    TRef.ternary (TRef.of (T := ⟨S10000, .i1⟩) main_v202) (TRef.of (T := ⟨S10000, .f32⟩) main_v205) (TRef.of (T := ⟨S10000, .f32⟩) main_call10_v1) (TRef.of (T := ⟨S10000, .f32⟩) main_v206) select,
    nullary main_cst_60 (constant S_ .f32 0x00000000#32),
    unary main_cst_60 main_v207 (broadcastInDim S10000 ![] bcast_S_S10000 : (⟨S_, .f32⟩ : BufTy).Contents (Elt F) → (⟨S10000, .f32⟩ : BufTy).Contents (Elt F)),
    binary main_v200 main_v207 main_v208 (cmpf .ogt : (⟨S10000, .f32⟩ : BufTy).Contents (Elt F) → (⟨S10000, .f32⟩ : BufTy).Contents (Elt F) → (⟨S10000, .i1⟩ : BufTy).Contents (Elt F)),
    nullary main_cst_61 (constant S_ .f32 0x3F800000#32),
    unary main_cst_61 main_v209 (broadcastInDim S10000 ![] bcast_S_S10000 : (⟨S_, .f32⟩ : BufTy).Contents (Elt F) → (⟨S10000, .f32⟩ : BufTy).Contents (Elt F)),
    binary main_v200 main_v209 main_v210 (maximumf : (⟨S10000, .f32⟩ : BufTy).Contents (Elt F) → (⟨S10000, .f32⟩ : BufTy).Contents (Elt F) → (⟨S10000, .f32⟩ : BufTy).Contents (Elt F)),
    unary main_v210 main_v211 (Host.rsqrt : (⟨S10000, .f32⟩ : BufTy).Contents (Elt F) → (⟨S10000, .f32⟩ : BufTy).Contents (Elt F)),
    nullary main_cst_62 (constant S_ .f32 0x00000000#32),
    TRef.unary (TRef.of (T := ⟨S_, .f32⟩) main_cst_62) (TRef.of (T := ⟨S_, .f32⟩) main_call11_v0) id,
    TRef.unary (TRef.of (T := ⟨S_, .f32⟩) main_call11_v0) (TRef.of (T := ⟨S10000, .f32⟩) main_call11_v1) (broadcastInDim S10000 ![] bcast_S_S10000),
    TRef.ternary (TRef.of (T := ⟨S10000, .i1⟩) main_v208) (TRef.of (T := ⟨S10000, .f32⟩) main_v211) (TRef.of (T := ⟨S10000, .f32⟩) main_call11_v1) (TRef.of (T := ⟨S10000, .f32⟩) main_v212) select ]
abbrev rblk05_W : List (Ref sig .tc) := [main_v166, main_c_49, main_v167, main_v168, main_c_50, main_v169, main_v170, main_v171, main_v172, main_v173, main_c_51, main_v174, main_v175, main_c_52, main_v176, main_v177, main_v178, main_v179, main_v180, main_v181, main_v182, main_v183, main_cst_53, main_v184, main_v185, main_v186, main_v187, main_v188, main_v189, main_v190, main_v191, main_v192, main_v193, main_cst_54, main_v194, main_cst_55, main_v195, main_v196, main_v197, main_cst_56, main_v198, main_v199, main_v200, main_cst_57, main_v201, main_v202, main_cst_58, main_v203, main_v204, main_v205, main_cst_59, main_call10_v0, main_call10_v1, main_v206, main_cst_60, main_v207, main_v208, main_cst_61, main_v209, main_v210, main_v211, main_cst_62, main_call11_v0, main_call11_v1, main_v212]
theorem rblk05_writes : (rblk05 : List (HloOp τ sig (Elt F))).Forall fun op => op.writes ⊆ (rblk05_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk05_sub : (rblk05 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk05_fresh : (rblk05 : List (HloOp τ sig (Elt F))).Forall fun op => op.fresh = ∅ := by
  simp only [List.Forall]; repeat' constructor
theorem rblk05_keep (W : Valuation τ sig (Elt F)) (r : Ref sig .tc) (h : r ∉ rblk05_W) :
    after (rblk05 : List (HloOp τ sig (Elt F))) W (Proc.devRef .tc r) = W (Proc.devRef .tc r) :=
  after_of_writes_sub rblk05 _ rblk05_writes h

/-- Operations 302 … 333. -/
abbrev rblk06 : List (HloOp τ sig (Elt F)) :=
  [ binary main_arg2 main_arg11 main_v213 ((fun l r => Host.dotGeneral dot_S10000x512_S512x256_S10000x256_1_0_0_1_n_n none l r) : (⟨S10000x512, .f32⟩ : BufTy).Contents (Elt F) → (⟨S512x256, .f32⟩ : BufTy).Contents (Elt F) → (⟨S10000x256, .f32⟩ : BufTy).Contents (Elt F)),
    nullary main_c_63 (constantI S_ 32 0#32),
    unary main_c_63 main_v214 (broadcastInDim S320000 ![] bcast_S_S320000 : (⟨S_, .i32⟩ : BufTy).Contents (Elt F) → (⟨S320000, .i32⟩ : BufTy).Contents (Elt F)),
    binary main_v191 main_v214 main_v215 (cmpi .slt : (⟨S320000, .i32⟩ : BufTy).Contents (Elt F) → (⟨S320000, .i32⟩ : BufTy).Contents (Elt F) → (⟨S320000, .i1⟩ : BufTy).Contents (Elt F)),
    nullary main_c_64 (constantI S_ 32 10000#32),
    unary main_c_64 main_v216 (broadcastInDim S320000 ![] bcast_S_S320000 : (⟨S_, .i32⟩ : BufTy).Contents (Elt F) → (⟨S320000, .i32⟩ : BufTy).Contents (Elt F)),
    binary main_v191 main_v216 main_v217 (addi : (⟨S320000, .i32⟩ : BufTy).Contents (Elt F) → (⟨S320000, .i32⟩ : BufTy).Contents (Elt F) → (⟨S320000, .i32⟩ : BufTy).Contents (Elt F)),
    ternary main_v215 main_v217 main_v191 main_v218 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v218 main_v219 (broadcastInDim S320000x1 ![0] bcast_S320000_S320000x1_0 : (⟨S320000, .i32⟩ : BufTy).Contents (Elt F) → (⟨S320000x1, .i32⟩ : BufTy).Contents (Elt F)),
    binary main_v213 main_v219 main_v220 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    nullary main_c_65 (constantI S_ 32 0#32),
    unary main_c_65 main_v221 (broadcastInDim S320000 ![] bcast_S_S320000 : (⟨S_, .i32⟩ : BufTy).Contents (Elt F) → (⟨S320000, .i32⟩ : BufTy).Contents (Elt F)),
    binary main_v191 main_v221 main_v222 (cmpi .slt : (⟨S320000, .i32⟩ : BufTy).Contents (Elt F) → (⟨S320000, .i32⟩ : BufTy).Contents (Elt F) → (⟨S320000, .i1⟩ : BufTy).Contents (Elt F)),
    nullary main_c_66 (constantI S_ 32 10000#32),
    unary main_c_66 main_v223 (broadcastInDim S320000 ![] bcast_S_S320000 : (⟨S_, .i32⟩ : BufTy).Contents (Elt F) → (⟨S320000, .i32⟩ : BufTy).Contents (Elt F)),
    binary main_v191 main_v223 main_v224 (addi : (⟨S320000, .i32⟩ : BufTy).Contents (Elt F) → (⟨S320000, .i32⟩ : BufTy).Contents (Elt F) → (⟨S320000, .i32⟩ : BufTy).Contents (Elt F)),
    ternary main_v222 main_v224 main_v191 main_v225 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v225 main_v226 (broadcastInDim S320000x1 ![0] bcast_S320000_S320000x1_0 : (⟨S320000, .i32⟩ : BufTy).Contents (Elt F) → (⟨S320000x1, .i32⟩ : BufTy).Contents (Elt F)),
    binary main_v206 main_v226 main_v227 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v227 main_v228 (broadcastInDim S320000x1 ![0] bcast_S320000_S320000x1_0 : (⟨S320000, .f32⟩ : BufTy).Contents (Elt F) → (⟨S320000x1, .f32⟩ : BufTy).Contents (Elt F)),
    unary main_v228 main_v229 (broadcastInDim S320000x256 ![0, 1] bcast_S320000x1_S320000x256_0_1 : (⟨S320000x1, .f32⟩ : BufTy).Contents (Elt F) → (⟨S320000x256, .f32⟩ : BufTy).Contents (Elt F)),
    binary main_v220 main_v229 main_v230 (mulf : (⟨S320000x256, .f32⟩ : BufTy).Contents (Elt F) → (⟨S320000x256, .f32⟩ : BufTy).Contents (Elt F) → (⟨S320000x256, .f32⟩ : BufTy).Contents (Elt F)),
    nullary main_cst_67 (constant S_ .f32 0x00000000#32),
    unary main_cst_67 main_v231 (broadcastInDim S10000x256 ![] bcast_S_S10000x256 : (⟨S_, .f32⟩ : BufTy).Contents (Elt F) → (⟨S10000x256, .f32⟩ : BufTy).Contents (Elt F)),
    unary main_v193 main_v232 (broadcastInDim S320000x1 ![0] bcast_S320000_S320000x1_0 : (⟨S320000, .i32⟩ : BufTy).Contents (Elt F) → (⟨S320000x1, .i32⟩ : BufTy).Contents (Elt F)),
    ternary main_v231 main_v232 main_v230 main_v233 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)),
    unary main_v212 main_v234 (broadcastInDim S10000x1 ![0] bcast_S10000_S10000x1_0 : (⟨S10000, .f32⟩ : BufTy).Contents (Elt F) → (⟨S10000x1, .f32⟩ : BufTy).Contents (Elt F)),
    unary main_v234 main_v235 (broadcastInDim S10000x256 ![0, 1] bcast_S10000x1_S10000x256_0_1 : (⟨S10000x1, .f32⟩ : BufTy).Contents (Elt F) → (⟨S10000x256, .f32⟩ : BufTy).Contents (Elt F)),
    binary main_v233 main_v235 main_v236 (mulf : (⟨S10000x256, .f32⟩ : BufTy).Contents (Elt F) → (⟨S10000x256, .f32⟩ : BufTy).Contents (Elt F) → (⟨S10000x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S10000x256, .f32⟩) main_call12_v0) (broadcastInDim S10000x256 ![] bcast_S_S10000x256),
    TRef.binary (TRef.of (T := ⟨S10000x256, .f32⟩) main_v236) (TRef.of (T := ⟨S10000x256, .f32⟩) main_call12_v0) (TRef.of (T := ⟨S10000x256, .f32⟩) main_v237) maximumf ]
abbrev rblk06_W : List (Ref sig .tc) := [main_v213, main_c_63, main_v214, main_v215, main_c_64, main_v216, main_v217, main_v218, main_v219, main_v220, main_c_65, main_v221, main_v222, main_c_66, main_v223, main_v224, main_v225, main_v226, main_v227, main_v228, main_v229, main_v230, main_cst_67, main_v231, main_v232, main_v233, main_v234, main_v235, main_v236, main_call12_cst, main_call12_v0, main_v237]
theorem rblk06_writes : (rblk06 : List (HloOp τ sig (Elt F))).Forall fun op => op.writes ⊆ (rblk06_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk06_sub : (rblk06 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem rblk06_fresh : (rblk06 : List (HloOp τ sig (Elt F))).Forall fun op => op.fresh = ∅ := by
  simp only [List.Forall]; repeat' constructor
theorem rblk06_keep (W : Valuation τ sig (Elt F)) (r : Ref sig .tc) (h : r ∉ rblk06_W) :
    after (rblk06 : List (HloOp τ sig (Elt F))) W (Proc.devRef .tc r) = W (Proc.devRef .tc r) :=
  after_of_writes_sub rblk06 _ rblk06_writes h

/-- Operations 334 … 369. -/
abbrev rblk07 : List (HloOp τ sig (Elt F)) :=
  [ unary main_arg5 main_v238 ((extractStridedSlice S1x320000 ![0, 0] · slices_S2x320000_S1x320000_0_0) : (⟨S2x320000, .i32⟩ : BufTy).Contents (Elt F) → (⟨S1x320000, .i32⟩ : BufTy).Contents (Elt F)),
    reshape main_v238 main_v239 rfl shapeCasts_S1x320000_S320000,
    unary main_arg5 main_v240 ((extractStridedSlice S1x320000 ![1, 0] · slices_S2x320000_S1x320000_1_0) : (⟨S2x320000, .i32⟩ : BufTy).Contents (Elt F) → (⟨S1x320000, .i32⟩ : BufTy).Contents (Elt F)),
    reshape main_v240 main_v241 rfl shapeCasts_S1x320000_S320000,
    nullary main_cst_68 (constant S_ .f32 0x3F800000#32),
    unary main_cst_68 main_v242 (broadcastInDim S320000 ![] bcast_S_S320000 : (⟨S_, .f32⟩ : BufTy).Contents (Elt F) → (⟨S320000, .f32⟩ : BufTy).Contents (Elt F)),
    nullary main_cst_69 (constant S_ .f32 0x00000000#32),
    unary main_cst_69 main_v243 (broadcastInDim S10000 ![] bcast_S_S10000 : (⟨S_, .f32⟩ : BufTy).Contents (Elt F) → (⟨S10000, .f32⟩ : BufTy).Contents (Elt F)),
    unary main_v239 main_v244 (broadcastInDim S320000x1 ![0] bcast_S320000_S320000x1_0 : (⟨S320000, .i32⟩ : BufTy).Contents (Elt F) → (⟨S320000x1, .i32⟩ : BufTy).Contents (Elt F)),
    ternary main_v243 main_v244 main_v242 main_v245 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_70 (constant S_ .f32 0x00000000#32),
    unary main_cst_70 main_v246 (broadcastInDim S10000 ![] bcast_S_S10000 : (⟨S_, .f32⟩ : BufTy).Contents (Elt F) → (⟨S10000, .f32⟩ : BufTy).Contents (Elt F)),
    unary main_v241 main_v247 (broadcastInDim S320000x1 ![0] bcast_S320000_S320000x1_0 : (⟨S320000, .i32⟩ : BufTy).Contents (Elt F) → (⟨S320000x1, .i32⟩ : BufTy).Contents (Elt F)),
    ternary main_v246 main_v247 main_v242 main_v248 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    nullary main_cst_71 (constant S_ .f32 0x00000000#32),
    unary main_cst_71 main_v249 (broadcastInDim S10000 ![] bcast_S_S10000 : (⟨S_, .f32⟩ : BufTy).Contents (Elt F) → (⟨S10000, .f32⟩ : BufTy).Contents (Elt F)),
    binary main_v245 main_v249 main_v250 (cmpf .ogt : (⟨S10000, .f32⟩ : BufTy).Contents (Elt F) → (⟨S10000, .f32⟩ : BufTy).Contents (Elt F) → (⟨S10000, .i1⟩ : BufTy).Contents (Elt F)),
    nullary main_cst_72 (constant S_ .f32 0x3F800000#32),
    unary main_cst_72 main_v251 (broadcastInDim S10000 ![] bcast_S_S10000 : (⟨S_, .f32⟩ : BufTy).Contents (Elt F) → (⟨S10000, .f32⟩ : BufTy).Contents (Elt F)),
    binary main_v245 main_v251 main_v252 (maximumf : (⟨S10000, .f32⟩ : BufTy).Contents (Elt F) → (⟨S10000, .f32⟩ : BufTy).Contents (Elt F) → (⟨S10000, .f32⟩ : BufTy).Contents (Elt F)),
    unary main_v252 main_v253 (Host.rsqrt : (⟨S10000, .f32⟩ : BufTy).Contents (Elt F) → (⟨S10000, .f32⟩ : BufTy).Contents (Elt F)),
    nullary main_cst_73 (constant S_ .f32 0x00000000#32),
    TRef.unary (TRef.of (T := ⟨S_, .f32⟩) main_cst_73) (TRef.of (T := ⟨S_, .f32⟩) main_call13_v0) id,
    TRef.unary (TRef.of (T := ⟨S_, .f32⟩) main_call13_v0) (TRef.of (T := ⟨S10000, .f32⟩) main_call13_v1) (broadcastInDim S10000 ![] bcast_S_S10000),
    TRef.ternary (TRef.of (T := ⟨S10000, .i1⟩) main_v250) (TRef.of (T := ⟨S10000, .f32⟩) main_v253) (TRef.of (T := ⟨S10000, .f32⟩) main_call13_v1) (TRef.of (T := ⟨S10000, .f32⟩) main_v254) select,
    nullary main_cst_74 (constant S_ .f32 0x00000000#32),
    unary main_cst_74 main_v255 (broadcastInDim S10000 ![] bcast_S_S10000 : (⟨S_, .f32⟩ : BufTy).Contents (Elt F) → (⟨S10000, .f32⟩ : BufTy).Contents (Elt F)),
    binary main_v248 main_v255 main_v256 (cmpf .ogt : (⟨S10000, .f32⟩ : BufTy).Contents (Elt F) → (⟨S10000, .f32⟩ : BufTy).Contents (Elt F) → (⟨S10000, .i1⟩ : BufTy).Contents (Elt F)),
    nullary main_cst_75 (constant S_ .f32 0x3F800000#32),
    unary main_cst_75 main_v257 (broadcastInDim S10000 ![] bcast_S_S10000 : (⟨S_, .f32⟩ : BufTy).Contents (Elt F) → (⟨S10000, .f32⟩ : BufTy).Contents (Elt F)),
    binary main_v248 main_v257 main_v258 (maximumf : (⟨S10000, .f32⟩ : BufTy).Contents (Elt F) → (⟨S10000, .f32⟩ : BufTy).Contents (Elt F) → (⟨S10000, .f32⟩ : BufTy).Contents (Elt F)),
    unary main_v258 main_v259 (Host.rsqrt : (⟨S10000, .f32⟩ : BufTy).Contents (Elt F) → (⟨S10000, .f32⟩ : BufTy).Contents (Elt F)),
    nullary main_cst_76 (constant S_ .f32 0x00000000#32),
    TRef.unary (TRef.of (T := ⟨S_, .f32⟩) main_cst_76) (TRef.of (T := ⟨S_, .f32⟩) main_call14_v0) id,
    TRef.unary (TRef.of (T := ⟨S_, .f32⟩) main_call14_v0) (TRef.of (T := ⟨S10000, .f32⟩) main_call14_v1) (broadcastInDim S10000 ![] bcast_S_S10000),
    TRef.ternary (TRef.of (T := ⟨S10000, .i1⟩) main_v256) (TRef.of (T := ⟨S10000, .f32⟩) main_v259) (TRef.of (T := ⟨S10000, .f32⟩) main_call14_v1) (TRef.of (T := ⟨S10000, .f32⟩) main_v260) select ]
abbrev rblk07_W : List (Ref sig .tc) := [main_v238, main_v239, main_v240, main_v241, main_cst_68, main_v242, main_cst_69, main_v243, main_v244, main_v245, main_cst_70, main_v246, main_v247, main_v248, main_cst_71, main_v249, main_v250, main_cst_72, main_v251, main_v252, main_v253, main_cst_73, main_call13_v0, main_call13_v1, main_v254, main_cst_74, main_v255, main_v256, main_cst_75, main_v257, main_v258, main_v259, main_cst_76, main_call14_v0, main_call14_v1, main_v260]
theorem rblk07_writes : (rblk07 : List (HloOp τ sig (Elt F))).Forall fun op => op.writes ⊆ (rblk07_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk07_sub : (rblk07 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk07_fresh : (rblk07 : List (HloOp τ sig (Elt F))).Forall fun op => op.fresh = ∅ := by
  simp only [List.Forall]; repeat' constructor
theorem rblk07_keep (W : Valuation τ sig (Elt F)) (r : Ref sig .tc) (h : r ∉ rblk07_W) :
    after (rblk07 : List (HloOp τ sig (Elt F))) W (Proc.devRef .tc r) = W (Proc.devRef .tc r) :=
  after_of_writes_sub rblk07 _ rblk07_writes h

/-- Operations 370 … 420. -/
abbrev rblk08 : List (HloOp τ sig (Elt F)) :=
  [ binary main_v237 main_arg12 main_v261 ((fun l r => Host.dotGeneral dot_S10000x256_S256x64_S10000x64_1_0_0_1_n_n none l r) : (⟨S10000x256, .f32⟩ : BufTy).Contents (Elt F) → (⟨S256x64, .f32⟩ : BufTy).Contents (Elt F) → (⟨S10000x64, .f32⟩ : BufTy).Contents (Elt F)),
    nullary main_c_77 (constantI S_ 32 0#32),
    unary main_c_77 main_v262 (broadcastInDim S320000 ![] bcast_S_S320000 : (⟨S_, .i32⟩ : BufTy).Contents (Elt F) → (⟨S320000, .i32⟩ : BufTy).Contents (Elt F)),
    binary main_v239 main_v262 main_v263 (cmpi .slt : (⟨S320000, .i32⟩ : BufTy).Contents (Elt F) → (⟨S320000, .i32⟩ : BufTy).Contents (Elt F) → (⟨S320000, .i1⟩ : BufTy).Contents (Elt F)),
    nullary main_c_78 (constantI S_ 32 10000#32),
    unary main_c_78 main_v264 (broadcastInDim S320000 ![] bcast_S_S320000 : (⟨S_, .i32⟩ : BufTy).Contents (Elt F) → (⟨S320000, .i32⟩ : BufTy).Contents (Elt F)),
    binary main_v239 main_v264 main_v265 (addi : (⟨S320000, .i32⟩ : BufTy).Contents (Elt F) → (⟨S320000, .i32⟩ : BufTy).Contents (Elt F) → (⟨S320000, .i32⟩ : BufTy).Contents (Elt F)),
    ternary main_v263 main_v265 main_v239 main_v266 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v266 main_v267 (broadcastInDim S320000x1 ![0] bcast_S320000_S320000x1_0 : (⟨S320000, .i32⟩ : BufTy).Contents (Elt F) → (⟨S320000x1, .i32⟩ : BufTy).Contents (Elt F)),
    binary main_v261 main_v267 main_v268 ((fun x i => Host.gather gather_S10000x64_S320000x1_S320000x64_1_0_n_n_0_1_164 x i) : (⟨S10000x64, .f32⟩ : BufTy).Contents (Elt F) → (⟨S320000x1, .i32⟩ : BufTy).Contents (Elt F) → (⟨S320000x64, .f32⟩ : BufTy).Contents (Elt F)),
    nullary main_c_79 (constantI S_ 32 0#32),
    unary main_c_79 main_v269 (broadcastInDim S320000 ![] bcast_S_S320000 : (⟨S_, .i32⟩ : BufTy).Contents (Elt F) → (⟨S320000, .i32⟩ : BufTy).Contents (Elt F)),
    binary main_v239 main_v269 main_v270 (cmpi .slt : (⟨S320000, .i32⟩ : BufTy).Contents (Elt F) → (⟨S320000, .i32⟩ : BufTy).Contents (Elt F) → (⟨S320000, .i1⟩ : BufTy).Contents (Elt F)),
    nullary main_c_80 (constantI S_ 32 10000#32),
    unary main_c_80 main_v271 (broadcastInDim S320000 ![] bcast_S_S320000 : (⟨S_, .i32⟩ : BufTy).Contents (Elt F) → (⟨S320000, .i32⟩ : BufTy).Contents (Elt F)),
    binary main_v239 main_v271 main_v272 (addi : (⟨S320000, .i32⟩ : BufTy).Contents (Elt F) → (⟨S320000, .i32⟩ : BufTy).Contents (Elt F) → (⟨S320000, .i32⟩ : BufTy).Contents (Elt F)),
    ternary main_v270 main_v272 main_v239 main_v273 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    unary main_v273 main_v274 (broadcastInDim S320000x1 ![0] bcast_S320000_S320000x1_0 : (⟨S320000, .i32⟩ : BufTy).Contents (Elt F) → (⟨S320000x1, .i32⟩ : BufTy).Contents (Elt F)),
    binary main_v254 main_v274 main_v275 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    unary main_v275 main_v276 (broadcastInDim S320000x1 ![0] bcast_S320000_S320000x1_0 : (⟨S320000, .f32⟩ : BufTy).Contents (Elt F) → (⟨S320000x1, .f32⟩ : BufTy).Contents (Elt F)),
    unary main_v276 main_v277 (broadcastInDim S320000x64 ![0, 1] bcast_S320000x1_S320000x64_0_1 : (⟨S320000x1, .f32⟩ : BufTy).Contents (Elt F) → (⟨S320000x64, .f32⟩ : BufTy).Contents (Elt F)),
    binary main_v268 main_v277 main_v278 (mulf : (⟨S320000x64, .f32⟩ : BufTy).Contents (Elt F) → (⟨S320000x64, .f32⟩ : BufTy).Contents (Elt F) → (⟨S320000x64, .f32⟩ : BufTy).Contents (Elt F)),
    nullary main_cst_81 (constant S_ .f32 0x00000000#32),
    unary main_cst_81 main_v279 (broadcastInDim S10000x64 ![] bcast_S_S10000x64 : (⟨S_, .f32⟩ : BufTy).Contents (Elt F) → (⟨S10000x64, .f32⟩ : BufTy).Contents (Elt F)),
    unary main_v241 main_v280 (broadcastInDim S320000x1 ![0] bcast_S320000_S320000x1_0 : (⟨S320000, .i32⟩ : BufTy).Contents (Elt F) → (⟨S320000x1, .i32⟩ : BufTy).Contents (Elt F)),
    ternary main_v279 main_v280 main_v278 main_v281 ((fun x i u => Host.scatterAdd scatter_S10000x64_S320000x1_S320000x64_1_0_0_1 x i u) : (⟨S10000x64, .f32⟩ : BufTy).Contents (Elt F) → (⟨S320000x1, .i32⟩ : BufTy).Contents (Elt F) → (⟨S320000x64, .f32⟩ : BufTy).Contents (Elt F) → (⟨S10000x64, .f32⟩ : BufTy).Contents (Elt F)),
    unary main_v260 main_v282 (broadcastInDim S10000x1 ![0] bcast_S10000_S10000x1_0 : (⟨S10000, .f32⟩ : BufTy).Contents (Elt F) → (⟨S10000x1, .f32⟩ : BufTy).Contents (Elt F)),
    unary main_v282 main_v283 (broadcastInDim S10000x64 ![0, 1] bcast_S10000x1_S10000x64_0_1 : (⟨S10000x1, .f32⟩ : BufTy).Contents (Elt F) → (⟨S10000x64, .f32⟩ : BufTy).Contents (Elt F)),
    binary main_v281 main_v283 main_v284 (mulf : (⟨S10000x64, .f32⟩ : BufTy).Contents (Elt F) → (⟨S10000x64, .f32⟩ : BufTy).Contents (Elt F) → (⟨S10000x64, .f32⟩ : BufTy).Contents (Elt F)),
    binary main_v94 main_arg13 main_v285 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_v189 main_arg14 main_v286 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_v285 main_v286 main_v287 (addf : (⟨S10000x64, .f32⟩ : BufTy).Contents (Elt F) → (⟨S10000x64, .f32⟩ : BufTy).Contents (Elt F) → (⟨S10000x64, .f32⟩ : BufTy).Contents (Elt F)),
    binary main_v284 main_arg15 main_v288 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    binary main_v287 main_v288 main_v289 (addf : (⟨S10000x64, .f32⟩ : BufTy).Contents (Elt F) → (⟨S10000x64, .f32⟩ : BufTy).Contents (Elt F) → (⟨S10000x64, .f32⟩ : BufTy).Contents (Elt F)),
    nullary main_cst_82 (constant S_ .f32 0xFF800000#32),
    binary main_v289 main_cst_82 main_v290 ((fun x v => Host.reduce FloatOps.maximumf x v reducesTo_S10000x64_S10000_d1 h_S_) : (⟨S10000x64, .f32⟩ : BufTy).Contents (Elt F) → (⟨S_, .f32⟩ : BufTy).Contents (Elt F) → (⟨S10000, .f32⟩ : BufTy).Contents (Elt F)),
    nullary main_cst_83 (constant S_ .f32 0xFF800000#32),
    unary main_cst_83 main_v291 (broadcastInDim S10000 ![] bcast_S_S10000 : (⟨S_, .f32⟩ : BufTy).Contents (Elt F) → (⟨S10000, .f32⟩ : BufTy).Contents (Elt F)),
    binary main_v291 main_v290 main_v292 (maximumf : (⟨S10000, .f32⟩ : BufTy).Contents (Elt F) → (⟨S10000, .f32⟩ : BufTy).Contents (Elt F) → (⟨S10000, .f32⟩ : BufTy).Contents (Elt F)),
    unary main_v292 main_v293 (broadcastInDim S10000x1 ![0] bcast_S10000_S10000x1_0 : (⟨S10000, .f32⟩ : BufTy).Contents (Elt F) → (⟨S10000x1, .f32⟩ : BufTy).Contents (Elt F)),
    unary main_v293 main_v294 (broadcastInDim S10000x64 ![0, 1] bcast_S10000x1_S10000x64_0_1 : (⟨S10000x1, .f32⟩ : BufTy).Contents (Elt F) → (⟨S10000x64, .f32⟩ : BufTy).Contents (Elt F)),
    binary main_v289 main_v294 main_v295 (subf : (⟨S10000x64, .f32⟩ : BufTy).Contents (Elt F) → (⟨S10000x64, .f32⟩ : BufTy).Contents (Elt F) → (⟨S10000x64, .f32⟩ : BufTy).Contents (Elt F)),
    unary main_v295 main_v296 (Host.exp : (⟨S10000x64, .f32⟩ : BufTy).Contents (Elt F) → (⟨S10000x64, .f32⟩ : BufTy).Contents (Elt F)),
    nullary main_cst_84 (constant S_ .f32 0x00000000#32),
    binary main_v296 main_cst_84 main_v297 ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)),
    unary main_v297 main_v298 (broadcastInDim S10000x1 ![0] bcast_S10000_S10000x1_0 : (⟨S10000, .f32⟩ : BufTy).Contents (Elt F) → (⟨S10000x1, .f32⟩ : BufTy).Contents (Elt F)),
    unary main_v298 main_v299 (broadcastInDim S10000x64 ![0, 1] bcast_S10000x1_S10000x64_0_1 : (⟨S10000x1, .f32⟩ : BufTy).Contents (Elt F) → (⟨S10000x64, .f32⟩ : BufTy).Contents (Elt F)),
    binary main_v296 main_v299 main_v300 (Host.divf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S10000x64, .f32⟩) main_call15_v0) (broadcastInDim S10000x64 ![] bcast_S_S10000x64),
    TRef.binary (TRef.of (T := ⟨S10000x64, .f32⟩) main_v300) (TRef.of (T := ⟨S10000x64, .f32⟩) main_call15_v0) (TRef.of (T := ⟨S10000x64, .f32⟩) main_v301) maximumf ]
abbrev rblk08_W : List (Ref sig .tc) := [main_v261, main_c_77, main_v262, main_v263, main_c_78, main_v264, main_v265, main_v266, main_v267, main_v268, main_c_79, main_v269, main_v270, main_c_80, main_v271, main_v272, main_v273, main_v274, main_v275, main_v276, main_v277, main_v278, main_cst_81, main_v279, main_v280, main_v281, main_v282, main_v283, main_v284, main_v285, main_v286, main_v287, main_v288, main_v289, main_cst_82, main_v290, main_cst_83, main_v291, main_v292, main_v293, main_v294, main_v295, main_v296, main_cst_84, main_v297, main_v298, main_v299, main_v300, main_call15_cst, main_call15_v0, main_v301]
theorem rblk08_writes : (rblk08 : List (HloOp τ sig (Elt F))).Forall fun op => op.writes ⊆ (rblk08_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk08_sub : (rblk08 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub ..⟩
theorem rblk08_fresh : (rblk08 : List (HloOp τ sig (Elt F))).Forall fun op => op.fresh = ∅ := by
  simp only [List.Forall]; repeat' constructor
theorem rblk08_keep (W : Valuation τ sig (Elt F)) (r : Ref sig .tc) (h : r ∉ rblk08_W) :
    after (rblk08 : List (HloOp τ sig (Elt F))) W (Proc.devRef .tc r) = W (Proc.devRef .tc r) :=
  after_of_writes_sub rblk08 _ rblk08_writes h

/-- Operations 421 … 427. -/
abbrev rblk09 : List (HloOp τ sig (Elt F)) :=
  [ nullary main_v302 (iotaInDim S10000 32 0),
    unary main_arg6 main_v303 ((extractStridedSlice S1x320000 ![0, 0] · slices_S2x320000_S1x320000_0_0) : (⟨S2x320000, .i32⟩ : BufTy).Contents (Elt F) → (⟨S1x320000, .i32⟩ : BufTy).Contents (Elt F)),
    reshape main_v303 main_v304 rfl shapeCasts_S1x320000_S320000,
    binary main_v304 main_v302 main_v305 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    unary main_arg6 main_v306 ((extractStridedSlice S1x320000 ![1, 0] · slices_S2x320000_S1x320000_1_0) : (⟨S2x320000, .i32⟩ : BufTy).Contents (Elt F) → (⟨S1x320000, .i32⟩ : BufTy).Contents (Elt F)),
    reshape main_v306 main_v307 rfl shapeCasts_S1x320000_S320000,
    binary main_v307 main_v302 main_v308 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
abbrev rblk09_W : List (Ref sig .tc) := [main_v302, main_v303, main_v304, main_v305, main_v306, main_v307, main_v308]
theorem rblk09_writes : (rblk09 : List (HloOp τ sig (Elt F))).Forall fun op => op.writes ⊆ (rblk09_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk09_sub : (rblk09 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem rblk09_fresh : (rblk09 : List (HloOp τ sig (Elt F))).Forall fun op => op.fresh = ∅ := by
  simp only [List.Forall]; repeat' constructor
theorem rblk09_keep (W : Valuation τ sig (Elt F)) (r : Ref sig .tc) (h : r ∉ rblk09_W) :
    after (rblk09 : List (HloOp τ sig (Elt F))) W (Proc.devRef .tc r) = W (Proc.devRef .tc r) :=
  after_of_writes_sub rblk09 _ rblk09_writes h

/-- Operations 428 … 459. -/
abbrev rblk10 : List (HloOp τ sig (Elt F)) :=
  [ nullary main_cst_85 (constant S_ .f32 0x3F800000#32),
    unary main_cst_85 main_v309 (broadcastInDim S330000 ![] bcast_S_S330000 : (⟨S_, .f32⟩ : BufTy).Contents (Elt F) → (⟨S330000, .f32⟩ : BufTy).Contents (Elt F)),
    nullary main_cst_86 (constant S_ .f32 0x00000000#32),
    unary main_cst_86 main_v310 (broadcastInDim S10000 ![] bcast_S_S10000 : (⟨S_, .f32⟩ : BufTy).Contents (Elt F) → (⟨S10000, .f32⟩ : BufTy).Contents (Elt F)),
    unary main_v305 main_v311 (broadcastInDim S330000x1 ![0] bcast_S330000_S330000x1_0 : (⟨S330000, .i32⟩ : BufTy).Contents (Elt F) → (⟨S330000x1, .i32⟩ : BufTy).Contents (Elt F)),
    ternary main_v310 main_v311 main_v309 main_v312 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_87 (constant S_ .f32 0x00000000#32),
    unary main_cst_87 main_v313 (broadcastInDim S10000 ![] bcast_S_S10000 : (⟨S_, .f32⟩ : BufTy).Contents (Elt F) → (⟨S10000, .f32⟩ : BufTy).Contents (Elt F)),
    unary main_v308 main_v314 (broadcastInDim S330000x1 ![0] bcast_S330000_S330000x1_0 : (⟨S330000, .i32⟩ : BufTy).Contents (Elt F) → (⟨S330000x1, .i32⟩ : BufTy).Contents (Elt F)),
    ternary main_v313 main_v314 main_v309 main_v315 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_88 (constant S_ .f32 0x00000000#32),
    unary main_cst_88 main_v316 (broadcastInDim S10000 ![] bcast_S_S10000 : (⟨S_, .f32⟩ : BufTy).Contents (Elt F) → (⟨S10000, .f32⟩ : BufTy).Contents (Elt F)),
    binary main_v312 main_v316 main_v317 (cmpf .ogt : (⟨S10000, .f32⟩ : BufTy).Contents (Elt F) → (⟨S10000, .f32⟩ : BufTy).Contents (Elt F) → (⟨S10000, .i1⟩ : BufTy).Contents (Elt F)),
    nullary main_cst_89 (constant S_ .f32 0x3F800000#32),
    unary main_cst_89 main_v318 (broadcastInDim S10000 ![] bcast_S_S10000 : (⟨S_, .f32⟩ : BufTy).Contents (Elt F) → (⟨S10000, .f32⟩ : BufTy).Contents (Elt F)),
    binary main_v312 main_v318 main_v319 (maximumf : (⟨S10000, .f32⟩ : BufTy).Contents (Elt F) → (⟨S10000, .f32⟩ : BufTy).Contents (Elt F) → (⟨S10000, .f32⟩ : BufTy).Contents (Elt F)),
    unary main_v319 main_v320 (Host.rsqrt : (⟨S10000, .f32⟩ : BufTy).Contents (Elt F) → (⟨S10000, .f32⟩ : BufTy).Contents (Elt F)),
    nullary main_cst_90 (constant S_ .f32 0x00000000#32),
    TRef.unary (TRef.of (T := ⟨S_, .f32⟩) main_cst_90) (TRef.of (T := ⟨S_, .f32⟩) main_call16_v0) id,
    TRef.unary (TRef.of (T := ⟨S_, .f32⟩) main_call16_v0) (TRef.of (T := ⟨S10000, .f32⟩) main_call16_v1) (broadcastInDim S10000 ![] bcast_S_S10000),
    TRef.ternary (TRef.of (T := ⟨S10000, .i1⟩) main_v317) (TRef.of (T := ⟨S10000, .f32⟩) main_v320) (TRef.of (T := ⟨S10000, .f32⟩) main_call16_v1) (TRef.of (T := ⟨S10000, .f32⟩) main_v321) select,
    nullary main_cst_91 (constant S_ .f32 0x00000000#32),
    unary main_cst_91 main_v322 (broadcastInDim S10000 ![] bcast_S_S10000 : (⟨S_, .f32⟩ : BufTy).Contents (Elt F) → (⟨S10000, .f32⟩ : BufTy).Contents (Elt F)),
    binary main_v315 main_v322 main_v323 (cmpf .ogt : (⟨S10000, .f32⟩ : BufTy).Contents (Elt F) → (⟨S10000, .f32⟩ : BufTy).Contents (Elt F) → (⟨S10000, .i1⟩ : BufTy).Contents (Elt F)),
    nullary main_cst_92 (constant S_ .f32 0x3F800000#32),
    unary main_cst_92 main_v324 (broadcastInDim S10000 ![] bcast_S_S10000 : (⟨S_, .f32⟩ : BufTy).Contents (Elt F) → (⟨S10000, .f32⟩ : BufTy).Contents (Elt F)),
    binary main_v315 main_v324 main_v325 (maximumf : (⟨S10000, .f32⟩ : BufTy).Contents (Elt F) → (⟨S10000, .f32⟩ : BufTy).Contents (Elt F) → (⟨S10000, .f32⟩ : BufTy).Contents (Elt F)),
    unary main_v325 main_v326 (Host.rsqrt : (⟨S10000, .f32⟩ : BufTy).Contents (Elt F) → (⟨S10000, .f32⟩ : BufTy).Contents (Elt F)),
    nullary main_cst_93 (constant S_ .f32 0x00000000#32),
    TRef.unary (TRef.of (T := ⟨S_, .f32⟩) main_cst_93) (TRef.of (T := ⟨S_, .f32⟩) main_call17_v0) id,
    TRef.unary (TRef.of (T := ⟨S_, .f32⟩) main_call17_v0) (TRef.of (T := ⟨S10000, .f32⟩) main_call17_v1) (broadcastInDim S10000 ![] bcast_S_S10000),
    TRef.ternary (TRef.of (T := ⟨S10000, .i1⟩) main_v323) (TRef.of (T := ⟨S10000, .f32⟩) main_v326) (TRef.of (T := ⟨S10000, .f32⟩) main_call17_v1) (TRef.of (T := ⟨S10000, .f32⟩) main_v327) select ]
abbrev rblk10_W : List (Ref sig .tc) := [main_cst_85, main_v309, main_cst_86, main_v310, main_v311, main_v312, main_cst_87, main_v313, main_v314, main_v315, main_cst_88, main_v316, main_v317, main_cst_89, main_v318, main_v319, main_v320, main_cst_90, main_call16_v0, main_call16_v1, main_v321, main_cst_91, main_v322, main_v323, main_cst_92, main_v324, main_v325, main_v326, main_cst_93, main_call17_v0, main_call17_v1, main_v327]
theorem rblk10_writes : (rblk10 : List (HloOp τ sig (Elt F))).Forall fun op => op.writes ⊆ (rblk10_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk10_sub : (rblk10 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk10_fresh : (rblk10 : List (HloOp τ sig (Elt F))).Forall fun op => op.fresh = ∅ := by
  simp only [List.Forall]; repeat' constructor
theorem rblk10_keep (W : Valuation τ sig (Elt F)) (r : Ref sig .tc) (h : r ∉ rblk10_W) :
    after (rblk10 : List (HloOp τ sig (Elt F))) W (Proc.devRef .tc r) = W (Proc.devRef .tc r) :=
  after_of_writes_sub rblk10 _ rblk10_writes h

/-- Operations 460 … 491. -/
abbrev rblk11 : List (HloOp τ sig (Elt F)) :=
  [ binary main_v301 main_arg16 main_v328 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    nullary main_c_94 (constantI S_ 32 0#32),
    unary main_c_94 main_v329 (broadcastInDim S330000 ![] bcast_S_S330000 : (⟨S_, .i32⟩ : BufTy).Contents (Elt F) → (⟨S330000, .i32⟩ : BufTy).Contents (Elt F)),
    binary main_v305 main_v329 main_v330 (cmpi .slt : (⟨S330000, .i32⟩ : BufTy).Contents (Elt F) → (⟨S330000, .i32⟩ : BufTy).Contents (Elt F) → (⟨S330000, .i1⟩ : BufTy).Contents (Elt F)),
    nullary main_c_95 (constantI S_ 32 10000#32),
    unary main_c_95 main_v331 (broadcastInDim S330000 ![] bcast_S_S330000 : (⟨S_, .i32⟩ : BufTy).Contents (Elt F) → (⟨S330000, .i32⟩ : BufTy).Contents (Elt F)),
    binary main_v305 main_v331 main_v332 (addi : (⟨S330000, .i32⟩ : BufTy).Contents (Elt F) → (⟨S330000, .i32⟩ : BufTy).Contents (Elt F) → (⟨S330000, .i32⟩ : BufTy).Contents (Elt F)),
    ternary main_v330 main_v332 main_v305 main_v333 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v333 main_v334 (broadcastInDim S330000x1 ![0] bcast_S330000_S330000x1_0 : (⟨S330000, .i32⟩ : BufTy).Contents (Elt F) → (⟨S330000x1, .i32⟩ : BufTy).Contents (Elt F)),
    binary main_v328 main_v334 main_v335 ((fun x i => Host.gather gather_S10000x32_S330000x1_S330000x32_1_0_n_n_0_1_132 x i) : (⟨S10000x32, .f32⟩ : BufTy).Contents (Elt F) → (⟨S330000x1, .i32⟩ : BufTy).Contents (Elt F) → (⟨S330000x32, .f32⟩ : BufTy).Contents (Elt F)),
    nullary main_c_96 (constantI S_ 32 0#32),
    unary main_c_96 main_v336 (broadcastInDim S330000 ![] bcast_S_S330000 : (⟨S_, .i32⟩ : BufTy).Contents (Elt F) → (⟨S330000, .i32⟩ : BufTy).Contents (Elt F)),
    binary main_v305 main_v336 main_v337 (cmpi .slt : (⟨S330000, .i32⟩ : BufTy).Contents (Elt F) → (⟨S330000, .i32⟩ : BufTy).Contents (Elt F) → (⟨S330000, .i1⟩ : BufTy).Contents (Elt F)),
    nullary main_c_97 (constantI S_ 32 10000#32),
    unary main_c_97 main_v338 (broadcastInDim S330000 ![] bcast_S_S330000 : (⟨S_, .i32⟩ : BufTy).Contents (Elt F) → (⟨S330000, .i32⟩ : BufTy).Contents (Elt F)),
    binary main_v305 main_v338 main_v339 (addi : (⟨S330000, .i32⟩ : BufTy).Contents (Elt F) → (⟨S330000, .i32⟩ : BufTy).Contents (Elt F) → (⟨S330000, .i32⟩ : BufTy).Contents (Elt F)),
    ternary main_v337 main_v339 main_v305 main_v340 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v340 main_v341 (broadcastInDim S330000x1 ![0] bcast_S330000_S330000x1_0 : (⟨S330000, .i32⟩ : BufTy).Contents (Elt F) → (⟨S330000x1, .i32⟩ : BufTy).Contents (Elt F)),
    binary main_v321 main_v341 main_v342 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    unary main_v342 main_v343 (broadcastInDim S330000x1 ![0] bcast_S330000_S330000x1_0 : (⟨S330000, .f32⟩ : BufTy).Contents (Elt F) → (⟨S330000x1, .f32⟩ : BufTy).Contents (Elt F)),
    unary main_v343 main_v344 (broadcastInDim S330000x32 ![0, 1] bcast_S330000x1_S330000x32_0_1 : (⟨S330000x1, .f32⟩ : BufTy).Contents (Elt F) → (⟨S330000x32, .f32⟩ : BufTy).Contents (Elt F)),
    binary main_v335 main_v344 main_v345 (mulf : (⟨S330000x32, .f32⟩ : BufTy).Contents (Elt F) → (⟨S330000x32, .f32⟩ : BufTy).Contents (Elt F) → (⟨S330000x32, .f32⟩ : BufTy).Contents (Elt F)),
    nullary main_cst_98 (constant S_ .f32 0x00000000#32),
    unary main_cst_98 main_v346 (broadcastInDim S10000x32 ![] bcast_S_S10000x32 : (⟨S_, .f32⟩ : BufTy).Contents (Elt F) → (⟨S10000x32, .f32⟩ : BufTy).Contents (Elt F)),
    unary main_v308 main_v347 (broadcastInDim S330000x1 ![0] bcast_S330000_S330000x1_0 : (⟨S330000, .i32⟩ : BufTy).Contents (Elt F) → (⟨S330000x1, .i32⟩ : BufTy).Contents (Elt F)),
    ternary main_v346 main_v347 main_v345 main_v348 ((fun x i u => Host.scatterAdd scatter_S10000x32_S330000x1_S330000x32_1_0_0_1 x i u) : (⟨S10000x32, .f32⟩ : BufTy).Contents (Elt F) → (⟨S330000x1, .i32⟩ : BufTy).Contents (Elt F) → (⟨S330000x32, .f32⟩ : BufTy).Contents (Elt F) → (⟨S10000x32, .f32⟩ : BufTy).Contents (Elt F)),
    unary main_v327 main_v349 (broadcastInDim S10000x1 ![0] bcast_S10000_S10000x1_0 : (⟨S10000, .f32⟩ : BufTy).Contents (Elt F) → (⟨S10000x1, .f32⟩ : BufTy).Contents (Elt F)),
    unary main_v349 main_v350 (broadcastInDim S10000x32 ![0, 1] bcast_S10000x1_S10000x32_0_1 : (⟨S10000x1, .f32⟩ : BufTy).Contents (Elt F) → (⟨S10000x32, .f32⟩ : BufTy).Contents (Elt F)),
    binary main_v348 main_v350 main_v351 (mulf : (⟨S10000x32, .f32⟩ : BufTy).Contents (Elt F) → (⟨S10000x32, .f32⟩ : BufTy).Contents (Elt F) → (⟨S10000x32, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S10000x32, .f32⟩) main_call18_v0) (broadcastInDim S10000x32 ![] bcast_S_S10000x32),
    TRef.binary (TRef.of (T := ⟨S10000x32, .f32⟩) main_v351) (TRef.of (T := ⟨S10000x32, .f32⟩) main_call18_v0) (TRef.of (T := ⟨S10000x32, .f32⟩) main_v352) maximumf ]
abbrev rblk11_W : List (Ref sig .tc) := [main_v328, main_c_94, main_v329, main_v330, main_c_95, main_v331, main_v332, main_v333, main_v334, main_v335, main_c_96, main_v336, main_v337, main_c_97, main_v338, main_v339, main_v340, main_v341, main_v342, main_v343, main_v344, main_v345, main_cst_98, main_v346, main_v347, main_v348, main_v349, main_v350, main_v351, main_call18_cst, main_call18_v0, main_v352]
theorem rblk11_writes : (rblk11 : List (HloOp τ sig (Elt F))).Forall fun op => op.writes ⊆ (rblk11_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk11_sub : (rblk11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩
theorem rblk11_fresh : (rblk11 : List (HloOp τ sig (Elt F))).Forall fun op => op.fresh = ∅ := by
  simp only [List.Forall]; repeat' constructor
theorem rblk11_keep (W : Valuation τ sig (Elt F)) (r : Ref sig .tc) (h : r ∉ rblk11_W) :
    after (rblk11 : List (HloOp τ sig (Elt F))) W (Proc.devRef .tc r) = W (Proc.devRef .tc r) :=
  after_of_writes_sub rblk11 _ rblk11_writes h

/-- Operations 492 … 523. -/
abbrev rblk12 : List (HloOp τ sig (Elt F)) :=
  [ nullary main_cst_99 (constant S_ .f32 0x3F800000#32),
    unary main_cst_99 main_v353 (broadcastInDim S330000 ![] bcast_S_S330000 : (⟨S_, .f32⟩ : BufTy).Contents (Elt F) → (⟨S330000, .f32⟩ : BufTy).Contents (Elt F)),
    nullary main_cst_100 (constant S_ .f32 0x00000000#32),
    unary main_cst_100 main_v354 (broadcastInDim S10000 ![] bcast_S_S10000 : (⟨S_, .f32⟩ : BufTy).Contents (Elt F) → (⟨S10000, .f32⟩ : BufTy).Contents (Elt F)),
    unary main_v305 main_v355 (broadcastInDim S330000x1 ![0] bcast_S330000_S330000x1_0 : (⟨S330000, .i32⟩ : BufTy).Contents (Elt F) → (⟨S330000x1, .i32⟩ : BufTy).Contents (Elt F)),
    ternary main_v354 main_v355 main_v353 main_v356 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_101 (constant S_ .f32 0x00000000#32),
    unary main_cst_101 main_v357 (broadcastInDim S10000 ![] bcast_S_S10000 : (⟨S_, .f32⟩ : BufTy).Contents (Elt F) → (⟨S10000, .f32⟩ : BufTy).Contents (Elt F)),
    unary main_v308 main_v358 (broadcastInDim S330000x1 ![0] bcast_S330000_S330000x1_0 : (⟨S330000, .i32⟩ : BufTy).Contents (Elt F) → (⟨S330000x1, .i32⟩ : BufTy).Contents (Elt F)),
    ternary main_v357 main_v358 main_v353 main_v359 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_102 (constant S_ .f32 0x00000000#32),
    unary main_cst_102 main_v360 (broadcastInDim S10000 ![] bcast_S_S10000 : (⟨S_, .f32⟩ : BufTy).Contents (Elt F) → (⟨S10000, .f32⟩ : BufTy).Contents (Elt F)),
    binary main_v356 main_v360 main_v361 (cmpf .ogt : (⟨S10000, .f32⟩ : BufTy).Contents (Elt F) → (⟨S10000, .f32⟩ : BufTy).Contents (Elt F) → (⟨S10000, .i1⟩ : BufTy).Contents (Elt F)),
    nullary main_cst_103 (constant S_ .f32 0x3F800000#32),
    unary main_cst_103 main_v362 (broadcastInDim S10000 ![] bcast_S_S10000 : (⟨S_, .f32⟩ : BufTy).Contents (Elt F) → (⟨S10000, .f32⟩ : BufTy).Contents (Elt F)),
    binary main_v356 main_v362 main_v363 (maximumf : (⟨S10000, .f32⟩ : BufTy).Contents (Elt F) → (⟨S10000, .f32⟩ : BufTy).Contents (Elt F) → (⟨S10000, .f32⟩ : BufTy).Contents (Elt F)),
    unary main_v363 main_v364 (Host.rsqrt : (⟨S10000, .f32⟩ : BufTy).Contents (Elt F) → (⟨S10000, .f32⟩ : BufTy).Contents (Elt F)),
    nullary main_cst_104 (constant S_ .f32 0x00000000#32),
    TRef.unary (TRef.of (T := ⟨S_, .f32⟩) main_cst_104) (TRef.of (T := ⟨S_, .f32⟩) main_call19_v0) id,
    TRef.unary (TRef.of (T := ⟨S_, .f32⟩) main_call19_v0) (TRef.of (T := ⟨S10000, .f32⟩) main_call19_v1) (broadcastInDim S10000 ![] bcast_S_S10000),
    TRef.ternary (TRef.of (T := ⟨S10000, .i1⟩) main_v361) (TRef.of (T := ⟨S10000, .f32⟩) main_v364) (TRef.of (T := ⟨S10000, .f32⟩) main_call19_v1) (TRef.of (T := ⟨S10000, .f32⟩) main_v365) select,
    nullary main_cst_105 (constant S_ .f32 0x00000000#32),
    unary main_cst_105 main_v366 (broadcastInDim S10000 ![] bcast_S_S10000 : (⟨S_, .f32⟩ : BufTy).Contents (Elt F) → (⟨S10000, .f32⟩ : BufTy).Contents (Elt F)),
    binary main_v359 main_v366 main_v367 (cmpf .ogt : (⟨S10000, .f32⟩ : BufTy).Contents (Elt F) → (⟨S10000, .f32⟩ : BufTy).Contents (Elt F) → (⟨S10000, .i1⟩ : BufTy).Contents (Elt F)),
    nullary main_cst_106 (constant S_ .f32 0x3F800000#32),
    unary main_cst_106 main_v368 (broadcastInDim S10000 ![] bcast_S_S10000 : (⟨S_, .f32⟩ : BufTy).Contents (Elt F) → (⟨S10000, .f32⟩ : BufTy).Contents (Elt F)),
    binary main_v359 main_v368 main_v369 (maximumf : (⟨S10000, .f32⟩ : BufTy).Contents (Elt F) → (⟨S10000, .f32⟩ : BufTy).Contents (Elt F) → (⟨S10000, .f32⟩ : BufTy).Contents (Elt F)),
    unary main_v369 main_v370 (Host.rsqrt : (⟨S10000, .f32⟩ : BufTy).Contents (Elt F) → (⟨S10000, .f32⟩ : BufTy).Contents (Elt F)),
    nullary main_cst_107 (constant S_ .f32 0x00000000#32),
    TRef.unary (TRef.of (T := ⟨S_, .f32⟩) main_cst_107) (TRef.of (T := ⟨S_, .f32⟩) main_call20_v0) id,
    TRef.unary (TRef.of (T := ⟨S_, .f32⟩) main_call20_v0) (TRef.of (T := ⟨S10000, .f32⟩) main_call20_v1) (broadcastInDim S10000 ![] bcast_S_S10000),
    TRef.ternary (TRef.of (T := ⟨S10000, .i1⟩) main_v367) (TRef.of (T := ⟨S10000, .f32⟩) main_v370) (TRef.of (T := ⟨S10000, .f32⟩) main_call20_v1) (TRef.of (T := ⟨S10000, .f32⟩) main_v371) select ]
abbrev rblk12_W : List (Ref sig .tc) := [main_cst_99, main_v353, main_cst_100, main_v354, main_v355, main_v356, main_cst_101, main_v357, main_v358, main_v359, main_cst_102, main_v360, main_v361, main_cst_103, main_v362, main_v363, main_v364, main_cst_104, main_call19_v0, main_call19_v1, main_v365, main_cst_105, main_v366, main_v367, main_cst_106, main_v368, main_v369, main_v370, main_cst_107, main_call20_v0, main_call20_v1, main_v371]
theorem rblk12_writes : (rblk12 : List (HloOp τ sig (Elt F))).Forall fun op => op.writes ⊆ (rblk12_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk12_sub : (rblk12 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem rblk12_fresh : (rblk12 : List (HloOp τ sig (Elt F))).Forall fun op => op.fresh = ∅ := by
  simp only [List.Forall]; repeat' constructor
theorem rblk12_keep (W : Valuation τ sig (Elt F)) (r : Ref sig .tc) (h : r ∉ rblk12_W) :
    after (rblk12 : List (HloOp τ sig (Elt F))) W (Proc.devRef .tc r) = W (Proc.devRef .tc r) :=
  after_of_writes_sub rblk12 _ rblk12_writes h

/-- Operations 524 … 552. -/
abbrev rblk13 : List (HloOp τ sig (Elt F)) :=
  [ binary main_v352 main_arg17 main_v372 ((fun l r => Host.dotGeneral dot_S10000x32_S32x10_S10000x10_1_0_0_1_n_n none l r) : (⟨S10000x32, .f32⟩ : BufTy).Contents (Elt F) → (⟨S32x10, .f32⟩ : BufTy).Contents (Elt F) → (⟨S10000x10, .f32⟩ : BufTy).Contents (Elt F)),
    nullary main_c_108 (constantI S_ 32 0#32),
    unary main_c_108 main_v373 (broadcastInDim S330000 ![] bcast_S_S330000 : (⟨S_, .i32⟩ : BufTy).Contents (Elt F) → (⟨S330000, .i32⟩ : BufTy).Contents (Elt F)),
    binary main_v305 main_v373 main_v374 (cmpi .slt : (⟨S330000, .i32⟩ : BufTy).Contents (Elt F) → (⟨S330000, .i32⟩ : BufTy).Contents (Elt F) → (⟨S330000, .i1⟩ : BufTy).Contents (Elt F)),
    nullary main_c_109 (constantI S_ 32 10000#32),
    unary main_c_109 main_v375 (broadcastInDim S330000 ![] bcast_S_S330000 : (⟨S_, .i32⟩ : BufTy).Contents (Elt F) → (⟨S330000, .i32⟩ : BufTy).Contents (Elt F)),
    binary main_v305 main_v375 main_v376 (addi : (⟨S330000, .i32⟩ : BufTy).Contents (Elt F) → (⟨S330000, .i32⟩ : BufTy).Contents (Elt F) → (⟨S330000, .i32⟩ : BufTy).Contents (Elt F)),
    ternary main_v374 main_v376 main_v305 main_v377 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v377 main_v378 (broadcastInDim S330000x1 ![0] bcast_S330000_S330000x1_0 : (⟨S330000, .i32⟩ : BufTy).Contents (Elt F) → (⟨S330000x1, .i32⟩ : BufTy).Contents (Elt F)),
    binary main_v372 main_v378 main_v379 ((fun x i => Host.gather gather_S10000x10_S330000x1_S330000x10_1_0_n_n_0_1_110 x i) : (⟨S10000x10, .f32⟩ : BufTy).Contents (Elt F) → (⟨S330000x1, .i32⟩ : BufTy).Contents (Elt F) → (⟨S330000x10, .f32⟩ : BufTy).Contents (Elt F)),
    nullary main_c_110 (constantI S_ 32 0#32),
    unary main_c_110 main_v380 (broadcastInDim S330000 ![] bcast_S_S330000 : (⟨S_, .i32⟩ : BufTy).Contents (Elt F) → (⟨S330000, .i32⟩ : BufTy).Contents (Elt F)),
    binary main_v305 main_v380 main_v381 (cmpi .slt : (⟨S330000, .i32⟩ : BufTy).Contents (Elt F) → (⟨S330000, .i32⟩ : BufTy).Contents (Elt F) → (⟨S330000, .i1⟩ : BufTy).Contents (Elt F)),
    nullary main_c_111 (constantI S_ 32 10000#32),
    unary main_c_111 main_v382 (broadcastInDim S330000 ![] bcast_S_S330000 : (⟨S_, .i32⟩ : BufTy).Contents (Elt F) → (⟨S330000, .i32⟩ : BufTy).Contents (Elt F)),
    binary main_v305 main_v382 main_v383 (addi : (⟨S330000, .i32⟩ : BufTy).Contents (Elt F) → (⟨S330000, .i32⟩ : BufTy).Contents (Elt F) → (⟨S330000, .i32⟩ : BufTy).Contents (Elt F)),
    ternary main_v381 main_v383 main_v305 main_v384 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v384 main_v385 (broadcastInDim S330000x1 ![0] bcast_S330000_S330000x1_0 : (⟨S330000, .i32⟩ : BufTy).Contents (Elt F) → (⟨S330000x1, .i32⟩ : BufTy).Contents (Elt F)),
    binary main_v365 main_v385 main_v386 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    unary main_v386 main_v387 (broadcastInDim S330000x1 ![0] bcast_S330000_S330000x1_0 : (⟨S330000, .f32⟩ : BufTy).Contents (Elt F) → (⟨S330000x1, .f32⟩ : BufTy).Contents (Elt F)),
    unary main_v387 main_v388 (broadcastInDim S330000x10 ![0, 1] bcast_S330000x1_S330000x10_0_1 : (⟨S330000x1, .f32⟩ : BufTy).Contents (Elt F) → (⟨S330000x10, .f32⟩ : BufTy).Contents (Elt F)),
    binary main_v379 main_v388 main_v389 (mulf : (⟨S330000x10, .f32⟩ : BufTy).Contents (Elt F) → (⟨S330000x10, .f32⟩ : BufTy).Contents (Elt F) → (⟨S330000x10, .f32⟩ : BufTy).Contents (Elt F)),
    nullary main_cst_112 (constant S_ .f32 0x00000000#32),
    unary main_cst_112 main_v390 (broadcastInDim S10000x10 ![] bcast_S_S10000x10 : (⟨S_, .f32⟩ : BufTy).Contents (Elt F) → (⟨S10000x10, .f32⟩ : BufTy).Contents (Elt F)),
    unary main_v308 main_v391 (broadcastInDim S330000x1 ![0] bcast_S330000_S330000x1_0 : (⟨S330000, .i32⟩ : BufTy).Contents (Elt F) → (⟨S330000x1, .i32⟩ : BufTy).Contents (Elt F)),
    ternary main_v390 main_v391 main_v389 main_v392 ((fun x i u => Host.scatterAdd scatter_S10000x10_S330000x1_S330000x10_1_0_0_1 x i u) : (⟨S10000x10, .f32⟩ : BufTy).Contents (Elt F) → (⟨S330000x1, .i32⟩ : BufTy).Contents (Elt F) → (⟨S330000x10, .f32⟩ : BufTy).Contents (Elt F) → (⟨S10000x10, .f32⟩ : BufTy).Contents (Elt F)),
    unary main_v371 main_v393 (broadcastInDim S10000x1 ![0] bcast_S10000_S10000x1_0 : (⟨S10000, .f32⟩ : BufTy).Contents (Elt F) → (⟨S10000x1, .f32⟩ : BufTy).Contents (Elt F)),
    unary main_v393 main_v394 (broadcastInDim S10000x10 ![0, 1] bcast_S10000x1_S10000x10_0_1 : (⟨S10000x1, .f32⟩ : BufTy).Contents (Elt F) → (⟨S10000x10, .f32⟩ : BufTy).Contents (Elt F)),
    binary main_v392 main_v394 main_v395 (mulf : (⟨S10000x10, .f32⟩ : BufTy).Contents (Elt F) → (⟨S10000x10, .f32⟩ : BufTy).Contents (Elt F) → (⟨S10000x10, .f32⟩ : BufTy).Contents (Elt F)) ]
abbrev rblk13_W : List (Ref sig .tc) := [main_v372, main_c_108, main_v373, main_v374, main_c_109, main_v375, main_v376, main_v377, main_v378, main_v379, main_c_110, main_v380, main_v381, main_c_111, main_v382, main_v383, main_v384, main_v385, main_v386, main_v387, main_v388, main_v389, main_cst_112, main_v390, main_v391, main_v392, main_v393, main_v394, main_v395]
theorem rblk13_writes : (rblk13 : List (HloOp τ sig (Elt F))).Forall fun op => op.writes ⊆ (rblk13_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblk13_sub : (rblk13 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩
theorem rblk13_fresh : (rblk13 : List (HloOp τ sig (Elt F))).Forall fun op => op.fresh = ∅ := by
  simp only [List.Forall]; repeat' constructor
theorem rblk13_keep (W : Valuation τ sig (Elt F)) (r : Ref sig .tc) (h : r ∉ rblk13_W) :
    after (rblk13 : List (HloOp τ sig (Elt F))) W (Proc.devRef .tc r) = W (Proc.devRef .tc r) :=
  after_of_writes_sub rblk13 _ rblk13_writes h

/-- The last two operations: the transpose of the embeddings and their product with it. -/
abbrev rblkT : List (HloOp τ sig (Elt F)) :=
  [ unary main_v395 main_v396 ((transpose S10x10000 [1, 0] · transposes_S10000x10_S10x10000_1_0) : (⟨S10000x10, .f32⟩ : BufTy).Contents (Elt F) → (⟨S10x10000, .f32⟩ : BufTy).Contents (Elt F)),
    binary main_v395 main_v396 main_v397 ((fun l r => Host.dotGeneral dot_S10000x10_S10x10000_S10000x10000_1_0_0_1_n_n none l r) : (⟨S10000x10, .f32⟩ : BufTy).Contents (Elt F) → (⟨S10x10000, .f32⟩ : BufTy).Contents (Elt F) → (⟨S10000x10000, .f32⟩ : BufTy).Contents (Elt F)) ]
abbrev rblkT_W : List (Ref sig .tc) := [main_v396, main_v397]
theorem rblkT_writes : (rblkT : List (HloOp τ sig (Elt F))).Forall fun op => op.writes ⊆ (rblkT_W.map (Proc.devRef (τ := τ) .tc)).toFinset := by
  simp only [List.Forall]; exact ⟨by simp only [nullary_writes, unary_writes, binary_writes, ternary_writes, quaternary_writes, reshape_writes, binaryIndexed_writes, unaryIndexed_writes, nary_writes, Finset.singleton_subset_iff, List.mem_toFinset]; exact List.mem_map_of_mem (by decide), by simp only [nullary_writes, unary_writes, binary_writes, ternary_writes, quaternary_writes, reshape_writes, binaryIndexed_writes, unaryIndexed_writes, nary_writes, Finset.singleton_subset_iff, List.mem_toFinset]; exact List.mem_map_of_mem (by decide)⟩
theorem rblkT_sub : (rblkT : List (HloOp τ sig (Elt F))).Forall fun op => op.bufs ⊆ tcRefs τ sig :=
  ⟨unary_bufs_sub .., binary_bufs_sub ..⟩
theorem rblkT_fresh : (rblkT : List (HloOp τ sig (Elt F))).Forall fun op => op.fresh = ∅ := by
  simp only [List.Forall]; repeat' constructor
theorem rblkT_keep (W : Valuation τ sig (Elt F)) (r : Ref sig .tc) (h : r ∉ rblkT_W) :
    after (rblkT : List (HloOp τ sig (Elt F))) W (Proc.devRef .tc r) = W (Proc.devRef .tc r) :=
  after_of_writes_sub rblkT _ rblkT_writes h

end Cert.ReferenceIdeal.Hand

end
-- ==== Proof.RRun.lean ====
/-
  The reference program is one straight line of host operations: three stacks of two graph-convolution layers, the
  softmax that fuses them, two more layers on the graph with self loops, then the transpose of the node embeddings and
  their product with it.  Read as the concatenation of its blocks, every weakly fair execution of it ends with each
  buffer at the fold of the operations over the launch memory; no operation writes an argument; the embeddings are
  what the common prefix leaves, and the last result is the product of the embeddings with their transpose.
-/
import proofs.«176114_j39599598469276_1_alg».proof.Proof.RBlocks
import Idealize.ShloMosaic.Lib.Pipeline.Frame

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations that compute the node embeddings (the part the two programs share), block after block. -/
abbrev opsPrefix : List (HloOp τ sig (Elt F)) :=
  rblk00 ++ (rblk01 ++ (rblk02 ++ (rblk03 ++ (rblk04 ++ (rblk05 ++ (rblk06 ++ (rblk07 ++ (rblk08 ++ (rblk09 ++ (rblk10 ++ (rblk11 ++ (rblk12 ++ (rblk13)))))))))))))

/-- All of @main's operations. -/
abbrev opsAll : List (HloOp τ sig (Elt F)) := opsPrefix ++ rblkT

set_option maxRecDepth 1000000 in
set_option maxHeartbeats 40000000 in
/-- @main is the straight line of these operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_append.mpr ⟨List.forall_append.mpr ⟨rblk00_sub, List.forall_append.mpr ⟨rblk01_sub, List.forall_append.mpr ⟨rblk02_sub, List.forall_append.mpr ⟨rblk03_sub, List.forall_append.mpr ⟨rblk04_sub, List.forall_append.mpr ⟨rblk05_sub, List.forall_append.mpr ⟨rblk06_sub, List.forall_append.mpr ⟨rblk07_sub, List.forall_append.mpr ⟨rblk08_sub, List.forall_append.mpr ⟨rblk09_sub, List.forall_append.mpr ⟨rblk10_sub, List.forall_append.mpr ⟨rblk11_sub, List.forall_append.mpr ⟨rblk12_sub, rblk13_sub⟩⟩⟩⟩⟩⟩⟩⟩⟩⟩⟩⟩⟩, rblkT_sub⟩

theorem opsAll_fresh : (opsAll : List (HloOp τ sig (Elt F))).Forall fun op => op.fresh = ∅ :=
  List.forall_append.mpr ⟨List.forall_append.mpr ⟨rblk00_fresh, List.forall_append.mpr ⟨rblk01_fresh, List.forall_append.mpr ⟨rblk02_fresh, List.forall_append.mpr ⟨rblk03_fresh, List.forall_append.mpr ⟨rblk04_fresh, List.forall_append.mpr ⟨rblk05_fresh, List.forall_append.mpr ⟨rblk06_fresh, List.forall_append.mpr ⟨rblk07_fresh, List.forall_append.mpr ⟨rblk08_fresh, List.forall_append.mpr ⟨rblk09_fresh, List.forall_append.mpr ⟨rblk10_fresh, List.forall_append.mpr ⟨rblk11_fresh, List.forall_append.mpr ⟨rblk12_fresh, rblk13_fresh⟩⟩⟩⟩⟩⟩⟩⟩⟩⟩⟩⟩⟩, rblkT_fresh⟩

/-- Every weakly fair execution of the reference terminates with each buffer at the fold of its operations over the
    launch memory. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (opsAll (F := F)) (launchContents m d) (Proc.devRef .tc b) :=
  run_seq scopedRefs_eq scopedSems_eq defs main (fun _ => opsAll) main_eq (fun _ => opsAll_sub) m ρ
    (fun _ => List.forall_iff_forall_mem.mp opsAll_fresh)

/-- A buffer that no block writes keeps its contents through the common prefix. -/
theorem opsPrefix_keep (W : Valuation τ sig (Elt F)) (r : Ref sig .tc)
    (h_rblk00 : r ∉ rblk00_W) (h_rblk01 : r ∉ rblk01_W) (h_rblk02 : r ∉ rblk02_W) (h_rblk03 : r ∉ rblk03_W) (h_rblk04 : r ∉ rblk04_W) (h_rblk05 : r ∉ rblk05_W) (h_rblk06 : r ∉ rblk06_W) (h_rblk07 : r ∉ rblk07_W) (h_rblk08 : r ∉ rblk08_W) (h_rblk09 : r ∉ rblk09_W) (h_rblk10 : r ∉ rblk10_W) (h_rblk11 : r ∉ rblk11_W) (h_rblk12 : r ∉ rblk12_W) (h_rblk13 : r ∉ rblk13_W) :
    after (opsPrefix : List (HloOp τ sig (Elt F))) W (Proc.devRef .tc r) = W (Proc.devRef .tc r) := by
  simp only [opsPrefix, after_append]
  rw [rblk13_keep _ r h_rblk13, rblk12_keep _ r h_rblk12, rblk11_keep _ r h_rblk11, rblk10_keep _ r h_rblk10, rblk09_keep _ r h_rblk09, rblk08_keep _ r h_rblk08, rblk07_keep _ r h_rblk07, rblk06_keep _ r h_rblk06, rblk05_keep _ r h_rblk05, rblk04_keep _ r h_rblk04, rblk03_keep _ r h_rblk03, rblk02_keep _ r h_rblk02, rblk01_keep _ r h_rblk01, rblk00_keep _ r h_rblk00]

/-- The last two operations write neither the embeddings nor an argument. -/
theorem opsAll_keep (W : Valuation τ sig (Elt F)) (r : Ref sig .tc) (hT : r ∉ rblkT_W) :
    after (opsAll : List (HloOp τ sig (Elt F))) W (Proc.devRef .tc r) = after (opsPrefix : List (HloOp τ sig (Elt F))) W (Proc.devRef .tc r) := by
  simp only [opsAll]
  rw [after_append]
  exact rblkT_keep _ r hT

/-- No operation writes an argument. -/
theorem arg_keep (W : Valuation τ sig (Elt F)) (r : Ref sig .tc) (hT : r ∉ rblkT_W)
    (h_rblk00 : r ∉ rblk00_W) (h_rblk01 : r ∉ rblk01_W) (h_rblk02 : r ∉ rblk02_W) (h_rblk03 : r ∉ rblk03_W) (h_rblk04 : r ∉ rblk04_W) (h_rblk05 : r ∉ rblk05_W) (h_rblk06 : r ∉ rblk06_W) (h_rblk07 : r ∉ rblk07_W) (h_rblk08 : r ∉ rblk08_W) (h_rblk09 : r ∉ rblk09_W) (h_rblk10 : r ∉ rblk10_W) (h_rblk11 : r ∉ rblk11_W) (h_rblk12 : r ∉ rblk12_W) (h_rblk13 : r ∉ rblk13_W) :
    after (opsAll : List (HloOp τ sig (Elt F))) W (Proc.devRef .tc r) = W (Proc.devRef .tc r) :=
  (opsAll_keep W r hT).trans (opsPrefix_keep W r h_rblk00 h_rblk01 h_rblk02 h_rblk03 h_rblk04 h_rblk05 h_rblk06 h_rblk07 h_rblk08 h_rblk09 h_rblk10 h_rblk11 h_rblk12 h_rblk13)

/-- The last result is the product of the embeddings with their transpose. -/
theorem gram_eq (W : Valuation τ sig (Elt F)) :
    after (opsAll : List (HloOp τ sig (Elt F))) W (Proc.devRef .tc main_v397)
      = Host.dotGeneral dot_S10000x10_S10x10000_S10000x10000_1_0_0_1_n_n none
          (after (opsPrefix : List (HloOp τ sig (Elt F))) W (Proc.devRef .tc main_v395))
          (transpose S10x10000 [1, 0] (after (opsPrefix : List (HloOp τ sig (Elt F))) W (Proc.devRef .tc main_v395)) transposes_S10000x10_S10x10000_1_0) := by
  simp only [opsAll]
  rw [after_append]
  generalize after (opsPrefix : List (HloOp τ sig (Elt F))) W = W'
  after_results

/-- THE FRAME of the reference: it runs to the end and its arguments end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_arg0).trans (arg_keep _ main_arg0 (by decide) (by decide) (by decide) (by decide) (by decide) (by decide) (by decide) (by decide) (by decide) (by decide) (by decide) (by decide) (by decide) (by decide) (by decide)),
      (h c main_arg1).trans (arg_keep _ main_arg1 (by decide) (by decide) (by decide) (by decide) (by decide) (by decide) (by decide) (by decide) (by decide) (by decide) (by decide) (by decide) (by decide) (by decide) (by decide)),
      (h c main_arg2).trans (arg_keep _ main_arg2 (by decide) (by decide) (by decide) (by decide) (by decide) (by decide) (by decide) (by decide) (by decide) (by decide) (by decide) (by decide) (by decide) (by decide) (by decide)),
      (h c main_arg3).trans (arg_keep _ main_arg3 (by decide) (by decide) (by decide) (by decide) (by decide) (by decide) (by decide) (by decide) (by decide) (by decide) (by decide) (by decide) (by decide) (by decide) (by decide)),
      (h c main_arg4).trans (arg_keep _ main_arg4 (by decide) (by decide) (by decide) (by decide) (by decide) (by decide) (by decide) (by decide) (by decide) (by decide) (by decide) (by decide) (by decide) (by decide) (by decide)),
      (h c main_arg5).trans (arg_keep _ main_arg5 (by decide) (by decide) (by decide) (by decide) (by decide) (by decide) (by decide) (by decide) (by decide) (by decide) (by decide) (by decide) (by decide) (by decide) (by decide)),
      (h c main_arg6).trans (arg_keep _ main_arg6 (by decide) (by decide) (by decide) (by decide) (by decide) (by decide) (by decide) (by decide) (by decide) (by decide) (by decide) (by decide) (by decide) (by decide) (by decide)),
      (h c main_arg7).trans (arg_keep _ main_arg7 (by decide) (by decide) (by decide) (by decide) (by decide) (by decide) (by decide) (by decide) (by decide) (by decide) (by decide) (by decide) (by decide) (by decide) (by decide)),
      (h c main_arg8).trans (arg_keep _ main_arg8 (by decide) (by decide) (by decide) (by decide) (by decide) (by decide) (by decide) (by decide) (by decide) (by decide) (by decide) (by decide) (by decide) (by decide) (by decide)),
      (h c main_arg9).trans (arg_keep _ main_arg9 (by decide) (by decide) (by decide) (by decide) (by decide) (by decide) (by decide) (by decide) (by decide) (by decide) (by decide) (by decide) (by decide) (by decide) (by decide)),
      (h c main_arg10).trans (arg_keep _ main_arg10 (by decide) (by decide) (by decide) (by decide) (by decide) (by decide) (by decide) (by decide) (by decide) (by decide) (by decide) (by decide) (by decide) (by decide) (by decide)),
      (h c main_arg11).trans (arg_keep _ main_arg11 (by decide) (by decide) (by decide) (by decide) (by decide) (by decide) (by decide) (by decide) (by decide) (by decide) (by decide) (by decide) (by decide) (by decide) (by decide)),
      (h c main_arg12).trans (arg_keep _ main_arg12 (by decide) (by decide) (by decide) (by decide) (by decide) (by decide) (by decide) (by decide) (by decide) (by decide) (by decide) (by decide) (by decide) (by decide) (by decide)),
      (h c main_arg13).trans (arg_keep _ main_arg13 (by decide) (by decide) (by decide) (by decide) (by decide) (by decide) (by decide) (by decide) (by decide) (by decide) (by decide) (by decide) (by decide) (by decide) (by decide)),
      (h c main_arg14).trans (arg_keep _ main_arg14 (by decide) (by decide) (by decide) (by decide) (by decide) (by decide) (by decide) (by decide) (by decide) (by decide) (by decide) (by decide) (by decide) (by decide) (by decide)),
      (h c main_arg15).trans (arg_keep _ main_arg15 (by decide) (by decide) (by decide) (by decide) (by decide) (by decide) (by decide) (by decide) (by decide) (by decide) (by decide) (by decide) (by decide) (by decide) (by decide)),
      (h c main_arg16).trans (arg_keep _ main_arg16 (by decide) (by decide) (by decide) (by decide) (by decide) (by decide) (by decide) (by decide) (by decide) (by decide) (by decide) (by decide) (by decide) (by decide) (by decide)),
      (h c main_arg17).trans (arg_keep _ main_arg17 (by decide) (by decide) (by decide) (by decide) (by decide) (by decide) (by decide) (by decide) (by decide) (by decide) (by decide) (by decide) (by decide) (by decide) (by decide))⟩)
    (run m ρ)

/-- The node embeddings the reference computes on core `c` from the launch memory `m`. -/
abbrev embeddings (m : (ℓ : Loc nD τ sig) → Buf (Elt F) ℓ) (c : Dev nD) : Buf (Elt F) ((c.tc : Thread nD τ).loc main_v395) :=
  after (opsPrefix (F := F)) (launchContents m c) (Proc.devRef .tc main_v395)

/-- THE RUN of the reference with its results named: the product of the embeddings with their transpose, the
    embeddings, and the arguments as launched. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v397) = Host.dotGeneral dot_S10000x10_S10x10000_S10000x10000_1_0_0_1_n_n none (embeddings m c) (transpose S10x10000 [1, 0] (embeddings m c) transposes_S10000x10_S10x10000_1_0)
      ∧ r.2.mem ((c.tc : Thread nD τ).loc main_v395) = embeddings m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v397).trans (gram_eq _),
      (h c main_v395).trans (opsAll_keep _ main_v395 (by decide)),
      (h c main_arg0).trans (arg_keep _ main_arg0 (by decide) (by decide) (by decide) (by decide) (by decide) (by decide) (by decide) (by decide) (by decide) (by decide) (by decide) (by decide) (by decide) (by decide) (by decide)),
      (h c main_arg1).trans (arg_keep _ main_arg1 (by decide) (by decide) (by decide) (by decide) (by decide) (by decide) (by decide) (by decide) (by decide) (by decide) (by decide) (by decide) (by decide) (by decide) (by decide)),
      (h c main_arg2).trans (arg_keep _ main_arg2 (by decide) (by decide) (by decide) (by decide) (by decide) (by decide) (by decide) (by decide) (by decide) (by decide) (by decide) (by decide) (by decide) (by decide) (by decide)),
      (h c main_arg3).trans (arg_keep _ main_arg3 (by decide) (by decide) (by decide) (by decide) (by decide) (by decide) (by decide) (by decide) (by decide) (by decide) (by decide) (by decide) (by decide) (by decide) (by decide)),
      (h c main_arg4).trans (arg_keep _ main_arg4 (by decide) (by decide) (by decide) (by decide) (by decide) (by decide) (by decide) (by decide) (by decide) (by decide) (by decide) (by decide) (by decide) (by decide) (by decide)),
      (h c main_arg5).trans (arg_keep _ main_arg5 (by decide) (by decide) (by decide) (by decide) (by decide) (by decide) (by decide) (by decide) (by decide) (by decide) (by decide) (by decide) (by decide) (by decide) (by decide)),
      (h c main_arg6).trans (arg_keep _ main_arg6 (by decide) (by decide) (by decide) (by decide) (by decide) (by decide) (by decide) (by decide) (by decide) (by decide) (by decide) (by decide) (by decide) (by decide) (by decide)),
      (h c main_arg7).trans (arg_keep _ main_arg7 (by decide) (by decide) (by decide) (by decide) (by decide) (by decide) (by decide) (by decide) (by decide) (by decide) (by decide) (by decide) (by decide) (by decide) (by decide)),
      (h c main_arg8).trans (arg_keep _ main_arg8 (by decide) (by decide) (by decide) (by decide) (by decide) (by decide) (by decide) (by decide) (by decide) (by decide) (by decide) (by decide) (by decide) (by decide) (by decide)),
      (h c main_arg9).trans (arg_keep _ main_arg9 (by decide) (by decide) (by decide) (by decide) (by decide) (by decide) (by decide) (by decide) (by decide) (by decide) (by decide) (by decide) (by decide) (by decide) (by decide)),
      (h c main_arg10).trans (arg_keep _ main_arg10 (by decide) (by decide) (by decide) (by decide) (by decide) (by decide) (by decide) (by decide) (by decide) (by decide) (by decide) (by decide) (by decide) (by decide) (by decide)),
      (h c main_arg11).trans (arg_keep _ main_arg11 (by decide) (by decide) (by decide) (by decide) (by decide) (by decide) (by decide) (by decide) (by decide) (by decide) (by decide) (by decide) (by decide) (by decide) (by decide)),
      (h c main_arg12).trans (arg_keep _ main_arg12 (by decide) (by decide) (by decide) (by decide) (by decide) (by decide) (by decide) (by decide) (by decide) (by decide) (by decide) (by decide) (by decide) (by decide) (by decide)),
      (h c main_arg13).trans (arg_keep _ main_arg13 (by decide) (by decide) (by decide) (by decide) (by decide) (by decide) (by decide) (by decide) (by decide) (by decide) (by decide) (by decide) (by decide) (by decide) (by decide)),
      (h c main_arg14).trans (arg_keep _ main_arg14 (by decide) (by decide) (by decide) (by decide) (by decide) (by decide) (by decide) (by decide) (by decide) (by decide) (by decide) (by decide) (by decide) (by decide) (by decide)),
      (h c main_arg15).trans (arg_keep _ main_arg15 (by decide) (by decide) (by decide) (by decide) (by decide) (by decide) (by decide) (by decide) (by decide) (by decide) (by decide) (by decide) (by decide) (by decide) (by decide)),
      (h c main_arg16).trans (arg_keep _ main_arg16 (by decide) (by decide) (by decide) (by decide) (by decide) (by decide) (by decide) (by decide) (by decide) (by decide) (by decide) (by decide) (by decide) (by decide) (by decide)),
      (h c main_arg17).trans (arg_keep _ main_arg17 (by decide) (by decide) (by decide) (by decide) (by decide) (by decide) (by decide) (by decide) (by decide) (by decide) (by decide) (by decide) (by decide) (by decide) (by decide))⟩)
    (run m ρ)

end Cert.ReferenceIdeal.Hand

end
-- ==== Proof.RValue.lean ====
/-
  The reference ends by multiplying the 10000 × 10 array of node embeddings with its own transpose.  Over the
  extended reals the host's dot_general is the plain sum over the contracted axis, so the (p, q) entry of the product
  is the sum over the ten columns k of x[p, k] · x[q, k].  The steps: the transpose read at an index swaps the two
  coordinates; the dot_general read at an index is a sum over the one-axis contraction index, re-indexed through its
  one coordinate; the operand indices of the two factors at output index (p, q) and contraction coordinate k are
  (p, k) and (k, q), coordinate by coordinate.
-/
import proofs.«176114_j39599598469276_1_alg».proof.Proof.Gen.ReferenceIdeal
import Idealize.ShloMosaic.Lib.ValueIdx
import Idealize.ShloMosaic.Lib.Pipeline.Value
import Idealize.ShloMosaic.PureOps.Ideal.Laws

noncomputable section

open scoped BigOperators

namespace Cert.ReferenceIdeal.Hand

open Cert.ReferenceIdeal Idealize.ShloMosaic Idealize.ShloMosaic.TcCoe
open Cert.ReferenceIdeal.Facts₀

/-- The transposed array at (k, q) is the array at (q, k). -/
theorem transpose_ix2 (x : (⟨S10000x10, .f32⟩ : BufTy).Contents (Elt Ideal)) (k : Fin 10) (q : Fin 10000) :
    transpose S10x10000 [1, 0] x transposes_S10000x10_S10x10000_1_0 (ValueIdx.ix2 k q : S10x10000.Idx)
      = x (ValueIdx.ix2 q k : S10000x10.Idx) :=
  transpose_apply [1, 0] x transposes_S10000x10_S10x10000_1_0 (ValueIdx.ix2 k q : S10x10000.Idx) (ValueIdx.ix2 q k : S10000x10.Idx)
    (fun b => match b with
      | ⟨0, _⟩ => rfl
      | ⟨1, _⟩ => rfl)

/-- The left operand's row is the output's row. -/
theorem gram_lhs_0 (i : S10000x10000.Idx) (q : dot_S10000x10_S10x10000_S10000x10000_1_0_0_1_n_n.contr.Idx) :
    (dot_S10000x10_S10x10000_S10000x10000_1_0_0_1_n_n.lhsIdx i q 0).val = (i 0).val := by
  unfold DotDims.lhsIdx
  rw [dif_neg (show ¬(0 : Fin S10000x10.rank) ∈ dot_S10000x10_S10x10000_S10000x10000_1_0_0_1_n_n.lhsBatch by decide), dif_pos (show (0 : Fin S10000x10.rank) ∈ dot_S10000x10_S10x10000_S10000x10000_1_0_0_1_n_n.lhsNonContracting by decide)]
  rfl
/-- The left operand's column is the contraction coordinate. -/
theorem gram_lhs_1 (i : S10000x10000.Idx) (q : dot_S10000x10_S10x10000_S10000x10000_1_0_0_1_n_n.contr.Idx) :
    (dot_S10000x10_S10x10000_S10000x10000_1_0_0_1_n_n.lhsIdx i q 1).val = (q ⟨0, by decide⟩).val :=
  dot_S10000x10_S10x10000_S10000x10000_1_0_0_1_n_n.lhsIdx_val_of_single rfl i q
/-- The right operand's row is the contraction coordinate. -/
theorem gram_rhs_0 (i : S10000x10000.Idx) (q : dot_S10000x10_S10x10000_S10000x10000_1_0_0_1_n_n.contr.Idx) :
    (dot_S10000x10_S10x10000_S10000x10000_1_0_0_1_n_n.rhsIdx i q 0).val = (q ⟨0, by decide⟩).val :=
  dot_S10000x10_S10x10000_S10000x10000_1_0_0_1_n_n.rhsIdx_val_of_single rfl i q
/-- The right operand's column is the output's column. -/
theorem gram_rhs_1 (i : S10000x10000.Idx) (q : dot_S10000x10_S10x10000_S10000x10000_1_0_0_1_n_n.contr.Idx) :
    (dot_S10000x10_S10x10000_S10000x10000_1_0_0_1_n_n.rhsIdx i q 1).val = (i 1).val := by
  unfold DotDims.rhsIdx
  rw [dif_neg (show ¬(1 : Fin S10x10000.rank) ∈ dot_S10000x10_S10x10000_S10000x10000_1_0_0_1_n_n.rhsBatch by decide), dif_pos (show (1 : Fin S10x10000.rank) ∈ dot_S10000x10_S10x10000_S10000x10000_1_0_0_1_n_n.rhsNonContracting by decide)]
  rfl

/-- The (p, q) entry of the array times its transpose is the sum over the ten columns of the products of the
    entries of rows p and q. -/
theorem gram_apply (x : (⟨S10000x10, .f32⟩ : BufTy).Contents (Elt Ideal)) (p q : Fin 10000) :
    Host.dotGeneral (F := Ideal) (φ₁ := .f32) (φ₂ := .f32) dot_S10000x10_S10x10000_S10000x10000_1_0_0_1_n_n none x (transpose S10x10000 [1, 0] x transposes_S10000x10_S10x10000_1_0) (ValueIdx.ix2 p q : S10000x10000.Idx)
      = ∑ k : Fin 10, x (ValueIdx.ix2 p k : S10000x10.Idx) * x (ValueIdx.ix2 q k : S10000x10.Idx) := by
  generalize hy : transpose S10x10000 [1, 0] x transposes_S10000x10_S10x10000_1_0 = y
  simp only [Host.dotGeneral]
  rw [Ideal.dotGeneral_apply, ← Equiv.sum_comp (ValueIdx.contrEquiv1 dot_S10000x10_S10x10000_S10000x10000_1_0_0_1_n_n 10 rfl rfl).symm]
  refine Finset.sum_congr rfl fun k _ => ?_
  have hk := ValueIdx.contrEquiv1_symm_val dot_S10000x10_S10x10000_S10000x10000_1_0_0_1_n_n 10 rfl rfl k
  have el : dot_S10000x10_S10x10000_S10000x10000_1_0_0_1_n_n.lhsIdx (ValueIdx.ix2 p q : S10000x10000.Idx) ((ValueIdx.contrEquiv1 dot_S10000x10_S10x10000_S10000x10000_1_0_0_1_n_n 10 rfl rfl).symm k) = (ValueIdx.ix2 p k : S10000x10.Idx) := funext fun a => Fin.ext (by
    match a with
    | ⟨0, _⟩ => exact gram_lhs_0 _ _
    | ⟨1, _⟩ => exact (gram_lhs_1 _ _).trans hk)
  have er : dot_S10000x10_S10x10000_S10000x10000_1_0_0_1_n_n.rhsIdx (ValueIdx.ix2 p q : S10000x10000.Idx) ((ValueIdx.contrEquiv1 dot_S10000x10_S10x10000_S10000x10000_1_0_0_1_n_n 10 rfl rfl).symm k) = (ValueIdx.ix2 k q : S10x10000.Idx) := funext fun a => Fin.ext (by
    match a with
    | ⟨0, _⟩ => exact (gram_rhs_0 _ _).trans hk
    | ⟨1, _⟩ => exact gram_rhs_1 _ _)
  rw [el, er, ← hy, transpose_ix2]

end Cert.ReferenceIdeal.Hand

end
-- ==== Proof.SimB00.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim00_main_v47
    (h_main_arg0 : WR (Proc.devRef .tc Cert.ReferenceIdeal.main_arg0) = WK (Proc.devRef .tc Cert.KernelIdeal.main_arg0))
    (h_main_arg3 : WR (Proc.devRef .tc Cert.ReferenceIdeal.main_arg3) = WK (Proc.devRef .tc Cert.KernelIdeal.main_arg3))
    (h_main_arg7 : WR (Proc.devRef .tc Cert.ReferenceIdeal.main_arg7) = WK (Proc.devRef .tc Cert.KernelIdeal.main_arg7)) :
    StableHlo.after (Cert.ReferenceIdeal.Hand.rblk00 (F := F)) WR (Proc.devRef .tc Cert.ReferenceIdeal.main_v47)
      = StableHlo.after (Cert.KernelIdeal.Hand.kblk00 (F := F)) WK (Proc.devRef .tc Cert.KernelIdeal.main_v47) := by
  after_results_simp
  rw [h_main_arg0, h_main_arg3, h_main_arg7]
  rfl

end Cert.Sim

end
-- ==== Proof.SimB01.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim01_main_v49
    (h_main_arg3 : WR (Proc.devRef .tc Cert.ReferenceIdeal.main_arg3) = WK (Proc.devRef .tc Cert.KernelIdeal.main_arg3)) :
    StableHlo.after (Cert.ReferenceIdeal.Hand.rblk01 (F := F)) WR (Proc.devRef .tc Cert.ReferenceIdeal.main_v49)
      = StableHlo.after (Cert.KernelIdeal.Hand.kblk01 (F := F)) WK (Proc.devRef .tc Cert.KernelIdeal.main_v49) := by
  after_results_simp
  rw [h_main_arg3]
  rfl

set_option maxHeartbeats 8000000 in
theorem sim01_main_v51
    (h_main_arg3 : WR (Proc.devRef .tc Cert.ReferenceIdeal.main_arg3) = WK (Proc.devRef .tc Cert.KernelIdeal.main_arg3)) :
    StableHlo.after (Cert.ReferenceIdeal.Hand.rblk01 (F := F)) WR (Proc.devRef .tc Cert.ReferenceIdeal.main_v51)
      = StableHlo.after (Cert.KernelIdeal.Hand.kblk01 (F := F)) WK (Proc.devRef .tc Cert.KernelIdeal.main_v51) := by
  after_results_simp
  rw [h_main_arg3]
  rfl

set_option maxHeartbeats 8000000 in
theorem sim01_main_v64
    (h_main_arg3 : WR (Proc.devRef .tc Cert.ReferenceIdeal.main_arg3) = WK (Proc.devRef .tc Cert.KernelIdeal.main_arg3)) :
    StableHlo.after (Cert.ReferenceIdeal.Hand.rblk01 (F := F)) WR (Proc.devRef .tc Cert.ReferenceIdeal.main_v64)
      = StableHlo.after (Cert.KernelIdeal.Hand.kblk01 (F := F)) WK (Proc.devRef .tc Cert.KernelIdeal.main_v64) := by
  after_results_simp
  rw [h_main_arg3]
  rfl

set_option maxHeartbeats 8000000 in
theorem sim01_main_v70
    (h_main_arg3 : WR (Proc.devRef .tc Cert.ReferenceIdeal.main_arg3) = WK (Proc.devRef .tc Cert.KernelIdeal.main_arg3)) :
    StableHlo.after (Cert.ReferenceIdeal.Hand.rblk01 (F := F)) WR (Proc.devRef .tc Cert.ReferenceIdeal.main_v70)
      = StableHlo.after (Cert.KernelIdeal.Hand.kblk01 (F := F)) WK (Proc.devRef .tc Cert.KernelIdeal.main_v70) := by
  after_results_simp
  rw [h_main_arg3]
  rfl

end Cert.Sim

end
-- ==== Proof.SimB02.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim02_main_v111
    (h_main_arg4 : WR (Proc.devRef .tc Cert.ReferenceIdeal.main_arg4) = WK (Proc.devRef .tc Cert.KernelIdeal.main_arg4)) :
    StableHlo.after (Cert.ReferenceIdeal.Hand.rblk02 (F := F)) WR (Proc.devRef .tc Cert.ReferenceIdeal.main_v111)
      = StableHlo.after (Cert.KernelIdeal.Hand.kblk02 (F := F)) WK (Proc.devRef .tc Cert.KernelIdeal.main_v111) := by
  after_results_simp
  rw [h_main_arg4]
  rfl

set_option maxHeartbeats 8000000 in
theorem sim02_main_v117
    (h_main_arg4 : WR (Proc.devRef .tc Cert.ReferenceIdeal.main_arg4) = WK (Proc.devRef .tc Cert.KernelIdeal.main_arg4)) :
    StableHlo.after (Cert.ReferenceIdeal.Hand.rblk02 (F := F)) WR (Proc.devRef .tc Cert.ReferenceIdeal.main_v117)
      = StableHlo.after (Cert.KernelIdeal.Hand.kblk02 (F := F)) WK (Proc.devRef .tc Cert.KernelIdeal.main_v117) := by
  after_results_simp
  rw [h_main_arg4]
  rfl

set_option maxHeartbeats 8000000 in
theorem sim02_main_v94
    (h_main_arg8 : WR (Proc.devRef .tc Cert.ReferenceIdeal.main_arg8) = WK (Proc.devRef .tc Cert.KernelIdeal.main_arg8))
    (h_main_v47 : WR (Proc.devRef .tc Cert.ReferenceIdeal.main_v47) = WK (Proc.devRef .tc Cert.KernelIdeal.main_v47))
    (h_main_v49 : WR (Proc.devRef .tc Cert.ReferenceIdeal.main_v49) = WK (Proc.devRef .tc Cert.KernelIdeal.main_v49))
    (h_main_v51 : WR (Proc.devRef .tc Cert.ReferenceIdeal.main_v51) = WK (Proc.devRef .tc Cert.KernelIdeal.main_v51))
    (h_main_v64 : WR (Proc.devRef .tc Cert.ReferenceIdeal.main_v64) = WK (Proc.devRef .tc Cert.KernelIdeal.main_v64))
    (h_main_v70 : WR (Proc.devRef .tc Cert.ReferenceIdeal.main_v70) = WK (Proc.devRef .tc Cert.KernelIdeal.main_v70)) :
    StableHlo.after (Cert.ReferenceIdeal.Hand.rblk02 (F := F)) WR (Proc.devRef .tc Cert.ReferenceIdeal.main_v94)
      = StableHlo.after (Cert.KernelIdeal.Hand.kblk02 (F := F)) WK (Proc.devRef .tc Cert.KernelIdeal.main_v94) := by
  after_results_simp
  rw [h_main_arg8, h_main_v47, h_main_v49, h_main_v51, h_main_v64, h_main_v70]
  rfl

set_option maxHeartbeats 8000000 in
theorem sim02_main_v96
    (h_main_arg4 : WR (Proc.devRef .tc Cert.ReferenceIdeal.main_arg4) = WK (Proc.devRef .tc Cert.KernelIdeal.main_arg4)) :
    StableHlo.after (Cert.ReferenceIdeal.Hand.rblk02 (F := F)) WR (Proc.devRef .tc Cert.ReferenceIdeal.main_v96)
      = StableHlo.after (Cert.KernelIdeal.Hand.kblk02 (F := F)) WK (Proc.devRef .tc Cert.KernelIdeal.main_v96) := by
  after_results_simp
  rw [h_main_arg4]
  rfl

set_option maxHeartbeats 8000000 in
theorem sim02_main_v98
    (h_main_arg4 : WR (Proc.devRef .tc Cert.ReferenceIdeal.main_arg4) = WK (Proc.devRef .tc Cert.KernelIdeal.main_arg4)) :
    StableHlo.after (Cert.ReferenceIdeal.Hand.rblk02 (F := F)) WR (Proc.devRef .tc Cert.ReferenceIdeal.main_v98)
      = StableHlo.after (Cert.KernelIdeal.Hand.kblk02 (F := F)) WK (Proc.devRef .tc Cert.KernelIdeal.main_v98) := by
  after_results_simp
  rw [h_main_arg4]
  rfl

end Cert.Sim

end
-- ==== Proof.SimB03.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim03_main_v142
    (h_main_arg1 : WR (Proc.devRef .tc Cert.ReferenceIdeal.main_arg1) = WK (Proc.devRef .tc Cert.KernelIdeal.main_arg1))
    (h_main_arg9 : WR (Proc.devRef .tc Cert.ReferenceIdeal.main_arg9) = WK (Proc.devRef .tc Cert.KernelIdeal.main_arg9))
    (h_main_v111 : WR (Proc.devRef .tc Cert.ReferenceIdeal.main_v111) = WK (Proc.devRef .tc Cert.KernelIdeal.main_v111))
    (h_main_v117 : WR (Proc.devRef .tc Cert.ReferenceIdeal.main_v117) = WK (Proc.devRef .tc Cert.KernelIdeal.main_v117))
    (h_main_v96 : WR (Proc.devRef .tc Cert.ReferenceIdeal.main_v96) = WK (Proc.devRef .tc Cert.KernelIdeal.main_v96))
    (h_main_v98 : WR (Proc.devRef .tc Cert.ReferenceIdeal.main_v98) = WK (Proc.devRef .tc Cert.KernelIdeal.main_v98)) :
    StableHlo.after (Cert.ReferenceIdeal.Hand.rblk03 (F := F)) WR (Proc.devRef .tc Cert.ReferenceIdeal.main_v142)
      = StableHlo.after (Cert.KernelIdeal.Hand.kblk03 (F := F)) WK (Proc.devRef .tc Cert.KernelIdeal.main_v142) := by
  after_results_simp
  rw [h_main_arg1, h_main_arg9, h_main_v111, h_main_v117, h_main_v96, h_main_v98]
  rfl

end Cert.Sim

end
-- ==== Proof.SimB04.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim04_main_v144
    (h_main_arg4 : WR (Proc.devRef .tc Cert.ReferenceIdeal.main_arg4) = WK (Proc.devRef .tc Cert.KernelIdeal.main_arg4)) :
    StableHlo.after (Cert.ReferenceIdeal.Hand.rblk04 (F := F)) WR (Proc.devRef .tc Cert.ReferenceIdeal.main_v144)
      = StableHlo.after (Cert.KernelIdeal.Hand.kblk04 (F := F)) WK (Proc.devRef .tc Cert.KernelIdeal.main_v144) := by
  after_results_simp
  rw [h_main_arg4]
  rfl

set_option maxHeartbeats 8000000 in
theorem sim04_main_v146
    (h_main_arg4 : WR (Proc.devRef .tc Cert.ReferenceIdeal.main_arg4) = WK (Proc.devRef .tc Cert.KernelIdeal.main_arg4)) :
    StableHlo.after (Cert.ReferenceIdeal.Hand.rblk04 (F := F)) WR (Proc.devRef .tc Cert.ReferenceIdeal.main_v146)
      = StableHlo.after (Cert.KernelIdeal.Hand.kblk04 (F := F)) WK (Proc.devRef .tc Cert.KernelIdeal.main_v146) := by
  after_results_simp
  rw [h_main_arg4]
  rfl

set_option maxHeartbeats 8000000 in
theorem sim04_main_v159
    (h_main_arg4 : WR (Proc.devRef .tc Cert.ReferenceIdeal.main_arg4) = WK (Proc.devRef .tc Cert.KernelIdeal.main_arg4)) :
    StableHlo.after (Cert.ReferenceIdeal.Hand.rblk04 (F := F)) WR (Proc.devRef .tc Cert.ReferenceIdeal.main_v159)
      = StableHlo.after (Cert.KernelIdeal.Hand.kblk04 (F := F)) WK (Proc.devRef .tc Cert.KernelIdeal.main_v159) := by
  after_results_simp
  rw [h_main_arg4]
  rfl

set_option maxHeartbeats 8000000 in
theorem sim04_main_v165
    (h_main_arg4 : WR (Proc.devRef .tc Cert.ReferenceIdeal.main_arg4) = WK (Proc.devRef .tc Cert.KernelIdeal.main_arg4)) :
    StableHlo.after (Cert.ReferenceIdeal.Hand.rblk04 (F := F)) WR (Proc.devRef .tc Cert.ReferenceIdeal.main_v165)
      = StableHlo.after (Cert.KernelIdeal.Hand.kblk04 (F := F)) WK (Proc.devRef .tc Cert.KernelIdeal.main_v165) := by
  after_results_simp
  rw [h_main_arg4]
  rfl

end Cert.Sim

end
-- ==== Proof.SimB05.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim05_main_v189
    (h_main_arg10 : WR (Proc.devRef .tc Cert.ReferenceIdeal.main_arg10) = WK (Proc.devRef .tc Cert.KernelIdeal.main_arg10))
    (h_main_v142 : WR (Proc.devRef .tc Cert.ReferenceIdeal.main_v142) = WK (Proc.devRef .tc Cert.KernelIdeal.main_v142))
    (h_main_v144 : WR (Proc.devRef .tc Cert.ReferenceIdeal.main_v144) = WK (Proc.devRef .tc Cert.KernelIdeal.main_v144))
    (h_main_v146 : WR (Proc.devRef .tc Cert.ReferenceIdeal.main_v146) = WK (Proc.devRef .tc Cert.KernelIdeal.main_v146))
    (h_main_v159 : WR (Proc.devRef .tc Cert.ReferenceIdeal.main_v159) = WK (Proc.devRef .tc Cert.KernelIdeal.main_v159))
    (h_main_v165 : WR (Proc.devRef .tc Cert.ReferenceIdeal.main_v165) = WK (Proc.devRef .tc Cert.KernelIdeal.main_v165)) :
    StableHlo.after (Cert.ReferenceIdeal.Hand.rblk05 (F := F)) WR (Proc.devRef .tc Cert.ReferenceIdeal.main_v189)
      = StableHlo.after (Cert.KernelIdeal.Hand.kblk05 (F := F)) WK (Proc.devRef .tc Cert.KernelIdeal.main_v189) := by
  after_results_simp
  rw [h_main_arg10, h_main_v142, h_main_v144, h_main_v146, h_main_v159, h_main_v165]
  rfl

set_option maxHeartbeats 8000000 in
theorem sim05_main_v191
    (h_main_arg5 : WR (Proc.devRef .tc Cert.ReferenceIdeal.main_arg5) = WK (Proc.devRef .tc Cert.KernelIdeal.main_arg5)) :
    StableHlo.after (Cert.ReferenceIdeal.Hand.rblk05 (F := F)) WR (Proc.devRef .tc Cert.ReferenceIdeal.main_v191)
      = StableHlo.after (Cert.KernelIdeal.Hand.kblk05 (F := F)) WK (Proc.devRef .tc Cert.KernelIdeal.main_v191) := by
  after_results_simp
  rw [h_main_arg5]
  rfl

set_option maxHeartbeats 8000000 in
theorem sim05_main_v193
    (h_main_arg5 : WR (Proc.devRef .tc Cert.ReferenceIdeal.main_arg5) = WK (Proc.devRef .tc Cert.KernelIdeal.main_arg5)) :
    StableHlo.after (Cert.ReferenceIdeal.Hand.rblk05 (F := F)) WR (Proc.devRef .tc Cert.ReferenceIdeal.main_v193)
      = StableHlo.after (Cert.KernelIdeal.Hand.kblk05 (F := F)) WK (Proc.devRef .tc Cert.KernelIdeal.main_v193) := by
  after_results_simp
  rw [h_main_arg5]
  rfl

set_option maxHeartbeats 8000000 in
theorem sim05_main_v206
    (h_main_arg5 : WR (Proc.devRef .tc Cert.ReferenceIdeal.main_arg5) = WK (Proc.devRef .tc Cert.KernelIdeal.main_arg5)) :
    StableHlo.after (Cert.ReferenceIdeal.Hand.rblk05 (F := F)) WR (Proc.devRef .tc Cert.ReferenceIdeal.main_v206)
      = StableHlo.after (Cert.KernelIdeal.Hand.kblk05 (F := F)) WK (Proc.devRef .tc Cert.KernelIdeal.main_v206) := by
  after_results_simp
  rw [h_main_arg5]
  rfl

set_option maxHeartbeats 8000000 in
theorem sim05_main_v212
    (h_main_arg5 : WR (Proc.devRef .tc Cert.ReferenceIdeal.main_arg5) = WK (Proc.devRef .tc Cert.KernelIdeal.main_arg5)) :
    StableHlo.after (Cert.ReferenceIdeal.Hand.rblk05 (F := F)) WR (Proc.devRef .tc Cert.ReferenceIdeal.main_v212)
      = StableHlo.after (Cert.KernelIdeal.Hand.kblk05 (F := F)) WK (Proc.devRef .tc Cert.KernelIdeal.main_v212) := by
  after_results_simp
  rw [h_main_arg5]
  rfl

end Cert.Sim

end
-- ==== Proof.SimB06.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim06_main_v237
    (h_main_arg11 : WR (Proc.devRef .tc Cert.ReferenceIdeal.main_arg11) = WK (Proc.devRef .tc Cert.KernelIdeal.main_arg11))
    (h_main_arg2 : WR (Proc.devRef .tc Cert.ReferenceIdeal.main_arg2) = WK (Proc.devRef .tc Cert.KernelIdeal.main_arg2))
    (h_main_v191 : WR (Proc.devRef .tc Cert.ReferenceIdeal.main_v191) = WK (Proc.devRef .tc Cert.KernelIdeal.main_v191))
    (h_main_v193 : WR (Proc.devRef .tc Cert.ReferenceIdeal.main_v193) = WK (Proc.devRef .tc Cert.KernelIdeal.main_v193))
    (h_main_v206 : WR (Proc.devRef .tc Cert.ReferenceIdeal.main_v206) = WK (Proc.devRef .tc Cert.KernelIdeal.main_v206))
    (h_main_v212 : WR (Proc.devRef .tc Cert.ReferenceIdeal.main_v212) = WK (Proc.devRef .tc Cert.KernelIdeal.main_v212)) :
    StableHlo.after (Cert.ReferenceIdeal.Hand.rblk06 (F := F)) WR (Proc.devRef .tc Cert.ReferenceIdeal.main_v237)
      = StableHlo.after (Cert.KernelIdeal.Hand.kblk06 (F := F)) WK (Proc.devRef .tc Cert.KernelIdeal.main_v237) := by
  after_results_simp
  rw [h_main_arg11, h_main_arg2, h_main_v191, h_main_v193, h_main_v206, h_main_v212]
  rfl

end Cert.Sim

end
-- ==== Proof.SimB07.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim07_main_v239
    (h_main_arg5 : WR (Proc.devRef .tc Cert.ReferenceIdeal.main_arg5) = WK (Proc.devRef .tc Cert.KernelIdeal.main_arg5)) :
    StableHlo.after (Cert.ReferenceIdeal.Hand.rblk07 (F := F)) WR (Proc.devRef .tc Cert.ReferenceIdeal.main_v239)
      = StableHlo.after (Cert.KernelIdeal.Hand.kblk07 (F := F)) WK (Proc.devRef .tc Cert.KernelIdeal.main_v239) := by
  after_results_simp
  rw [h_main_arg5]
  rfl

set_option maxHeartbeats 8000000 in
theorem sim07_main_v241
    (h_main_arg5 : WR (Proc.devRef .tc Cert.ReferenceIdeal.main_arg5) = WK (Proc.devRef .tc Cert.KernelIdeal.main_arg5)) :
    StableHlo.after (Cert.ReferenceIdeal.Hand.rblk07 (F := F)) WR (Proc.devRef .tc Cert.ReferenceIdeal.main_v241)
      = StableHlo.after (Cert.KernelIdeal.Hand.kblk07 (F := F)) WK (Proc.devRef .tc Cert.KernelIdeal.main_v241) := by
  after_results_simp
  rw [h_main_arg5]
  rfl

set_option maxHeartbeats 8000000 in
theorem sim07_main_v254
    (h_main_arg5 : WR (Proc.devRef .tc Cert.ReferenceIdeal.main_arg5) = WK (Proc.devRef .tc Cert.KernelIdeal.main_arg5)) :
    StableHlo.after (Cert.ReferenceIdeal.Hand.rblk07 (F := F)) WR (Proc.devRef .tc Cert.ReferenceIdeal.main_v254)
      = StableHlo.after (Cert.KernelIdeal.Hand.kblk07 (F := F)) WK (Proc.devRef .tc Cert.KernelIdeal.main_v254) := by
  after_results_simp
  rw [h_main_arg5]
  rfl

set_option maxHeartbeats 8000000 in
theorem sim07_main_v260
    (h_main_arg5 : WR (Proc.devRef .tc Cert.ReferenceIdeal.main_arg5) = WK (Proc.devRef .tc Cert.KernelIdeal.main_arg5)) :
    StableHlo.after (Cert.ReferenceIdeal.Hand.rblk07 (F := F)) WR (Proc.devRef .tc Cert.ReferenceIdeal.main_v260)
      = StableHlo.after (Cert.KernelIdeal.Hand.kblk07 (F := F)) WK (Proc.devRef .tc Cert.KernelIdeal.main_v260) := by
  after_results_simp
  rw [h_main_arg5]
  rfl

end Cert.Sim

end
-- ==== Proof.SimB08.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim08_main_v301
    (h_main_arg12 : WR (Proc.devRef .tc Cert.ReferenceIdeal.main_arg12) = WK (Proc.devRef .tc Cert.KernelIdeal.main_arg12))
    (h_main_arg13 : WR (Proc.devRef .tc Cert.ReferenceIdeal.main_arg13) = WK (Proc.devRef .tc Cert.KernelIdeal.main_arg13))
    (h_main_arg14 : WR (Proc.devRef .tc Cert.ReferenceIdeal.main_arg14) = WK (Proc.devRef .tc Cert.KernelIdeal.main_arg14))
    (h_main_arg15 : WR (Proc.devRef .tc Cert.ReferenceIdeal.main_arg15) = WK (Proc.devRef .tc Cert.KernelIdeal.main_arg15))
    (h_main_v189 : WR (Proc.devRef .tc Cert.ReferenceIdeal.main_v189) = WK (Proc.devRef .tc Cert.KernelIdeal.main_v189))
    (h_main_v237 : WR (Proc.devRef .tc Cert.ReferenceIdeal.main_v237) = WK (Proc.devRef .tc Cert.KernelIdeal.main_v237))
    (h_main_v239 : WR (Proc.devRef .tc Cert.ReferenceIdeal.main_v239) = WK (Proc.devRef .tc Cert.KernelIdeal.main_v239))
    (h_main_v241 : WR (Proc.devRef .tc Cert.ReferenceIdeal.main_v241) = WK (Proc.devRef .tc Cert.KernelIdeal.main_v241))
    (h_main_v254 : WR (Proc.devRef .tc Cert.ReferenceIdeal.main_v254) = WK (Proc.devRef .tc Cert.KernelIdeal.main_v254))
    (h_main_v260 : WR (Proc.devRef .tc Cert.ReferenceIdeal.main_v260) = WK (Proc.devRef .tc Cert.KernelIdeal.main_v260))
    (h_main_v94 : WR (Proc.devRef .tc Cert.ReferenceIdeal.main_v94) = WK (Proc.devRef .tc Cert.KernelIdeal.main_v94)) :
    StableHlo.after (Cert.ReferenceIdeal.Hand.rblk08 (F := F)) WR (Proc.devRef .tc Cert.ReferenceIdeal.main_v301)
      = StableHlo.after (Cert.KernelIdeal.Hand.kblk08 (F := F)) WK (Proc.devRef .tc Cert.KernelIdeal.main_v301) := by
  after_results_simp
  rw [h_main_arg12, h_main_arg13, h_main_arg14, h_main_arg15, h_main_v189, h_main_v237, h_main_v239, h_main_v241, h_main_v254, h_main_v260, h_main_v94]
  rfl

end Cert.Sim

end
-- ==== Proof.SimB09.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim09_main_v305
    (h_main_arg6 : WR (Proc.devRef .tc Cert.ReferenceIdeal.main_arg6) = WK (Proc.devRef .tc Cert.KernelIdeal.main_arg6)) :
    StableHlo.after (Cert.ReferenceIdeal.Hand.rblk09 (F := F)) WR (Proc.devRef .tc Cert.ReferenceIdeal.main_v305)
      = StableHlo.after (Cert.KernelIdeal.Hand.kblk09 (F := F)) WK (Proc.devRef .tc Cert.KernelIdeal.main_v305) := by
  after_results
  rw [h_main_arg6]
  rfl

set_option maxHeartbeats 8000000 in
theorem sim09_main_v308
    (h_main_arg6 : WR (Proc.devRef .tc Cert.ReferenceIdeal.main_arg6) = WK (Proc.devRef .tc Cert.KernelIdeal.main_arg6)) :
    StableHlo.after (Cert.ReferenceIdeal.Hand.rblk09 (F := F)) WR (Proc.devRef .tc Cert.ReferenceIdeal.main_v308)
      = StableHlo.after (Cert.KernelIdeal.Hand.kblk09 (F := F)) WK (Proc.devRef .tc Cert.KernelIdeal.main_v308) := by
  after_results
  rw [h_main_arg6]
  rfl

end Cert.Sim

end
-- ==== Proof.SimB10.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim10_main_v321
    (h_main_v305 : WR (Proc.devRef .tc Cert.ReferenceIdeal.main_v305) = WK (Proc.devRef .tc Cert.KernelIdeal.main_v305)) :
    StableHlo.after (Cert.ReferenceIdeal.Hand.rblk10 (F := F)) WR (Proc.devRef .tc Cert.ReferenceIdeal.main_v321)
      = StableHlo.after (Cert.KernelIdeal.Hand.kblk10 (F := F)) WK (Proc.devRef .tc Cert.KernelIdeal.main_v321) := by
  after_results_simp
  rw [h_main_v305]
  rfl

set_option maxHeartbeats 8000000 in
theorem sim10_main_v327
    (h_main_v308 : WR (Proc.devRef .tc Cert.ReferenceIdeal.main_v308) = WK (Proc.devRef .tc Cert.KernelIdeal.main_v308)) :
    StableHlo.after (Cert.ReferenceIdeal.Hand.rblk10 (F := F)) WR (Proc.devRef .tc Cert.ReferenceIdeal.main_v327)
      = StableHlo.after (Cert.KernelIdeal.Hand.kblk10 (F := F)) WK (Proc.devRef .tc Cert.KernelIdeal.main_v327) := by
  after_results_simp
  rw [h_main_v308]
  rfl

end Cert.Sim

end
-- ==== Proof.SimB11.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim11_main_v352
    (h_main_arg16 : WR (Proc.devRef .tc Cert.ReferenceIdeal.main_arg16) = WK (Proc.devRef .tc Cert.KernelIdeal.main_arg16))
    (h_main_v301 : WR (Proc.devRef .tc Cert.ReferenceIdeal.main_v301) = WK (Proc.devRef .tc Cert.KernelIdeal.main_v301))
    (h_main_v305 : WR (Proc.devRef .tc Cert.ReferenceIdeal.main_v305) = WK (Proc.devRef .tc Cert.KernelIdeal.main_v305))
    (h_main_v308 : WR (Proc.devRef .tc Cert.ReferenceIdeal.main_v308) = WK (Proc.devRef .tc Cert.KernelIdeal.main_v308))
    (h_main_v321 : WR (Proc.devRef .tc Cert.ReferenceIdeal.main_v321) = WK (Proc.devRef .tc Cert.KernelIdeal.main_v321))
    (h_main_v327 : WR (Proc.devRef .tc Cert.ReferenceIdeal.main_v327) = WK (Proc.devRef .tc Cert.KernelIdeal.main_v327)) :
    StableHlo.after (Cert.ReferenceIdeal.Hand.rblk11 (F := F)) WR (Proc.devRef .tc Cert.ReferenceIdeal.main_v352)
      = StableHlo.after (Cert.KernelIdeal.Hand.kblk11 (F := F)) WK (Proc.devRef .tc Cert.KernelIdeal.main_v352) := by
  after_results_simp
  rw [h_main_arg16, h_main_v301, h_main_v305, h_main_v308, h_main_v321, h_main_v327]
  rfl

end Cert.Sim

end
-- ==== Proof.SimB12.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim12_main_v365
    (h_main_v305 : WR (Proc.devRef .tc Cert.ReferenceIdeal.main_v305) = WK (Proc.devRef .tc Cert.KernelIdeal.main_v305)) :
    StableHlo.after (Cert.ReferenceIdeal.Hand.rblk12 (F := F)) WR (Proc.devRef .tc Cert.ReferenceIdeal.main_v365)
      = StableHlo.after (Cert.KernelIdeal.Hand.kblk12 (F := F)) WK (Proc.devRef .tc Cert.KernelIdeal.main_v365) := by
  after_results_simp
  rw [h_main_v305]
  rfl

set_option maxHeartbeats 8000000 in
theorem sim12_main_v371
    (h_main_v308 : WR (Proc.devRef .tc Cert.ReferenceIdeal.main_v308) = WK (Proc.devRef .tc Cert.KernelIdeal.main_v308)) :
    StableHlo.after (Cert.ReferenceIdeal.Hand.rblk12 (F := F)) WR (Proc.devRef .tc Cert.ReferenceIdeal.main_v371)
      = StableHlo.after (Cert.KernelIdeal.Hand.kblk12 (F := F)) WK (Proc.devRef .tc Cert.KernelIdeal.main_v371) := by
  after_results_simp
  rw [h_main_v308]
  rfl

end Cert.Sim

end
-- ==== Proof.SimB13.lean ====
import proofs.«176114_j39599598469276_1_alg».proof.Proof.RBlocks
import proofs.«176114_j39599598469276_1_alg».proof.Proof.KBlocks

set_option maxRecDepth 8192

noncomputable section

namespace Cert.Sim

open Idealize.ShloMosaic Idealize.ShloMosaic.TcCoe Idealize.SL.Sem Idealize.ShloMosaic.StableHlo

variable {F : FTy → Type} [FloatOps F]
variable (WK : Valuation Cert.KernelIdeal.τ Cert.KernelIdeal.sig (Elt F)) (WR : Valuation Cert.ReferenceIdeal.τ Cert.ReferenceIdeal.sig (Elt F))

set_option maxHeartbeats 8000000 in
theorem sim13_main_v395
    (h_main_arg17 : WR (Proc.devRef .tc Cert.ReferenceIdeal.main_arg17) = WK (Proc.devRef .tc Cert.KernelIdeal.main_arg17))
    (h_main_v305 : WR (Proc.devRef .tc Cert.ReferenceIdeal.main_v305) = WK (Proc.devRef .tc Cert.KernelIdeal.main_v305))
    (h_main_v308 : WR (Proc.devRef .tc Cert.ReferenceIdeal.main_v308) = WK (Proc.devRef .tc Cert.KernelIdeal.main_v308))
    (h_main_v352 : WR (Proc.devRef .tc Cert.ReferenceIdeal.main_v352) = WK (Proc.devRef .tc Cert.KernelIdeal.main_v352))
    (h_main_v365 : WR (Proc.devRef .tc Cert.ReferenceIdeal.main_v365) = WK (Proc.devRef .tc Cert.KernelIdeal.main_v365))
    (h_main_v371 : WR (Proc.devRef .tc Cert.ReferenceIdeal.main_v371) = WK (Proc.devRef .tc Cert.KernelIdeal.main_v371)) :
    StableHlo.after (Cert.ReferenceIdeal.Hand.rblk13 (F := F)) WR (Proc.devRef .tc Cert.ReferenceIdeal.main_v395)
      = StableHlo.after (Cert.KernelIdeal.Hand.kblk13 (F := F)) WK (Proc.devRef .tc Cert.KernelIdeal.main_v395) := by
  after_results_simp
  rw [h_main_arg17, h_main_v305, h_main_v308, h_main_v352, h_main_v365, h_main_v371]
  rfl

end Cert.Sim

end
-- ==== Proof.SimChain.lean ====
import proofs.«176114_j39599598469276_1_alg».proof.Proof.SimB00
import proofs.«176114_j39599598469276_1_alg».proof.Proof.SimB01
import proofs.«176114_j39599598469276_1_alg».proof.Proof.SimB02
import proofs.«176114_j39599598469276_1_alg».proof.Proof.SimB03
import proofs.«176114_j39599598469276_1_alg».proof.Proof.SimB04
import proofs.«176114_j39599598469276_1_alg».proof.Proof.SimB05
import proofs.«176114_j39599598469276_1_alg».proof.Proof.SimB06
import proofs.«176114_j39599598469276_1_alg».proof.Proof.SimB07
import proofs.«176114_j39599598469276_1_alg».proof.Proof.SimB08
import proofs.«176114_j39599598469276_1_alg».proof.Proof.SimB09
import proofs.«176114_j39599598469276_1_alg».proof.Proof.SimB10
import proofs.«176114_j39599598469276_1_alg».proof.Proof.SimB11
import proofs.«176114_j39599598469276_1_alg».proof.Proof.SimB12
import proofs.«176114_j39599598469276_1_alg».proof.Proof.SimB13

set_option maxRecDepth 8192

noncomputable section

namespace Cert.Sim

open Idealize.ShloMosaic Idealize.ShloMosaic.TcCoe Idealize.SL.Sem Idealize.ShloMosaic.StableHlo

variable {F : FTy → Type} [FloatOps F]

set_option maxHeartbeats 4000000 in
/-- After the common blocks the node embeddings are the same in both programs. -/
theorem prefix_agree (WK : Valuation Cert.KernelIdeal.τ Cert.KernelIdeal.sig (Elt F)) (WR : Valuation Cert.ReferenceIdeal.τ Cert.ReferenceIdeal.sig (Elt F))
    (h_main_arg0 : WR (Proc.devRef .tc Cert.ReferenceIdeal.main_arg0) = WK (Proc.devRef .tc Cert.KernelIdeal.main_arg0))
    (h_main_arg1 : WR (Proc.devRef .tc Cert.ReferenceIdeal.main_arg1) = WK (Proc.devRef .tc Cert.KernelIdeal.main_arg1))
    (h_main_arg10 : WR (Proc.devRef .tc Cert.ReferenceIdeal.main_arg10) = WK (Proc.devRef .tc Cert.KernelIdeal.main_arg10))
    (h_main_arg11 : WR (Proc.devRef .tc Cert.ReferenceIdeal.main_arg11) = WK (Proc.devRef .tc Cert.KernelIdeal.main_arg11))
    (h_main_arg12 : WR (Proc.devRef .tc Cert.ReferenceIdeal.main_arg12) = WK (Proc.devRef .tc Cert.KernelIdeal.main_arg12))
    (h_main_arg13 : WR (Proc.devRef .tc Cert.ReferenceIdeal.main_arg13) = WK (Proc.devRef .tc Cert.KernelIdeal.main_arg13))
    (h_main_arg14 : WR (Proc.devRef .tc Cert.ReferenceIdeal.main_arg14) = WK (Proc.devRef .tc Cert.KernelIdeal.main_arg14))
    (h_main_arg15 : WR (Proc.devRef .tc Cert.ReferenceIdeal.main_arg15) = WK (Proc.devRef .tc Cert.KernelIdeal.main_arg15))
    (h_main_arg16 : WR (Proc.devRef .tc Cert.ReferenceIdeal.main_arg16) = WK (Proc.devRef .tc Cert.KernelIdeal.main_arg16))
    (h_main_arg17 : WR (Proc.devRef .tc Cert.ReferenceIdeal.main_arg17) = WK (Proc.devRef .tc Cert.KernelIdeal.main_arg17))
    (h_main_arg2 : WR (Proc.devRef .tc Cert.ReferenceIdeal.main_arg2) = WK (Proc.devRef .tc Cert.KernelIdeal.main_arg2))
    (h_main_arg3 : WR (Proc.devRef .tc Cert.ReferenceIdeal.main_arg3) = WK (Proc.devRef .tc Cert.KernelIdeal.main_arg3))
    (h_main_arg4 : WR (Proc.devRef .tc Cert.ReferenceIdeal.main_arg4) = WK (Proc.devRef .tc Cert.KernelIdeal.main_arg4))
    (h_main_arg5 : WR (Proc.devRef .tc Cert.ReferenceIdeal.main_arg5) = WK (Proc.devRef .tc Cert.KernelIdeal.main_arg5))
    (h_main_arg6 : WR (Proc.devRef .tc Cert.ReferenceIdeal.main_arg6) = WK (Proc.devRef .tc Cert.KernelIdeal.main_arg6))
    (h_main_arg7 : WR (Proc.devRef .tc Cert.ReferenceIdeal.main_arg7) = WK (Proc.devRef .tc Cert.KernelIdeal.main_arg7))
    (h_main_arg8 : WR (Proc.devRef .tc Cert.ReferenceIdeal.main_arg8) = WK (Proc.devRef .tc Cert.KernelIdeal.main_arg8))
    (h_main_arg9 : WR (Proc.devRef .tc Cert.ReferenceIdeal.main_arg9) = WK (Proc.devRef .tc Cert.KernelIdeal.main_arg9)) :
    StableHlo.after (Cert.ReferenceIdeal.Hand.rblk13 (F := F)) (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v395)
      = StableHlo.after (Cert.KernelIdeal.Hand.kblk13 (F := F)) (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v395) := by
  have L00_main_arg1 : (StableHlo.after (Cert.ReferenceIdeal.Hand.rblk00 (F := F)) WR) (Proc.devRef .tc Cert.ReferenceIdeal.main_arg1) = (StableHlo.after (Cert.KernelIdeal.Hand.kblk00 (F := F)) WK) (Proc.devRef .tc Cert.KernelIdeal.main_arg1) :=
    (Cert.ReferenceIdeal.Hand.rblk00_keep WR Cert.ReferenceIdeal.main_arg1 (by decide)).trans ((h_main_arg1).trans (Cert.KernelIdeal.Hand.kblk00_keep WK Cert.KernelIdeal.main_arg1 (by decide)).symm)
  have L00_main_arg10 : (StableHlo.after (Cert.ReferenceIdeal.Hand.rblk00 (F := F)) WR) (Proc.devRef .tc Cert.ReferenceIdeal.main_arg10) = (StableHlo.after (Cert.KernelIdeal.Hand.kblk00 (F := F)) WK) (Proc.devRef .tc Cert.KernelIdeal.main_arg10) :=
    (Cert.ReferenceIdeal.Hand.rblk00_keep WR Cert.ReferenceIdeal.main_arg10 (by decide)).trans ((h_main_arg10).trans (Cert.KernelIdeal.Hand.kblk00_keep WK Cert.KernelIdeal.main_arg10 (by decide)).symm)
  have L00_main_arg11 : (StableHlo.after (Cert.ReferenceIdeal.Hand.rblk00 (F := F)) WR) (Proc.devRef .tc Cert.ReferenceIdeal.main_arg11) = (StableHlo.after (Cert.KernelIdeal.Hand.kblk00 (F := F)) WK) (Proc.devRef .tc Cert.KernelIdeal.main_arg11) :=
    (Cert.ReferenceIdeal.Hand.rblk00_keep WR Cert.ReferenceIdeal.main_arg11 (by decide)).trans ((h_main_arg11).trans (Cert.KernelIdeal.Hand.kblk00_keep WK Cert.KernelIdeal.main_arg11 (by decide)).symm)
  have L00_main_arg12 : (StableHlo.after (Cert.ReferenceIdeal.Hand.rblk00 (F := F)) WR) (Proc.devRef .tc Cert.ReferenceIdeal.main_arg12) = (StableHlo.after (Cert.KernelIdeal.Hand.kblk00 (F := F)) WK) (Proc.devRef .tc Cert.KernelIdeal.main_arg12) :=
    (Cert.ReferenceIdeal.Hand.rblk00_keep WR Cert.ReferenceIdeal.main_arg12 (by decide)).trans ((h_main_arg12).trans (Cert.KernelIdeal.Hand.kblk00_keep WK Cert.KernelIdeal.main_arg12 (by decide)).symm)
  have L00_main_arg13 : (StableHlo.after (Cert.ReferenceIdeal.Hand.rblk00 (F := F)) WR) (Proc.devRef .tc Cert.ReferenceIdeal.main_arg13) = (StableHlo.after (Cert.KernelIdeal.Hand.kblk00 (F := F)) WK) (Proc.devRef .tc Cert.KernelIdeal.main_arg13) :=
    (Cert.ReferenceIdeal.Hand.rblk00_keep WR Cert.ReferenceIdeal.main_arg13 (by decide)).trans ((h_main_arg13).trans (Cert.KernelIdeal.Hand.kblk00_keep WK Cert.KernelIdeal.main_arg13 (by decide)).symm)
  have L00_main_arg14 : (StableHlo.after (Cert.ReferenceIdeal.Hand.rblk00 (F := F)) WR) (Proc.devRef .tc Cert.ReferenceIdeal.main_arg14) = (StableHlo.after (Cert.KernelIdeal.Hand.kblk00 (F := F)) WK) (Proc.devRef .tc Cert.KernelIdeal.main_arg14) :=
    (Cert.ReferenceIdeal.Hand.rblk00_keep WR Cert.ReferenceIdeal.main_arg14 (by decide)).trans ((h_main_arg14).trans (Cert.KernelIdeal.Hand.kblk00_keep WK Cert.KernelIdeal.main_arg14 (by decide)).symm)
  have L00_main_arg15 : (StableHlo.after (Cert.ReferenceIdeal.Hand.rblk00 (F := F)) WR) (Proc.devRef .tc Cert.ReferenceIdeal.main_arg15) = (StableHlo.after (Cert.KernelIdeal.Hand.kblk00 (F := F)) WK) (Proc.devRef .tc Cert.KernelIdeal.main_arg15) :=
    (Cert.ReferenceIdeal.Hand.rblk00_keep WR Cert.ReferenceIdeal.main_arg15 (by decide)).trans ((h_main_arg15).trans (Cert.KernelIdeal.Hand.kblk00_keep WK Cert.KernelIdeal.main_arg15 (by decide)).symm)
  have L00_main_arg16 : (StableHlo.after (Cert.ReferenceIdeal.Hand.rblk00 (F := F)) WR) (Proc.devRef .tc Cert.ReferenceIdeal.main_arg16) = (StableHlo.after (Cert.KernelIdeal.Hand.kblk00 (F := F)) WK) (Proc.devRef .tc Cert.KernelIdeal.main_arg16) :=
    (Cert.ReferenceIdeal.Hand.rblk00_keep WR Cert.ReferenceIdeal.main_arg16 (by decide)).trans ((h_main_arg16).trans (Cert.KernelIdeal.Hand.kblk00_keep WK Cert.KernelIdeal.main_arg16 (by decide)).symm)
  have L00_main_arg17 : (StableHlo.after (Cert.ReferenceIdeal.Hand.rblk00 (F := F)) WR) (Proc.devRef .tc Cert.ReferenceIdeal.main_arg17) = (StableHlo.after (Cert.KernelIdeal.Hand.kblk00 (F := F)) WK) (Proc.devRef .tc Cert.KernelIdeal.main_arg17) :=
    (Cert.ReferenceIdeal.Hand.rblk00_keep WR Cert.ReferenceIdeal.main_arg17 (by decide)).trans ((h_main_arg17).trans (Cert.KernelIdeal.Hand.kblk00_keep WK Cert.KernelIdeal.main_arg17 (by decide)).symm)
  have L00_main_arg2 : (StableHlo.after (Cert.ReferenceIdeal.Hand.rblk00 (F := F)) WR) (Proc.devRef .tc Cert.ReferenceIdeal.main_arg2) = (StableHlo.after (Cert.KernelIdeal.Hand.kblk00 (F := F)) WK) (Proc.devRef .tc Cert.KernelIdeal.main_arg2) :=
    (Cert.ReferenceIdeal.Hand.rblk00_keep WR Cert.ReferenceIdeal.main_arg2 (by decide)).trans ((h_main_arg2).trans (Cert.KernelIdeal.Hand.kblk00_keep WK Cert.KernelIdeal.main_arg2 (by decide)).symm)
  have L00_main_arg3 : (StableHlo.after (Cert.ReferenceIdeal.Hand.rblk00 (F := F)) WR) (Proc.devRef .tc Cert.ReferenceIdeal.main_arg3) = (StableHlo.after (Cert.KernelIdeal.Hand.kblk00 (F := F)) WK) (Proc.devRef .tc Cert.KernelIdeal.main_arg3) :=
    (Cert.ReferenceIdeal.Hand.rblk00_keep WR Cert.ReferenceIdeal.main_arg3 (by decide)).trans ((h_main_arg3).trans (Cert.KernelIdeal.Hand.kblk00_keep WK Cert.KernelIdeal.main_arg3 (by decide)).symm)
  have L00_main_arg4 : (StableHlo.after (Cert.ReferenceIdeal.Hand.rblk00 (F := F)) WR) (Proc.devRef .tc Cert.ReferenceIdeal.main_arg4) = (StableHlo.after (Cert.KernelIdeal.Hand.kblk00 (F := F)) WK) (Proc.devRef .tc Cert.KernelIdeal.main_arg4) :=
    (Cert.ReferenceIdeal.Hand.rblk00_keep WR Cert.ReferenceIdeal.main_arg4 (by decide)).trans ((h_main_arg4).trans (Cert.KernelIdeal.Hand.kblk00_keep WK Cert.KernelIdeal.main_arg4 (by decide)).symm)
  have L00_main_arg5 : (StableHlo.after (Cert.ReferenceIdeal.Hand.rblk00 (F := F)) WR) (Proc.devRef .tc Cert.ReferenceIdeal.main_arg5) = (StableHlo.after (Cert.KernelIdeal.Hand.kblk00 (F := F)) WK) (Proc.devRef .tc Cert.KernelIdeal.main_arg5) :=
    (Cert.ReferenceIdeal.Hand.rblk00_keep WR Cert.ReferenceIdeal.main_arg5 (by decide)).trans ((h_main_arg5).trans (Cert.KernelIdeal.Hand.kblk00_keep WK Cert.KernelIdeal.main_arg5 (by decide)).symm)
  have L00_main_arg6 : (StableHlo.after (Cert.ReferenceIdeal.Hand.rblk00 (F := F)) WR) (Proc.devRef .tc Cert.ReferenceIdeal.main_arg6) = (StableHlo.after (Cert.KernelIdeal.Hand.kblk00 (F := F)) WK) (Proc.devRef .tc Cert.KernelIdeal.main_arg6) :=
    (Cert.ReferenceIdeal.Hand.rblk00_keep WR Cert.ReferenceIdeal.main_arg6 (by decide)).trans ((h_main_arg6).trans (Cert.KernelIdeal.Hand.kblk00_keep WK Cert.KernelIdeal.main_arg6 (by decide)).symm)
  have L00_main_arg8 : (StableHlo.after (Cert.ReferenceIdeal.Hand.rblk00 (F := F)) WR) (Proc.devRef .tc Cert.ReferenceIdeal.main_arg8) = (StableHlo.after (Cert.KernelIdeal.Hand.kblk00 (F := F)) WK) (Proc.devRef .tc Cert.KernelIdeal.main_arg8) :=
    (Cert.ReferenceIdeal.Hand.rblk00_keep WR Cert.ReferenceIdeal.main_arg8 (by decide)).trans ((h_main_arg8).trans (Cert.KernelIdeal.Hand.kblk00_keep WK Cert.KernelIdeal.main_arg8 (by decide)).symm)
  have L00_main_arg9 : (StableHlo.after (Cert.ReferenceIdeal.Hand.rblk00 (F := F)) WR) (Proc.devRef .tc Cert.ReferenceIdeal.main_arg9) = (StableHlo.after (Cert.KernelIdeal.Hand.kblk00 (F := F)) WK) (Proc.devRef .tc Cert.KernelIdeal.main_arg9) :=
    (Cert.ReferenceIdeal.Hand.rblk00_keep WR Cert.ReferenceIdeal.main_arg9 (by decide)).trans ((h_main_arg9).trans (Cert.KernelIdeal.Hand.kblk00_keep WK Cert.KernelIdeal.main_arg9 (by decide)).symm)
  have L00_main_v47 : (StableHlo.after (Cert.ReferenceIdeal.Hand.rblk00 (F := F)) WR) (Proc.devRef .tc Cert.ReferenceIdeal.main_v47) = (StableHlo.after (Cert.KernelIdeal.Hand.kblk00 (F := F)) WK) (Proc.devRef .tc Cert.KernelIdeal.main_v47) :=
    sim00_main_v47 WK WR h_main_arg0 h_main_arg3 h_main_arg7
  have L01_main_arg1 : (StableHlo.after (Cert.ReferenceIdeal.Hand.rblk01 (F := F)) (StableHlo.after (Cert.ReferenceIdeal.Hand.rblk00 (F := F)) WR)) (Proc.devRef .tc Cert.ReferenceIdeal.main_arg1) = (StableHlo.after (Cert.KernelIdeal.Hand.kblk01 (F := F)) (StableHlo.after (Cert.KernelIdeal.Hand.kblk00 (F := F)) WK)) (Proc.devRef .tc Cert.KernelIdeal.main_arg1) :=
    (Cert.ReferenceIdeal.Hand.rblk01_keep (StableHlo.after (Cert.ReferenceIdeal.Hand.rblk00 (F := F)) WR) Cert.ReferenceIdeal.main_arg1 (by decide)).trans ((L00_main_arg1).trans (Cert.KernelIdeal.Hand.kblk01_keep (StableHlo.after (Cert.KernelIdeal.Hand.kblk00 (F := F)) WK) Cert.KernelIdeal.main_arg1 (by decide)).symm)
  have L01_main_arg10 : (StableHlo.after (Cert.ReferenceIdeal.Hand.rblk01 (F := F)) (StableHlo.after (Cert.ReferenceIdeal.Hand.rblk00 (F := F)) WR)) (Proc.devRef .tc Cert.ReferenceIdeal.main_arg10) = (StableHlo.after (Cert.KernelIdeal.Hand.kblk01 (F := F)) (StableHlo.after (Cert.KernelIdeal.Hand.kblk00 (F := F)) WK)) (Proc.devRef .tc Cert.KernelIdeal.main_arg10) :=
    (Cert.ReferenceIdeal.Hand.rblk01_keep (StableHlo.after (Cert.ReferenceIdeal.Hand.rblk00 (F := F)) WR) Cert.ReferenceIdeal.main_arg10 (by decide)).trans ((L00_main_arg10).trans (Cert.KernelIdeal.Hand.kblk01_keep (StableHlo.after (Cert.KernelIdeal.Hand.kblk00 (F := F)) WK) Cert.KernelIdeal.main_arg10 (by decide)).symm)
  have L01_main_arg11 : (StableHlo.after (Cert.ReferenceIdeal.Hand.rblk01 (F := F)) (StableHlo.after (Cert.ReferenceIdeal.Hand.rblk00 (F := F)) WR)) (Proc.devRef .tc Cert.ReferenceIdeal.main_arg11) = (StableHlo.after (Cert.KernelIdeal.Hand.kblk01 (F := F)) (StableHlo.after (Cert.KernelIdeal.Hand.kblk00 (F := F)) WK)) (Proc.devRef .tc Cert.KernelIdeal.main_arg11) :=
    (Cert.ReferenceIdeal.Hand.rblk01_keep (StableHlo.after (Cert.ReferenceIdeal.Hand.rblk00 (F := F)) WR) Cert.ReferenceIdeal.main_arg11 (by decide)).trans ((L00_main_arg11).trans (Cert.KernelIdeal.Hand.kblk01_keep (StableHlo.after (Cert.KernelIdeal.Hand.kblk00 (F := F)) WK) Cert.KernelIdeal.main_arg11 (by decide)).symm)
  have L01_main_arg12 : (StableHlo.after (Cert.ReferenceIdeal.Hand.rblk01 (F := F)) (StableHlo.after (Cert.ReferenceIdeal.Hand.rblk00 (F := F)) WR)) (Proc.devRef .tc Cert.ReferenceIdeal.main_arg12) = (StableHlo.after (Cert.KernelIdeal.Hand.kblk01 (F := F)) (StableHlo.after (Cert.KernelIdeal.Hand.kblk00 (F := F)) WK)) (Proc.devRef .tc Cert.KernelIdeal.main_arg12) :=
    (Cert.ReferenceIdeal.Hand.rblk01_keep (StableHlo.after (Cert.ReferenceIdeal.Hand.rblk00 (F := F)) WR) Cert.ReferenceIdeal.main_arg12 (by decide)).trans ((L00_main_arg12).trans (Cert.KernelIdeal.Hand.kblk01_keep (StableHlo.after (Cert.KernelIdeal.Hand.kblk00 (F := F)) WK) Cert.KernelIdeal.main_arg12 (by decide)).symm)
  have L01_main_arg13 : (StableHlo.after (Cert.ReferenceIdeal.Hand.rblk01 (F := F)) (StableHlo.after (Cert.ReferenceIdeal.Hand.rblk00 (F := F)) WR)) (Proc.devRef .tc Cert.ReferenceIdeal.main_arg13) = (StableHlo.after (Cert.KernelIdeal.Hand.kblk01 (F := F)) (StableHlo.after (Cert.KernelIdeal.Hand.kblk00 (F := F)) WK)) (Proc.devRef .tc Cert.KernelIdeal.main_arg13) :=
    (Cert.ReferenceIdeal.Hand.rblk01_keep (StableHlo.after (Cert.ReferenceIdeal.Hand.rblk00 (F := F)) WR) Cert.ReferenceIdeal.main_arg13 (by decide)).trans ((L00_main_arg13).trans (Cert.KernelIdeal.Hand.kblk01_keep (StableHlo.after (Cert.KernelIdeal.Hand.kblk00 (F := F)) WK) Cert.KernelIdeal.main_arg13 (by decide)).symm)
  have L01_main_arg14 : (StableHlo.after (Cert.ReferenceIdeal.Hand.rblk01 (F := F)) (StableHlo.after (Cert.ReferenceIdeal.Hand.rblk00 (F := F)) WR)) (Proc.devRef .tc Cert.ReferenceIdeal.main_arg14) = (StableHlo.after (Cert.KernelIdeal.Hand.kblk01 (F := F)) (StableHlo.after (Cert.KernelIdeal.Hand.kblk00 (F := F)) WK)) (Proc.devRef .tc Cert.KernelIdeal.main_arg14) :=
    (Cert.ReferenceIdeal.Hand.rblk01_keep (StableHlo.after (Cert.ReferenceIdeal.Hand.rblk00 (F := F)) WR) Cert.ReferenceIdeal.main_arg14 (by decide)).trans ((L00_main_arg14).trans (Cert.KernelIdeal.Hand.kblk01_keep (StableHlo.after (Cert.KernelIdeal.Hand.kblk00 (F := F)) WK) Cert.KernelIdeal.main_arg14 (by decide)).symm)
  have L01_main_arg15 : (StableHlo.after (Cert.ReferenceIdeal.Hand.rblk01 (F := F)) (StableHlo.after (Cert.ReferenceIdeal.Hand.rblk00 (F := F)) WR)) (Proc.devRef .tc Cert.ReferenceIdeal.main_arg15) = (StableHlo.after (Cert.KernelIdeal.Hand.kblk01 (F := F)) (StableHlo.after (Cert.KernelIdeal.Hand.kblk00 (F := F)) WK)) (Proc.devRef .tc Cert.KernelIdeal.main_arg15) :=
    (Cert.ReferenceIdeal.Hand.rblk01_keep (StableHlo.after (Cert.ReferenceIdeal.Hand.rblk00 (F := F)) WR) Cert.ReferenceIdeal.main_arg15 (by decide)).trans ((L00_main_arg15).trans (Cert.KernelIdeal.Hand.kblk01_keep (StableHlo.after (Cert.KernelIdeal.Hand.kblk00 (F := F)) WK) Cert.KernelIdeal.main_arg15 (by decide)).symm)
  have L01_main_arg16 : (StableHlo.after (Cert.ReferenceIdeal.Hand.rblk01 (F := F)) (StableHlo.after (Cert.ReferenceIdeal.Hand.rblk00 (F := F)) WR)) (Proc.devRef .tc Cert.ReferenceIdeal.main_arg16) = (StableHlo.after (Cert.KernelIdeal.Hand.kblk01 (F := F)) (StableHlo.after (Cert.KernelIdeal.Hand.kblk00 (F := F)) WK)) (Proc.devRef .tc Cert.KernelIdeal.main_arg16) :=
    (Cert.ReferenceIdeal.Hand.rblk01_keep (StableHlo.after (Cert.ReferenceIdeal.Hand.rblk00 (F := F)) WR) Cert.ReferenceIdeal.main_arg16 (by decide)).trans ((L00_main_arg16).trans (Cert.KernelIdeal.Hand.kblk01_keep (StableHlo.after (Cert.KernelIdeal.Hand.kblk00 (F := F)) WK) Cert.KernelIdeal.main_arg16 (by decide)).symm)
  have L01_main_arg17 : (StableHlo.after (Cert.ReferenceIdeal.Hand.rblk01 (F := F)) (StableHlo.after (Cert.ReferenceIdeal.Hand.rblk00 (F := F)) WR)) (Proc.devRef .tc Cert.ReferenceIdeal.main_arg17) = (StableHlo.after (Cert.KernelIdeal.Hand.kblk01 (F := F)) (StableHlo.after (Cert.KernelIdeal.Hand.kblk00 (F := F)) WK)) (Proc.devRef .tc Cert.KernelIdeal.main_arg17) :=
    (Cert.ReferenceIdeal.Hand.rblk01_keep (StableHlo.after (Cert.ReferenceIdeal.Hand.rblk00 (F := F)) WR) Cert.ReferenceIdeal.main_arg17 (by decide)).trans ((L00_main_arg17).trans (Cert.KernelIdeal.Hand.kblk01_keep (StableHlo.after (Cert.KernelIdeal.Hand.kblk00 (F := F)) WK) Cert.KernelIdeal.main_arg17 (by decide)).symm)
  have L01_main_arg2 : (StableHlo.after (Cert.ReferenceIdeal.Hand.rblk01 (F := F)) (StableHlo.after (Cert.ReferenceIdeal.Hand.rblk00 (F := F)) WR)) (Proc.devRef .tc Cert.ReferenceIdeal.main_arg2) = (StableHlo.after (Cert.KernelIdeal.Hand.kblk01 (F := F)) (StableHlo.after (Cert.KernelIdeal.Hand.kblk00 (F := F)) WK)) (Proc.devRef .tc Cert.KernelIdeal.main_arg2) :=
    (Cert.ReferenceIdeal.Hand.rblk01_keep (StableHlo.after (Cert.ReferenceIdeal.Hand.rblk00 (F := F)) WR) Cert.ReferenceIdeal.main_arg2 (by decide)).trans ((L00_main_arg2).trans (Cert.KernelIdeal.Hand.kblk01_keep (StableHlo.after (Cert.KernelIdeal.Hand.kblk00 (F := F)) WK) Cert.KernelIdeal.main_arg2 (by decide)).symm)
  have L01_main_arg4 : (StableHlo.after (Cert.ReferenceIdeal.Hand.rblk01 (F := F)) (StableHlo.after (Cert.ReferenceIdeal.Hand.rblk00 (F := F)) WR)) (Proc.devRef .tc Cert.ReferenceIdeal.main_arg4) = (StableHlo.after (Cert.KernelIdeal.Hand.kblk01 (F := F)) (StableHlo.after (Cert.KernelIdeal.Hand.kblk00 (F := F)) WK)) (Proc.devRef .tc Cert.KernelIdeal.main_arg4) :=
    (Cert.ReferenceIdeal.Hand.rblk01_keep (StableHlo.after (Cert.ReferenceIdeal.Hand.rblk00 (F := F)) WR) Cert.ReferenceIdeal.main_arg4 (by decide)).trans ((L00_main_arg4).trans (Cert.KernelIdeal.Hand.kblk01_keep (StableHlo.after (Cert.KernelIdeal.Hand.kblk00 (F := F)) WK) Cert.KernelIdeal.main_arg4 (by decide)).symm)
  have L01_main_arg5 : (StableHlo.after (Cert.ReferenceIdeal.Hand.rblk01 (F := F)) (StableHlo.after (Cert.ReferenceIdeal.Hand.rblk00 (F := F)) WR)) (Proc.devRef .tc Cert.ReferenceIdeal.main_arg5) = (StableHlo.after (Cert.KernelIdeal.Hand.kblk01 (F := F)) (StableHlo.after (Cert.KernelIdeal.Hand.kblk00 (F := F)) WK)) (Proc.devRef .tc Cert.KernelIdeal.main_arg5) :=
    (Cert.ReferenceIdeal.Hand.rblk01_keep (StableHlo.after (Cert.ReferenceIdeal.Hand.rblk00 (F := F)) WR) Cert.ReferenceIdeal.main_arg5 (by decide)).trans ((L00_main_arg5).trans (Cert.KernelIdeal.Hand.kblk01_keep (StableHlo.after (Cert.KernelIdeal.Hand.kblk00 (F := F)) WK) Cert.KernelIdeal.main_arg5 (by decide)).symm)
  have L01_main_arg6 : (StableHlo.after (Cert.ReferenceIdeal.Hand.rblk01 (F := F)) (StableHlo.after (Cert.ReferenceIdeal.Hand.rblk00 (F := F)) WR)) (Proc.devRef .tc Cert.ReferenceIdeal.main_arg6) = (StableHlo.after (Cert.KernelIdeal.Hand.kblk01 (F := F)) (StableHlo.after (Cert.KernelIdeal.Hand.kblk00 (F := F)) WK)) (Proc.devRef .tc Cert.KernelIdeal.main_arg6) :=
    (Cert.ReferenceIdeal.Hand.rblk01_keep (StableHlo.after (Cert.ReferenceIdeal.Hand.rblk00 (F := F)) WR) Cert.ReferenceIdeal.main_arg6 (by decide)).trans ((L00_main_arg6).trans (Cert.KernelIdeal.Hand.kblk01_keep (StableHlo.after (Cert.KernelIdeal.Hand.kblk00 (F := F)) WK) Cert.KernelIdeal.main_arg6 (by decide)).symm)
  have L01_main_arg8 : (StableHlo.after (Cert.ReferenceIdeal.Hand.rblk01 (F := F)) (StableHlo.after (Cert.ReferenceIdeal.Hand.rblk00 (F := F)) WR)) (Proc.devRef .tc Cert.ReferenceIdeal.main_arg8) = (StableHlo.after (Cert.KernelIdeal.Hand.kblk01 (F := F)) (StableHlo.after (Cert.KernelIdeal.Hand.kblk00 (F := F)) WK)) (Proc.devRef .tc Cert.KernelIdeal.main_arg8) :=
    (Cert.ReferenceIdeal.Hand.rblk01_keep (StableHlo.after (Cert.ReferenceIdeal.Hand.rblk00 (F := F)) WR) Cert.ReferenceIdeal.main_arg8 (by decide)).trans ((L00_main_arg8).trans (Cert.KernelIdeal.Hand.kblk01_keep (StableHlo.after (Cert.KernelIdeal.Hand.kblk00 (F := F)) WK) Cert.KernelIdeal.main_arg8 (by decide)).symm)
  have L01_main_arg9 : (StableHlo.after (Cert.ReferenceIdeal.Hand.rblk01 (F := F)) (StableHlo.after (Cert.ReferenceIdeal.Hand.rblk00 (F := F)) WR)) (Proc.devRef .tc Cert.ReferenceIdeal.main_arg9) = (StableHlo.after (Cert.KernelIdeal.Hand.kblk01 (F := F)) (StableHlo.after (Cert.KernelIdeal.Hand.kblk00 (F := F)) WK)) (Proc.devRef .tc Cert.KernelIdeal.main_arg9) :=
    (Cert.ReferenceIdeal.Hand.rblk01_keep (StableHlo.after (Cert.ReferenceIdeal.Hand.rblk00 (F := F)) WR) Cert.ReferenceIdeal.main_arg9 (by decide)).trans ((L00_main_arg9).trans (Cert.KernelIdeal.Hand.kblk01_keep (StableHlo.after (Cert.KernelIdeal.Hand.kblk00 (F := F)) WK) Cert.KernelIdeal.main_arg9 (by decide)).symm)
  have L01_main_v47 : (StableHlo.after (Cert.ReferenceIdeal.Hand.rblk01 (F := F)) (StableHlo.after (Cert.ReferenceIdeal.Hand.rblk00 (F := F)) WR)) (Proc.devRef .tc Cert.ReferenceIdeal.main_v47) = (StableHlo.after (Cert.KernelIdeal.Hand.kblk01 (F := F)) (StableHlo.after (Cert.KernelIdeal.Hand.kblk00 (F := F)) WK)) (Proc.devRef .tc Cert.KernelIdeal.main_v47) :=
    (Cert.ReferenceIdeal.Hand.rblk01_keep (StableHlo.after (Cert.ReferenceIdeal.Hand.rblk00 (F := F)) WR) Cert.ReferenceIdeal.main_v47 (by decide)).trans ((L00_main_v47).trans (Cert.KernelIdeal.Hand.kblk01_keep (StableHlo.after (Cert.KernelIdeal.Hand.kblk00 (F := F)) WK) Cert.KernelIdeal.main_v47 (by decide)).symm)
  have L01_main_v49 : (StableHlo.after (Cert.ReferenceIdeal.Hand.rblk01 (F := F)) (StableHlo.after (Cert.ReferenceIdeal.Hand.rblk00 (F := F)) WR)) (Proc.devRef .tc Cert.ReferenceIdeal.main_v49) = (StableHlo.after (Cert.KernelIdeal.Hand.kblk01 (F := F)) (StableHlo.after (Cert.KernelIdeal.Hand.kblk00 (F := F)) WK)) (Proc.devRef .tc Cert.KernelIdeal.main_v49) :=
    sim01_main_v49 (StableHlo.after (Cert.KernelIdeal.Hand.kblk00 (F := F)) WK) (StableHlo.after (Cert.ReferenceIdeal.Hand.rblk00 (F := F)) WR) L00_main_arg3
  have L01_main_v51 : (StableHlo.after (Cert.ReferenceIdeal.Hand.rblk01 (F := F)) (StableHlo.after (Cert.ReferenceIdeal.Hand.rblk00 (F := F)) WR)) (Proc.devRef .tc Cert.ReferenceIdeal.main_v51) = (StableHlo.after (Cert.KernelIdeal.Hand.kblk01 (F := F)) (StableHlo.after (Cert.KernelIdeal.Hand.kblk00 (F := F)) WK)) (Proc.devRef .tc Cert.KernelIdeal.main_v51) :=
    sim01_main_v51 (StableHlo.after (Cert.KernelIdeal.Hand.kblk00 (F := F)) WK) (StableHlo.after (Cert.ReferenceIdeal.Hand.rblk00 (F := F)) WR) L00_main_arg3
  have L01_main_v64 : (StableHlo.after (Cert.ReferenceIdeal.Hand.rblk01 (F := F)) (StableHlo.after (Cert.ReferenceIdeal.Hand.rblk00 (F := F)) WR)) (Proc.devRef .tc Cert.ReferenceIdeal.main_v64) = (StableHlo.after (Cert.KernelIdeal.Hand.kblk01 (F := F)) (StableHlo.after (Cert.KernelIdeal.Hand.kblk00 (F := F)) WK)) (Proc.devRef .tc Cert.KernelIdeal.main_v64) :=
    sim01_main_v64 (StableHlo.after (Cert.KernelIdeal.Hand.kblk00 (F := F)) WK) (StableHlo.after (Cert.ReferenceIdeal.Hand.rblk00 (F := F)) WR) L00_main_arg3
  have L01_main_v70 : (StableHlo.after (Cert.ReferenceIdeal.Hand.rblk01 (F := F)) (StableHlo.after (Cert.ReferenceIdeal.Hand.rblk00 (F := F)) WR)) (Proc.devRef .tc Cert.ReferenceIdeal.main_v70) = (StableHlo.after (Cert.KernelIdeal.Hand.kblk01 (F := F)) (StableHlo.after (Cert.KernelIdeal.Hand.kblk00 (F := F)) WK)) (Proc.devRef .tc Cert.KernelIdeal.main_v70) :=
    sim01_main_v70 (StableHlo.after (Cert.KernelIdeal.Hand.kblk00 (F := F)) WK) (StableHlo.after (Cert.ReferenceIdeal.Hand.rblk00 (F := F)) WR) L00_main_arg3
  have L02_main_arg1 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg1) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg1) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg1 (by decide)).trans ((L01_main_arg1).trans (Cert.KernelIdeal.Hand.kblk02_keep (StableHlo.after (Cert.KernelIdeal.Hand.kblk01 (F := F)) (StableHlo.after (Cert.KernelIdeal.Hand.kblk00 (F := F)) WK)) Cert.KernelIdeal.main_arg1 (by decide)).symm)
  have L02_main_arg10 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg10) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg10) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg10 (by decide)).trans ((L01_main_arg10).trans (Cert.KernelIdeal.Hand.kblk02_keep (StableHlo.after (Cert.KernelIdeal.Hand.kblk01 (F := F)) (StableHlo.after (Cert.KernelIdeal.Hand.kblk00 (F := F)) WK)) Cert.KernelIdeal.main_arg10 (by decide)).symm)
  have L02_main_arg11 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg11) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg11) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg11 (by decide)).trans ((L01_main_arg11).trans (Cert.KernelIdeal.Hand.kblk02_keep (StableHlo.after (Cert.KernelIdeal.Hand.kblk01 (F := F)) (StableHlo.after (Cert.KernelIdeal.Hand.kblk00 (F := F)) WK)) Cert.KernelIdeal.main_arg11 (by decide)).symm)
  have L02_main_arg12 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg12) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg12) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg12 (by decide)).trans ((L01_main_arg12).trans (Cert.KernelIdeal.Hand.kblk02_keep (StableHlo.after (Cert.KernelIdeal.Hand.kblk01 (F := F)) (StableHlo.after (Cert.KernelIdeal.Hand.kblk00 (F := F)) WK)) Cert.KernelIdeal.main_arg12 (by decide)).symm)
  have L02_main_arg13 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg13) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg13) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg13 (by decide)).trans ((L01_main_arg13).trans (Cert.KernelIdeal.Hand.kblk02_keep (StableHlo.after (Cert.KernelIdeal.Hand.kblk01 (F := F)) (StableHlo.after (Cert.KernelIdeal.Hand.kblk00 (F := F)) WK)) Cert.KernelIdeal.main_arg13 (by decide)).symm)
  have L02_main_arg14 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg14) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg14) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg14 (by decide)).trans ((L01_main_arg14).trans (Cert.KernelIdeal.Hand.kblk02_keep (StableHlo.after (Cert.KernelIdeal.Hand.kblk01 (F := F)) (StableHlo.after (Cert.KernelIdeal.Hand.kblk00 (F := F)) WK)) Cert.KernelIdeal.main_arg14 (by decide)).symm)
  have L02_main_arg15 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg15) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg15) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg15 (by decide)).trans ((L01_main_arg15).trans (Cert.KernelIdeal.Hand.kblk02_keep (StableHlo.after (Cert.KernelIdeal.Hand.kblk01 (F := F)) (StableHlo.after (Cert.KernelIdeal.Hand.kblk00 (F := F)) WK)) Cert.KernelIdeal.main_arg15 (by decide)).symm)
  have L02_main_arg16 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg16) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg16) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg16 (by decide)).trans ((L01_main_arg16).trans (Cert.KernelIdeal.Hand.kblk02_keep (StableHlo.after (Cert.KernelIdeal.Hand.kblk01 (F := F)) (StableHlo.after (Cert.KernelIdeal.Hand.kblk00 (F := F)) WK)) Cert.KernelIdeal.main_arg16 (by decide)).symm)
  have L02_main_arg17 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg17) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg17) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg17 (by decide)).trans ((L01_main_arg17).trans (Cert.KernelIdeal.Hand.kblk02_keep (StableHlo.after (Cert.KernelIdeal.Hand.kblk01 (F := F)) (StableHlo.after (Cert.KernelIdeal.Hand.kblk00 (F := F)) WK)) Cert.KernelIdeal.main_arg17 (by decide)).symm)
  have L02_main_arg2 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg2) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg2) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg2 (by decide)).trans ((L01_main_arg2).trans (Cert.KernelIdeal.Hand.kblk02_keep (StableHlo.after (Cert.KernelIdeal.Hand.kblk01 (F := F)) (StableHlo.after (Cert.KernelIdeal.Hand.kblk00 (F := F)) WK)) Cert.KernelIdeal.main_arg2 (by decide)).symm)
  have L02_main_arg4 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg4) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg4) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg4 (by decide)).trans ((L01_main_arg4).trans (Cert.KernelIdeal.Hand.kblk02_keep (StableHlo.after (Cert.KernelIdeal.Hand.kblk01 (F := F)) (StableHlo.after (Cert.KernelIdeal.Hand.kblk00 (F := F)) WK)) Cert.KernelIdeal.main_arg4 (by decide)).symm)
  have L02_main_arg5 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg5) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg5) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg5 (by decide)).trans ((L01_main_arg5).trans (Cert.KernelIdeal.Hand.kblk02_keep (StableHlo.after (Cert.KernelIdeal.Hand.kblk01 (F := F)) (StableHlo.after (Cert.KernelIdeal.Hand.kblk00 (F := F)) WK)) Cert.KernelIdeal.main_arg5 (by decide)).symm)
  have L02_main_arg6 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg6) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg6) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg6 (by decide)).trans ((L01_main_arg6).trans (Cert.KernelIdeal.Hand.kblk02_keep (StableHlo.after (Cert.KernelIdeal.Hand.kblk01 (F := F)) (StableHlo.after (Cert.KernelIdeal.Hand.kblk00 (F := F)) WK)) Cert.KernelIdeal.main_arg6 (by decide)).symm)
  have L02_main_arg9 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_arg9) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_arg9) :=
    (Cert.ReferenceIdeal.Hand.rblk02_keep (StableHlo.after (Cert.ReferenceIdeal.Hand.rblk01 (F := F)) (StableHlo.after (Cert.ReferenceIdeal.Hand.rblk00 (F := F)) WR)) Cert.ReferenceIdeal.main_arg9 (by decide)).trans ((L01_main_arg9).trans (Cert.KernelIdeal.Hand.kblk02_keep (StableHlo.after (Cert.KernelIdeal.Hand.kblk01 (F := F)) (StableHlo.after (Cert.KernelIdeal.Hand.kblk00 (F := F)) WK)) Cert.KernelIdeal.main_arg9 (by decide)).symm)
  have L02_main_v111 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_v111) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_v111) :=
    sim02_main_v111 (StableHlo.after (Cert.KernelIdeal.Hand.kblk01 (F := F)) (StableHlo.after (Cert.KernelIdeal.Hand.kblk00 (F := F)) WK)) (StableHlo.after (Cert.ReferenceIdeal.Hand.rblk01 (F := F)) (StableHlo.after (Cert.ReferenceIdeal.Hand.rblk00 (F := F)) WR)) L01_main_arg4
  have L02_main_v117 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_v117) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_v117) :=
    sim02_main_v117 (StableHlo.after (Cert.KernelIdeal.Hand.kblk01 (F := F)) (StableHlo.after (Cert.KernelIdeal.Hand.kblk00 (F := F)) WK)) (StableHlo.after (Cert.ReferenceIdeal.Hand.rblk01 (F := F)) (StableHlo.after (Cert.ReferenceIdeal.Hand.rblk00 (F := F)) WR)) L01_main_arg4
  have L02_main_v94 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_v94) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_v94) :=
    sim02_main_v94 (StableHlo.after (Cert.KernelIdeal.Hand.kblk01 (F := F)) (StableHlo.after (Cert.KernelIdeal.Hand.kblk00 (F := F)) WK)) (StableHlo.after (Cert.ReferenceIdeal.Hand.rblk01 (F := F)) (StableHlo.after (Cert.ReferenceIdeal.Hand.rblk00 (F := F)) WR)) L01_main_arg8 L01_main_v47 L01_main_v49 L01_main_v51 L01_main_v64 L01_main_v70
  have L02_main_v96 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_v96) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_v96) :=
    sim02_main_v96 (StableHlo.after (Cert.KernelIdeal.Hand.kblk01 (F := F)) (StableHlo.after (Cert.KernelIdeal.Hand.kblk00 (F := F)) WK)) (StableHlo.after (Cert.ReferenceIdeal.Hand.rblk01 (F := F)) (StableHlo.after (Cert.ReferenceIdeal.Hand.rblk00 (F := F)) WR)) L01_main_arg4
  have L02_main_v98 : (StableHlo.after (Cert.ReferenceIdeal.Hand.rblk02 (F := F)) (StableHlo.after (Cert.ReferenceIdeal.Hand.rblk01 (F := F)) (StableHlo.after (Cert.ReferenceIdeal.Hand.rblk00 (F := F)) WR))) (Proc.devRef .tc Cert.ReferenceIdeal.main_v98) = (StableHlo.after (Cert.KernelIdeal.Hand.kblk02 (F := F)) (StableHlo.after (Cert.KernelIdeal.Hand.kblk01 (F := F)) (StableHlo.after (Cert.KernelIdeal.Hand.kblk00 (F := F)) WK))) (Proc.devRef .tc Cert.KernelIdeal.main_v98) :=
    sim02_main_v98 (StableHlo.after (Cert.KernelIdeal.Hand.kblk01 (F := F)) (StableHlo.after (Cert.KernelIdeal.Hand.kblk00 (F := F)) WK)) (StableHlo.after (Cert.ReferenceIdeal.Hand.rblk01 (F := F)) (StableHlo.after (Cert.ReferenceIdeal.Hand.rblk00 (F := F)) WR)) L01_main_arg4
  have L03_main_arg10 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg10) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg10) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg10 (by decide)).trans ((L02_main_arg10).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg10 (by decide)).symm)
  have L03_main_arg11 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg11) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg11) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg11 (by decide)).trans ((L02_main_arg11).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg11 (by decide)).symm)
  have L03_main_arg12 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg12) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg12) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg12 (by decide)).trans ((L02_main_arg12).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg12 (by decide)).symm)
  have L03_main_arg13 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg13) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg13) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg13 (by decide)).trans ((L02_main_arg13).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg13 (by decide)).symm)
  have L03_main_arg14 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg14) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg14) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg14 (by decide)).trans ((L02_main_arg14).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg14 (by decide)).symm)
  have L03_main_arg15 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg15) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg15) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg15 (by decide)).trans ((L02_main_arg15).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg15 (by decide)).symm)
  have L03_main_arg16 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg16) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg16) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg16 (by decide)).trans ((L02_main_arg16).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg16 (by decide)).symm)
  have L03_main_arg17 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg17) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg17) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg17 (by decide)).trans ((L02_main_arg17).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg17 (by decide)).symm)
  have L03_main_arg2 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg2) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg2) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg2 (by decide)).trans ((L02_main_arg2).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg2 (by decide)).symm)
  have L03_main_arg4 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg4) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg4) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg4 (by decide)).trans ((L02_main_arg4).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg4 (by decide)).symm)
  have L03_main_arg5 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg5) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg5) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg5 (by decide)).trans ((L02_main_arg5).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg5 (by decide)).symm)
  have L03_main_arg6 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_arg6) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_arg6) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_arg6 (by decide)).trans ((L02_main_arg6).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_arg6 (by decide)).symm)
  have L03_main_v142 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_v142) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_v142) :=
    sim03_main_v142 (StableHlo.after (Cert.KernelIdeal.Hand.kblk02 (F := F)) (StableHlo.after (Cert.KernelIdeal.Hand.kblk01 (F := F)) (StableHlo.after (Cert.KernelIdeal.Hand.kblk00 (F := F)) WK))) (StableHlo.after (Cert.ReferenceIdeal.Hand.rblk02 (F := F)) (StableHlo.after (Cert.ReferenceIdeal.Hand.rblk01 (F := F)) (StableHlo.after (Cert.ReferenceIdeal.Hand.rblk00 (F := F)) WR))) L02_main_arg1 L02_main_arg9 L02_main_v111 L02_main_v117 L02_main_v96 L02_main_v98
  have L03_main_v94 : (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) (Proc.devRef .tc Cert.ReferenceIdeal.main_v94) = (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (Proc.devRef .tc Cert.KernelIdeal.main_v94) :=
    (Cert.ReferenceIdeal.Hand.rblk03_keep (StableHlo.after (Cert.ReferenceIdeal.Hand.rblk02 (F := F)) (StableHlo.after (Cert.ReferenceIdeal.Hand.rblk01 (F := F)) (StableHlo.after (Cert.ReferenceIdeal.Hand.rblk00 (F := F)) WR))) Cert.ReferenceIdeal.main_v94 (by decide)).trans ((L02_main_v94).trans (Cert.KernelIdeal.Hand.kblk03_keep (StableHlo.after (Cert.KernelIdeal.Hand.kblk02 (F := F)) (StableHlo.after (Cert.KernelIdeal.Hand.kblk01 (F := F)) (StableHlo.after (Cert.KernelIdeal.Hand.kblk00 (F := F)) WK))) Cert.KernelIdeal.main_v94 (by decide)).symm)
  have L04_main_arg10 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg10) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg10) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg10 (by decide)).trans ((L03_main_arg10).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg10 (by decide)).symm)
  have L04_main_arg11 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg11) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg11) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg11 (by decide)).trans ((L03_main_arg11).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg11 (by decide)).symm)
  have L04_main_arg12 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg12) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg12) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg12 (by decide)).trans ((L03_main_arg12).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg12 (by decide)).symm)
  have L04_main_arg13 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg13) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg13) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg13 (by decide)).trans ((L03_main_arg13).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg13 (by decide)).symm)
  have L04_main_arg14 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg14) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg14) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg14 (by decide)).trans ((L03_main_arg14).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg14 (by decide)).symm)
  have L04_main_arg15 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg15) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg15) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg15 (by decide)).trans ((L03_main_arg15).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg15 (by decide)).symm)
  have L04_main_arg16 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg16) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg16) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg16 (by decide)).trans ((L03_main_arg16).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg16 (by decide)).symm)
  have L04_main_arg17 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg17) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg17) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg17 (by decide)).trans ((L03_main_arg17).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg17 (by decide)).symm)
  have L04_main_arg2 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg2) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg2) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg2 (by decide)).trans ((L03_main_arg2).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg2 (by decide)).symm)
  have L04_main_arg5 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg5) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg5) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg5 (by decide)).trans ((L03_main_arg5).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg5 (by decide)).symm)
  have L04_main_arg6 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_arg6) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_arg6) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_arg6 (by decide)).trans ((L03_main_arg6).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_arg6 (by decide)).symm)
  have L04_main_v142 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v142) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v142) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_v142 (by decide)).trans ((L03_main_v142).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_v142 (by decide)).symm)
  have L04_main_v144 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v144) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v144) :=
    sim04_main_v144 (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) L03_main_arg4
  have L04_main_v146 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v146) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v146) :=
    sim04_main_v146 (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) L03_main_arg4
  have L04_main_v159 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v159) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v159) :=
    sim04_main_v159 (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) L03_main_arg4
  have L04_main_v165 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v165) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v165) :=
    sim04_main_v165 (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) L03_main_arg4
  have L04_main_v94 : (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) (Proc.devRef .tc Cert.ReferenceIdeal.main_v94) = (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (Proc.devRef .tc Cert.KernelIdeal.main_v94) :=
    (Cert.ReferenceIdeal.Hand.rblk04_keep (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))) Cert.ReferenceIdeal.main_v94 (by decide)).trans ((L03_main_v94).trans (Cert.KernelIdeal.Hand.kblk04_keep (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))) Cert.KernelIdeal.main_v94 (by decide)).symm)
  have L05_main_arg11 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg11) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg11) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg11 (by decide)).trans ((L04_main_arg11).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg11 (by decide)).symm)
  have L05_main_arg12 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg12) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg12) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg12 (by decide)).trans ((L04_main_arg12).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg12 (by decide)).symm)
  have L05_main_arg13 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg13) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg13) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg13 (by decide)).trans ((L04_main_arg13).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg13 (by decide)).symm)
  have L05_main_arg14 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg14) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg14) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg14 (by decide)).trans ((L04_main_arg14).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg14 (by decide)).symm)
  have L05_main_arg15 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg15) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg15) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg15 (by decide)).trans ((L04_main_arg15).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg15 (by decide)).symm)
  have L05_main_arg16 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg16) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg16) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg16 (by decide)).trans ((L04_main_arg16).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg16 (by decide)).symm)
  have L05_main_arg17 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg17) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg17) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg17 (by decide)).trans ((L04_main_arg17).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg17 (by decide)).symm)
  have L05_main_arg2 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg2) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg2) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg2 (by decide)).trans ((L04_main_arg2).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg2 (by decide)).symm)
  have L05_main_arg5 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg5) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg5) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg5 (by decide)).trans ((L04_main_arg5).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg5 (by decide)).symm)
  have L05_main_arg6 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_arg6) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_arg6) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_arg6 (by decide)).trans ((L04_main_arg6).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_arg6 (by decide)).symm)
  have L05_main_v189 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v189) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v189) :=
    sim05_main_v189 (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) L04_main_arg10 L04_main_v142 L04_main_v144 L04_main_v146 L04_main_v159 L04_main_v165
  have L05_main_v191 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v191) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v191) :=
    sim05_main_v191 (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) L04_main_arg5
  have L05_main_v193 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v193) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v193) :=
    sim05_main_v193 (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) L04_main_arg5
  have L05_main_v206 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v206) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v206) :=
    sim05_main_v206 (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) L04_main_arg5
  have L05_main_v212 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v212) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v212) :=
    sim05_main_v212 (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) L04_main_arg5
  have L05_main_v94 : (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) (Proc.devRef .tc Cert.ReferenceIdeal.main_v94) = (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (Proc.devRef .tc Cert.KernelIdeal.main_v94) :=
    (Cert.ReferenceIdeal.Hand.rblk05_keep (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))) Cert.ReferenceIdeal.main_v94 (by decide)).trans ((L04_main_v94).trans (Cert.KernelIdeal.Hand.kblk05_keep (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))) Cert.KernelIdeal.main_v94 (by decide)).symm)
  have L06_main_arg12 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg12) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg12) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg12 (by decide)).trans ((L05_main_arg12).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg12 (by decide)).symm)
  have L06_main_arg13 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg13) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg13) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg13 (by decide)).trans ((L05_main_arg13).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg13 (by decide)).symm)
  have L06_main_arg14 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg14) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg14) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg14 (by decide)).trans ((L05_main_arg14).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg14 (by decide)).symm)
  have L06_main_arg15 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg15) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg15) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg15 (by decide)).trans ((L05_main_arg15).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg15 (by decide)).symm)
  have L06_main_arg16 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg16) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg16) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg16 (by decide)).trans ((L05_main_arg16).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg16 (by decide)).symm)
  have L06_main_arg17 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg17) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg17) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg17 (by decide)).trans ((L05_main_arg17).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg17 (by decide)).symm)
  have L06_main_arg5 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg5) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg5) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg5 (by decide)).trans ((L05_main_arg5).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg5 (by decide)).symm)
  have L06_main_arg6 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_arg6) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_arg6) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_arg6 (by decide)).trans ((L05_main_arg6).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_arg6 (by decide)).symm)
  have L06_main_v189 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_v189) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_v189) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_v189 (by decide)).trans ((L05_main_v189).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_v189 (by decide)).symm)
  have L06_main_v237 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_v237) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_v237) :=
    sim06_main_v237 (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) L05_main_arg11 L05_main_arg2 L05_main_v191 L05_main_v193 L05_main_v206 L05_main_v212
  have L06_main_v94 : (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) (Proc.devRef .tc Cert.ReferenceIdeal.main_v94) = (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (Proc.devRef .tc Cert.KernelIdeal.main_v94) :=
    (Cert.ReferenceIdeal.Hand.rblk06_keep (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))) Cert.ReferenceIdeal.main_v94 (by decide)).trans ((L05_main_v94).trans (Cert.KernelIdeal.Hand.kblk06_keep (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))) Cert.KernelIdeal.main_v94 (by decide)).symm)
  have L07_main_arg12 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg12) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg12) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg12 (by decide)).trans ((L06_main_arg12).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg12 (by decide)).symm)
  have L07_main_arg13 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg13) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg13) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg13 (by decide)).trans ((L06_main_arg13).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg13 (by decide)).symm)
  have L07_main_arg14 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg14) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg14) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg14 (by decide)).trans ((L06_main_arg14).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg14 (by decide)).symm)
  have L07_main_arg15 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg15) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg15) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg15 (by decide)).trans ((L06_main_arg15).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg15 (by decide)).symm)
  have L07_main_arg16 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg16) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg16) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg16 (by decide)).trans ((L06_main_arg16).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg16 (by decide)).symm)
  have L07_main_arg17 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg17) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg17) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg17 (by decide)).trans ((L06_main_arg17).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg17 (by decide)).symm)
  have L07_main_arg6 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_arg6) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_arg6) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_arg6 (by decide)).trans ((L06_main_arg6).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_arg6 (by decide)).symm)
  have L07_main_v189 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v189) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v189) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_v189 (by decide)).trans ((L06_main_v189).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_v189 (by decide)).symm)
  have L07_main_v237 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v237) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v237) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_v237 (by decide)).trans ((L06_main_v237).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_v237 (by decide)).symm)
  have L07_main_v239 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v239) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v239) :=
    sim07_main_v239 (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) L06_main_arg5
  have L07_main_v241 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v241) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v241) :=
    sim07_main_v241 (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) L06_main_arg5
  have L07_main_v254 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v254) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v254) :=
    sim07_main_v254 (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) L06_main_arg5
  have L07_main_v260 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v260) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v260) :=
    sim07_main_v260 (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) L06_main_arg5
  have L07_main_v94 : (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) (Proc.devRef .tc Cert.ReferenceIdeal.main_v94) = (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (Proc.devRef .tc Cert.KernelIdeal.main_v94) :=
    (Cert.ReferenceIdeal.Hand.rblk07_keep (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))) Cert.ReferenceIdeal.main_v94 (by decide)).trans ((L06_main_v94).trans (Cert.KernelIdeal.Hand.kblk07_keep (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))) Cert.KernelIdeal.main_v94 (by decide)).symm)
  have L08_main_arg16 : (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) (Proc.devRef .tc Cert.ReferenceIdeal.main_arg16) = (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (Proc.devRef .tc Cert.KernelIdeal.main_arg16) :=
    (Cert.ReferenceIdeal.Hand.rblk08_keep (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) Cert.ReferenceIdeal.main_arg16 (by decide)).trans ((L07_main_arg16).trans (Cert.KernelIdeal.Hand.kblk08_keep (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) Cert.KernelIdeal.main_arg16 (by decide)).symm)
  have L08_main_arg17 : (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) (Proc.devRef .tc Cert.ReferenceIdeal.main_arg17) = (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (Proc.devRef .tc Cert.KernelIdeal.main_arg17) :=
    (Cert.ReferenceIdeal.Hand.rblk08_keep (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) Cert.ReferenceIdeal.main_arg17 (by decide)).trans ((L07_main_arg17).trans (Cert.KernelIdeal.Hand.kblk08_keep (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) Cert.KernelIdeal.main_arg17 (by decide)).symm)
  have L08_main_arg6 : (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) (Proc.devRef .tc Cert.ReferenceIdeal.main_arg6) = (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (Proc.devRef .tc Cert.KernelIdeal.main_arg6) :=
    (Cert.ReferenceIdeal.Hand.rblk08_keep (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) Cert.ReferenceIdeal.main_arg6 (by decide)).trans ((L07_main_arg6).trans (Cert.KernelIdeal.Hand.kblk08_keep (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) Cert.KernelIdeal.main_arg6 (by decide)).symm)
  have L08_main_v301 : (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) (Proc.devRef .tc Cert.ReferenceIdeal.main_v301) = (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (Proc.devRef .tc Cert.KernelIdeal.main_v301) :=
    sim08_main_v301 (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))) L07_main_arg12 L07_main_arg13 L07_main_arg14 L07_main_arg15 L07_main_v189 L07_main_v237 L07_main_v239 L07_main_v241 L07_main_v254 L07_main_v260 L07_main_v94
  have L09_main_arg16 : (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) (Proc.devRef .tc Cert.ReferenceIdeal.main_arg16) = (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (Proc.devRef .tc Cert.KernelIdeal.main_arg16) :=
    (Cert.ReferenceIdeal.Hand.rblk09_keep (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) Cert.ReferenceIdeal.main_arg16 (by decide)).trans ((L08_main_arg16).trans (Cert.KernelIdeal.Hand.kblk09_keep (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) Cert.KernelIdeal.main_arg16 (by decide)).symm)
  have L09_main_arg17 : (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) (Proc.devRef .tc Cert.ReferenceIdeal.main_arg17) = (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (Proc.devRef .tc Cert.KernelIdeal.main_arg17) :=
    (Cert.ReferenceIdeal.Hand.rblk09_keep (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) Cert.ReferenceIdeal.main_arg17 (by decide)).trans ((L08_main_arg17).trans (Cert.KernelIdeal.Hand.kblk09_keep (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) Cert.KernelIdeal.main_arg17 (by decide)).symm)
  have L09_main_v301 : (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) (Proc.devRef .tc Cert.ReferenceIdeal.main_v301) = (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (Proc.devRef .tc Cert.KernelIdeal.main_v301) :=
    (Cert.ReferenceIdeal.Hand.rblk09_keep (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) Cert.ReferenceIdeal.main_v301 (by decide)).trans ((L08_main_v301).trans (Cert.KernelIdeal.Hand.kblk09_keep (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) Cert.KernelIdeal.main_v301 (by decide)).symm)
  have L09_main_v305 : (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) (Proc.devRef .tc Cert.ReferenceIdeal.main_v305) = (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (Proc.devRef .tc Cert.KernelIdeal.main_v305) :=
    sim09_main_v305 (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) L08_main_arg6
  have L09_main_v308 : (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) (Proc.devRef .tc Cert.ReferenceIdeal.main_v308) = (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (Proc.devRef .tc Cert.KernelIdeal.main_v308) :=
    sim09_main_v308 (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))) L08_main_arg6
  have L10_main_arg16 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_arg16) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_arg16) :=
    (Cert.ReferenceIdeal.Hand.rblk10_keep (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) Cert.ReferenceIdeal.main_arg16 (by decide)).trans ((L09_main_arg16).trans (Cert.KernelIdeal.Hand.kblk10_keep (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) Cert.KernelIdeal.main_arg16 (by decide)).symm)
  have L10_main_arg17 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_arg17) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_arg17) :=
    (Cert.ReferenceIdeal.Hand.rblk10_keep (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) Cert.ReferenceIdeal.main_arg17 (by decide)).trans ((L09_main_arg17).trans (Cert.KernelIdeal.Hand.kblk10_keep (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) Cert.KernelIdeal.main_arg17 (by decide)).symm)
  have L10_main_v301 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_v301) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_v301) :=
    (Cert.ReferenceIdeal.Hand.rblk10_keep (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) Cert.ReferenceIdeal.main_v301 (by decide)).trans ((L09_main_v301).trans (Cert.KernelIdeal.Hand.kblk10_keep (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) Cert.KernelIdeal.main_v301 (by decide)).symm)
  have L10_main_v305 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_v305) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_v305) :=
    (Cert.ReferenceIdeal.Hand.rblk10_keep (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) Cert.ReferenceIdeal.main_v305 (by decide)).trans ((L09_main_v305).trans (Cert.KernelIdeal.Hand.kblk10_keep (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) Cert.KernelIdeal.main_v305 (by decide)).symm)
  have L10_main_v308 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_v308) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_v308) :=
    (Cert.ReferenceIdeal.Hand.rblk10_keep (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) Cert.ReferenceIdeal.main_v308 (by decide)).trans ((L09_main_v308).trans (Cert.KernelIdeal.Hand.kblk10_keep (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) Cert.KernelIdeal.main_v308 (by decide)).symm)
  have L10_main_v321 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_v321) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_v321) :=
    sim10_main_v321 (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) L09_main_v305
  have L10_main_v327 : (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) (Proc.devRef .tc Cert.ReferenceIdeal.main_v327) = (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (Proc.devRef .tc Cert.KernelIdeal.main_v327) :=
    sim10_main_v327 (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))) L09_main_v308
  have L11_main_arg17 : (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) (Proc.devRef .tc Cert.ReferenceIdeal.main_arg17) = (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (Proc.devRef .tc Cert.KernelIdeal.main_arg17) :=
    (Cert.ReferenceIdeal.Hand.rblk11_keep (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) Cert.ReferenceIdeal.main_arg17 (by decide)).trans ((L10_main_arg17).trans (Cert.KernelIdeal.Hand.kblk11_keep (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) Cert.KernelIdeal.main_arg17 (by decide)).symm)
  have L11_main_v305 : (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) (Proc.devRef .tc Cert.ReferenceIdeal.main_v305) = (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (Proc.devRef .tc Cert.KernelIdeal.main_v305) :=
    (Cert.ReferenceIdeal.Hand.rblk11_keep (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) Cert.ReferenceIdeal.main_v305 (by decide)).trans ((L10_main_v305).trans (Cert.KernelIdeal.Hand.kblk11_keep (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) Cert.KernelIdeal.main_v305 (by decide)).symm)
  have L11_main_v308 : (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) (Proc.devRef .tc Cert.ReferenceIdeal.main_v308) = (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (Proc.devRef .tc Cert.KernelIdeal.main_v308) :=
    (Cert.ReferenceIdeal.Hand.rblk11_keep (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) Cert.ReferenceIdeal.main_v308 (by decide)).trans ((L10_main_v308).trans (Cert.KernelIdeal.Hand.kblk11_keep (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) Cert.KernelIdeal.main_v308 (by decide)).symm)
  have L11_main_v352 : (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) (Proc.devRef .tc Cert.ReferenceIdeal.main_v352) = (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (Proc.devRef .tc Cert.KernelIdeal.main_v352) :=
    sim11_main_v352 (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))) L10_main_arg16 L10_main_v301 L10_main_v305 L10_main_v308 L10_main_v321 L10_main_v327
  have L12_main_arg17 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_arg17) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_arg17) :=
    (Cert.ReferenceIdeal.Hand.rblk12_keep (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) Cert.ReferenceIdeal.main_arg17 (by decide)).trans ((L11_main_arg17).trans (Cert.KernelIdeal.Hand.kblk12_keep (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) Cert.KernelIdeal.main_arg17 (by decide)).symm)
  have L12_main_v305 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v305) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v305) :=
    (Cert.ReferenceIdeal.Hand.rblk12_keep (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) Cert.ReferenceIdeal.main_v305 (by decide)).trans ((L11_main_v305).trans (Cert.KernelIdeal.Hand.kblk12_keep (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) Cert.KernelIdeal.main_v305 (by decide)).symm)
  have L12_main_v308 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v308) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v308) :=
    (Cert.ReferenceIdeal.Hand.rblk12_keep (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) Cert.ReferenceIdeal.main_v308 (by decide)).trans ((L11_main_v308).trans (Cert.KernelIdeal.Hand.kblk12_keep (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) Cert.KernelIdeal.main_v308 (by decide)).symm)
  have L12_main_v352 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v352) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v352) :=
    (Cert.ReferenceIdeal.Hand.rblk12_keep (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) Cert.ReferenceIdeal.main_v352 (by decide)).trans ((L11_main_v352).trans (Cert.KernelIdeal.Hand.kblk12_keep (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) Cert.KernelIdeal.main_v352 (by decide)).symm)
  have L12_main_v365 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v365) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v365) :=
    sim12_main_v365 (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) L11_main_v305
  have L12_main_v371 : (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) (Proc.devRef .tc Cert.ReferenceIdeal.main_v371) = (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (Proc.devRef .tc Cert.KernelIdeal.main_v371) :=
    sim12_main_v371 (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))) L11_main_v308
  have L13_main_v395 : (StableHlo.after (Cert.ReferenceIdeal.Hand.rblk13 (F := F)) (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR)))))))))))))) (Proc.devRef .tc Cert.ReferenceIdeal.main_v395) = (StableHlo.after (Cert.KernelIdeal.Hand.kblk13 (F := F)) (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK)))))))))))))) (Proc.devRef .tc Cert.KernelIdeal.main_v395) :=
    sim13_main_v395 (StableHlo.after (Cert.KernelIdeal.Hand.kblk12 (F := F)) (StableHlo.after (Cert.KernelIdeal.Hand.kblk11 (F := F)) (StableHlo.after (Cert.KernelIdeal.Hand.kblk10 (F := F)) (StableHlo.after (Cert.KernelIdeal.Hand.kblk09 (F := F)) (StableHlo.after (Cert.KernelIdeal.Hand.kblk08 (F := F)) (StableHlo.after (Cert.KernelIdeal.Hand.kblk07 (F := F)) (StableHlo.after (Cert.KernelIdeal.Hand.kblk06 (F := F)) (StableHlo.after (Cert.KernelIdeal.Hand.kblk05 (F := F)) (StableHlo.after (Cert.KernelIdeal.Hand.kblk04 (F := F)) (StableHlo.after (Cert.KernelIdeal.Hand.kblk03 (F := F)) (StableHlo.after (Cert.KernelIdeal.Hand.kblk02 (F := F)) (StableHlo.after (Cert.KernelIdeal.Hand.kblk01 (F := F)) (StableHlo.after (Cert.KernelIdeal.Hand.kblk00 (F := F)) WK))))))))))))) (StableHlo.after (Cert.ReferenceIdeal.Hand.rblk12 (F := F)) (StableHlo.after (Cert.ReferenceIdeal.Hand.rblk11 (F := F)) (StableHlo.after (Cert.ReferenceIdeal.Hand.rblk10 (F := F)) (StableHlo.after (Cert.ReferenceIdeal.Hand.rblk09 (F := F)) (StableHlo.after (Cert.ReferenceIdeal.Hand.rblk08 (F := F)) (StableHlo.after (Cert.ReferenceIdeal.Hand.rblk07 (F := F)) (StableHlo.after (Cert.ReferenceIdeal.Hand.rblk06 (F := F)) (StableHlo.after (Cert.ReferenceIdeal.Hand.rblk05 (F := F)) (StableHlo.after (Cert.ReferenceIdeal.Hand.rblk04 (F := F)) (StableHlo.after (Cert.ReferenceIdeal.Hand.rblk03 (F := F)) (StableHlo.after (Cert.ReferenceIdeal.Hand.rblk02 (F := F)) (StableHlo.after (Cert.ReferenceIdeal.Hand.rblk01 (F := F)) (StableHlo.after (Cert.ReferenceIdeal.Hand.rblk00 (F := F)) WR))))))))))))) L12_main_arg17 L12_main_v305 L12_main_v308 L12_main_v352 L12_main_v365 L12_main_v371
  exact L13_main_v395

end Cert.Sim

end
-- ==== Proof.lean ====
/-
  The certificate of the inner-product decoder.  Both programs compute the node embeddings by the same host
  operations (three stacks of two graph-convolution layers, the softmax that fuses them, two more layers on the graph
  with self loops); the reference then multiplies the 10000 × 10 embeddings with their transpose on the host, while the
  kernel pads them to 10240 rows, computes the 10240 × 10240 product tile by tile on a 5 × 10 grid — each tile the
  product of a 2048-row block with a 1024-row block of the SAME padded array, the operands rounded to bf16 — and slices
  the result back to 10000 × 10000.  Over the extended reals rounding is the identity and the product of two blocks is
  the exact sum over the ten columns, so entry (p, q) of either result is the sum over k of x[p, k] · x[q, k], x the
  embeddings: the padded rows are never read by the slice.  The embeddings themselves are equal because the two host
  prefixes are the same operations, compared block by block.  Each frame is the program's run with its results
  forgotten; nothing is rewritten by the idealization.
-/
import proofs.«176114_j39599598469276_1_alg».proof.Defs
import proofs.«176114_j39599598469276_1_alg».proof.Proof.Gen.Kernel
import proofs.«176114_j39599598469276_1_alg».proof.Proof.Gen.KernelIdeal
import proofs.«176114_j39599598469276_1_alg».proof.Proof.Gen.ReferenceIdeal
import proofs.«176114_j39599598469276_1_alg».proof.Proof.Gen.Pre_finite_inputs
import proofs.«176114_j39599598469276_1_alg».proof.Proof.BRun
import proofs.«176114_j39599598469276_1_alg».proof.Proof.KRun
import proofs.«176114_j39599598469276_1_alg».proof.Proof.KValue
import proofs.«176114_j39599598469276_1_alg».proof.Proof.RRun
import proofs.«176114_j39599598469276_1_alg».proof.Proof.RValue
import proofs.«176114_j39599598469276_1_alg».proof.Proof.SimChain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- And the reference. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.Hand.frame m ρ

/-- From memories that agree on the arguments, the two programs compute the same node embeddings. -/
theorem embeddings_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (c : Dev Cert.KernelIdeal.nD) :
    Cert.ReferenceIdeal.Hand.embeddings (F := Ideal) m' c = Cert.KernelIdeal.Hand.V m c Cert.KernelIdeal.main_v395 := by
  show _ = Cert.KernelIdeal.Hand.V0 m c (Proc.devRef .tc Cert.KernelIdeal.main_v395)
  rw [Cert.KernelIdeal.Hand.V_embeddings]
  simp only [Cert.ReferenceIdeal.Hand.embeddings, Cert.ReferenceIdeal.Hand.opsPrefix, Cert.KernelIdeal.Hand.kPrefix, StableHlo.after_append]
  exact Cert.Sim.prefix_agree (F := Ideal) _ _
    (h_main_arg0 := (hagree c).1) (h_main_arg1 := (hagree c).2.1) (h_main_arg2 := (hagree c).2.2.1) (h_main_arg3 := (hagree c).2.2.2.1) (h_main_arg4 := (hagree c).2.2.2.2.1) (h_main_arg5 := (hagree c).2.2.2.2.2.1) (h_main_arg6 := (hagree c).2.2.2.2.2.2.1) (h_main_arg7 := (hagree c).2.2.2.2.2.2.2.1) (h_main_arg8 := (hagree c).2.2.2.2.2.2.2.2.1) (h_main_arg9 := (hagree c).2.2.2.2.2.2.2.2.2.1) (h_main_arg10 := (hagree c).2.2.2.2.2.2.2.2.2.2.1) (h_main_arg11 := (hagree c).2.2.2.2.2.2.2.2.2.2.2.1) (h_main_arg12 := (hagree c).2.2.2.2.2.2.2.2.2.2.2.2.1) (h_main_arg13 := (hagree c).2.2.2.2.2.2.2.2.2.2.2.2.2.1) (h_main_arg14 := (hagree c).2.2.2.2.2.2.2.2.2.2.2.2.2.2.1) (h_main_arg15 := (hagree c).2.2.2.2.2.2.2.2.2.2.2.2.2.2.2.1) (h_main_arg16 := (hagree c).2.2.2.2.2.2.2.2.2.2.2.2.2.2.2.2.1) (h_main_arg17 := (hagree c).2.2.2.2.2.2.2.2.2.2.2.2.2.2.2.2.2)

/-- At the ideal instance the two programs end with equal results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  have hX := embeddings_agree m m' hagree
  refine ⟨_, _, Cert.KernelIdeal.Hand.run_named m ρ, ?_⟩
  refine (θ_run Cert.ReferenceIdeal.defs _ _).mono (fun _ h c => ⟨?_, ((h c).2.1).trans (hX c), (h c).2.2⟩)
    (Cert.ReferenceIdeal.Hand.run_named (F := Ideal) m' ρ')
  rw [(h c).1, hX c]
  funext i
  obtain ⟨p, q, rfl⟩ : ∃ (p q : Fin 10000), i = ValueIdx.ix2 p q := ⟨i 0, i 1, ValueIdx.eq_ix2 i⟩
  refine (Cert.ReferenceIdeal.Hand.gram_apply _ p q).trans ?_
  exact (Cert.KernelIdeal.Hand.gram_out m c p q (Cert.KernelIdeal.Hand.V_padded m c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
